-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S8x2048x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x65536x32 : Shape := ⟨3, ![16, 65536, 32]⟩
abbrev S16x65536 : Shape := ⟨2, ![16, 65536]⟩
abbrev S_ : Shape := ⟨0, ![]⟩

class Facts : Prop where
  bcast_S_S16x65536x32 : S_.BroadcastsInDim S16x65536x32 (![] : Fin 0 → Fin S16x65536x32.rank)
  reducesTo_S16x65536x32_S_d0_1_2 : S16x65536x32.ReducesTo [0, 1, 2] S_
  h_S_ : 0 < S_.numel
  bcast_S_S16x65536 : S_.BroadcastsInDim S16x65536 (![] : Fin 0 → Fin S16x65536.rank)
  reducesTo_S16x65536_S_d0_1 : S16x65536.ReducesTo [0, 1] S_

variable [Facts]

def fn {F : FTy → Type} [FloatOps F] (main_arg0 : FVec F S16x65536x32 .f32) (main_arg1 : IVec S16x65536 32) (main_arg2 : IVec S16x65536 1) : IVec S_ 1 :=
  let main_v0 : FVec F S16x65536x32 .f32 := Host.absf main_arg0
  let main_cst : FVec F S_ .f32 := constant S_ .f32 0x7F800000#32
  let main_v1 : FVec F S16x65536x32 .f32 := broadcastInDim S16x65536x32 ![] bcast_S_S16x65536x32 main_cst
  let main_v2 : IVec S16x65536x32 1 := cmpf .olt main_v0 main_v1
  let main_c : IVec S_ 1 := constantI S_ 1 1#1
  let main_v3 : IVec S_ 1 := (fun x v => Host.reduce IntOp.andi x v reducesTo_S16x65536x32_S_d0_1_2 h_S_) main_v2 main_c
  let main_c_0 : IVec S_ 32 := constantI S_ 32 64#32
  let main_v4 : IVec S16x65536 32 := broadcastInDim S16x65536 ![] bcast_S_S16x65536 main_c_0
  let main_v5 : IVec S16x65536 1 := cmpi .slt main_arg1 main_v4
  let main_c_1 : IVec S_ 1 := constantI S_ 1 1#1
  let main_v6 : IVec S_ 1 := (fun x v => Host.reduce IntOp.andi x v reducesTo_S16x65536_S_d0_1 h_S_) main_v5 main_c_1
  let main_v7 : IVec S_ 1 := andi main_v3 main_v6
  main_v7
-- ==== Kernel.lean ====
abbrev S16x65536x32 : Shape := ⟨3, ![16, 65536, 32]⟩
abbrev S16x65536 : Shape := ⟨2, ![16, 65536]⟩
abbrev S16x64x32 : Shape := ⟨3, ![16, 64, 32]⟩
abbrev S16x64 : Shape := ⟨2, ![16, 64]⟩
abbrev S8x2048x32 : Shape := ⟨3, ![8, 2048, 32]⟩
abbrev S8x2048 : Shape := ⟨2, ![8, 2048]⟩
abbrev S8x64x32 : Shape := ⟨3, ![8, 64, 32]⟩
abbrev S8x64 : Shape := ⟨2, ![8, 64]⟩
abbrev S8x2048x64 : Shape := ⟨3, ![8, 2048, 64]⟩
abbrev S8x2048x1 : Shape := ⟨3, ![8, 2048, 1]⟩
abbrev S_ : Shape := ⟨0, ![]⟩
abbrev S16x64x1 : Shape := ⟨3, ![16, 64, 1]⟩
abbrev S16 : Shape := ⟨1, ![16]⟩
abbrev S8x1024x32 : Shape := ⟨3, ![8, 1024, 32]⟩
abbrev S8x1024 : Shape := ⟨2, ![8, 1024]⟩
abbrev S8x1024x64 : Shape := ⟨3, ![8, 1024, 64]⟩
abbrev S8x1024x1 : Shape := ⟨3, ![8, 1024, 1]⟩
abbrev S16x64x1x32 : Shape := ⟨4, ![16, 64, 1, 32]⟩
abbrev S16x1x64x32 : Shape := ⟨4, ![16, 1, 64, 32]⟩
abbrev S16x64x64x32 : Shape := ⟨4, ![16, 64, 64, 32]⟩
abbrev S16x64x64 : Shape := ⟨3, ![16, 64, 64]⟩
abbrev S64 : Shape := ⟨1, ![64]⟩
abbrev S16x1x64 : Shape := ⟨3, ![16, 1, 64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S1 : Shape := ⟨1, ![1]⟩
abbrev S4 : Shape := ⟨1, ![4]⟩

abbrev nBuf : Space → Nat
  | .hbm => 145
  | .vmem => 20
  | .smem => 0
  | _ => 0

abbrev hbmTy0_0 (i : Nat) : BufTy := match i % 128 with
  | 0 => ⟨S16x65536x32, .f32⟩
  | 1 => ⟨S16x65536, .i32⟩
  | 2 => ⟨S16x65536, .i1⟩
  | 3 => ⟨S16x65536, .i32⟩
  | 4 => ⟨S16x64x32, .f32⟩
  | 5 => ⟨S16x64, .f32⟩
  | 6 => ⟨S_, .f32⟩
  | 7 => ⟨S16x64, .f32⟩
  | 8 => ⟨S16x64, .f32⟩
  | 9 => ⟨S16x64x1, .f32⟩
  | 10 => ⟨S16x64x32, .f32⟩
  | 11 => ⟨S16x64x32, .f32⟩
  | 12 => ⟨S_, .f32⟩
  | 13 => ⟨S16x64, .f32⟩
  | 14 => ⟨S16x64, .i1⟩
  | 15 => ⟨S16x64, .i32⟩
  | 16 => ⟨S_, .i32⟩
  | 17 => ⟨S16, .i32⟩
  | 18 => ⟨S16, .f32⟩
  | 19 => ⟨S_, .f32⟩
  | 20 => ⟨S16, .f32⟩
  | 21 => ⟨S16, .i1⟩
  | 22 => ⟨S16, .f32⟩
  | 23 => ⟨S16x64, .f32⟩
  | 24 => ⟨S_, .f32⟩
  | 25 => ⟨S16x64, .f32⟩
  | 26 => ⟨S16x64, .f32⟩
  | 27 => ⟨S16x64, .f32⟩
  | 28 => ⟨S16x64, .f32⟩
  | 29 => ⟨S16x64, .f32⟩
  | 30 => ⟨S_, .f32⟩
  | 31 => ⟨S16, .f32⟩
  | 32 => ⟨S_, .f32⟩
  | 33 => ⟨S16, .f32⟩
  | 34 => ⟨S16, .f32⟩
  | 35 => ⟨S16, .f32⟩
  | 36 => ⟨S16x64x1x32, .f32⟩
  | 37 => ⟨S16x1x64x32, .f32⟩
  | 38 => ⟨S16x64x64x32, .f32⟩
  | 39 => ⟨S16x64x64x32, .f32⟩
  | 40 => ⟨S16x64x64x32, .f32⟩
  | 41 => ⟨S16x64x64x32, .f32⟩
  | 42 => ⟨S_, .f32⟩
  | 43 => ⟨S16x64x64, .f32⟩
  | 44 => ⟨S64, .i32⟩
  | 45 => ⟨S16x64x1, .i1⟩
  | 46 => ⟨S16x1x64, .i1⟩
  | 47 => ⟨S16x64x64, .i1⟩
  | 48 => ⟨S16x64x64, .i1⟩
  | 49 => ⟨S16x64x64, .i1⟩
  | 50 => ⟨S64x1, .i32⟩
  | 51 => ⟨S1x64, .i32⟩
  | 52 => ⟨S64x64, .i32⟩
  | 53 => ⟨S64x64, .i32⟩
  | 54 => ⟨S64x64, .i1⟩
  | 55 => ⟨S1x64x64, .i1⟩
  | 56 => ⟨S16x64x64, .i1⟩
  | 57 => ⟨S16x64x64, .i1⟩
  | 58 => ⟨S16x64x64, .f32⟩
  | 59 => ⟨S_, .f32⟩
  | 60 => ⟨S_, .f32⟩
  | 61 => ⟨S16x64x64, .f32⟩
  | 62 => ⟨S16x64x64, .f32⟩
  | 63 => ⟨S_, .f32⟩
  | 64 => ⟨S16x64x64, .f32⟩
  | 65 => ⟨S16x64x64, .i1⟩
  | 66 => ⟨S_, .f32⟩
  | 67 => ⟨S_, .f32⟩
  | 68 => ⟨S16x64x64, .f32⟩
  | 69 => ⟨S16x64x64, .f32⟩
  | 70 => ⟨S16x64x64, .f32⟩
  | 71 => ⟨S16x64x64, .f32⟩
  | 72 => ⟨S16x64x64, .f32⟩
  | 73 => ⟨S16x64x64, .f32⟩
  | 74 => ⟨S_, .f32⟩
  | 75 => ⟨S16x64x64, .f32⟩
  | 76 => ⟨S16x64x64, .f32⟩
  | 77 => ⟨S_, .f32⟩
  | 78 => ⟨S16x64x64, .f32⟩
  | 79 => ⟨S16x64x64, .f32⟩
  | 80 => ⟨S16x64x64, .f32⟩
  | 81 => ⟨S16x64x64, .f32⟩
  | 82 => ⟨S_, .f32⟩
  | 83 => ⟨S16, .f32⟩
  | 84 => ⟨S16, .f32⟩
  | 85 => ⟨S16, .f32⟩
  | 86 => ⟨S_, .f32⟩
  | 87 => ⟨S16, .f32⟩
  | 88 => ⟨S16, .f32⟩
  | 89 => ⟨S_, .f32⟩
  | 90 => ⟨S16, .f32⟩
  | 91 => ⟨S_, .f32⟩
  | 92 => ⟨S16, .f32⟩
  | 93 => ⟨S16, .f32⟩
  | 94 => ⟨S16, .f32⟩
  | 95 => ⟨S16x64x32, .f32⟩
  | 96 => ⟨S_, .f32⟩
  | 97 => ⟨S16x64, .f32⟩
  | 98 => ⟨S_, .f32⟩
  | 99 => ⟨S16x64, .f32⟩
  | 100 => ⟨S16x64, .i1⟩
  | 101 => ⟨S_, .f32⟩
  | 102 => ⟨S_, .f32⟩
  | 103 => ⟨S16x64, .f32⟩
  | 104 => ⟨S16x64, .f32⟩
  | 105 => ⟨S16x64, .f32⟩
  | 106 => ⟨S16x64, .f32⟩
  | 107 => ⟨S16x64, .f32⟩
  | 108 => ⟨S16x64, .f32⟩
  | 109 => ⟨S16x64, .f32⟩
  | 110 => ⟨S_, .f32⟩
  | 111 => ⟨S16, .f32⟩
  | 112 => ⟨S_, .f32⟩
  | 113 => ⟨S16, .f32⟩
  | 114 => ⟨S16, .f32⟩
  | 115 => ⟨S16, .f32⟩
  | 116 => ⟨S_, .f32⟩
  | 117 => ⟨S_, .f32⟩
  | 118 => ⟨S_, .f32⟩
  | 119 => ⟨S_, .f32⟩
  | 120 => ⟨S16, .f32⟩
  | 121 => ⟨S_, .f32⟩
  | 122 => ⟨S_, .f32⟩
  | 123 => ⟨S_, .f32⟩
  | 124 => ⟨S16, .f32⟩
  | 125 => ⟨S_, .f32⟩
  | 126 => ⟨S_, .f32⟩
  | 127 => ⟨S_, .f32⟩
  | _ => ⟨S16x65536x32, .f32⟩

abbrev hbmTy0_1 (i : Nat) : BufTy := match i % 128 with
  | 0 => ⟨S16, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S1, .f32⟩
  | 13 => ⟨S1, .f32⟩
  | 14 => ⟨S1, .f32⟩
  | 15 => ⟨S1, .f32⟩
  | 16 => ⟨S4, .f32⟩
  | _ => ⟨S16x65536x32, .f32⟩

abbrev hbmTy (i : Nat) : BufTy := match i / 128 with
  | 0 => hbmTy0_0 i
  | 1 => hbmTy0_1 i
  | _ => ⟨S16x65536x32, .f32⟩

abbrev bufTy : (tb : Table) → Fin (tcTables nBuf tb) → BufTy
  | .hbm, ⟨i, _⟩ => hbmTy i
  | .local _ .vmem, ⟨0, _⟩ => ⟨S8x2048x32, .f32⟩
  | .local _ .vmem, ⟨1, _⟩ => ⟨S8x2048x32, .f32⟩
  | .local _ .vmem, ⟨2, _⟩ => ⟨S8x2048, .i32⟩
  | .local _ .vmem, ⟨3, _⟩ => ⟨S8x2048, .i32⟩
  | .local _ .vmem, ⟨4, _⟩ => ⟨S8x2048, .i32⟩
  | .local _ .vmem, ⟨5, _⟩ => ⟨S8x2048, .i32⟩
  | .local _ .vmem, ⟨6, _⟩ => ⟨S8x64x32, .f32⟩
  | .local _ .vmem, ⟨7, _⟩ => ⟨S8x64x32, .f32⟩
  | .local _ .vmem, ⟨8, _⟩ => ⟨S8x64, .f32⟩
  | .local _ .vmem, ⟨9, _⟩ => ⟨S8x64, .f32⟩
  | .local _ .vmem, ⟨10, _⟩ => ⟨S8x1024x32, .f32⟩
  | .local _ .vmem, ⟨11, _⟩ => ⟨S8x1024x32, .f32⟩
  | .local _ .vmem, ⟨12, _⟩ => ⟨S8x1024, .i32⟩
  | .local _ .vmem, ⟨13, _⟩ => ⟨S8x1024, .i32⟩
  | .local _ .vmem, ⟨14, _⟩ => ⟨S8x1024, .i32⟩
  | .local _ .vmem, ⟨15, _⟩ => ⟨S8x1024, .i32⟩
  | .local _ .vmem, ⟨16, _⟩ => ⟨S8x64x32, .f32⟩
  | .local _ .vmem, ⟨17, _⟩ => ⟨S8x64x32, .f32⟩
  | .local _ .vmem, ⟨18, _⟩ => ⟨S8x64, .f32⟩
  | .local _ .vmem, ⟨19, _⟩ => ⟨S8x64, .f32⟩
  | _, _ => ⟨S16x65536x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_call0_v0 : Ref sig .tc := ⟨.hbm, 60, rfl⟩
abbrev main_call0_v1 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_call1_v0 : Ref sig .tc := ⟨.hbm, 67, rfl⟩
abbrev main_call1_v1 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_cst_16 : Ref sig .tc := ⟨.hbm, 98, rfl⟩
abbrev main_v72 : Ref sig .tc := ⟨.hbm, 99, rfl⟩
abbrev main_v73 : Ref sig .tc := ⟨.hbm, 100, rfl⟩
abbrev main_cst_17 : Ref sig .tc := ⟨.hbm, 101, rfl⟩
abbrev main_call2_v0 : Ref sig .tc := ⟨.hbm, 102, rfl⟩
abbrev main_call2_v1 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_18 : Ref sig .tc := ⟨.hbm, 110, rfl⟩
abbrev main_v80 : Ref sig .tc := ⟨.hbm, 111, rfl⟩
abbrev main_cst_19 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_20 : Ref sig .tc := ⟨.hbm, 116, rfl⟩
abbrev main_v84 : Ref sig .tc := ⟨.hbm, 117, rfl⟩
abbrev main_cst_21 : Ref sig .tc := ⟨.hbm, 118, rfl⟩
abbrev main_v85 : Ref sig .tc := ⟨.hbm, 119, rfl⟩
abbrev main_v86 : Ref sig .tc := ⟨.hbm, 120, rfl⟩
abbrev main_cst_22 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_23 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_24 : Ref sig .tc := ⟨.hbm, 129, rfl⟩
abbrev main_v93 : Ref sig .tc := ⟨.hbm, 130, rfl⟩
abbrev main_v94 : Ref sig .tc := ⟨.hbm, 131, rfl⟩
abbrev main_cst_25 : Ref sig .tc := ⟨.hbm, 132, rfl⟩
abbrev main_v95 : Ref sig .tc := ⟨.hbm, 133, rfl⟩
abbrev main_cst_26 : Ref sig .tc := ⟨.hbm, 134, rfl⟩
abbrev main_v96 : Ref sig .tc := ⟨.hbm, 135, rfl⟩
abbrev main_v97 : Ref sig .tc := ⟨.hbm, 136, rfl⟩
abbrev main_cst_27 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 64], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x1024x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x64x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S8x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  natLt_1_32 : 1 < 32
  inb_S8x64x32_S8x64x32_0_0_0 : ∀ a, (![0, 0, 0] : Fin 3 → Nat) a + S8x64x32.size a ≤ S8x64x32.size a
  h_S8x64x32 : 0 < S8x64x32.numel
  inb_S8x64_S8x64_0_0 : ∀ a, (![0, 0] : Fin 2 → Nat) a + S8x64.size a ≤ S8x64.size a
  h_S8x64 : 0 < S8x64.numel
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  iota_S8x2048x64_d2_w32 : S8x2048x64.Iotas .tc 32 [2]
  shapeCasts_S8x2048_S8x2048x1 : S8x2048.ShapeCasts S8x2048x1
  broadcasts_S8x2048x1_S8x2048x64 : S8x2048x1.Broadcasts S8x2048x64
  bitsLt_bf16_f32 : FTy.bits .bf16 < FTy.bits .f32
  inb_S8x2048x32_S8x2048x32_0_0_0 : ∀ a, (![0, 0, 0] : Fin 3 → Nat) a + S8x2048x32.size a ≤ S8x2048x32.size a
  h_S8x2048x32 : 0 < S8x2048x32.numel
  reduces_S8x2048x64_S8x64 : S8x2048x64.Reduces [1] S8x64
  shapeCasts_S8x64x32_S8x64x32 : S8x64x32.ShapeCasts S8x64x32
  shapeCasts_S8x64_S8x64 : S8x64.ShapeCasts S8x64
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  bcast_S16x64x1_S16x64x32_0_1_2 : S16x64x1.BroadcastsInDim S16x64x32 (![0, 1, 2] : Fin 3 → Fin S16x64x32.rank)
  reducesTo_S16x64_S16_d1 : S16x64.ReducesTo [1] S16
  h_S_ : 0 < S_.numel
  bcast_S_S16 : S_.BroadcastsInDim S16 (![] : Fin 0 → Fin S16.rank)
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  iota_S8x1024x64_d2_w32 : S8x1024x64.Iotas .tc 32 [2]
  shapeCasts_S8x1024_S8x1024x1 : S8x1024.ShapeCasts S8x1024x1
  broadcasts_S8x1024x1_S8x1024x64 : S8x1024x1.Broadcasts S8x1024x64
  inb_S8x1024x32_S8x1024x32_0_0_0 : ∀ a, (![0, 0, 0] : Fin 3 → Nat) a + S8x1024x32.size a ≤ S8x1024x32.size a
  h_S8x1024x32 : 0 < S8x1024x32.numel
  reduces_S8x1024x32_S8x1024 : S8x1024x32.Reduces [2] S8x1024
  reduces_S8x1024x64_S8x64 : S8x1024x64.Reduces [1] S8x64
  bcast_S16x64x32_S16x64x1x32_0_1_3 : S16x64x32.BroadcastsInDim S16x64x1x32 (![0, 1, 3] : Fin 3 → Fin S16x64x1x32.rank)
  bcast_S16x64x32_S16x1x64x32_0_2_3 : S16x64x32.BroadcastsInDim S16x1x64x32 (![0, 2, 3] : Fin 3 → Fin S16x1x64x32.rank)
  bcast_S16x64x1x32_S16x64x64x32_0_1_2_3 : S16x64x1x32.BroadcastsInDim S16x64x64x32 (![0, 1, 2, 3] : Fin 4 → Fin S16x64x64x32.rank)
  bcast_S16x1x64x32_S16x64x64x32_0_1_2_3 : S16x1x64x32.BroadcastsInDim S16x64x64x32 (![0, 1, 2, 3] : Fin 4 → Fin S16x64x64x32.rank)
  reducesTo_S16x64x64x32_S16x64x64_d3 : S16x64x64x32.ReducesTo [3] S16x64x64
  bcast_S16x64_S16x1x64_0_2 : S16x64.BroadcastsInDim S16x1x64 (![0, 2] : Fin 2 → Fin S16x1x64.rank)
  bcast_S16x64x1_S16x64x64_0_1_2 : S16x64x1.BroadcastsInDim S16x64x64 (![0, 1, 2] : Fin 3 → Fin S16x64x64.rank)
  bcast_S16x1x64_S16x64x64_0_1_2 : S16x1x64.BroadcastsInDim S16x64x64 (![0, 1, 2] : Fin 3 → Fin S16x64x64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S64x64_S1x64x64_1_2 : S64x64.BroadcastsInDim S1x64x64 (![1, 2] : Fin 2 → Fin S1x64x64.rank)
  bcast_S1x64x64_S16x64x64_0_1_2 : S1x64x64.BroadcastsInDim S16x64x64 (![0, 1, 2] : Fin 3 → Fin S16x64x64.rank)
  bcast_S_S16x64x64 : S_.BroadcastsInDim S16x64x64 (![] : Fin 0 → Fin S16x64x64.rank)
  reducesTo_S16x64x64_S16_d1_2 : S16x64x64.ReducesTo [1, 2] S16
  reducesTo_S16x64x32_S16x64_d2 : S16x64x32.ReducesTo [2] S16x64
  reducesTo_S16_S_d0 : S16.ReducesTo [0] S_
  bcast_S_S1 : S_.BroadcastsInDim S1 (![] : Fin 0 → Fin S1.rank)
  concatenates_S1_S1_S1_S1_S4_d0 : Shape.Concatenates [S1, S1, S1, S1] S4 0
  dot_S8x2048x64_S8x2048x32_S8x64x32_1_1_2_2_0_0_wf : DotDims.WF S8x2048x64 S8x2048x32 S8x64x32 [1] [1] [2] [2] [0] [0]
  dot_S8x1024x64_S8x64x32_S8x1024x32_2_1_1_2_0_0_wf : DotDims.WF S8x1024x64 S8x64x32 S8x1024x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x32.size a ≤ S16x65536x32.size a
  hwx0_0 : ∀ i : grid0.Coords, EltTy.bits .f32 = 32 ∨ (Rect.block (s := S16x65536x32) S8x2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S16x65536.size a
  hwx0_1 : ∀ i : grid0.Coords, EltTy.bits .i32 = 32 ∨ (Rect.block (s := S16x65536) S8x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S16x65536.size a
  hwx0_2 : ∀ i : grid0.Coords, EltTy.bits .i32 = 32 ∨ (Rect.block (s := S16x65536) S8x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x64x32.size a ≤ S16x64x32.size a
  hwx0_3 : ∀ i : grid0.Coords, EltTy.bits .f32 = 32 ∨ (Rect.block (s := S16x64x32) S8x64x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S16x64.size a
  hwx0_4 : ∀ i : grid0.Coords, EltTy.bits .f32 = 32 ∨ (Rect.block (s := S16x64) S8x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x1024x32.size a ≤ S16x65536x32.size a
  hwx1_0 : ∀ i : grid1.Coords, EltTy.bits .f32 = 32 ∨ (Rect.block (s := S16x65536x32) S8x1024x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x1024.size a ≤ S16x65536.size a
  hwx1_1 : ∀ i : grid1.Coords, EltTy.bits .i32 = 32 ∨ (Rect.block (s := S16x65536) S8x1024.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1024.size a ≤ S16x65536.size a
  hwx1_2 : ∀ i : grid1.Coords, EltTy.bits .i32 = 32 ∨ (Rect.block (s := S16x65536) S8x1024.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x64x32.size a ≤ S16x64x32.size a
  hwx1_3 : ∀ i : grid1.Coords, EltTy.bits .f32 = 32 ∨ (Rect.block (s := S16x64x32) S8x64x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x64.size a ≤ S16x64.size a
  hwx1_4 : ∀ i : grid1.Coords, EltTy.bits .f32 = 32 ∨ (Rect.block (s := S16x64) S8x64.size (cc1_transform_4 i) (hinb1_4 i)).WholeWords (EltTy.packing .f32)

variable [Facts₀]

def dot_S8x2048x64_S8x2048x32_S8x64x32_1_1_2_2_0_0 : DotDims S8x2048x64 S8x2048x32 S8x64x32 where
  lhsContracting := [1]
  rhsContracting := [1]
  lhsNonContracting := [2]
  rhsNonContracting := [2]
  lhsBatch := [0]
  rhsBatch := [0]
  wf := dot_S8x2048x64_S8x2048x32_S8x64x32_1_1_2_2_0_0_wf
def dot_S8x1024x64_S8x64x32_S8x1024x32_2_1_1_2_0_0 : DotDims S8x1024x64 S8x64x32 S8x1024x32 where
  lhsContracting := [2]
  rhsContracting := [1]
  lhsNonContracting := [1]
  rhsNonContracting := [2]
  lhsBatch := [0]
  rhsBatch := [0]
  wf := dot_S8x1024x64_S8x64x32_S8x1024x32_2_1_1_2_0_0_wf

abbrev win0_0 : Pipeline.Window sig grid0 :=
  Pipeline.Window.ofSpec (Memref.whole main_arg0) S8x2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S8x64x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S8x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S8x1024x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S8x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S8x64x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S8x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x65536x32 : Shape := ⟨3, ![16, 65536, 32]⟩
abbrev S16x65536 : Shape := ⟨2, ![16, 65536]⟩
abbrev S_ : Shape := ⟨0, ![]⟩
abbrev S16 : Shape := ⟨1, ![16]⟩
abbrev S16x1 : Shape := ⟨2, ![16, 1]⟩
abbrev S1048576 : Shape := ⟨1, ![1048576]⟩
abbrev S1048576x32 : Shape := ⟨2, ![1048576, 32]⟩
abbrev S1048576x1 : Shape := ⟨2, ![1048576, 1]⟩
abbrev S1025x32 : Shape := ⟨2, ![1025, 32]⟩
abbrev S1024x32 : Shape := ⟨2, ![1024, 32]⟩
abbrev S1025 : Shape := ⟨1, ![1025]⟩
abbrev S1024 : Shape := ⟨1, ![1024]⟩
abbrev S1024x1 : Shape := ⟨2, ![1024, 1]⟩
abbrev S16x64 : Shape := ⟨2, ![16, 64]⟩
abbrev S16x64x32 : Shape := ⟨3, ![16, 64, 32]⟩
abbrev S16x64x1x32 : Shape := ⟨4, ![16, 64, 1, 32]⟩
abbrev S16x1x64x32 : Shape := ⟨4, ![16, 1, 64, 32]⟩
abbrev S16x64x64x32 : Shape := ⟨4, ![16, 64, 64, 32]⟩
abbrev S16x64x64 : Shape := ⟨3, ![16, 64, 64]⟩
abbrev S64 : Shape := ⟨1, ![64]⟩
abbrev S16x64x1 : Shape := ⟨3, ![16, 64, 1]⟩
abbrev S16x1x64 : Shape := ⟨3, ![16, 1, 64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S1 : Shape := ⟨1, ![1]⟩
abbrev S4 : Shape := ⟨1, ![4]⟩

abbrev nBuf : Space → Nat
  | .hbm => 215
  | .vmem => 0
  | .smem => 0
  | _ => 0

abbrev hbmTy0_0 (i : Nat) : BufTy := match i % 128 with
  | 0 => ⟨S16x65536x32, .f32⟩
  | 1 => ⟨S16x65536, .i32⟩
  | 2 => ⟨S16x65536, .i1⟩
  | 3 => ⟨S_, .i32⟩
  | 4 => ⟨S16x65536, .i32⟩
  | 5 => ⟨S16x65536, .i1⟩
  | 6 => ⟨S16x65536, .i1⟩
  | 7 => ⟨S16, .i32⟩
  | 8 => ⟨S16x1, .i32⟩
  | 9 => ⟨S_, .i32⟩
  | 10 => ⟨S16x1, .i32⟩
  | 11 => ⟨S16x1, .i32⟩
  | 12 => ⟨S16x65536, .i32⟩
  | 13 => ⟨S16x65536, .i32⟩
  | 14 => ⟨S_, .i32⟩
  | 15 => ⟨S_, .i32⟩
  | 16 => ⟨S16x65536, .i32⟩
  | 17 => ⟨S16x65536, .i32⟩
  | 18 => ⟨S1048576, .i32⟩
  | 19 => ⟨S1048576, .i1⟩
  | 20 => ⟨S1048576, .f32⟩
  | 21 => ⟨S1048576x32, .f32⟩
  | 22 => ⟨S1048576x1, .f32⟩
  | 23 => ⟨S1048576x32, .f32⟩
  | 24 => ⟨S1048576x32, .f32⟩
  | 25 => ⟨S_, .f32⟩
  | 26 => ⟨S1025x32, .f32⟩
  | 27 => ⟨S1048576x1, .i32⟩
  | 28 => ⟨S1025x32, .f32⟩
  | 29 => ⟨S1024x32, .f32⟩
  | 30 => ⟨S_, .f32⟩
  | 31 => ⟨S1025, .f32⟩
  | 32 => ⟨S1048576x1, .i32⟩
  | 33 => ⟨S1025, .f32⟩
  | 34 => ⟨S1024, .f32⟩
  | 35 => ⟨S_, .f32⟩
  | 36 => ⟨S1024, .f32⟩
  | 37 => ⟨S1024, .f32⟩
  | 38 => ⟨S1024x1, .f32⟩
  | 39 => ⟨S1024x32, .f32⟩
  | 40 => ⟨S1024x32, .f32⟩
  | 41 => ⟨S_, .f32⟩
  | 42 => ⟨S1024, .f32⟩
  | 43 => ⟨S1024, .i1⟩
  | 44 => ⟨S16x64, .i1⟩
  | 45 => ⟨S16x64, .i32⟩
  | 46 => ⟨S_, .i32⟩
  | 47 => ⟨S16, .i32⟩
  | 48 => ⟨S16, .f32⟩
  | 49 => ⟨S_, .f32⟩
  | 50 => ⟨S16, .f32⟩
  | 51 => ⟨S16, .i1⟩
  | 52 => ⟨S16, .f32⟩
  | 53 => ⟨S_, .i32⟩
  | 54 => ⟨S1048576, .i32⟩
  | 55 => ⟨S1048576, .i32⟩
  | 56 => ⟨S_, .i32⟩
  | 57 => ⟨S1048576, .i32⟩
  | 58 => ⟨S1048576, .i1⟩
  | 59 => ⟨S_, .i32⟩
  | 60 => ⟨S1048576, .i32⟩
  | 61 => ⟨S1048576, .i32⟩
  | 62 => ⟨S1048576, .i32⟩
  | 63 => ⟨S1048576x1, .i32⟩
  | 64 => ⟨S1048576x32, .f32⟩
  | 65 => ⟨S1048576x32, .f32⟩
  | 66 => ⟨S1048576x32, .f32⟩
  | 67 => ⟨S_, .f32⟩
  | 68 => ⟨S1048576, .f32⟩
  | 69 => ⟨S_, .f32⟩
  | 70 => ⟨S1048576, .f32⟩
  | 71 => ⟨S1048576, .i1⟩
  | 72 => ⟨S_, .f32⟩
  | 73 => ⟨S_, .f32⟩
  | 74 => ⟨S1048576, .f32⟩
  | 75 => ⟨S1048576, .f32⟩
  | 76 => ⟨S1048576, .f32⟩
  | 77 => ⟨S1048576, .f32⟩
  | 78 => ⟨S1048576, .f32⟩
  | 79 => ⟨S_, .f32⟩
  | 80 => ⟨S1048576, .f32⟩
  | 81 => ⟨S1048576, .f32⟩
  | 82 => ⟨S_, .f32⟩
  | 83 => ⟨S1048576, .f32⟩
  | 84 => ⟨S1048576, .f32⟩
  | 85 => ⟨S1048576, .f32⟩
  | 86 => ⟨S1048576, .f32⟩
  | 87 => ⟨S_, .f32⟩
  | 88 => ⟨S1025, .f32⟩
  | 89 => ⟨S1048576x1, .i32⟩
  | 90 => ⟨S1025, .f32⟩
  | 91 => ⟨S1024, .f32⟩
  | 92 => ⟨S_, .f32⟩
  | 93 => ⟨S1024, .f32⟩
  | 94 => ⟨S1024, .f32⟩
  | 95 => ⟨S1024, .f32⟩
  | 96 => ⟨S16x64, .f32⟩
  | 97 => ⟨S16x64, .f32⟩
  | 98 => ⟨S16x64, .f32⟩
  | 99 => ⟨S_, .f32⟩
  | 100 => ⟨S16, .f32⟩
  | 101 => ⟨S_, .f32⟩
  | 102 => ⟨S16, .f32⟩
  | 103 => ⟨S16, .f32⟩
  | 104 => ⟨S16, .f32⟩
  | 105 => ⟨S16x64x32, .f32⟩
  | 106 => ⟨S16x64x1x32, .f32⟩
  | 107 => ⟨S16x1x64x32, .f32⟩
  | 108 => ⟨S16x64x64x32, .f32⟩
  | 109 => ⟨S16x64x64x32, .f32⟩
  | 110 => ⟨S16x64x64x32, .f32⟩
  | 111 => ⟨S16x64x64x32, .f32⟩
  | 112 => ⟨S_, .f32⟩
  | 113 => ⟨S16x64x64, .f32⟩
  | 114 => ⟨S64, .i32⟩
  | 115 => ⟨S16x64x1, .i1⟩
  | 116 => ⟨S16x1x64, .i1⟩
  | 117 => ⟨S16x64x64, .i1⟩
  | 118 => ⟨S16x64x64, .i1⟩
  | 119 => ⟨S16x64x64, .i1⟩
  | 120 => ⟨S64x1, .i32⟩
  | 121 => ⟨S1x64, .i32⟩
  | 122 => ⟨S64x64, .i32⟩
  | 123 => ⟨S64x64, .i32⟩
  | 124 => ⟨S64x64, .i1⟩
  | 125 => ⟨S1x64x64, .i1⟩
  | 126 => ⟨S16x64x64, .i1⟩
  | 127 => ⟨S16x64x64, .i1⟩
  | _ => ⟨S16x65536x32, .f32⟩

abbrev hbmTy0_1 (i : Nat) : BufTy := match i % 128 with
  | 0 => ⟨S16x64x64, .f32⟩
  | 1 => ⟨S_, .f32⟩
  | 2 => ⟨S_, .f32⟩
  | 3 => ⟨S16x64x64, .f32⟩
  | 4 => ⟨S16x64x64, .f32⟩
  | 5 => ⟨S_, .f32⟩
  | 6 => ⟨S16x64x64, .f32⟩
  | 7 => ⟨S16x64x64, .i1⟩
  | 8 => ⟨S_, .f32⟩
  | 9 => ⟨S_, .f32⟩
  | 10 => ⟨S16x64x64, .f32⟩
  | 11 => ⟨S16x64x64, .f32⟩
  | 12 => ⟨S16x64x64, .f32⟩
  | 13 => ⟨S16x64x64, .f32⟩
  | 14 => ⟨S16x64x64, .f32⟩
  | 15 => ⟨S16x64x64, .f32⟩
  | 16 => ⟨S_, .f32⟩
  | 17 => ⟨S16x64x64, .f32⟩
  | 18 => ⟨S16x64x64, .f32⟩
  | 19 => ⟨S_, .f32⟩
  | 20 => ⟨S16x64x64, .f32⟩
  | 21 => ⟨S16x64x64, .f32⟩
  | 22 => ⟨S16x64x64, .f32⟩
  | 23 => ⟨S16x64x64, .f32⟩
  | 24 => ⟨S_, .f32⟩
  | 25 => ⟨S16, .f32⟩
  | 26 => ⟨S16, .f32⟩
  | 27 => ⟨S16, .f32⟩
  | 28 => ⟨S_, .f32⟩
  | 29 => ⟨S16, .f32⟩
  | 30 => ⟨S16, .f32⟩
  | 31 => ⟨S_, .f32⟩
  | 32 => ⟨S16, .f32⟩
  | 33 => ⟨S_, .f32⟩
  | 34 => ⟨S16, .f32⟩
  | 35 => ⟨S16, .f32⟩
  | 36 => ⟨S16, .f32⟩
  | 37 => ⟨S16x64x32, .f32⟩
  | 38 => ⟨S_, .f32⟩
  | 39 => ⟨S16x64, .f32⟩
  | 40 => ⟨S_, .f32⟩
  | 41 => ⟨S16x64, .f32⟩
  | 42 => ⟨S16x64, .i1⟩
  | 43 => ⟨S_, .f32⟩
  | 44 => ⟨S_, .f32⟩
  | 45 => ⟨S16x64, .f32⟩
  | 46 => ⟨S16x64, .f32⟩
  | 47 => ⟨S16x64, .f32⟩
  | 48 => ⟨S16x64, .f32⟩
  | 49 => ⟨S16x64, .f32⟩
  | 50 => ⟨S16x64, .f32⟩
  | 51 => ⟨S16x64, .f32⟩
  | 52 => ⟨S_, .f32⟩
  | 53 => ⟨S16, .f32⟩
  | 54 => ⟨S_, .f32⟩
  | 55 => ⟨S16, .f32⟩
  | 56 => ⟨S16, .f32⟩
  | 57 => ⟨S16, .f32⟩
  | 58 => ⟨S_, .f32⟩
  | 59 => ⟨S_, .f32⟩
  | 60 => ⟨S_, .f32⟩
  | 61 => ⟨S_, .f32⟩
  | 62 => ⟨S16, .f32⟩
  | 63 => ⟨S_, .f32⟩
  | 64 => ⟨S_, .f32⟩
  | 65 => ⟨S_, .f32⟩
  | 66 => ⟨S16, .f32⟩
  | 67 => ⟨S_, .f32⟩
  | 68 => ⟨S_, .f32⟩
  | 69 => ⟨S_, .f32⟩
  | 70 => ⟨S16, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S1, .f32⟩
  | 83 => ⟨S1, .f32⟩
  | 84 => ⟨S1, .f32⟩
  | 85 => ⟨S1, .f32⟩
  | 86 => ⟨S4, .f32⟩
  | _ => ⟨S16x65536x32, .f32⟩

abbrev hbmTy (i : Nat) : BufTy := match i / 128 with
  | 0 => hbmTy0_0 i
  | 1 => hbmTy0_1 i
  | _ => ⟨S16x65536x32, .f32⟩

abbrev bufTy : (tb : Table) → Fin (tcTables nBuf tb) → BufTy
  | .hbm, ⟨i, _⟩ => hbmTy i
  | _, _ => ⟨S16x65536x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_c_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_call1_v0 : Ref sig .tc := ⟨.hbm, 73, rfl⟩
abbrev main_call1_v1 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_15 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_17 : Ref sig .tc := ⟨.hbm, 99, rfl⟩
abbrev main_v73 : Ref sig .tc := ⟨.hbm, 100, rfl⟩
abbrev main_cst_18 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_19 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_20 : Ref sig .tc := ⟨.hbm, 129, rfl⟩
abbrev main_call2_v0 : Ref sig .tc := ⟨.hbm, 130, rfl⟩
abbrev main_call2_v1 : Ref sig .tc := ⟨.hbm, 131, rfl⟩
abbrev main_v100 : Ref sig .tc := ⟨.hbm, 132, rfl⟩
abbrev main_cst_21 : Ref sig .tc := ⟨.hbm, 133, rfl⟩
abbrev main_v101 : Ref sig .tc := ⟨.hbm, 134, rfl⟩
abbrev main_v102 : Ref sig .tc := ⟨.hbm, 135, rfl⟩
abbrev main_cst_22 : Ref sig .tc := ⟨.hbm, 136, rfl⟩
abbrev main_call3_v0 : Ref sig .tc := ⟨.hbm, 137, rfl⟩
abbrev main_call3_v1 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_23 : Ref sig .tc := ⟨.hbm, 144, rfl⟩
abbrev main_v108 : Ref sig .tc := ⟨.hbm, 145, rfl⟩
abbrev main_v109 : Ref sig .tc := ⟨.hbm, 146, rfl⟩
abbrev main_cst_24 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_25 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_26 : Ref sig .tc := ⟨.hbm, 156, rfl⟩
abbrev main_v117 : Ref sig .tc := ⟨.hbm, 157, rfl⟩
abbrev main_v118 : Ref sig .tc := ⟨.hbm, 158, rfl⟩
abbrev main_cst_27 : Ref sig .tc := ⟨.hbm, 159, rfl⟩
abbrev main_v119 : Ref sig .tc := ⟨.hbm, 160, rfl⟩
abbrev main_cst_28 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_29 : Ref sig .tc := ⟨.hbm, 166, rfl⟩
abbrev main_v124 : Ref sig .tc := ⟨.hbm, 167, rfl⟩
abbrev main_cst_30 : Ref sig .tc := ⟨.hbm, 168, rfl⟩
abbrev main_v125 : Ref sig .tc := ⟨.hbm, 169, rfl⟩
abbrev main_v126 : Ref sig .tc := ⟨.hbm, 170, rfl⟩
abbrev main_cst_31 : Ref sig .tc := ⟨.hbm, 171, rfl⟩
abbrev main_call4_v0 : Ref sig .tc := ⟨.hbm, 172, rfl⟩
abbrev main_call4_v1 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_32 : Ref sig .tc := ⟨.hbm, 180, rfl⟩
abbrev main_v133 : Ref sig .tc := ⟨.hbm, 181, rfl⟩
abbrev main_cst_33 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_cst_34 : Ref sig .tc := ⟨.hbm, 186, rfl⟩
abbrev main_v137 : Ref sig .tc := ⟨.hbm, 187, rfl⟩
abbrev main_cst_35 : Ref sig .tc := ⟨.hbm, 188, rfl⟩
abbrev main_v138 : Ref sig .tc := ⟨.hbm, 189, rfl⟩
abbrev main_v139 : Ref sig .tc := ⟨.hbm, 190, rfl⟩
abbrev main_cst_36 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_cst_37 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_cst_38 : Ref sig .tc := ⟨.hbm, 199, rfl⟩
abbrev main_v146 : Ref sig .tc := ⟨.hbm, 200, rfl⟩
abbrev main_v147 : Ref sig .tc := ⟨.hbm, 201, rfl⟩
abbrev main_cst_39 : Ref sig .tc := ⟨.hbm, 202, rfl⟩
abbrev main_v148 : Ref sig .tc := ⟨.hbm, 203, rfl⟩
abbrev main_cst_40 : Ref sig .tc := ⟨.hbm, 204, rfl⟩
abbrev main_v149 : Ref sig .tc := ⟨.hbm, 205, rfl⟩
abbrev main_v150 : Ref sig .tc := ⟨.hbm, 206, rfl⟩
abbrev main_cst_41 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩

abbrev nD : Nat := 1
abbrev τ : Topo := Topo.v7x

variable {F : FTy → Type} [FloatOps F]

class Facts₀ : Prop where
  bcast_S_S16x65536 : S_.BroadcastsInDim S16x65536 (![] : Fin 0 → Fin S16x65536.rank)
  bcast_S16_S16x1_0 : S16.BroadcastsInDim S16x1 (![0] : Fin 1 → Fin S16x1.rank)
  bcast_S_S16x1 : S_.BroadcastsInDim S16x1 (![] : Fin 0 → Fin S16x1.rank)
  bcast_S16x1_S16x65536_0_1 : S16x1.BroadcastsInDim S16x65536 (![0, 1] : Fin 2 → Fin S16x65536.rank)
  shapeCasts_S16x65536_S1048576 : S16x65536.ShapeCasts S1048576
  shapeCasts_S16x65536x32_S1048576x32 : S16x65536x32.ShapeCasts S1048576x32
  bcast_S1048576_S1048576x1_0 : S1048576.BroadcastsInDim S1048576x1 (![0] : Fin 1 → Fin S1048576x1.rank)
  bcast_S1048576x1_S1048576x32_0_1 : S1048576x1.BroadcastsInDim S1048576x32 (![0, 1] : Fin 2 → Fin S1048576x32.rank)
  bcast_S_S1025x32 : S_.BroadcastsInDim S1025x32 (![] : Fin 0 → Fin S1025x32.rank)
  slices_S1025x32_S1024x32_0_0 : S1025x32.Slices ![0, 0] S1024x32
  bcast_S_S1025 : S_.BroadcastsInDim S1025 (![] : Fin 0 → Fin S1025.rank)
  slices_S1025_S1024_0 : S1025.Slices ![0] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  shapeCasts_S1024_S16x64 : S1024.ShapeCasts S16x64
  natLt_1_32 : 1 < 32
  reducesTo_S16x64_S16_d1 : S16x64.ReducesTo [1] S16
  h_S_ : 0 < S_.numel
  bcast_S_S16 : S_.BroadcastsInDim S16 (![] : Fin 0 → Fin S16.rank)
  bcast_S_S1048576 : S_.BroadcastsInDim S1048576 (![] : Fin 0 → Fin S1048576.rank)
  reducesTo_S1048576x32_S1048576_d1 : S1048576x32.ReducesTo [1] S1048576
  shapeCasts_S1024x32_S16x64x32 : S1024x32.ShapeCasts S16x64x32
  bcast_S16x64x32_S16x64x1x32_0_1_3 : S16x64x32.BroadcastsInDim S16x64x1x32 (![0, 1, 3] : Fin 3 → Fin S16x64x1x32.rank)
  bcast_S16x64x32_S16x1x64x32_0_2_3 : S16x64x32.BroadcastsInDim S16x1x64x32 (![0, 2, 3] : Fin 3 → Fin S16x1x64x32.rank)
  bcast_S16x64x1x32_S16x64x64x32_0_1_2_3 : S16x64x1x32.BroadcastsInDim S16x64x64x32 (![0, 1, 2, 3] : Fin 4 → Fin S16x64x64x32.rank)
  bcast_S16x1x64x32_S16x64x64x32_0_1_2_3 : S16x1x64x32.BroadcastsInDim S16x64x64x32 (![0, 1, 2, 3] : Fin 4 → Fin S16x64x64x32.rank)
  reducesTo_S16x64x64x32_S16x64x64_d3 : S16x64x64x32.ReducesTo [3] S16x64x64
  bcast_S16x64_S16x64x1_0_1 : S16x64.BroadcastsInDim S16x64x1 (![0, 1] : Fin 2 → Fin S16x64x1.rank)
  bcast_S16x64_S16x1x64_0_2 : S16x64.BroadcastsInDim S16x1x64 (![0, 2] : Fin 2 → Fin S16x1x64.rank)
  bcast_S16x64x1_S16x64x64_0_1_2 : S16x64x1.BroadcastsInDim S16x64x64 (![0, 1, 2] : Fin 3 → Fin S16x64x64.rank)
  bcast_S16x1x64_S16x64x64_0_1_2 : S16x1x64.BroadcastsInDim S16x64x64 (![0, 1, 2] : Fin 3 → Fin S16x64x64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S64x64_S1x64x64_1_2 : S64x64.BroadcastsInDim S1x64x64 (![1, 2] : Fin 2 → Fin S1x64x64.rank)
  bcast_S1x64x64_S16x64x64_0_1_2 : S1x64x64.BroadcastsInDim S16x64x64 (![0, 1, 2] : Fin 3 → Fin S16x64x64.rank)
  bcast_S_S16x64x64 : S_.BroadcastsInDim S16x64x64 (![] : Fin 0 → Fin S16x64x64.rank)
  reducesTo_S16x64x64_S16_d1_2 : S16x64x64.ReducesTo [1, 2] S16
  reducesTo_S16x64x32_S16x64_d2 : S16x64x32.ReducesTo [2] S16x64
  bcast_S_S16x64 : S_.BroadcastsInDim S16x64 (![] : Fin 0 → Fin S16x64.rank)
  reducesTo_S16_S_d0 : S16.ReducesTo [0] S_
  bcast_S_S1 : S_.BroadcastsInDim S1 (![] : Fin 0 → Fin S1.rank)
  concatenates_S1_S1_S1_S1_S4_d0 : Shape.Concatenates [S1, S1, S1, S1] S4 0
  scatter_S1025x32_S1048576x1_S1048576x32_1_0_0_1_wf : ScatterDims.WF S1025x32 S1048576x1 S1048576x32 [1] [0] [0] 1
  scatter_S1025_S1048576x1_S1048576_n_0_0_1_wf : ScatterDims.WF S1025 S1048576x1 S1048576 [] [0] [0] 1
  gather_S1024x32_S1048576x1_S1048576x32_1_0_n_n_0_1_132_wf : GatherDims.WF S1024x32 S1048576x1 S1048576x32 [1] [0] [] [0] [] 1 ![1, 32]

variable [Facts₀]

def scatter_S1025x32_S1048576x1_S1048576x32_1_0_0_1 : ScatterDims S1025x32 S1048576x1 S1048576x32 where
  updateWindowDims := [1]
  insertedWindowDims := [0]
  scatterDimsToOperandDims := [0]
  indexVectorDim := 1
  wf := scatter_S1025x32_S1048576x1_S1048576x32_1_0_0_1_wf
def scatter_S1025_S1048576x1_S1048576_n_0_0_1 : ScatterDims S1025 S1048576x1 S1048576 where
  updateWindowDims := []
  insertedWindowDims := [0]
  scatterDimsToOperandDims := [0]
  indexVectorDim := 1
  wf := scatter_S1025_S1048576x1_S1048576_n_0_0_1_wf
def gather_S1024x32_S1048576x1_S1048576x32_1_0_n_n_0_1_132 : GatherDims S1024x32 S1048576x1 S1048576x32 where
  offsetDims := [1]
  collapsedSliceDims := [0]
  operandBatchingDims := []
  startIndicesBatchingDims := []
  startIndexMap := [0]
  indexVectorDim := 1
  sliceSizes := ![1, 32]
  wf := gather_S1024x32_S1048576x1_S1048576x32_1_0_n_n_0_1_132_wf

class Facts : Prop extends Facts₀ where

variable [Facts]
-- ==== Proof.KernelRegion0.lean ====
/-
  Region 0 of the kernel's @main (the per-instance sums and counts), as the pipeline library wants it: each window's
  block at a grid point; the one branch of the body (the accumulators are reset at the first point of each row of the
  grid) in closed form; the body's run in each of the two cases, the pieces its stores leave found by the run; what
  the two output buffers hold after each point, by recursion on the point (an accumulating point starts from what the
  point before left, since the buffers are written back only at the last point of a row); the proof data; and the
  body obligation at every point. All at a parameter `V`, the buffers' contents when the region is entered, and at
  any float instance.
-/
import proofs.«400001_j6614249636120_4_alg».proof.Proof.Gen.Kernel.Launch
import proofs.«400001_j6614249636120_4_alg».proof.Proof.Gen.Kernel.Skeleton
import proofs.«400001_j6614249636120_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## Region 0: the windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch: the accumulators are reset where the second grid coordinate is zero -/

/-- The condition of the body's one `scf.if`, from the grid coordinates. -/
abbrev cond0 (i : grid0.Coords) : Prop := (Scalar.cmpi .ne (Scalar.extui (Scalar.cmpi .eq (BitVec.ofNat 32 (i 1).val) 0#32)) 0#32) = 1#1
/-- It holds at the first point of each row of the grid — decided over the grid. -/
theorem hcond0 : ∀ t : Fin cfg0.N, cond0 (grid0.coords t) ↔ t.val % 32 = 0 :=
  (by decide +kernel : ∀ t : Fin grid0.N, cond0 (grid0.coords t) ↔ t.val % 32 = 0)

/-! ## The kernel body on any staging memrefs -/

/-- One staging buffer of output window 3, through which its contents are stated. -/
abbrev VO0_3 : View sig .tc .vmem S8x64x32 .f32 := (Memref.whole cc0_stg3_0 : Memref sig .tc .vmem S8x64x32 .f32).view
/-- One staging buffer of output window 4, through which its contents are stated. -/
abbrev VO0_4 : View sig .tc .vmem S8x64 .f32 := (Memref.whole cc0_stg4_0 : Memref sig .tc .vmem S8x64 .f32).view
abbrev ms0_0 (t : Fin cfg0.N) : Memref sig .tc .vmem S8x2048x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x64x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x64 .f32 := win0_4.stage (cfg0.slots t 4)
abbrev hs0_4 (t : Fin cfg0.N) : (ms0_4 t).IsWhole := hstage0_4 ((cfg0.slots t 4).cast nbuf0_4)

set_option maxHeartbeats 4000000 in
/-- What the body's stores leave in each output's staging memref, as pieces (last first), at a point where the
    accumulators are reset first (the branch taken), with the proof that on whole staging memrefs — the inputs' at their
    contents, the outputs' at anything — the body runs to the continuation holding the inputs' as they were and each
    output's buffer with its pieces written. -/
noncomputable def kernelRun0_A (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : cond0 i)
    (x0 : Vec F S8x2048x32 .f32) (x1 : Vec F S8x2048 .i32) (x2 : Vec F S8x2048 .i32) :
    Σ' (L3 : List (View.Piece (Elt F) S8x64x32 .f32)), { L4 : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__sums_counts_kernel i arg2 harg2 arg3 harg3 arg4 harg4 arg5 harg5 arg6 harg6) K } := by
  refine ⟨?_, ?_, fun E K => ?run⟩
  case run =>
    simp only [cc0__sums_counts_kernel_eq_skeleton]; unfold cc0__sums_counts_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 4000000 in
/-- The same at a point where the branch is not taken: the outputs' buffers at given contents, which the body reads. -/
noncomputable def kernelRun0_B (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : ¬cond0 i)
    (x0 : Vec F S8x2048x32 .f32) (x1 : Vec F S8x2048 .i32) (x2 : Vec F S8x2048 .i32) (xo3 : Vec F S8x64x32 .f32) (xo4 : Vec F S8x64 .f32) :
    Σ' (L3 : List (View.Piece (Elt F) S8x64x32 .f32)), { L4 : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__sums_counts_kernel i arg2 harg2 arg3 harg3 arg4 harg4 arg5 harg5 arg6 harg6) K } := by
  refine ⟨?_, ?_, fun E K => ?run⟩
  case run =>
    simp only [cc0__sums_counts_kernel_eq_skeleton]; unfold cc0__sums_counts_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-! ## The pieces cover each output's block; what each case leaves there -/

theorem cover0_A_3 (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : cond0 i)
    (x0 : Vec F S8x2048x32 .f32) (x1 : Vec F S8x2048 .i32) (x2 : Vec F S8x2048 .i32) (y : S8x64x32.Idx) :
    ∃ pc ∈ (kernelRun0_A c i arg2 harg2 arg3 harg3 arg4 harg4 arg5 harg5 arg6 harg6 hc x0 x1 x2).1, y ∈ pc.1.set :=
  View.cover_of_tiledL (kernelRun0_A c i arg2 harg2 arg3 harg3 arg4 harg4 arg5 harg5 arg6 harg6 hc x0 x1 x2).1 S8x64x32.size (by sl_kernel_rfl) y

/-- What case A leaves in output 3's staging buffer: its pieces read back over junk. -/
def out0_A_3 (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : cond0 i)
    (x0 : Vec F S8x2048x32 .f32) (x1 : Vec F S8x2048 .i32) (x2 : Vec F S8x2048 .i32) : Vec F S8x64x32 .f32 :=
  VO0_3.read (Elt F) (VO0_3.writes (Elt F) VO0_3.junk (kernelRun0_A c i arg2 harg2 arg3 harg3 arg4 harg4 arg5 harg5 arg6 harg6 hc x0 x1 x2).1)

theorem cover0_A_4 (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : cond0 i)
    (x0 : Vec F S8x2048x32 .f32) (x1 : Vec F S8x2048 .i32) (x2 : Vec F S8x2048 .i32) (y : S8x64.Idx) :
    ∃ pc ∈ (kernelRun0_A c i arg2 harg2 arg3 harg3 arg4 harg4 arg5 harg5 arg6 harg6 hc x0 x1 x2).2.1, y ∈ pc.1.set :=
  View.cover_of_tiledL (kernelRun0_A c i arg2 harg2 arg3 harg3 arg4 harg4 arg5 harg5 arg6 harg6 hc x0 x1 x2).2.1 S8x64.size (by sl_kernel_rfl) y

/-- What case A leaves in output 4's staging buffer: its pieces read back over junk. -/
def out0_A_4 (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : cond0 i)
    (x0 : Vec F S8x2048x32 .f32) (x1 : Vec F S8x2048 .i32) (x2 : Vec F S8x2048 .i32) : Vec F S8x64 .f32 :=
  VO0_4.read (Elt F) (VO0_4.writes (Elt F) VO0_4.junk (kernelRun0_A c i arg2 harg2 arg3 harg3 arg4 harg4 arg5 harg5 arg6 harg6 hc x0 x1 x2).2.1)

theorem cover0_B_3 (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : ¬cond0 i)
    (x0 : Vec F S8x2048x32 .f32) (x1 : Vec F S8x2048 .i32) (x2 : Vec F S8x2048 .i32) (xo3 : Vec F S8x64x32 .f32) (xo4 : Vec F S8x64 .f32) (y : S8x64x32.Idx) :
    ∃ pc ∈ (kernelRun0_B c i arg2 harg2 arg3 harg3 arg4 harg4 arg5 harg5 arg6 harg6 hc x0 x1 x2 xo3 xo4).1, y ∈ pc.1.set :=
  View.cover_of_tiledL (kernelRun0_B c i arg2 harg2 arg3 harg3 arg4 harg4 arg5 harg5 arg6 harg6 hc x0 x1 x2 xo3 xo4).1 S8x64x32.size (by sl_kernel_rfl) y

/-- What case B leaves in output 3's staging buffer: its pieces read back over junk. -/
def out0_B_3 (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : ¬cond0 i)
    (x0 : Vec F S8x2048x32 .f32) (x1 : Vec F S8x2048 .i32) (x2 : Vec F S8x2048 .i32) (xo3 : Vec F S8x64x32 .f32) (xo4 : Vec F S8x64 .f32) : Vec F S8x64x32 .f32 :=
  VO0_3.read (Elt F) (VO0_3.writes (Elt F) VO0_3.junk (kernelRun0_B c i arg2 harg2 arg3 harg3 arg4 harg4 arg5 harg5 arg6 harg6 hc x0 x1 x2 xo3 xo4).1)

theorem cover0_B_4 (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : ¬cond0 i)
    (x0 : Vec F S8x2048x32 .f32) (x1 : Vec F S8x2048 .i32) (x2 : Vec F S8x2048 .i32) (xo3 : Vec F S8x64x32 .f32) (xo4 : Vec F S8x64 .f32) (y : S8x64.Idx) :
    ∃ pc ∈ (kernelRun0_B c i arg2 harg2 arg3 harg3 arg4 harg4 arg5 harg5 arg6 harg6 hc x0 x1 x2 xo3 xo4).2.1, y ∈ pc.1.set :=
  View.cover_of_tiledL (kernelRun0_B c i arg2 harg2 arg3 harg3 arg4 harg4 arg5 harg5 arg6 harg6 hc x0 x1 x2 xo3 xo4).2.1 S8x64.size (by sl_kernel_rfl) y

/-- What case B leaves in output 4's staging buffer: its pieces read back over junk. -/
def out0_B_4 (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : ¬cond0 i)
    (x0 : Vec F S8x2048x32 .f32) (x1 : Vec F S8x2048 .i32) (x2 : Vec F S8x2048 .i32) (xo3 : Vec F S8x64x32 .f32) (xo4 : Vec F S8x64 .f32) : Vec F S8x64 .f32 :=
  VO0_4.read (Elt F) (VO0_4.writes (Elt F) VO0_4.junk (kernelRun0_B c i arg2 harg2 arg3 harg3 arg4 harg4 arg5 harg5 arg6 harg6 hc x0 x1 x2 xo3 xo4).2.1)

/-! ## What the outputs hold after each point -/

/-- THE ACCUMULATION. What the outputs' staging buffers hold after the body at position `n`: the reset case at the first
    point of a row, else the accumulating case over what the point before left (the buffers are not written back between). -/
def outsAt0 (c : Dev nD) : (n : ℕ) → n < cfg0.N → Vec F S8x64x32 .f32 × Vec F S8x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0 ⟨0, hn⟩).mpr (Nat.zero_mod _)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 32 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0 ⟨n + 1, hn⟩).mpr h0) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2)

theorem outsAt0_A (c : Dev nD) (t : Fin cfg0.N) (h0 : t.val % 32 = 0) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t) (iblk0 V c 2 t)) := by
  obtain ⟨n, hn⟩ := t
  cases n with
  | zero => exact rfl
  | succ n => exact (dif_pos h0).trans rfl

theorem outsAt0_B (c : Dev nD) (t : Fin cfg0.N) (h0 : ¬t.val % 32 = 0) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2, out0_B_4 c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them; after the body at point `t` each
    input's buffer at its block and the outputs' at `outsAt0`; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
/-- At an accumulating point output 3's current staging buffer holds what the body left at the point before. -/
theorem before0_3_B (c : Dev nD) (t : Fin cfg0.N) (h0 : ¬t.val % 32 = 0) (d) :
    (dat0 V c).before 3 t d = (outsAt0 V c (t.val - 1) (Nat.lt_of_le_of_lt (Nat.sub_le _ _) t.isLt)).1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dat0]
/-- At an accumulating point output 4's current staging buffer holds what the body left at the point before. -/
theorem before0_4_B (c : Dev nD) (t : Fin cfg0.N) (h0 : ¬t.val % 32 = 0) (d) :
    (dat0 V c).before 4 t d = (outsAt0 V c (t.val - 1) (Nat.lt_of_le_of_lt (Nat.sub_le _ _) t.isLt)).2 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1600000 in
/-- The body at any point: the inputs' memrefs hold their blocks; the closed form says which case the point is in; an
    output the accumulating case reads holds what the point before left; so the run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 64 := lt_of_lt_of_eq t.isLt (show cfg0.N = 64 from N_0)
  by_cases h0 : t.val % 32 = 0
  ·
    rw [outsAt0_A V c t h0]
    unfold out0_A_3 out0_A_4; (try dsimp only)
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0 t).mpr h0) (iblk0 V c 0 t) (iblk0 V c 1 t) (iblk0 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _)
  ·
    rw [outsAt0_B V c t h0]
    simp only [before0_3_B V c t h0, before0_4_B V c t h0]
    unfold out0_B_3 out0_B_4; (try dsimp only)
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0 t).mp h)) (iblk0 V c 0 t) (iblk0 V c 1 t) (iblk0 V c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KernelRegion1.lean ====
/-
  Region 1 of the kernel's @main (the per-instance pull penalties), as the pipeline library wants it: each window's
  block at a grid point; the one branch of the body (the accumulator is reset at the first point of each row of the
  grid) in closed form; the body's run in each of the two cases, the pieces its stores leave found by the run; what
  the output buffer holds after each point, by recursion on the point (an accumulating point starts from what the
  point before left, since the buffer is written back only at the last point of a row); the proof data; and the
  body obligation at every point. All at a parameter `V`, the buffers' contents when the region is entered, and at
  any float instance.
-/
import proofs.«400001_j6614249636120_4_alg».proof.Proof.Gen.Kernel.Launch
import proofs.«400001_j6614249636120_4_alg».proof.Proof.Gen.Kernel.Skeleton
import proofs.«400001_j6614249636120_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## Region 1: the windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 (the means) is fetched only at the first point of a row, its block index being the row's; between
    fetches the index does not move, so its current staging buffer holds its block at every point all the same. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch: the accumulator is reset where the second grid coordinate is zero -/

/-- The condition of the body's one `scf.if`, from the grid coordinates. -/
abbrev cond1 (i : grid1.Coords) : Prop := (Scalar.cmpi .ne (Scalar.extui (Scalar.cmpi .eq (BitVec.ofNat 32 (i 1).val) 0#32)) 0#32) = 1#1
/-- It holds at the first point of each row of the grid — decided over the grid. -/
theorem hcond1 : ∀ t : Fin cfg1.N, cond1 (grid1.coords t) ↔ t.val % 64 = 0 :=
  (by decide +kernel : ∀ t : Fin grid1.N, cond1 (grid1.coords t) ↔ t.val % 64 = 0)

/-! ## The kernel body on any staging memrefs -/

/-- One staging buffer of output window 4, through which its contents are stated. -/
abbrev VO1_4 : View sig .tc .vmem S8x64 .f32 := (Memref.whole cc1_stg4_0 : Memref sig .tc .vmem S8x64 .f32).view
abbrev ms1_0 (t : Fin cfg1.N) : Memref sig .tc .vmem S8x1024x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x64x32 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x64 .f32 := win1_4.stage (cfg1.slots t 4)
abbrev hs1_4 (t : Fin cfg1.N) : (ms1_4 t).IsWhole := hstage1_4 ((cfg1.slots t 4).cast nbuf1_4)

set_option maxHeartbeats 4000000 in
/-- What the body's stores leave in the output's staging memref, as pieces (last first), at a point where the
    accumulator is reset first (the branch taken), with the proof that on whole staging memrefs — the inputs' at their
    contents, the output's at anything — the body runs to the continuation holding the inputs' as they were and the
    output's buffer with its pieces written. -/
noncomputable def kernelRun1_A (c : Dev nD) (i : grid1.Coords) (arg2 : Memref sig .tc .vmem S8x1024x32 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x64x32 .f32) (harg5 : arg5.IsWhole) (arg6 : Memref sig .tc .vmem S8x64 .f32) (harg6 : arg6.IsWhole) (hc : cond1 i)
    (x0 : Vec F S8x1024x32 .f32) (x1 : Vec F S8x1024 .i32) (x2 : Vec F S8x1024 .i32) (x3 : Vec F S8x64x32 .f32) :
    { L4 : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__pen_kernel i arg2 harg2 arg3 harg3 arg4 harg4 arg5 harg5 arg6 harg6) K } := by
  refine ⟨?_, fun E K => ?run⟩
  case run =>
    simp only [cc1__pen_kernel_eq_skeleton]; unfold cc1__pen_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 4000000 in
/-- The same at a point where the branch is not taken: the output's buffer at given contents, which the body reads. -/
noncomputable def kernelRun1_B (c : Dev nD) (i : grid1.Coords) (arg2 : Memref sig .tc .vmem S8x1024x32 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x64x32 .f32) (harg5 : arg5.IsWhole) (arg6 : Memref sig .tc .vmem S8x64 .f32) (harg6 : arg6.IsWhole) (hc : ¬cond1 i)
    (x0 : Vec F S8x1024x32 .f32) (x1 : Vec F S8x1024 .i32) (x2 : Vec F S8x1024 .i32) (x3 : Vec F S8x64x32 .f32) (xo4 : Vec F S8x64 .f32) :
    { L4 : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__pen_kernel i arg2 harg2 arg3 harg3 arg4 harg4 arg5 harg5 arg6 harg6) K } := by
  refine ⟨?_, fun E K => ?run⟩
  case run =>
    simp only [cc1__pen_kernel_eq_skeleton]; unfold cc1__pen_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-! ## The pieces cover the output's block; what each case leaves there -/

theorem cover1_A_4 (c : Dev nD) (i : grid1.Coords) (arg2 : Memref sig .tc .vmem S8x1024x32 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x64x32 .f32) (harg5 : arg5.IsWhole) (arg6 : Memref sig .tc .vmem S8x64 .f32) (harg6 : arg6.IsWhole) (hc : cond1 i)
    (x0 : Vec F S8x1024x32 .f32) (x1 : Vec F S8x1024 .i32) (x2 : Vec F S8x1024 .i32) (x3 : Vec F S8x64x32 .f32) (y : S8x64.Idx) :
    ∃ pc ∈ (kernelRun1_A c i arg2 harg2 arg3 harg3 arg4 harg4 arg5 harg5 arg6 harg6 hc x0 x1 x2 x3).1, y ∈ pc.1.set :=
  View.cover_of_tiledL (kernelRun1_A c i arg2 harg2 arg3 harg3 arg4 harg4 arg5 harg5 arg6 harg6 hc x0 x1 x2 x3).1 S8x64.size (by sl_kernel_rfl) y

/-- What case A leaves in output 4's staging buffer: its pieces read back over junk. -/
def out1_A_4 (c : Dev nD) (i : grid1.Coords) (arg2 : Memref sig .tc .vmem S8x1024x32 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x64x32 .f32) (harg5 : arg5.IsWhole) (arg6 : Memref sig .tc .vmem S8x64 .f32) (harg6 : arg6.IsWhole) (hc : cond1 i)
    (x0 : Vec F S8x1024x32 .f32) (x1 : Vec F S8x1024 .i32) (x2 : Vec F S8x1024 .i32) (x3 : Vec F S8x64x32 .f32) : Vec F S8x64 .f32 :=
  VO1_4.read (Elt F) (VO1_4.writes (Elt F) VO1_4.junk (kernelRun1_A c i arg2 harg2 arg3 harg3 arg4 harg4 arg5 harg5 arg6 harg6 hc x0 x1 x2 x3).1)

theorem cover1_B_4 (c : Dev nD) (i : grid1.Coords) (arg2 : Memref sig .tc .vmem S8x1024x32 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x64x32 .f32) (harg5 : arg5.IsWhole) (arg6 : Memref sig .tc .vmem S8x64 .f32) (harg6 : arg6.IsWhole) (hc : ¬cond1 i)
    (x0 : Vec F S8x1024x32 .f32) (x1 : Vec F S8x1024 .i32) (x2 : Vec F S8x1024 .i32) (x3 : Vec F S8x64x32 .f32) (xo4 : Vec F S8x64 .f32) (y : S8x64.Idx) :
    ∃ pc ∈ (kernelRun1_B c i arg2 harg2 arg3 harg3 arg4 harg4 arg5 harg5 arg6 harg6 hc x0 x1 x2 x3 xo4).1, y ∈ pc.1.set :=
  View.cover_of_tiledL (kernelRun1_B c i arg2 harg2 arg3 harg3 arg4 harg4 arg5 harg5 arg6 harg6 hc x0 x1 x2 x3 xo4).1 S8x64.size (by sl_kernel_rfl) y

/-- What case B leaves in output 4's staging buffer: its pieces read back over junk. -/
def out1_B_4 (c : Dev nD) (i : grid1.Coords) (arg2 : Memref sig .tc .vmem S8x1024x32 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x64x32 .f32) (harg5 : arg5.IsWhole) (arg6 : Memref sig .tc .vmem S8x64 .f32) (harg6 : arg6.IsWhole) (hc : ¬cond1 i)
    (x0 : Vec F S8x1024x32 .f32) (x1 : Vec F S8x1024 .i32) (x2 : Vec F S8x1024 .i32) (x3 : Vec F S8x64x32 .f32) (xo4 : Vec F S8x64 .f32) : Vec F S8x64 .f32 :=
  VO1_4.read (Elt F) (VO1_4.writes (Elt F) VO1_4.junk (kernelRun1_B c i arg2 harg2 arg3 harg3 arg4 harg4 arg5 harg5 arg6 harg6 hc x0 x1 x2 x3 xo4).1)

/-! ## What the output holds after each point -/

/-- THE ACCUMULATION. What the output's staging buffer holds after the body at position `n`: the reset case at the first
    point of a row, else the accumulating case over what the point before left (the buffer is not written back between). -/
def outsAt1 (c : Dev nD) : (n : ℕ) → n < cfg1.N → Vec F S8x64 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 64 = 0 then
      out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

theorem outsAt1_A (c : Dev nD) (t : Fin cfg1.N) (h0 : t.val % 64 = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1 t).mpr h0) (iblk1 V c 0 t) (iblk1 V c 1 t) (iblk1 V c 2 t) (iblk1 V c 3 t) := by
  obtain ⟨n, hn⟩ := t
  cases n with
  | zero => exact rfl
  | succ n => exact (dif_pos h0).trans rfl

theorem outsAt1_B (c : Dev nD) (t : Fin cfg1.N) (h0 : ¬t.val % 64 = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them; after the body at point `t` each
    input's buffer at its block and the output's at `outsAt1`; the class's invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At an accumulating point output 4's current staging buffer holds what the body left at the point before. -/
theorem before1_4_B (c : Dev nD) (t : Fin cfg1.N) (h0 : ¬t.val % 64 = 0) (d) :
    (dat1 V c).before 4 t d = outsAt1 V c (t.val - 1) (Nat.lt_of_le_of_lt (Nat.sub_le _ _) t.isLt) := by
  have hN : t.val < 128 := lt_of_lt_of_eq t.isLt (show cfg1.N = 128 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' memrefs hold their blocks; the closed form says which case the point is in; the
    output, which the accumulating case reads, holds what the point before left; so the run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 128 := lt_of_lt_of_eq t.isLt (show cfg1.N = 128 from N_1)
  by_cases h0 : t.val % 64 = 0
  ·
    rw [outsAt1_A V c t h0]
    unfold out1_A_4; (try dsimp only)
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _)
  ·
    rw [outsAt1_B V c t h0]
    simp only [before1_4_B V c t h0]
    unfold out1_B_4; (try dsimp only)
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KernelRun.lean ====
/-
  The kernel program's run. @main is eleven items: a host stretch, region 0, a host stretch, region 1, and seven host
  stretches. Between two items every unscoped buffer of a core is held at a valuation: the launch contents, then
  `StableHlo.after` each host stretch, then — after a region — the region's arrays at what its pipeline's write-backs
  leave (`Dat.arrAt … N`) and every other buffer as the region found it. The two regions are entered from and left
  at these thread states; the launch deals the first one on every core; and the last one, read against the final
  memory, gives the result buffer `main_v104` at the last valuation and the three arguments at their launch contents.
  Any float instance.
-/
import proofs.«400001_j6614249636120_4_alg».proof.Proof.KernelRegion0
import proofs.«400001_j6614249636120_4_alg».proof.Proof.KernelRegion1
import proofs.«400001_j6614249636120_4_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- Region 0's entry contents: the launch contents after the first host stretch, at the TensorCore's references. -/
abbrev E0 (c : Dev nD) (b : Ref sig .tc) : Buf (Elt F) ((c : Thread nD τ).loc b) := V1 m c b

/-- After region 0: its arrays at what the pipeline leaves, every other buffer as entered. -/
def X2 (c : Dev nD) : Valuation τ sig (Elt F) :=
  Pipeline.withArrays spec0 c (V1 m c) fun w => (dat0 (E0 m) c).arrAt w cfg0.N
theorem X2_arr (c : Dev nD) (w : Fin cfg0.W) :
    X2 m c (Proc.devRef .tc (Pipeline.arrRef spec0 w)) = (dat0 (E0 m) c).arrAt w cfg0.N := by
  unfold X2; exact Pipeline.withArrays_arr spec0 launch0.win.arr_inj c _ _ w

/-- What region 0 leaves, as a family of buffer contents (read only at region 0's two results). -/
def outs2 : Outs (F := F) := fun _ r c => X2 m c r

/-- Region 1's entry contents: after the second host stretch. -/
abbrev E1 (c : Dev nD) (b : Ref sig .tc) : Buf (Elt F) ((c : Thread nD τ).loc b) := V3 m (outs2 m) c b

/-- After region 1. -/
def X4 (c : Dev nD) : Valuation τ sig (Elt F) :=
  Pipeline.withArrays spec1 c (V3 m (outs2 m) c) fun w => (dat1 (E1 m) c).arrAt w cfg1.N
theorem X4_arr (c : Dev nD) (w : Fin cfg1.W) :
    X4 m c (Proc.devRef .tc (Pipeline.arrRef spec1 w)) = (dat1 (E1 m) c).arrAt w cfg1.N := by
  unfold X4; exact Pipeline.withArrays_arr spec1 launch1.win.arr_inj c _ _ w

/-- What the two regions leave: region 0's results after item 1, region 1's after item 3. -/
def outsK : Outs (F := F) := fun J r c => match J with | 2 => X2 m c r | _ => X4 m c r

theorem outsK_2 (r : Ref sig .tc) (c : Dev nD) : outsK m 2 r c = X2 m c r := rfl
theorem outsK_4 (r : Ref sig .tc) (c : Dev nD) : outsK m 4 r c = X4 m c r := rfl
/-- The valuations up to region 1's entry see only region 0's results. -/
theorem V2_outsK (c : Dev nD) : V2 m (outsK m) c = V2 m (outs2 m) c := rfl
theorem V3_outsK (c : Dev nD) : V3 m (outsK m) c = V3 m (outs2 m) c := rfl

/-- What region 0 leaves, by name: the per-instance sums and counts. -/
theorem outsK_v1_0 (c : Dev nD) : outsK m 2 main_v1_0 c = (dat0 (E0 m) c).arrAt 3 cfg0.N := X2_arr m c 3
theorem outsK_v1_1 (c : Dev nD) : outsK m 2 main_v1_1 c = (dat0 (E0 m) c).arrAt 4 cfg0.N := X2_arr m c 4
/-- What region 1 leaves: the per-instance penalties. -/
theorem outsK_v15 (c : Dev nD) : outsK m 4 main_v15 c = (dat1 (E1 m) c).arrAt 4 cfg1.N := X4_arr m c 4

/-! ## Each region's arrays at its exit valuation; every other buffer as entered -/

/-- Region 0's and region 1's exit contents, at the TensorCore's references. -/
abbrev E2 (c : Dev nD) (b : Ref sig .tc) : Buf (Elt F) ((c : Thread nD τ).loc b) := V2 m (outsK m) c b
abbrev E4 (c : Dev nD) (b : Ref sig .tc) : Buf (Elt F) ((c : Thread nD τ).loc b) := V4 m (outsK m) c b

theorem hF0 (c : Dev nD) (w : Fin cfg0.W) : (dat0 (E0 m) c).arrAt w cfg0.N = E2 m c (Pipeline.arrRef spec0 w) :=
  match w with
  | ⟨0, _⟩ => ((dat0 (E0 m) c).arrAt_in 0 rfl _).trans ((A_eq0 (E0 m) c 0).trans (V2_of m (outsK m) c main_arg0 (by decide)).symm)
  | ⟨1, _⟩ => ((dat0 (E0 m) c).arrAt_in 1 rfl _).trans ((A_eq0 (E0 m) c 1).trans (V2_of m (outsK m) c main_arg1 (by decide)).symm)
  | ⟨2, _⟩ => ((dat0 (E0 m) c).arrAt_in 2 rfl _).trans ((A_eq0 (E0 m) c 2).trans (V2_of m (outsK m) c main_v0 (by decide)).symm)
  | ⟨3, _⟩ => by
    show _ = Function.update (Function.update (V1 m c) main_v1_0 (outsK m 2 main_v1_0 c)) main_v1_1 (outsK m 2 main_v1_1 c) main_v1_0
    rw [Function.update_of_ne (StableHlo.devRef_ne_of_ne (by decide) : (Proc.devRef .tc main_v1_0 : DevRef τ sig) ≠ Proc.devRef .tc main_v1_1), Function.update_self]
    exact (X2_arr m c 3).symm
  | ⟨4, _⟩ => by
    show _ = Function.update (Function.update (V1 m c) main_v1_0 (outsK m 2 main_v1_0 c)) main_v1_1 (outsK m 2 main_v1_1 c) main_v1_1
    rw [Function.update_self]
    exact (X2_arr m c 4).symm

theorem hrest0 (c : Dev nD) : ∀ b, b ∉ Finset.univ.image (Pipeline.arrRef spec0) → E2 m c b = E0 m c b :=
  fun b hb => V2_of m (outsK m) c b fun hmem => by
    simp only [List.mem_cons, List.not_mem_nil, or_false] at hmem
    rcases hmem with rfl | rfl
    · exact hb (Finset.mem_image.mpr ⟨3, Finset.mem_univ _, rfl⟩)
    · exact hb (Finset.mem_image.mpr ⟨4, Finset.mem_univ _, rfl⟩)

theorem hF1 (c : Dev nD) (w : Fin cfg1.W) : (dat1 (E1 m) c).arrAt w cfg1.N = E4 m c (Pipeline.arrRef spec1 w) :=
  match w with
  | ⟨0, _⟩ => ((dat1 (E1 m) c).arrAt_in 0 rfl _).trans ((A_eq1 (E1 m) c 0).trans (V4_of m (outsK m) c main_arg0 (by decide)).symm)
  | ⟨1, _⟩ => ((dat1 (E1 m) c).arrAt_in 1 rfl _).trans ((A_eq1 (E1 m) c 1).trans (V4_of m (outsK m) c main_arg1 (by decide)).symm)
  | ⟨2, _⟩ => ((dat1 (E1 m) c).arrAt_in 2 rfl _).trans ((A_eq1 (E1 m) c 2).trans (V4_of m (outsK m) c main_v0 (by decide)).symm)
  | ⟨3, _⟩ => ((dat1 (E1 m) c).arrAt_in 3 rfl _).trans ((A_eq1 (E1 m) c 3).trans (V4_of m (outsK m) c main_v6 (by decide)).symm)
  | ⟨4, _⟩ => by
    show _ = Function.update (V3 m (outsK m) c) main_v15 (outsK m 4 main_v15 c) main_v15
    rw [Function.update_self]
    exact (X4_arr m c 4).symm

theorem hrest1 (c : Dev nD) : ∀ b, b ∉ Finset.univ.image (Pipeline.arrRef spec1) → E4 m c b = E1 m c b :=
  fun b hb => V4_of m (outsK m) c b fun hmem => by
    simp only [List.mem_cons, List.not_mem_nil, or_false] at hmem
    subst hmem
    exact hb (Finset.mem_image.mpr ⟨4, Finset.mem_univ _, rfl⟩)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

/-- No core owes another anything: no level is assigned. -/
abbrev Lz : GSem nD τ sig → Finset Unit := fun _ => ∅
abbrev lvz : GSem nD τ sig → Unit → ℕ := fun _ _ => 0
/-- What rides beside the buffers through every item: the core's generator register at some state and its debts, none. -/
abbrev Rz (c : Dev nD) : sProp 𝕄 := iprop((∃ r, prngReg c r) ∗ ∃ W, owes (c : Thread nD τ) (0 : CellTallies nD τ sig Unit) W)

set_option backward.isDefEq.respectTransparency.types false in
/-- Region 0 over the thread state: its arrays split out of the unscoped buffers at entry and put back at the exit
    contents; the generator register into the class's invariant and out; nothing owed; no semaphore of its own. -/
def reg0 : RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ Lz lvz 0 fun _ _ => rfl
  pre c := iprop(StableHlo.held (c : Thread nD τ) (Pipeline.ucRefs τ sig) (V1 m c) ∗ Rz c)
  post c := iprop(StableHlo.held (c : Thread nD τ) (Pipeline.ucRefs τ sig) (V2 m (outsK m) c) ∗ Rz c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at entry and put back at the exit
    contents; the generator register into the class's invariant and out; nothing owed; no semaphore of its own. -/
def reg1 : RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ Lz lvz 1 fun _ _ => rfl
  pre c := iprop(StableHlo.held (c : Thread nD τ) (Pipeline.ucRefs τ sig) (V3 m (outs2 m) c) ∗ Rz c)
  post c := iprop(StableHlo.held (c : Thread nD τ) (Pipeline.ucRefs τ sig) (V4 m (outsK m) c) ∗ Rz c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch and the run -/

/-- The launch element of the pipelines' staging cells. -/
abbrev u0 : UR sig nD τ := initOf (Pipeline.cells cfgs cellOf_inj) (Pipeline.launchToks cfgs cellOf_inj)

theorem hu0 : (ownU (u0 : UR sig nD τ) : sProp 𝕄) ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes the riding state on every core at once. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lz lvz)
      ⊢ (|={Set.univ}=> bigSep Finset.univ (fun c : Dev nD => Rz c) : sProp 𝕄) := by
  refine Pipeline.initEach Lz lvz fun c => ?_
  iintro ⟨⟨-, HO, -, Hp, -⟩, -⟩
  imodintro
  isplitl [Hp]; · iexists _; iexact Hp
  iexists ∅; iexact HO

set_option backward.isDefEq.respectTransparency.types false in
/-- THE RUN. From any memory with zero counters every weakly fair execution of @main terminates, and every final
    memory holds the result buffer at the last valuation (the host tail applied to what the regions left) and each
    argument as launched. -/
theorem run_main : θ_run defs (onTc (τ := τ) (main (F := F))) ⟨m, fun _ => 0, ρ⟩ (fun r => ∀ c : Dev nD,
      r.2.mem ((c.tc : Thread nD τ).loc main_v104) = V11 m (outsK m) c main_v104
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm (pdats m) () cellOf_inj emb₁ defs₀ Variants.none Lz lvz m ρ main
    (segs m (outsK m) Variants.none Lz lvz (fun _ c => Rz c) () (pdats m) (reg0 m) (reg1 m))
    (fun c Q => by
      rewrite [main_chain c, Seg.run_eq_chain,
        show (segs m (outsK m) Variants.none Lz lvz (fun _ c => Rz c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6 ] from rfl]
      exact .rfl)
    (fun c => by simp only [segs, Seg.pipes_host, Seg.pipes_region, Seg.pipes_nil]; decide) (0 : Dev nD → CellTallies nD τ sig Unit) (fun _ _ => rfl) (fun _ => (BI.emp : sProp 𝕄)) u0 hu0
    (T₀ := fun c => iprop(StableHlo.held (c : Thread nD τ) (Pipeline.ucRefs τ sig) (V0 m c) ∗ Rz c))
    (Tₙ := fun c => StableHlo.held (c : Thread nD τ) (Pipeline.ucRefs τ sig) (V11 m (outsK m) c))
    (hch := fun c => ⟨.rfl, .rfl, .rfl, .rfl, .rfl, .rfl, .rfl, .rfl, .rfl, .rfl, .rfl, sep_mono .rfl (by iintro ⟨-, H⟩; iexact H)⟩)
    (hinit := ?_) (QY := fun c s => s.mem ((c.tc : Thread nD τ).loc main_v104) = V11 m (outsK m) c main_v104 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · -- the launch: the unscoped buffers are held at the launch contents; the rest makes the riding state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (fun c : Dev nD => Rz c)]
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (V11 m (outsK m) c) s') $$ [Hh HSI]
    · isplitl [Hh] <;> iassumption
    icases Hr with ⟨%h, HSI⟩
    imodintro
    isplitr
    · ipureintro
      exact ⟨h (Proc.devRef .tc main_v104) (Finset.mem_filter.mpr ⟨StableHlo.devRef_mem_tcRefs main_v104, by decide⟩),
        (h (Proc.devRef .tc main_arg0) (Finset.mem_filter.mpr ⟨StableHlo.devRef_mem_tcRefs main_arg0, by decide⟩)).trans (V11_main_arg0 m (outsK m) c),
        (h (Proc.devRef .tc main_arg1) (Finset.mem_filter.mpr ⟨StableHlo.devRef_mem_tcRefs main_arg1, by decide⟩)).trans (V11_main_arg1 m (outsK m) c),
        (h (Proc.devRef .tc main_arg2) (Finset.mem_filter.mpr ⟨StableHlo.devRef_mem_tcRefs main_arg2, by decide⟩)).trans (V11_main_arg2 m (outsK m) c)⟩
    · iexact HSI

/-- THE FRAME: every execution terminates and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Hand

end
-- ==== Proof.Region0.lean ====
/-
  Region 0 of the kernel's @main (the per-instance sums and counts), as the pipeline library wants it: each window's
  block at a grid point; the one branch of the body (the accumulators are reset at the first point of each row of the
  grid) in closed form; the body's run in each of the two cases, the pieces its stores leave found by the run; what
  the two output buffers hold after each point, by recursion on the point (an accumulating point starts from what the
  point before left, since the buffers are written back only at the last point of a row); the proof data; and the
  body obligation at every point. All at a parameter `V`, the buffers' contents when the region is entered, and at
  any float instance.
-/
import proofs.«400001_j6614249636120_4_alg».proof.Proof.Gen.KernelIdeal.Launch
import proofs.«400001_j6614249636120_4_alg».proof.Proof.Gen.KernelIdeal.Skeleton
import proofs.«400001_j6614249636120_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## Region 0: the windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch: the accumulators are reset where the second grid coordinate is zero -/

/-- The condition of the body's one `scf.if`, from the grid coordinates. -/
abbrev cond0 (i : grid0.Coords) : Prop := (Scalar.cmpi .ne (Scalar.extui (Scalar.cmpi .eq (BitVec.ofNat 32 (i 1).val) 0#32)) 0#32) = 1#1
/-- It holds at the first point of each row of the grid — decided over the grid. -/
theorem hcond0 : ∀ t : Fin cfg0.N, cond0 (grid0.coords t) ↔ t.val % 32 = 0 :=
  (by decide +kernel : ∀ t : Fin grid0.N, cond0 (grid0.coords t) ↔ t.val % 32 = 0)

/-! ## The kernel body on any staging memrefs -/

/-- One staging buffer of output window 3, through which its contents are stated. -/
abbrev VO0_3 : View sig .tc .vmem S8x64x32 .f32 := (Memref.whole cc0_stg3_0 : Memref sig .tc .vmem S8x64x32 .f32).view
/-- One staging buffer of output window 4, through which its contents are stated. -/
abbrev VO0_4 : View sig .tc .vmem S8x64 .f32 := (Memref.whole cc0_stg4_0 : Memref sig .tc .vmem S8x64 .f32).view
abbrev ms0_0 (t : Fin cfg0.N) : Memref sig .tc .vmem S8x2048x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x64x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x64 .f32 := win0_4.stage (cfg0.slots t 4)
abbrev hs0_4 (t : Fin cfg0.N) : (ms0_4 t).IsWhole := hstage0_4 ((cfg0.slots t 4).cast nbuf0_4)

set_option maxHeartbeats 4000000 in
/-- What the body's stores leave in each output's staging memref, as pieces (last first), at a point where the
    accumulators are reset first (the branch taken), with the proof that on whole staging memrefs — the inputs' at their
    contents, the outputs' at anything — the body runs to the continuation holding the inputs' as they were and each
    output's buffer with its pieces written. -/
noncomputable def kernelRun0_A (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : cond0 i)
    (x0 : Vec F S8x2048x32 .f32) (x1 : Vec F S8x2048 .i32) (x2 : Vec F S8x2048 .i32) :
    Σ' (L3 : List (View.Piece (Elt F) S8x64x32 .f32)), { L4 : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__sums_counts_kernel i arg2 harg2 arg3 harg3 arg4 harg4 arg5 harg5 arg6 harg6) K } := by
  refine ⟨?_, ?_, fun E K => ?run⟩
  case run =>
    simp only [cc0__sums_counts_kernel_eq_skeleton]; unfold cc0__sums_counts_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 4000000 in
/-- The same at a point where the branch is not taken: the outputs' buffers at given contents, which the body reads. -/
noncomputable def kernelRun0_B (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : ¬cond0 i)
    (x0 : Vec F S8x2048x32 .f32) (x1 : Vec F S8x2048 .i32) (x2 : Vec F S8x2048 .i32) (xo3 : Vec F S8x64x32 .f32) (xo4 : Vec F S8x64 .f32) :
    Σ' (L3 : List (View.Piece (Elt F) S8x64x32 .f32)), { L4 : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__sums_counts_kernel i arg2 harg2 arg3 harg3 arg4 harg4 arg5 harg5 arg6 harg6) K } := by
  refine ⟨?_, ?_, fun E K => ?run⟩
  case run =>
    simp only [cc0__sums_counts_kernel_eq_skeleton]; unfold cc0__sums_counts_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-! ## The pieces cover each output's block; what each case leaves there -/

theorem cover0_A_3 (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : cond0 i)
    (x0 : Vec F S8x2048x32 .f32) (x1 : Vec F S8x2048 .i32) (x2 : Vec F S8x2048 .i32) (y : S8x64x32.Idx) :
    ∃ pc ∈ (kernelRun0_A c i arg2 harg2 arg3 harg3 arg4 harg4 arg5 harg5 arg6 harg6 hc x0 x1 x2).1, y ∈ pc.1.set :=
  View.cover_of_tiledL (kernelRun0_A c i arg2 harg2 arg3 harg3 arg4 harg4 arg5 harg5 arg6 harg6 hc x0 x1 x2).1 S8x64x32.size (by sl_kernel_rfl) y

/-- What case A leaves in output 3's staging buffer: its pieces read back over junk. -/
def out0_A_3 (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : cond0 i)
    (x0 : Vec F S8x2048x32 .f32) (x1 : Vec F S8x2048 .i32) (x2 : Vec F S8x2048 .i32) : Vec F S8x64x32 .f32 :=
  VO0_3.read (Elt F) (VO0_3.writes (Elt F) VO0_3.junk (kernelRun0_A c i arg2 harg2 arg3 harg3 arg4 harg4 arg5 harg5 arg6 harg6 hc x0 x1 x2).1)

theorem cover0_A_4 (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : cond0 i)
    (x0 : Vec F S8x2048x32 .f32) (x1 : Vec F S8x2048 .i32) (x2 : Vec F S8x2048 .i32) (y : S8x64.Idx) :
    ∃ pc ∈ (kernelRun0_A c i arg2 harg2 arg3 harg3 arg4 harg4 arg5 harg5 arg6 harg6 hc x0 x1 x2).2.1, y ∈ pc.1.set :=
  View.cover_of_tiledL (kernelRun0_A c i arg2 harg2 arg3 harg3 arg4 harg4 arg5 harg5 arg6 harg6 hc x0 x1 x2).2.1 S8x64.size (by sl_kernel_rfl) y

/-- What case A leaves in output 4's staging buffer: its pieces read back over junk. -/
def out0_A_4 (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : cond0 i)
    (x0 : Vec F S8x2048x32 .f32) (x1 : Vec F S8x2048 .i32) (x2 : Vec F S8x2048 .i32) : Vec F S8x64 .f32 :=
  VO0_4.read (Elt F) (VO0_4.writes (Elt F) VO0_4.junk (kernelRun0_A c i arg2 harg2 arg3 harg3 arg4 harg4 arg5 harg5 arg6 harg6 hc x0 x1 x2).2.1)

theorem cover0_B_3 (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : ¬cond0 i)
    (x0 : Vec F S8x2048x32 .f32) (x1 : Vec F S8x2048 .i32) (x2 : Vec F S8x2048 .i32) (xo3 : Vec F S8x64x32 .f32) (xo4 : Vec F S8x64 .f32) (y : S8x64x32.Idx) :
    ∃ pc ∈ (kernelRun0_B c i arg2 harg2 arg3 harg3 arg4 harg4 arg5 harg5 arg6 harg6 hc x0 x1 x2 xo3 xo4).1, y ∈ pc.1.set :=
  View.cover_of_tiledL (kernelRun0_B c i arg2 harg2 arg3 harg3 arg4 harg4 arg5 harg5 arg6 harg6 hc x0 x1 x2 xo3 xo4).1 S8x64x32.size (by sl_kernel_rfl) y

/-- What case B leaves in output 3's staging buffer: its pieces read back over junk. -/
def out0_B_3 (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : ¬cond0 i)
    (x0 : Vec F S8x2048x32 .f32) (x1 : Vec F S8x2048 .i32) (x2 : Vec F S8x2048 .i32) (xo3 : Vec F S8x64x32 .f32) (xo4 : Vec F S8x64 .f32) : Vec F S8x64x32 .f32 :=
  VO0_3.read (Elt F) (VO0_3.writes (Elt F) VO0_3.junk (kernelRun0_B c i arg2 harg2 arg3 harg3 arg4 harg4 arg5 harg5 arg6 harg6 hc x0 x1 x2 xo3 xo4).1)

theorem cover0_B_4 (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : ¬cond0 i)
    (x0 : Vec F S8x2048x32 .f32) (x1 : Vec F S8x2048 .i32) (x2 : Vec F S8x2048 .i32) (xo3 : Vec F S8x64x32 .f32) (xo4 : Vec F S8x64 .f32) (y : S8x64.Idx) :
    ∃ pc ∈ (kernelRun0_B c i arg2 harg2 arg3 harg3 arg4 harg4 arg5 harg5 arg6 harg6 hc x0 x1 x2 xo3 xo4).2.1, y ∈ pc.1.set :=
  View.cover_of_tiledL (kernelRun0_B c i arg2 harg2 arg3 harg3 arg4 harg4 arg5 harg5 arg6 harg6 hc x0 x1 x2 xo3 xo4).2.1 S8x64.size (by sl_kernel_rfl) y

/-- What case B leaves in output 4's staging buffer: its pieces read back over junk. -/
def out0_B_4 (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : ¬cond0 i)
    (x0 : Vec F S8x2048x32 .f32) (x1 : Vec F S8x2048 .i32) (x2 : Vec F S8x2048 .i32) (xo3 : Vec F S8x64x32 .f32) (xo4 : Vec F S8x64 .f32) : Vec F S8x64 .f32 :=
  VO0_4.read (Elt F) (VO0_4.writes (Elt F) VO0_4.junk (kernelRun0_B c i arg2 harg2 arg3 harg3 arg4 harg4 arg5 harg5 arg6 harg6 hc x0 x1 x2 xo3 xo4).2.1)

/-! ## What the outputs hold after each point -/

/-- THE ACCUMULATION. What the outputs' staging buffers hold after the body at position `n`: the reset case at the first
    point of a row, else the accumulating case over what the point before left (the buffers are not written back between). -/
def outsAt0 (c : Dev nD) : (n : ℕ) → n < cfg0.N → Vec F S8x64x32 .f32 × Vec F S8x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0 ⟨0, hn⟩).mpr (Nat.zero_mod _)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 32 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0 ⟨n + 1, hn⟩).mpr h0) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2)

theorem outsAt0_A (c : Dev nD) (t : Fin cfg0.N) (h0 : t.val % 32 = 0) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t) (iblk0 V c 2 t)) := by
  obtain ⟨n, hn⟩ := t
  cases n with
  | zero => exact rfl
  | succ n => exact (dif_pos h0).trans rfl

theorem outsAt0_B (c : Dev nD) (t : Fin cfg0.N) (h0 : ¬t.val % 32 = 0) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2, out0_B_4 c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them; after the body at point `t` each
    input's buffer at its block and the outputs' at `outsAt0`; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
/-- At an accumulating point output 3's current staging buffer holds what the body left at the point before. -/
theorem before0_3_B (c : Dev nD) (t : Fin cfg0.N) (h0 : ¬t.val % 32 = 0) (d) :
    (dat0 V c).before 3 t d = (outsAt0 V c (t.val - 1) (Nat.lt_of_le_of_lt (Nat.sub_le _ _) t.isLt)).1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dat0]
/-- At an accumulating point output 4's current staging buffer holds what the body left at the point before. -/
theorem before0_4_B (c : Dev nD) (t : Fin cfg0.N) (h0 : ¬t.val % 32 = 0) (d) :
    (dat0 V c).before 4 t d = (outsAt0 V c (t.val - 1) (Nat.lt_of_le_of_lt (Nat.sub_le _ _) t.isLt)).2 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1600000 in
/-- The body at any point: the inputs' memrefs hold their blocks; the closed form says which case the point is in; an
    output the accumulating case reads holds what the point before left; so the run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 64 := lt_of_lt_of_eq t.isLt (show cfg0.N = 64 from N_0)
  by_cases h0 : t.val % 32 = 0
  ·
    rw [outsAt0_A V c t h0]
    unfold out0_A_3 out0_A_4; (try dsimp only)
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0 t).mpr h0) (iblk0 V c 0 t) (iblk0 V c 1 t) (iblk0 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _)
  ·
    rw [outsAt0_B V c t h0]
    simp only [before0_3_B V c t h0, before0_4_B V c t h0]
    unfold out0_B_3 out0_B_4; (try dsimp only)
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0 t).mp h)) (iblk0 V c 0 t) (iblk0 V c 1 t) (iblk0 V c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Region1.lean ====
/-
  Region 1 of the kernel's @main (the per-instance pull penalties), as the pipeline library wants it: each window's
  block at a grid point; the one branch of the body (the accumulator is reset at the first point of each row of the
  grid) in closed form; the body's run in each of the two cases, the pieces its stores leave found by the run; what
  the output buffer holds after each point, by recursion on the point (an accumulating point starts from what the
  point before left, since the buffer is written back only at the last point of a row); the proof data; and the
  body obligation at every point. All at a parameter `V`, the buffers' contents when the region is entered, and at
  any float instance.
-/
import proofs.«400001_j6614249636120_4_alg».proof.Proof.Gen.KernelIdeal.Launch
import proofs.«400001_j6614249636120_4_alg».proof.Proof.Gen.KernelIdeal.Skeleton
import proofs.«400001_j6614249636120_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## Region 1: the windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 (the means) is fetched only at the first point of a row, its block index being the row's; between
    fetches the index does not move, so its current staging buffer holds its block at every point all the same. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch: the accumulator is reset where the second grid coordinate is zero -/

/-- The condition of the body's one `scf.if`, from the grid coordinates. -/
abbrev cond1 (i : grid1.Coords) : Prop := (Scalar.cmpi .ne (Scalar.extui (Scalar.cmpi .eq (BitVec.ofNat 32 (i 1).val) 0#32)) 0#32) = 1#1
/-- It holds at the first point of each row of the grid — decided over the grid. -/
theorem hcond1 : ∀ t : Fin cfg1.N, cond1 (grid1.coords t) ↔ t.val % 64 = 0 :=
  (by decide +kernel : ∀ t : Fin grid1.N, cond1 (grid1.coords t) ↔ t.val % 64 = 0)

/-! ## The kernel body on any staging memrefs -/

/-- One staging buffer of output window 4, through which its contents are stated. -/
abbrev VO1_4 : View sig .tc .vmem S8x64 .f32 := (Memref.whole cc1_stg4_0 : Memref sig .tc .vmem S8x64 .f32).view
abbrev ms1_0 (t : Fin cfg1.N) : Memref sig .tc .vmem S8x1024x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x64x32 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x64 .f32 := win1_4.stage (cfg1.slots t 4)
abbrev hs1_4 (t : Fin cfg1.N) : (ms1_4 t).IsWhole := hstage1_4 ((cfg1.slots t 4).cast nbuf1_4)

set_option maxHeartbeats 4000000 in
/-- What the body's stores leave in the output's staging memref, as pieces (last first), at a point where the
    accumulator is reset first (the branch taken), with the proof that on whole staging memrefs — the inputs' at their
    contents, the output's at anything — the body runs to the continuation holding the inputs' as they were and the
    output's buffer with its pieces written. -/
noncomputable def kernelRun1_A (c : Dev nD) (i : grid1.Coords) (arg2 : Memref sig .tc .vmem S8x1024x32 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x64x32 .f32) (harg5 : arg5.IsWhole) (arg6 : Memref sig .tc .vmem S8x64 .f32) (harg6 : arg6.IsWhole) (hc : cond1 i)
    (x0 : Vec F S8x1024x32 .f32) (x1 : Vec F S8x1024 .i32) (x2 : Vec F S8x1024 .i32) (x3 : Vec F S8x64x32 .f32) :
    { L4 : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__pen_kernel i arg2 harg2 arg3 harg3 arg4 harg4 arg5 harg5 arg6 harg6) K } := by
  refine ⟨?_, fun E K => ?run⟩
  case run =>
    simp only [cc1__pen_kernel_eq_skeleton]; unfold cc1__pen_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 4000000 in
/-- The same at a point where the branch is not taken: the output's buffer at given contents, which the body reads. -/
noncomputable def kernelRun1_B (c : Dev nD) (i : grid1.Coords) (arg2 : Memref sig .tc .vmem S8x1024x32 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x64x32 .f32) (harg5 : arg5.IsWhole) (arg6 : Memref sig .tc .vmem S8x64 .f32) (harg6 : arg6.IsWhole) (hc : ¬cond1 i)
    (x0 : Vec F S8x1024x32 .f32) (x1 : Vec F S8x1024 .i32) (x2 : Vec F S8x1024 .i32) (x3 : Vec F S8x64x32 .f32) (xo4 : Vec F S8x64 .f32) :
    { L4 : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__pen_kernel i arg2 harg2 arg3 harg3 arg4 harg4 arg5 harg5 arg6 harg6) K } := by
  refine ⟨?_, fun E K => ?run⟩
  case run =>
    simp only [cc1__pen_kernel_eq_skeleton]; unfold cc1__pen_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-! ## The pieces cover the output's block; what each case leaves there -/

theorem cover1_A_4 (c : Dev nD) (i : grid1.Coords) (arg2 : Memref sig .tc .vmem S8x1024x32 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x64x32 .f32) (harg5 : arg5.IsWhole) (arg6 : Memref sig .tc .vmem S8x64 .f32) (harg6 : arg6.IsWhole) (hc : cond1 i)
    (x0 : Vec F S8x1024x32 .f32) (x1 : Vec F S8x1024 .i32) (x2 : Vec F S8x1024 .i32) (x3 : Vec F S8x64x32 .f32) (y : S8x64.Idx) :
    ∃ pc ∈ (kernelRun1_A c i arg2 harg2 arg3 harg3 arg4 harg4 arg5 harg5 arg6 harg6 hc x0 x1 x2 x3).1, y ∈ pc.1.set :=
  View.cover_of_tiledL (kernelRun1_A c i arg2 harg2 arg3 harg3 arg4 harg4 arg5 harg5 arg6 harg6 hc x0 x1 x2 x3).1 S8x64.size (by sl_kernel_rfl) y

/-- What case A leaves in output 4's staging buffer: its pieces read back over junk. -/
def out1_A_4 (c : Dev nD) (i : grid1.Coords) (arg2 : Memref sig .tc .vmem S8x1024x32 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x64x32 .f32) (harg5 : arg5.IsWhole) (arg6 : Memref sig .tc .vmem S8x64 .f32) (harg6 : arg6.IsWhole) (hc : cond1 i)
    (x0 : Vec F S8x1024x32 .f32) (x1 : Vec F S8x1024 .i32) (x2 : Vec F S8x1024 .i32) (x3 : Vec F S8x64x32 .f32) : Vec F S8x64 .f32 :=
  VO1_4.read (Elt F) (VO1_4.writes (Elt F) VO1_4.junk (kernelRun1_A c i arg2 harg2 arg3 harg3 arg4 harg4 arg5 harg5 arg6 harg6 hc x0 x1 x2 x3).1)

theorem cover1_B_4 (c : Dev nD) (i : grid1.Coords) (arg2 : Memref sig .tc .vmem S8x1024x32 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x64x32 .f32) (harg5 : arg5.IsWhole) (arg6 : Memref sig .tc .vmem S8x64 .f32) (harg6 : arg6.IsWhole) (hc : ¬cond1 i)
    (x0 : Vec F S8x1024x32 .f32) (x1 : Vec F S8x1024 .i32) (x2 : Vec F S8x1024 .i32) (x3 : Vec F S8x64x32 .f32) (xo4 : Vec F S8x64 .f32) (y : S8x64.Idx) :
    ∃ pc ∈ (kernelRun1_B c i arg2 harg2 arg3 harg3 arg4 harg4 arg5 harg5 arg6 harg6 hc x0 x1 x2 x3 xo4).1, y ∈ pc.1.set :=
  View.cover_of_tiledL (kernelRun1_B c i arg2 harg2 arg3 harg3 arg4 harg4 arg5 harg5 arg6 harg6 hc x0 x1 x2 x3 xo4).1 S8x64.size (by sl_kernel_rfl) y

/-- What case B leaves in output 4's staging buffer: its pieces read back over junk. -/
def out1_B_4 (c : Dev nD) (i : grid1.Coords) (arg2 : Memref sig .tc .vmem S8x1024x32 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x64x32 .f32) (harg5 : arg5.IsWhole) (arg6 : Memref sig .tc .vmem S8x64 .f32) (harg6 : arg6.IsWhole) (hc : ¬cond1 i)
    (x0 : Vec F S8x1024x32 .f32) (x1 : Vec F S8x1024 .i32) (x2 : Vec F S8x1024 .i32) (x3 : Vec F S8x64x32 .f32) (xo4 : Vec F S8x64 .f32) : Vec F S8x64 .f32 :=
  VO1_4.read (Elt F) (VO1_4.writes (Elt F) VO1_4.junk (kernelRun1_B c i arg2 harg2 arg3 harg3 arg4 harg4 arg5 harg5 arg6 harg6 hc x0 x1 x2 x3 xo4).1)

/-! ## What the output holds after each point -/

/-- THE ACCUMULATION. What the output's staging buffer holds after the body at position `n`: the reset case at the first
    point of a row, else the accumulating case over what the point before left (the buffer is not written back between). -/
def outsAt1 (c : Dev nD) : (n : ℕ) → n < cfg1.N → Vec F S8x64 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 64 = 0 then
      out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

theorem outsAt1_A (c : Dev nD) (t : Fin cfg1.N) (h0 : t.val % 64 = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1 t).mpr h0) (iblk1 V c 0 t) (iblk1 V c 1 t) (iblk1 V c 2 t) (iblk1 V c 3 t) := by
  obtain ⟨n, hn⟩ := t
  cases n with
  | zero => exact rfl
  | succ n => exact (dif_pos h0).trans rfl

theorem outsAt1_B (c : Dev nD) (t : Fin cfg1.N) (h0 : ¬t.val % 64 = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them; after the body at point `t` each
    input's buffer at its block and the output's at `outsAt1`; the class's invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At an accumulating point output 4's current staging buffer holds what the body left at the point before. -/
theorem before1_4_B (c : Dev nD) (t : Fin cfg1.N) (h0 : ¬t.val % 64 = 0) (d) :
    (dat1 V c).before 4 t d = outsAt1 V c (t.val - 1) (Nat.lt_of_le_of_lt (Nat.sub_le _ _) t.isLt) := by
  have hN : t.val < 128 := lt_of_lt_of_eq t.isLt (show cfg1.N = 128 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' memrefs hold their blocks; the closed form says which case the point is in; the
    output, which the accumulating case reads, holds what the point before left; so the run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 128 := lt_of_lt_of_eq t.isLt (show cfg1.N = 128 from N_1)
  by_cases h0 : t.val % 64 = 0
  ·
    rw [outsAt1_A V c t h0]
    unfold out1_A_4; (try dsimp only)
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _)
  ·
    rw [outsAt1_B V c t h0]
    simp only [before1_4_B V c t h0]
    unfold out1_B_4; (try dsimp only)
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KRun.lean ====
/-
  The kernel program's run. @main is eleven items: a host stretch, region 0, a host stretch, region 1, and seven host
  stretches. Between two items every unscoped buffer of a core is held at a valuation: the launch contents, then
  `StableHlo.after` each host stretch, then — after a region — the region's arrays at what its pipeline's write-backs
  leave (`Dat.arrAt … N`) and every other buffer as the region found it. The two regions are entered from and left
  at these thread states; the launch deals the first one on every core; and the last one, read against the final
  memory, gives the result buffer `main_v104` at the last valuation and the three arguments at their launch contents.
  Any float instance.
-/
import proofs.«400001_j6614249636120_4_alg».proof.Proof.Region0
import proofs.«400001_j6614249636120_4_alg».proof.Proof.Region1
import proofs.«400001_j6614249636120_4_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- Region 0's entry contents: the launch contents after the first host stretch, at the TensorCore's references. -/
abbrev E0 (c : Dev nD) (b : Ref sig .tc) : Buf (Elt F) ((c : Thread nD τ).loc b) := V1 m c b

/-- After region 0: its arrays at what the pipeline leaves, every other buffer as entered. -/
def X2 (c : Dev nD) : Valuation τ sig (Elt F) :=
  Pipeline.withArrays spec0 c (V1 m c) fun w => (dat0 (E0 m) c).arrAt w cfg0.N
theorem X2_arr (c : Dev nD) (w : Fin cfg0.W) :
    X2 m c (Proc.devRef .tc (Pipeline.arrRef spec0 w)) = (dat0 (E0 m) c).arrAt w cfg0.N := by
  unfold X2; exact Pipeline.withArrays_arr spec0 launch0.win.arr_inj c _ _ w

/-- What region 0 leaves, as a family of buffer contents (read only at region 0's two results). -/
def outs2 : Outs (F := F) := fun _ r c => X2 m c r

/-- Region 1's entry contents: after the second host stretch. -/
abbrev E1 (c : Dev nD) (b : Ref sig .tc) : Buf (Elt F) ((c : Thread nD τ).loc b) := V3 m (outs2 m) c b

/-- After region 1. -/
def X4 (c : Dev nD) : Valuation τ sig (Elt F) :=
  Pipeline.withArrays spec1 c (V3 m (outs2 m) c) fun w => (dat1 (E1 m) c).arrAt w cfg1.N
theorem X4_arr (c : Dev nD) (w : Fin cfg1.W) :
    X4 m c (Proc.devRef .tc (Pipeline.arrRef spec1 w)) = (dat1 (E1 m) c).arrAt w cfg1.N := by
  unfold X4; exact Pipeline.withArrays_arr spec1 launch1.win.arr_inj c _ _ w

/-- What the two regions leave: region 0's results after item 1, region 1's after item 3. -/
def outsK : Outs (F := F) := fun J r c => match J with | 2 => X2 m c r | _ => X4 m c r

theorem outsK_2 (r : Ref sig .tc) (c : Dev nD) : outsK m 2 r c = X2 m c r := rfl
theorem outsK_4 (r : Ref sig .tc) (c : Dev nD) : outsK m 4 r c = X4 m c r := rfl
/-- The valuations up to region 1's entry see only region 0's results. -/
theorem V2_outsK (c : Dev nD) : V2 m (outsK m) c = V2 m (outs2 m) c := rfl
theorem V3_outsK (c : Dev nD) : V3 m (outsK m) c = V3 m (outs2 m) c := rfl

/-- What region 0 leaves, by name: the per-instance sums and counts. -/
theorem outsK_v1_0 (c : Dev nD) : outsK m 2 main_v1_0 c = (dat0 (E0 m) c).arrAt 3 cfg0.N := X2_arr m c 3
theorem outsK_v1_1 (c : Dev nD) : outsK m 2 main_v1_1 c = (dat0 (E0 m) c).arrAt 4 cfg0.N := X2_arr m c 4
/-- What region 1 leaves: the per-instance penalties. -/
theorem outsK_v15 (c : Dev nD) : outsK m 4 main_v15 c = (dat1 (E1 m) c).arrAt 4 cfg1.N := X4_arr m c 4

/-! ## Each region's arrays at its exit valuation; every other buffer as entered -/

/-- Region 0's and region 1's exit contents, at the TensorCore's references. -/
abbrev E2 (c : Dev nD) (b : Ref sig .tc) : Buf (Elt F) ((c : Thread nD τ).loc b) := V2 m (outsK m) c b
abbrev E4 (c : Dev nD) (b : Ref sig .tc) : Buf (Elt F) ((c : Thread nD τ).loc b) := V4 m (outsK m) c b

theorem hF0 (c : Dev nD) (w : Fin cfg0.W) : (dat0 (E0 m) c).arrAt w cfg0.N = E2 m c (Pipeline.arrRef spec0 w) :=
  match w with
  | ⟨0, _⟩ => ((dat0 (E0 m) c).arrAt_in 0 rfl _).trans ((A_eq0 (E0 m) c 0).trans (V2_of m (outsK m) c main_arg0 (by decide)).symm)
  | ⟨1, _⟩ => ((dat0 (E0 m) c).arrAt_in 1 rfl _).trans ((A_eq0 (E0 m) c 1).trans (V2_of m (outsK m) c main_arg1 (by decide)).symm)
  | ⟨2, _⟩ => ((dat0 (E0 m) c).arrAt_in 2 rfl _).trans ((A_eq0 (E0 m) c 2).trans (V2_of m (outsK m) c main_v0 (by decide)).symm)
  | ⟨3, _⟩ => by
    show _ = Function.update (Function.update (V1 m c) main_v1_0 (outsK m 2 main_v1_0 c)) main_v1_1 (outsK m 2 main_v1_1 c) main_v1_0
    rw [Function.update_of_ne (StableHlo.devRef_ne_of_ne (by decide) : (Proc.devRef .tc main_v1_0 : DevRef τ sig) ≠ Proc.devRef .tc main_v1_1), Function.update_self]
    exact (X2_arr m c 3).symm
  | ⟨4, _⟩ => by
    show _ = Function.update (Function.update (V1 m c) main_v1_0 (outsK m 2 main_v1_0 c)) main_v1_1 (outsK m 2 main_v1_1 c) main_v1_1
    rw [Function.update_self]
    exact (X2_arr m c 4).symm

theorem hrest0 (c : Dev nD) : ∀ b, b ∉ Finset.univ.image (Pipeline.arrRef spec0) → E2 m c b = E0 m c b :=
  fun b hb => V2_of m (outsK m) c b fun hmem => by
    simp only [List.mem_cons, List.not_mem_nil, or_false] at hmem
    rcases hmem with rfl | rfl
    · exact hb (Finset.mem_image.mpr ⟨3, Finset.mem_univ _, rfl⟩)
    · exact hb (Finset.mem_image.mpr ⟨4, Finset.mem_univ _, rfl⟩)

theorem hF1 (c : Dev nD) (w : Fin cfg1.W) : (dat1 (E1 m) c).arrAt w cfg1.N = E4 m c (Pipeline.arrRef spec1 w) :=
  match w with
  | ⟨0, _⟩ => ((dat1 (E1 m) c).arrAt_in 0 rfl _).trans ((A_eq1 (E1 m) c 0).trans (V4_of m (outsK m) c main_arg0 (by decide)).symm)
  | ⟨1, _⟩ => ((dat1 (E1 m) c).arrAt_in 1 rfl _).trans ((A_eq1 (E1 m) c 1).trans (V4_of m (outsK m) c main_arg1 (by decide)).symm)
  | ⟨2, _⟩ => ((dat1 (E1 m) c).arrAt_in 2 rfl _).trans ((A_eq1 (E1 m) c 2).trans (V4_of m (outsK m) c main_v0 (by decide)).symm)
  | ⟨3, _⟩ => ((dat1 (E1 m) c).arrAt_in 3 rfl _).trans ((A_eq1 (E1 m) c 3).trans (V4_of m (outsK m) c main_v6 (by decide)).symm)
  | ⟨4, _⟩ => by
    show _ = Function.update (V3 m (outsK m) c) main_v15 (outsK m 4 main_v15 c) main_v15
    rw [Function.update_self]
    exact (X4_arr m c 4).symm

theorem hrest1 (c : Dev nD) : ∀ b, b ∉ Finset.univ.image (Pipeline.arrRef spec1) → E4 m c b = E1 m c b :=
  fun b hb => V4_of m (outsK m) c b fun hmem => by
    simp only [List.mem_cons, List.not_mem_nil, or_false] at hmem
    subst hmem
    exact hb (Finset.mem_image.mpr ⟨4, Finset.mem_univ _, rfl⟩)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

/-- No core owes another anything: no level is assigned. -/
abbrev Lz : GSem nD τ sig → Finset Unit := fun _ => ∅
abbrev lvz : GSem nD τ sig → Unit → ℕ := fun _ _ => 0
/-- What rides beside the buffers through every item: the core's generator register at some state and its debts, none. -/
abbrev Rz (c : Dev nD) : sProp 𝕄 := iprop((∃ r, prngReg c r) ∗ ∃ W, owes (c : Thread nD τ) (0 : CellTallies nD τ sig Unit) W)

set_option backward.isDefEq.respectTransparency.types false in
/-- Region 0 over the thread state: its arrays split out of the unscoped buffers at entry and put back at the exit
    contents; the generator register into the class's invariant and out; nothing owed; no semaphore of its own. -/
def reg0 : RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ Lz lvz 0 fun _ _ => rfl
  pre c := iprop(StableHlo.held (c : Thread nD τ) (Pipeline.ucRefs τ sig) (V1 m c) ∗ Rz c)
  post c := iprop(StableHlo.held (c : Thread nD τ) (Pipeline.ucRefs τ sig) (V2 m (outsK m) c) ∗ Rz c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at entry and put back at the exit
    contents; the generator register into the class's invariant and out; nothing owed; no semaphore of its own. -/
def reg1 : RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ Lz lvz 1 fun _ _ => rfl
  pre c := iprop(StableHlo.held (c : Thread nD τ) (Pipeline.ucRefs τ sig) (V3 m (outs2 m) c) ∗ Rz c)
  post c := iprop(StableHlo.held (c : Thread nD τ) (Pipeline.ucRefs τ sig) (V4 m (outsK m) c) ∗ Rz c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch and the run -/

/-- The launch element of the pipelines' staging cells. -/
abbrev u0 : UR sig nD τ := initOf (Pipeline.cells cfgs cellOf_inj) (Pipeline.launchToks cfgs cellOf_inj)

theorem hu0 : (ownU (u0 : UR sig nD τ) : sProp 𝕄) ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes the riding state on every core at once. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lz lvz)
      ⊢ (|={Set.univ}=> bigSep Finset.univ (fun c : Dev nD => Rz c) : sProp 𝕄) := by
  refine Pipeline.initEach Lz lvz fun c => ?_
  iintro ⟨⟨-, HO, -, Hp, -⟩, -⟩
  imodintro
  isplitl [Hp]; · iexists _; iexact Hp
  iexists ∅; iexact HO

set_option backward.isDefEq.respectTransparency.types false in
/-- THE RUN. From any memory with zero counters every weakly fair execution of @main terminates, and every final
    memory holds the result buffer at the last valuation (the host tail applied to what the regions left) and each
    argument as launched. -/
theorem run_main : θ_run defs (onTc (τ := τ) (main (F := F))) ⟨m, fun _ => 0, ρ⟩ (fun r => ∀ c : Dev nD,
      r.2.mem ((c.tc : Thread nD τ).loc main_v104) = V11 m (outsK m) c main_v104
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm (pdats m) () cellOf_inj emb₁ defs₀ Variants.none Lz lvz m ρ main
    (segs m (outsK m) Variants.none Lz lvz (fun _ c => Rz c) () (pdats m) (reg0 m) (reg1 m))
    (fun c Q => by
      rewrite [main_chain c, Seg.run_eq_chain,
        show (segs m (outsK m) Variants.none Lz lvz (fun _ c => Rz c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6 ] from rfl]
      exact .rfl)
    (fun c => by simp only [segs, Seg.pipes_host, Seg.pipes_region, Seg.pipes_nil]; decide) (0 : Dev nD → CellTallies nD τ sig Unit) (fun _ _ => rfl) (fun _ => (BI.emp : sProp 𝕄)) u0 hu0
    (T₀ := fun c => iprop(StableHlo.held (c : Thread nD τ) (Pipeline.ucRefs τ sig) (V0 m c) ∗ Rz c))
    (Tₙ := fun c => StableHlo.held (c : Thread nD τ) (Pipeline.ucRefs τ sig) (V11 m (outsK m) c))
    (hch := fun c => ⟨.rfl, .rfl, .rfl, .rfl, .rfl, .rfl, .rfl, .rfl, .rfl, .rfl, .rfl, sep_mono .rfl (by iintro ⟨-, H⟩; iexact H)⟩)
    (hinit := ?_) (QY := fun c s => s.mem ((c.tc : Thread nD τ).loc main_v104) = V11 m (outsK m) c main_v104 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · -- the launch: the unscoped buffers are held at the launch contents; the rest makes the riding state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (fun c : Dev nD => Rz c)]
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (V11 m (outsK m) c) s') $$ [Hh HSI]
    · isplitl [Hh] <;> iassumption
    icases Hr with ⟨%h, HSI⟩
    imodintro
    isplitr
    · ipureintro
      exact ⟨h (Proc.devRef .tc main_v104) (Finset.mem_filter.mpr ⟨StableHlo.devRef_mem_tcRefs main_v104, by decide⟩),
        (h (Proc.devRef .tc main_arg0) (Finset.mem_filter.mpr ⟨StableHlo.devRef_mem_tcRefs main_arg0, by decide⟩)).trans (V11_main_arg0 m (outsK m) c),
        (h (Proc.devRef .tc main_arg1) (Finset.mem_filter.mpr ⟨StableHlo.devRef_mem_tcRefs main_arg1, by decide⟩)).trans (V11_main_arg1 m (outsK m) c),
        (h (Proc.devRef .tc main_arg2) (Finset.mem_filter.mpr ⟨StableHlo.devRef_mem_tcRefs main_arg2, by decide⟩)).trans (V11_main_arg2 m (outsK m) c)⟩
    · iexact HSI

/-- THE FRAME: every execution terminates and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Hand

end
-- ==== Proof.Spec.lean ====
/-
  The segment reductions both programs compute, as plain sums over the points of one batch element.

  A point `n` of batch element `b` BELONGS to instance `k` when its mask bit is set and its instance id is the
  word `k` (a word that is `k < 64` is non-negative, so the id's sign test is implied). The three reduced
  arrays are then: the sum of the embeddings of the points that belong to `(b, k)`; their number; and the sum
  of a per-point quantity over them.
-/
import Idealize.ShloMosaic.PureOps.Ideal
import Idealize.ShloMosaic.Lib.ValueIdx

noncomputable section

open scoped BigOperators

namespace Cert.Spec

open Idealize.ShloMosaic Idealize.ShloMosaic.ValueIdx

/-- The embeddings' shape `[16, 65536, 32]` and the ids' and mask's shape `[16, 65536]`. -/
abbrev SE : Shape := ⟨3, ![16, 65536, 32]⟩
abbrev SI : Shape := ⟨2, ![16, 65536]⟩

/-- Point `n` of batch element `b` belongs to instance `k`: its mask bit is set and its id is the word `k`. -/
def Hit (ids : IVec SI 32) (msk : IVec SI 1) (b : Fin 16) (n : Fin 65536) (k : Fin 64) : Prop :=
  msk (ix2 b n) = 1#1 ∧ ids (ix2 b n) = BitVec.ofNat 32 k.val

instance (ids : IVec SI 32) (msk : IVec SI 1) (b : Fin 16) (n : Fin 65536) (k : Fin 64) : Decidable (Hit ids msk b n k) := by
  unfold Hit; infer_instance

/-- The sum over the points that belong to `(b, k)` of a per-point extended real. -/
def segSum (ids : IVec SI 32) (msk : IVec SI 1) (pt : Fin 16 → Fin 65536 → EReal) (b : Fin 16) (k : Fin 64) : EReal :=
  ∑ n : Fin 65536, if Hit ids msk b n k then pt b n else 0

/-- Per-instance sums of the embeddings, coordinate `d`. -/
def sums (emb : FVec Ideal SE .f32) (ids : IVec SI 32) (msk : IVec SI 1) (b : Fin 16) (k : Fin 64) (d : Fin 32) : EReal :=
  segSum ids msk (fun b n => emb (ix3 b n d)) b k

/-- Per-instance counts. -/
def counts (ids : IVec SI 32) (msk : IVec SI 1) (b : Fin 16) (k : Fin 64) : EReal :=
  segSum ids msk (fun _ _ => 1) b k

/-! ## The pull penalty of one point

  A point's penalty is a function of its squared distance `sq` to its instance's mean: with `g` the bit
  "`sq` is positive", the distance is `√(sq if g else 1) · g`, and the penalty `max (distance − ½) 0` squared.
  The three constants are kept as the words both programs print. -/

/-- A condition bit as a number: one when set, zero when clear. -/
def bit01 (b : BitVec 1) : EReal := if b = 1#1 then 1 else 0

/-- "The squared distance is positive", as the comparison's bit. -/
def gate (sq : EReal) : BitVec 1 := Ideal.cmp .ogt sq (Ideal.ofBits .f32 0x00000000#32)

/-- The penalty of a point at squared distance `sq` from its mean. -/
def penOfSq (sq : EReal) : EReal :=
  max (Ideal.sqrt (Scalar.select (gate sq) sq (Ideal.ofBits .f32 0x3F800000#32)) * bit01 (gate sq) - Ideal.ofBits .f32 0x3F000000#32)
      (Ideal.ofBits .f32 0x00000000#32)
    * max (Ideal.sqrt (Scalar.select (gate sq) sq (Ideal.ofBits .f32 0x3F800000#32)) * bit01 (gate sq) - Ideal.ofBits .f32 0x3F000000#32)
      (Ideal.ofBits .f32 0x00000000#32)

/-- The squared distance between a point `x` and a mean `g`, over the 32 coordinates. -/
def sqDist (x g : Fin 32 → EReal) : EReal := ∑ d : Fin 32, (x d - g d) * (x d - g d)

/-- The penalty of the point `x` against the mean `g`. -/
def penPt (x g : Fin 32 → EReal) : EReal := penOfSq (sqDist x g)

/-- The quotient both programs form of a per-instance sum by the instance's count, floored at one. -/
def perCount (s c : EReal) : EReal := Ideal.div s (max c (Ideal.ofBits .f32 0x3F800000#32))

end Cert.Spec

end
-- ==== Proof.KTail.lean ====
/-
  The host operations of the kernel program's @main, as pure functions of the values they read.

  Between the two kernel regions and after the second one the program computes on whole arrays: it widens the
  mask to words, divides the per-instance sums by the per-instance counts floored at one (the means), tests which
  instances are present, divides the per-instance penalties by the same floored counts, and reduces everything to
  the four numbers of the result. This module states each of these as a closed term over the arrays the regions
  leave, at any float instance, and proves that the buffers' contents after each stretch of host operations are
  these terms.
-/
import proofs.«400001_j6614249636120_4_alg».proof.Proof.Gen.KernelIdeal.Launch
import proofs.«400001_j6614249636120_4_alg».proof.Proof.Gen.KernelIdeal.Regions
import Idealize.ShloMosaic.Lib.StableHlo.Run
import Idealize.ShloMosaic.Lib.ValueIdx
import Idealize.ShloMosaic.Lib.Pipeline.Value
import proofs.«400001_j6614249636120_4_alg».proof.Proof.Spec

set_option maxRecDepth 16384

noncomputable section

namespace Cert.KernelIdeal.KTail

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ) (outs : Outs (F := F)) (c : Dev nD)

/-! ## The mask widened to words -/

/-- The first host operation writes the mask's bits zero-extended to 32-bit words. -/
theorem v0_eq : (V1 m c main_v0 : S16x65536.Idx → BitVec 32)
    = extui 32 (m ((c : Thread nD τ).loc main_arg2) : S16x65536.Idx → BitVec 1) natLt_1_32 := by
  show StableHlo.after hostOps0 (V0 m c) (Proc.devRef .tc main_v0) = _
  after_results

/-- A zero-extended bit is a nonzero word exactly when the bit is set. -/
theorem setWidth_ne_zero_iff (b : BitVec 1) : b.setWidth 32 ≠ 0#32 ↔ b = 1#1 := by
  revert b; decide

/-- The widened mask is nonzero at an index exactly where the mask's bit is set. -/
theorem v0_ne_zero_iff (j : S16x65536.Idx) :
    (V1 m c main_v0 : S16x65536.Idx → BitVec 32) j ≠ 0#32
      ↔ (m ((c : Thread nD τ).loc main_arg2) : S16x65536.Idx → BitVec 1) j = 1#1 := by
  rw [v0_eq, extui_apply]; exact setWidth_ne_zero_iff _

/-! ## The arguments and the widened mask reach both regions unchanged -/

theorem arg0_V1 : V1 m c main_arg0 = m ((c : Thread nD τ).loc main_arg0) := V1_of m c main_arg0 (by decide)
theorem arg1_V1 : V1 m c main_arg1 = m ((c : Thread nD τ).loc main_arg1) := V1_of m c main_arg1 (by decide)
theorem arg0_V3 : V3 m outs c main_arg0 = m ((c : Thread nD τ).loc main_arg0) :=
  (V3_of m outs c main_arg0 (by decide)).trans <| (V2_of m outs c main_arg0 (by decide)).trans (arg0_V1 m c)
theorem arg1_V3 : V3 m outs c main_arg1 = m ((c : Thread nD τ).loc main_arg1) :=
  (V3_of m outs c main_arg1 (by decide)).trans <| (V2_of m outs c main_arg1 (by decide)).trans (arg1_V1 m c)
theorem v0_V3 : V3 m outs c main_v0 = V1 m c main_v0 :=
  (V3_of m outs c main_v0 (by decide)).trans (V2_of m outs c main_v0 (by decide))

/-! ## The seams: what the host forms of the regions' outputs

  `S` is the array of per-instance sums, `C` the per-instance counts and `P` the per-instance penalties. -/

/-- The means: the sums divided by the counts floored at one, the floor broadcast along the 32 coordinates. -/
def seamMeans (S : FVec F S16x64x32 .f32) (C : FVec F S16x64 .f32) : FVec F S16x64x32 .f32 :=
  Host.divf S
    (broadcastInDim S16x64x32 ![0, 1, 2] bcast_S16x64x1_S16x64x32_0_1_2
      (broadcastInDim S16x64x1 ![0, 1] bcast_S16x64_S16x64x1_0_1
        (maximumf C (broadcastInDim S16x64 ![] bcast_S_S16x64 (constant (F := F) S_ .f32 0x3F800000#32)))))

/-- An instance is present when its count is positive. -/
def seamPresent (C : FVec F S16x64 .f32) : IVec S16x64 1 :=
  cmpf (F := F) .ogt C (broadcastInDim S16x64 ![] bcast_S_S16x64 (constant (F := F) S_ .f32 0x00000000#32))

/-- The per-instance penalties divided by the counts floored at one. -/
def seamPn (P C : FVec F S16x64 .f32) : FVec F S16x64 .f32 :=
  Host.divf P (maximumf C (broadcastInDim S16x64 ![] bcast_S_S16x64 (constant (F := F) S_ .f32 0x3F800000#32)))

/-! ## The tail: everything the host computes of the three seams -/

/-- The number of present instances of each batch element, counted in words and converted to a float. -/
def nInst (present : IVec S16x64 1) : FVec F S16 .f32 :=
  sitofp (F := F) .f32
    (Host.reduce IntOp.addi (extui 32 present natLt_1_32) (constantI S_ 32 0#32) reducesTo_S16x64_S16_d1 h_S_)

/-- A batch element counts for the push term when it has at least two present instances: the bit, as a float. -/
def valid (present : IVec S16x64 1) : FVec F S16 .f32 :=
  uitofp (F := F) .f32
    (cmpf (F := F) .oge (nInst (F := F) present) (broadcastInDim S16 ![] bcast_S_S16 (constant (F := F) S_ .f32 0x40000000#32)))

/-- The pull term of each batch element: the normalised penalties of the present instances, summed, over the
    number of present instances floored at one. -/
def pullB (present : IVec S16x64 1) (pn : FVec F S16x64 .f32) : FVec F S16 .f32 :=
  Host.divf
    (Host.reduceAdd (mulf pn (uitofp (F := F) .f32 present)) (constant (F := F) S_ .f32 0x00000000#32) reducesTo_S16x64_S16_d1 h_S_)
    (maximumf (nInst (F := F) present) (broadcastInDim S16 ![] bcast_S_S16 (constant (F := F) S_ .f32 0x3F800000#32)))

/-- The squared distance between every two means of a batch element. -/
def sqMM (means3 : FVec F S16x64x32 .f32) : FVec F S16x64x64 .f32 :=
  Host.reduceAdd
    (mulf
      (subf
        (broadcastInDim S16x64x64x32 ![0, 1, 2, 3] bcast_S16x64x1x32_S16x64x64x32_0_1_2_3
          (broadcastInDim S16x64x1x32 ![0, 1, 3] bcast_S16x64x32_S16x64x1x32_0_1_3 means3))
        (broadcastInDim S16x64x64x32 ![0, 1, 2, 3] bcast_S16x1x64x32_S16x64x64x32_0_1_2_3
          (broadcastInDim S16x1x64x32 ![0, 2, 3] bcast_S16x64x32_S16x1x64x32_0_2_3 means3)))
      (subf
        (broadcastInDim S16x64x64x32 ![0, 1, 2, 3] bcast_S16x64x1x32_S16x64x64x32_0_1_2_3
          (broadcastInDim S16x64x1x32 ![0, 1, 3] bcast_S16x64x32_S16x64x1x32_0_1_3 means3))
        (broadcastInDim S16x64x64x32 ![0, 1, 2, 3] bcast_S16x1x64x32_S16x64x64x32_0_1_2_3
          (broadcastInDim S16x1x64x32 ![0, 2, 3] bcast_S16x64x32_S16x1x64x32_0_2_3 means3))))
    (constant (F := F) S_ .f32 0x00000000#32) reducesTo_S16x64x64x32_S16x64x64_d3 h_S_

/-- The pairs of instances that enter the push term: both present, the first index below the second. -/
def pairMask (present : IVec S16x64 1) : IVec S16x64x64 1 :=
  andi
    (andi
      (broadcastInDim S16x64x64 ![0, 1, 2] bcast_S16x64x1_S16x64x64_0_1_2
        (broadcastInDim S16x64x1 ![0, 1] bcast_S16x64_S16x64x1_0_1 present))
      (broadcastInDim S16x64x64 ![0, 1, 2] bcast_S16x1x64_S16x64x64_0_1_2
        (broadcastInDim S16x1x64 ![0, 2] bcast_S16x64_S16x1x64_0_2 present)))
    (broadcastInDim S16x64x64 ![0, 1, 2] bcast_S1x64x64_S16x64x64_0_1_2
      (broadcastInDim S1x64x64 ![1, 2] bcast_S64x64_S1x64x64_1_2
        (cmpi .slt
          (broadcastInDim S64x64 ![0, 1] bcast_S64x1_S64x64_0_1 (broadcastInDim S64x1 ![0] bcast_S64_S64x1_0 (iotaInDim S64 32 0)))
          (broadcastInDim S64x64 ![0, 1] bcast_S1x64_S64x64_0_1 (broadcastInDim S1x64 ![1] bcast_S64_S1x64_1 (iotaInDim S64 32 0))))))

/-- The squared distances of the pairs that enter, one elsewhere. -/
def sqPair (means3 : FVec F S16x64x32 .f32) (present : IVec S16x64 1) : FVec F S16x64x64 .f32 :=
  select (pairMask present) (sqMM means3)
    (broadcastInDim S16x64x64 ![] bcast_S_S16x64x64 (constant (F := F) S_ .f32 0x3F800000#32))

/-- Where that squared distance is positive. -/
def pairPos (means3 : FVec F S16x64x32 .f32) (present : IVec S16x64 1) : IVec S16x64x64 1 :=
  cmpf (F := F) .ogt (sqPair means3 present)
    (broadcastInDim S16x64x64 ![] bcast_S_S16x64x64 (constant (F := F) S_ .f32 0x00000000#32))

/-- The squared distance where it is positive, one elsewhere: what the square root is taken of. -/
def sqSafe (means3 : FVec F S16x64x32 .f32) (present : IVec S16x64 1) : FVec F S16x64x64 .f32 :=
  select (pairPos means3 present) (sqPair means3 present)
    (broadcastInDim S16x64x64 ![] bcast_S_S16x64x64 (constant (F := F) S_ .f32 0x3F800000#32))

/-- The push penalty of every pair: the margin three less the distance, floored at zero, squared, and kept for the
    pairs that enter. -/
def pushPair (means3 : FVec F S16x64x32 .f32) (present : IVec S16x64 1) : FVec F S16x64x64 .f32 :=
  mulf
    (mulf
      (maximumf
        (subf (broadcastInDim S16x64x64 ![] bcast_S_S16x64x64 (constant (F := F) S_ .f32 0x40400000#32))
          (mulf (mulf (Host.sqrt (sqSafe means3 present)) (uitofp (F := F) .f32 (pairPos means3 present)))
            (uitofp (F := F) .f32 (pairMask present))))
        (broadcastInDim S16x64x64 ![] bcast_S_S16x64x64 (constant (F := F) S_ .f32 0x00000000#32)))
      (maximumf
        (subf (broadcastInDim S16x64x64 ![] bcast_S_S16x64x64 (constant (F := F) S_ .f32 0x40400000#32))
          (mulf (mulf (Host.sqrt (sqSafe means3 present)) (uitofp (F := F) .f32 (pairPos means3 present)))
            (uitofp (F := F) .f32 (pairMask present))))
        (broadcastInDim S16x64x64 ![] bcast_S_S16x64x64 (constant (F := F) S_ .f32 0x00000000#32))))
    (uitofp (F := F) .f32 (pairMask present))

/-- The push term of each batch element: the pairs' penalties summed, over the number of pairs floored at one. -/
def pushB (means3 : FVec F S16x64x32 .f32) (present : IVec S16x64 1) : FVec F S16 .f32 :=
  Host.divf
    (Host.reduceAdd (pushPair means3 present) (constant (F := F) S_ .f32 0x00000000#32) reducesTo_S16x64x64_S16_d1_2 h_S_)
    (maximumf
      (Host.divf
        (mulf (nInst (F := F) present)
          (subf (nInst (F := F) present) (broadcastInDim S16 ![] bcast_S_S16 (constant (F := F) S_ .f32 0x3F800000#32))))
        (broadcastInDim S16 ![] bcast_S_S16 (constant (F := F) S_ .f32 0x40000000#32)))
      (broadcastInDim S16 ![] bcast_S_S16 (constant (F := F) S_ .f32 0x3F800000#32)))

/-- The squared norm of every mean. -/
def normSq (means3 : FVec F S16x64x32 .f32) : FVec F S16x64 .f32 :=
  Host.reduceAdd (mulf means3 means3) (constant (F := F) S_ .f32 0x00000000#32) reducesTo_S16x64x32_S16x64_d2 h_S_

/-- Where a mean's squared norm is positive. -/
def normPos (means3 : FVec F S16x64x32 .f32) : IVec S16x64 1 :=
  cmpf (F := F) .ogt (normSq means3) (broadcastInDim S16x64 ![] bcast_S_S16x64 (constant (F := F) S_ .f32 0x00000000#32))

/-- The squared norm where it is positive, one elsewhere. -/
def normSafe (means3 : FVec F S16x64x32 .f32) : FVec F S16x64 .f32 :=
  select (normPos means3) (normSq means3)
    (broadcastInDim S16x64 ![] bcast_S_S16x64 (constant (F := F) S_ .f32 0x3F800000#32))

/-- The regularisation term of each batch element: the norms of the present instances' means, summed, over the
    number of present instances floored at one. -/
def regB (means3 : FVec F S16x64x32 .f32) (present : IVec S16x64 1) : FVec F S16 .f32 :=
  Host.divf
    (Host.reduceAdd
      (mulf (mulf (Host.sqrt (normSafe means3)) (uitofp (F := F) .f32 (normPos means3))) (uitofp (F := F) .f32 present))
      (constant (F := F) S_ .f32 0x00000000#32) reducesTo_S16x64_S16_d1 h_S_)
    (maximumf (nInst (F := F) present) (broadcastInDim S16 ![] bcast_S_S16 (constant (F := F) S_ .f32 0x3F800000#32)))

/-- The number of batch elements that count, floored at one. -/
def nValid (present : IVec S16x64 1) : FVec F S_ .f32 :=
  maximumf
    (Host.reduceAdd (valid (F := F) present) (constant (F := F) S_ .f32 0x00000000#32) reducesTo_S16_S_d0 h_S_)
    (constant (F := F) S_ .f32 0x3F800000#32)

/-- A per-batch-element term averaged over the batch elements that count. -/
def avgValid (present : IVec S16x64 1) (x : FVec F S16 .f32) : FVec F S_ .f32 :=
  Host.divf
    (Host.reduceAdd (mulf x (valid (F := F) present)) (constant (F := F) S_ .f32 0x00000000#32) reducesTo_S16_S_d0 h_S_)
    (nValid (F := F) present)

/-- The four numbers of the result: the total loss (pull and push with weight one, the regulariser with weight one
    thousandth), then the pull, the push and the regularisation terms. -/
def tail3 (means3 : FVec F S16x64x32 .f32) (present : IVec S16x64 1) (pn : FVec F S16x64 .f32) : FVec F S4 .f32 :=
  concatenate S4 0
    [⟨S1, broadcastInDim S1 ![] bcast_S_S1
        (addf
          (addf
            (mulf (constant (F := F) S_ .f32 0x3F800000#32) (avgValid present (pullB present pn)))
            (mulf (constant (F := F) S_ .f32 0x3F800000#32) (avgValid present (pushB means3 present))))
          (mulf (constant (F := F) S_ .f32 0x3A83126F#32) (avgValid present (regB means3 present))))⟩,
     ⟨S1, broadcastInDim S1 ![] bcast_S_S1 (avgValid present (pullB present pn))⟩,
     ⟨S1, broadcastInDim S1 ![] bcast_S_S1 (avgValid present (pushB means3 present))⟩,
     ⟨S1, broadcastInDim S1 ![] bcast_S_S1 (avgValid present (regB means3 present))⟩]
    concatenates_S1_S1_S1_S1_S4_d0

/-! ## The seams read at an index, over the extended reals -/

section AtIdeal

/-- A coordinate of a mean is the sum's coordinate over the instance's count floored at one. -/
theorem seamMeans_apply (S : FVec Ideal S16x64x32 .f32) (C : FVec Ideal S16x64 .f32) (b : Fin 16) (k : Fin 64) (d : Fin 32) :
    seamMeans S C (ix3 b k d) = Cert.Spec.perCount (S (ix3 b k d)) (C (ix2 b k)) := by
  unfold seamMeans Cert.Spec.perCount
  show Ideal.div (S (ix3 b k d)) _ = _
  rw [broadcastInDim_apply _ _ _ (ix3 b k d) (ix3 b k (0 : Fin 1))
      (fun a => by match a with | ⟨0, _⟩ => rfl | ⟨1, _⟩ => rfl | ⟨2, _⟩ => rfl),
    broadcastInDim_apply _ _ _ (ix3 b k (0 : Fin 1)) (ix2 b k)
      (fun a => by match a with | ⟨0, _⟩ => rfl | ⟨1, _⟩ => rfl)]
  rfl

/-- An instance's presence bit is the comparison of its count with zero. -/
theorem seamPresent_apply (C : FVec Ideal S16x64 .f32) (b : Fin 16) (k : Fin 64) :
    seamPresent C (ix2 b k) = Ideal.cmp .ogt (C (ix2 b k)) (Ideal.ofBits .f32 0x00000000#32) := rfl

/-- An instance's normalised penalty is its penalty over its count floored at one. -/
theorem seamPn_apply (P C : FVec Ideal S16x64 .f32) (b : Fin 16) (k : Fin 64) :
    seamPn P C (ix2 b k) = Cert.Spec.perCount (P (ix2 b k)) (C (ix2 b k)) := rfl

end AtIdeal

/-! ## The stretches of host operations, each at an arbitrary valuation

  What a stretch leaves in a buffer it writes, as a term over what the valuation it starts from holds in the
  buffers the stretch reads. -/

section Stretch
variable (W : Valuation τ sig (Elt F))

/-- Between the regions: the means. -/
theorem h1_v6 {S : FVec F S16x64x32 .f32} {C : FVec F S16x64 .f32}
    (hS : W (Proc.devRef .tc main_v1_0) = S) (hC : W (Proc.devRef .tc main_v1_1) = C) :
    (StableHlo.after hostOps1 W (Proc.devRef .tc main_v6) : FVec F S16x64x32 .f32) = seamMeans S C := by
  subst hS hC; after_results; rfl

/-- Between the regions: which instances are present. -/
theorem h1_v8 {C : FVec F S16x64 .f32} (hC : W (Proc.devRef .tc main_v1_1) = C) :
    (StableHlo.after hostOps1 W (Proc.devRef .tc main_v8) : IVec S16x64 1) = seamPresent C := by
  subst hC; after_results; rfl

/-- Between the regions: the number of present instances. -/
theorem h1_v11 {C : FVec F S16x64 .f32} (hC : W (Proc.devRef .tc main_v1_1) = C) :
    (StableHlo.after hostOps1 W (Proc.devRef .tc main_v11) : FVec F S16 .f32) = nInst (seamPresent C) := by
  subst hC; after_results; rfl

/-- Between the regions: which batch elements count. -/
theorem h1_v14 {C : FVec F S16x64 .f32} (hC : W (Proc.devRef .tc main_v1_1) = C) :
    (StableHlo.after hostOps1 W (Proc.devRef .tc main_v14) : FVec F S16 .f32) = valid (seamPresent C) := by
  subst hC; after_results; rfl

end Stretch

section Stretch2
variable (W : Valuation τ sig (Elt F))

set_option maxHeartbeats 4000000 in
/-- After the second region: the pull term. -/
theorem h2_v24 {P C : FVec F S16x64 .f32} {present : IVec S16x64 1}
    (hP : W (Proc.devRef .tc main_v15) = P) (hC : W (Proc.devRef .tc main_v1_1) = C)
    (h8 : W (Proc.devRef .tc main_v8) = present) (h11 : W (Proc.devRef .tc main_v11) = nInst (F := F) present) :
    (StableHlo.after hostOps2 W (Proc.devRef .tc main_v24) : FVec F S16 .f32) = pullB present (seamPn P C) := by
  subst hP hC h8; after_results; rw [h11]; rfl

set_option maxHeartbeats 4000000 in
/-- After the second region: the squared distances between the means. -/
theorem h2_v31 {means3 : FVec F S16x64x32 .f32} (h6 : W (Proc.devRef .tc main_v6) = means3) :
    (StableHlo.after hostOps2 W (Proc.devRef .tc main_v31) : FVec F S16x64x64 .f32) = sqMM means3 := by
  subst h6; after_results; rfl

set_option maxHeartbeats 4000000 in
/-- After the second region: the pairs that enter. -/
theorem h2_v45 {present : IVec S16x64 1} (h8 : W (Proc.devRef .tc main_v8) = present) :
    (StableHlo.after hostOps2 W (Proc.devRef .tc main_v45) : IVec S16x64x64 1) = pairMask present := by
  subst h8; after_results; rfl

set_option maxHeartbeats 4000000 in
/-- After the second region: the pairs that enter, as floats. -/
theorem h2_v46 {present : IVec S16x64 1} (h8 : W (Proc.devRef .tc main_v8) = present) :
    (StableHlo.after hostOps2 W (Proc.devRef .tc main_v46) : FVec F S16x64x64 .f32) = uitofp (F := F) .f32 (pairMask present) := by
  subst h8; after_results; rfl

/-- After the second region: the constant one. -/
theorem h2_cst_6 :
    (StableHlo.after hostOps2 W (Proc.devRef .tc main_cst_6) : FVec F S_ .f32) = constant (F := F) S_ .f32 0x3F800000#32 := by
  after_results

end Stretch2

section Stretch3
variable (W : Valuation τ sig (Elt F))

/-- The first select: the squared distances of the pairs that enter, one elsewhere. -/
theorem h21_v47 {means3 : FVec F S16x64x32 .f32} {present : IVec S16x64 1}
    (hc : W (Proc.devRef .tc main_cst_6) = constant (F := F) S_ .f32 0x3F800000#32)
    (h45 : W (Proc.devRef .tc main_v45) = pairMask present) (h31 : W (Proc.devRef .tc main_v31) = sqMM means3) :
    (StableHlo.after hostOps2_1 W (Proc.devRef .tc main_v47) : FVec F S16x64x64 .f32) = sqPair means3 present := by
  after_results; rw [hc, h45, h31]; rfl

/-- Where the selected squared distance is positive. -/
theorem h22_v49 {means3 : FVec F S16x64x32 .f32} {present : IVec S16x64 1}
    (h47 : W (Proc.devRef .tc main_v47) = sqPair means3 present) :
    (StableHlo.after hostOps2_2 W (Proc.devRef .tc main_v49) : IVec S16x64x64 1) = pairPos means3 present := by
  after_results; rw [h47]; rfl

theorem h22_cst_8 :
    (StableHlo.after hostOps2_2 W (Proc.devRef .tc main_cst_8) : FVec F S_ .f32) = constant (F := F) S_ .f32 0x3F800000#32 := by
  after_results

/-- The second select: the squared distance where positive, one elsewhere. -/
theorem h23_v50 {means3 : FVec F S16x64x32 .f32} {present : IVec S16x64 1}
    (hc : W (Proc.devRef .tc main_cst_8) = constant (F := F) S_ .f32 0x3F800000#32)
    (h49 : W (Proc.devRef .tc main_v49) = pairPos means3 present) (h47 : W (Proc.devRef .tc main_v47) = sqPair means3 present) :
    (StableHlo.after hostOps2_3 W (Proc.devRef .tc main_v50) : FVec F S16x64x64 .f32) = sqSafe means3 present := by
  after_results; rw [hc, h49, h47]; rfl

/-- The third select: a mean's squared norm where positive, one elsewhere. -/
theorem h25_v74 {means3 : FVec F S16x64x32 .f32}
    (hc : W (Proc.devRef .tc main_cst_17) = constant (F := F) S_ .f32 0x3F800000#32)
    (h73 : W (Proc.devRef .tc main_v73) = normPos means3) (h71 : W (Proc.devRef .tc main_v71) = normSq means3) :
    (StableHlo.after hostOps2_5 W (Proc.devRef .tc main_v74) : FVec F S16x64 .f32) = normSafe means3 := by
  after_results; rw [hc, h73, h71]; rfl

end Stretch3

section Stretch4
variable (W : Valuation τ sig (Elt F))

set_option maxHeartbeats 4000000 in
/-- After the selects: the push term. -/
theorem h24_v69 {means3 : FVec F S16x64x32 .f32} {present : IVec S16x64 1}
    (h50 : W (Proc.devRef .tc main_v50) = sqSafe means3 present) (h49 : W (Proc.devRef .tc main_v49) = pairPos means3 present)
    (h46 : W (Proc.devRef .tc main_v46) = uitofp (F := F) .f32 (pairMask present))
    (h11 : W (Proc.devRef .tc main_v11) = nInst (F := F) present) :
    (StableHlo.after hostOps2_4 W (Proc.devRef .tc main_v69) : FVec F S16 .f32) = pushB means3 present := by
  after_results; rw [h50, h49, h46, h11]; rfl

/-- After the selects: the means' squared norms. -/
theorem h24_v71 {means3 : FVec F S16x64x32 .f32} (h6 : W (Proc.devRef .tc main_v6) = means3) :
    (StableHlo.after hostOps2_4 W (Proc.devRef .tc main_v71) : FVec F S16x64 .f32) = normSq means3 := by
  subst h6; after_results; rfl

/-- After the selects: where a mean's squared norm is positive. -/
theorem h24_v73 {means3 : FVec F S16x64x32 .f32} (h6 : W (Proc.devRef .tc main_v6) = means3) :
    (StableHlo.after hostOps2_4 W (Proc.devRef .tc main_v73) : IVec S16x64 1) = normPos means3 := by
  subst h6; after_results; rfl

theorem h24_cst_17 :
    (StableHlo.after hostOps2_4 W (Proc.devRef .tc main_cst_17) : FVec F S_ .f32) = constant (F := F) S_ .f32 0x3F800000#32 := by
  after_results

end Stretch4

section Stretch5
variable (W : Valuation τ sig (Elt F))

/-- Running a list of host operations is running its first `n`, then the rest. -/
theorem after_take_drop (n : ℕ) (ops : List (HloOp τ sig (Elt F))) (V : Valuation τ sig (Elt F)) :
    StableHlo.after ops V = StableHlo.after (ops.drop n) (StableHlo.after (ops.take n) V) := by
  induction ops generalizing n V with
  | nil => simp
  | cons op ops ih =>
    cases n with
    | zero => rfl
    | succ n => exact ih n _

/-- The last stretch, first part: the regularisation term of each batch element. -/
theorem h26a_v83 {means3 : FVec F S16x64x32 .f32} {present : IVec S16x64 1}
    (h74 : W (Proc.devRef .tc main_v74) = normSafe means3) (h73 : W (Proc.devRef .tc main_v73) = normPos means3)
    (h8 : W (Proc.devRef .tc main_v8) = present) (h11 : W (Proc.devRef .tc main_v11) = nInst (F := F) present) :
    (StableHlo.after ((hostOps2_6 (F := F)).take 11) W (Proc.devRef .tc main_v83) : FVec F S16 .f32) = regB means3 present := by
  simp only [List.take_succ_cons, List.take_zero]
  after_results; rw [h74, h73, h8, h11]; rfl

theorem h26a_v14 : StableHlo.after ((hostOps2_6 (F := F)).take 11) W (Proc.devRef .tc main_v14) = W (Proc.devRef .tc main_v14) := by
  simp only [List.take_succ_cons, List.take_zero]
  after_results

theorem h26a_v24 : StableHlo.after ((hostOps2_6 (F := F)).take 11) W (Proc.devRef .tc main_v24) = W (Proc.devRef .tc main_v24) := by
  simp only [List.take_succ_cons, List.take_zero]
  after_results

theorem h26a_v69 : StableHlo.after ((hostOps2_6 (F := F)).take 11) W (Proc.devRef .tc main_v69) = W (Proc.devRef .tc main_v69) := by
  simp only [List.take_succ_cons, List.take_zero]
  after_results

set_option maxHeartbeats 4000000 in
/-- The last stretch, second part: a per-batch-element term averaged over the batch elements that count. -/
theorem h26b_v88 {present : IVec S16x64 1} {x : FVec F S16 .f32}
    (h14 : W (Proc.devRef .tc main_v14) = valid (F := F) present) (h24 : W (Proc.devRef .tc main_v24) = x) :
    (StableHlo.after (((hostOps2_6 (F := F)).drop 11).take 16) W (Proc.devRef .tc main_v88) : FVec F S_ .f32) = avgValid present x := by
  simp only [List.take_succ_cons, List.take_zero, List.drop_succ_cons, List.drop_zero]
  after_results; rw [h14, h24]; rfl

set_option maxHeartbeats 4000000 in
theorem h26b_v91 {present : IVec S16x64 1} {x : FVec F S16 .f32}
    (h14 : W (Proc.devRef .tc main_v14) = valid (F := F) present) (h69 : W (Proc.devRef .tc main_v69) = x) :
    (StableHlo.after (((hostOps2_6 (F := F)).drop 11).take 16) W (Proc.devRef .tc main_v91) : FVec F S_ .f32) = avgValid present x := by
  simp only [List.take_succ_cons, List.take_zero, List.drop_succ_cons, List.drop_zero]
  after_results; rw [h14, h69]; rfl

set_option maxHeartbeats 4000000 in
theorem h26b_v94 {present : IVec S16x64 1} {x : FVec F S16 .f32}
    (h14 : W (Proc.devRef .tc main_v14) = valid (F := F) present) (h83 : W (Proc.devRef .tc main_v83) = x) :
    (StableHlo.after (((hostOps2_6 (F := F)).drop 11).take 16) W (Proc.devRef .tc main_v94) : FVec F S_ .f32) = avgValid present x := by
  simp only [List.take_succ_cons, List.take_zero, List.drop_succ_cons, List.drop_zero]
  after_results; rw [h14, h83]; rfl

set_option maxHeartbeats 4000000 in
/-- The last stretch, third part: the weighted total and the four-piece result. -/
theorem h26c_v104 {a b r : FVec F S_ .f32}
    (h88 : W (Proc.devRef .tc main_v88) = a) (h91 : W (Proc.devRef .tc main_v91) = b) (h94 : W (Proc.devRef .tc main_v94) = r) :
    (StableHlo.after (((hostOps2_6 (F := F)).drop 11).drop 16) W (Proc.devRef .tc main_v104) : FVec F S4 .f32)
      = concatenate S4 0
          [⟨S1, broadcastInDim S1 ![] bcast_S_S1
              (addf (addf (mulf (constant (F := F) S_ .f32 0x3F800000#32) a) (mulf (constant (F := F) S_ .f32 0x3F800000#32) b))
                (mulf (constant (F := F) S_ .f32 0x3A83126F#32) r))⟩,
           ⟨S1, broadcastInDim S1 ![] bcast_S_S1 a⟩, ⟨S1, broadcastInDim S1 ![] bcast_S_S1 b⟩, ⟨S1, broadcastInDim S1 ![] bcast_S_S1 r⟩]
          concatenates_S1_S1_S1_S1_S4_d0 := by
  subst h88 h91 h94
  simp only [List.drop_succ_cons, List.drop_zero, StableHlo.after_cons, StableHlo.after_nil]
  rw [StableHlo.nary4_result]
  repeat (first
    | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide))
  rfl

/-- The last stretch: the four numbers of the result. -/
theorem h26_v104 {means3 : FVec F S16x64x32 .f32} {present : IVec S16x64 1} {pn : FVec F S16x64 .f32}
    (h74 : W (Proc.devRef .tc main_v74) = normSafe means3) (h73 : W (Proc.devRef .tc main_v73) = normPos means3)
    (h8 : W (Proc.devRef .tc main_v8) = present) (h11 : W (Proc.devRef .tc main_v11) = nInst (F := F) present)
    (h14 : W (Proc.devRef .tc main_v14) = valid (F := F) present) (h24 : W (Proc.devRef .tc main_v24) = pullB present pn)
    (h69 : W (Proc.devRef .tc main_v69) = pushB means3 present) :
    (StableHlo.after hostOps2_6 W (Proc.devRef .tc main_v104) : FVec F S4 .f32) = tail3 means3 present pn := by
  have e : StableHlo.after (hostOps2_6 (F := F)) W
      = StableHlo.after (((hostOps2_6 (F := F)).drop 11).drop 16)
          (StableHlo.after (((hostOps2_6 (F := F)).drop 11).take 16) (StableHlo.after ((hostOps2_6 (F := F)).take 11) W)) :=
    (after_take_drop 11 _ W).trans (after_take_drop 16 _ _)
  rw [e]
  have hA14 := (h26a_v14 W).trans h14
  exact h26c_v104 _
    (h26b_v88 _ hA14 ((h26a_v24 W).trans h24))
    (h26b_v91 _ hA14 ((h26a_v69 W).trans h69))
    (h26b_v94 _ hA14 (h26a_v83 W h74 h73 h8 h11))

end Stretch5
/-! ## The buffers between the items

  Each buffer a later stretch reads, at the valuation that stretch starts from, as a term over the sums, the counts
  and the penalties the two regions leave. -/

section Chain

local notation "oS" => (outs 2 main_v1_0 c : FVec F S16x64x32 FTy.f32)
local notation "oC" => (outs 2 main_v1_1 c : FVec F S16x64 FTy.f32)
local notation "oP" => (outs 4 main_v15 c : FVec F S16x64 FTy.f32)

/-! ### After the first region -/

theorem V2_v1_1 : V2 m outs c main_v1_1 = outs 2 main_v1_1 c := by
  simp only [V2, Function.update_self]

theorem V2_v1_0 : V2 m outs c main_v1_0 = outs 2 main_v1_0 c := by
  simp only [V2, Function.update_of_ne (StableHlo.devRef_ne_of_ne (by decide : (main_v1_0 : Ref sig .tc) ≠ main_v1_1) : (Proc.devRef .tc main_v1_0 : DevRef τ sig) ≠ Proc.devRef .tc main_v1_1), Function.update_self]

/-- The means, as the second region finds them. -/
theorem means_eq : (V3 m outs c main_v6 : FVec F S16x64x32 .f32) = seamMeans (outs 2 main_v1_0 c) (outs 2 main_v1_1 c) :=
  h1_v6 (V2 m outs c) (V2_v1_0 m outs c) (V2_v1_1 m outs c)

/-- Which instances are present, as the second region finds it. -/
theorem present_eq : (V3 m outs c main_v8 : IVec S16x64 1) = seamPresent (outs 2 main_v1_1 c : FVec F S16x64 .f32) :=
  h1_v8 (V2 m outs c) (V2_v1_1 m outs c)

theorem V3_v11 : (V3 m outs c main_v11 : FVec F S16 .f32) = nInst (seamPresent oC) :=
  h1_v11 (V2 m outs c) (V2_v1_1 m outs c)

theorem V3_v14 : (V3 m outs c main_v14 : FVec F S16 .f32) = valid (seamPresent oC) :=
  h1_v14 (V2 m outs c) (V2_v1_1 m outs c)

/-! ### After the second region -/

theorem V4_v15 : V4 m outs c main_v15 = outs 4 main_v15 c := by
  simp only [V4, Function.update_self]

theorem V4_v1_1 : V4 m outs c main_v1_1 = outs 2 main_v1_1 c :=
  (V4_of m outs c main_v1_1 (by decide)).trans <| (V3_of m outs c main_v1_1 (by decide)).trans (V2_v1_1 m outs c)

theorem V4_v6 : (V4 m outs c main_v6 : FVec F S16x64x32 .f32) = seamMeans oS oC :=
  (V4_of m outs c main_v6 (by decide)).trans (means_eq m outs c)

theorem V4_v8 : (V4 m outs c main_v8 : IVec S16x64 1) = seamPresent oC :=
  (V4_of m outs c main_v8 (by decide)).trans (present_eq m outs c)

theorem V4_v11 : (V4 m outs c main_v11 : FVec F S16 .f32) = nInst (seamPresent oC) :=
  (V4_of m outs c main_v11 (by decide)).trans (V3_v11 m outs c)

theorem V4_v14 : (V4 m outs c main_v14 : FVec F S16 .f32) = valid (seamPresent oC) :=
  (V4_of m outs c main_v14 (by decide)).trans (V3_v14 m outs c)

/-! ### After the first stretch of the tail -/

theorem V5_v24 : (V5 m outs c main_v24 : FVec F S16 .f32) = pullB (seamPresent oC) (seamPn oP oC) :=
  h2_v24 (V4 m outs c) (V4_v15 m outs c) (V4_v1_1 m outs c) (V4_v8 m outs c) (V4_v11 m outs c)

theorem V5_v31 : (V5 m outs c main_v31 : FVec F S16x64x64 .f32) = sqMM (seamMeans oS oC) :=
  h2_v31 (V4 m outs c) (V4_v6 m outs c)

theorem V5_v45 : (V5 m outs c main_v45 : IVec S16x64x64 1) = pairMask (seamPresent oC) :=
  h2_v45 (V4 m outs c) (V4_v8 m outs c)

theorem V5_v46 : (V5 m outs c main_v46 : FVec F S16x64x64 .f32) = uitofp (F := F) .f32 (pairMask (seamPresent oC)) :=
  h2_v46 (V4 m outs c) (V4_v8 m outs c)

theorem V5_cst_6 : (V5 m outs c main_cst_6 : FVec F S_ .f32) = constant (F := F) S_ .f32 0x3F800000#32 :=
  h2_cst_6 (V4 m outs c)

/-! ### Through the selects -/

theorem V6_v47 : (V6 m outs c main_v47 : FVec F S16x64x64 .f32) = sqPair (seamMeans oS oC) (seamPresent oC) :=
  h21_v47 (V5 m outs c) (V5_cst_6 m outs c) (V5_v45 m outs c) (V5_v31 m outs c)

theorem V7_v49 : (V7 m outs c main_v49 : IVec S16x64x64 1) = pairPos (seamMeans oS oC) (seamPresent oC) :=
  h22_v49 (V6 m outs c) (V6_v47 m outs c)

theorem V7_cst_8 : (V7 m outs c main_cst_8 : FVec F S_ .f32) = constant (F := F) S_ .f32 0x3F800000#32 :=
  h22_cst_8 (V6 m outs c)

theorem V7_v47 : (V7 m outs c main_v47 : FVec F S16x64x64 .f32) = sqPair (seamMeans oS oC) (seamPresent oC) :=
  (V7_of m outs c main_v47 (by decide)).trans (V6_v47 m outs c)

theorem V8_v50 : (V8 m outs c main_v50 : FVec F S16x64x64 .f32) = sqSafe (seamMeans oS oC) (seamPresent oC) :=
  h23_v50 (V7 m outs c) (V7_cst_8 m outs c) (V7_v49 m outs c) (V7_v47 m outs c)

theorem V8_v49 : (V8 m outs c main_v49 : IVec S16x64x64 1) = pairPos (seamMeans oS oC) (seamPresent oC) :=
  (V8_of m outs c main_v49 (by decide)).trans (V7_v49 m outs c)

theorem V8_v46 : (V8 m outs c main_v46 : FVec F S16x64x64 .f32) = uitofp (F := F) .f32 (pairMask (seamPresent oC)) :=
  (V8_of m outs c main_v46 (by decide)).trans <| (V7_of m outs c main_v46 (by decide)).trans <|
    (V6_of m outs c main_v46 (by decide)).trans (V5_v46 m outs c)

theorem V8_v11 : (V8 m outs c main_v11 : FVec F S16 .f32) = nInst (seamPresent oC) :=
  (V8_of m outs c main_v11 (by decide)).trans <| (V7_of m outs c main_v11 (by decide)).trans <|
    (V6_of m outs c main_v11 (by decide)).trans <| (V5_of m outs c main_v11 (by decide)).trans (V4_v11 m outs c)

theorem V8_v6 : (V8 m outs c main_v6 : FVec F S16x64x32 .f32) = seamMeans oS oC :=
  (V8_of m outs c main_v6 (by decide)).trans <| (V7_of m outs c main_v6 (by decide)).trans <|
    (V6_of m outs c main_v6 (by decide)).trans <| (V5_of m outs c main_v6 (by decide)).trans (V4_v6 m outs c)

/-! ### The push term and the norms -/

theorem V9_v69 : (V9 m outs c main_v69 : FVec F S16 .f32) = pushB (seamMeans oS oC) (seamPresent oC) :=
  h24_v69 (V8 m outs c) (V8_v50 m outs c) (V8_v49 m outs c) (V8_v46 m outs c) (V8_v11 m outs c)

theorem V9_v71 : (V9 m outs c main_v71 : FVec F S16x64 .f32) = normSq (seamMeans oS oC) :=
  h24_v71 (V8 m outs c) (V8_v6 m outs c)

theorem V9_v73 : (V9 m outs c main_v73 : IVec S16x64 1) = normPos (seamMeans oS oC) :=
  h24_v73 (V8 m outs c) (V8_v6 m outs c)

theorem V9_cst_17 : (V9 m outs c main_cst_17 : FVec F S_ .f32) = constant (F := F) S_ .f32 0x3F800000#32 :=
  h24_cst_17 (V8 m outs c)

/-! ### Before the last stretch -/

theorem V10_v74 : (V10 m outs c main_v74 : FVec F S16x64 .f32) = normSafe (seamMeans oS oC) :=
  h25_v74 (V9 m outs c) (V9_cst_17 m outs c) (V9_v73 m outs c) (V9_v71 m outs c)

theorem V10_v73 : (V10 m outs c main_v73 : IVec S16x64 1) = normPos (seamMeans oS oC) :=
  (V10_of m outs c main_v73 (by decide)).trans (V9_v73 m outs c)

theorem V10_v69 : (V10 m outs c main_v69 : FVec F S16 .f32) = pushB (seamMeans oS oC) (seamPresent oC) :=
  (V10_of m outs c main_v69 (by decide)).trans (V9_v69 m outs c)

theorem V10_v24 : (V10 m outs c main_v24 : FVec F S16 .f32) = pullB (seamPresent oC) (seamPn oP oC) :=
  (V10_of m outs c main_v24 (by decide)).trans <| (V9_of m outs c main_v24 (by decide)).trans <|
    (V8_of m outs c main_v24 (by decide)).trans <| (V7_of m outs c main_v24 (by decide)).trans <|
    (V6_of m outs c main_v24 (by decide)).trans (V5_v24 m outs c)

theorem V10_v8 : (V10 m outs c main_v8 : IVec S16x64 1) = seamPresent oC :=
  (V10_of m outs c main_v8 (by decide)).trans <| (V9_of m outs c main_v8 (by decide)).trans <|
    (V8_of m outs c main_v8 (by decide)).trans <| (V7_of m outs c main_v8 (by decide)).trans <|
    (V6_of m outs c main_v8 (by decide)).trans <| (V5_of m outs c main_v8 (by decide)).trans (V4_v8 m outs c)

theorem V10_v11 : (V10 m outs c main_v11 : FVec F S16 .f32) = nInst (seamPresent oC) :=
  (V10_of m outs c main_v11 (by decide)).trans <| (V9_of m outs c main_v11 (by decide)).trans (V8_v11 m outs c)

theorem V10_v14 : (V10 m outs c main_v14 : FVec F S16 .f32) = valid (seamPresent oC) :=
  (V10_of m outs c main_v14 (by decide)).trans <| (V9_of m outs c main_v14 (by decide)).trans <|
    (V8_of m outs c main_v14 (by decide)).trans <| (V7_of m outs c main_v14 (by decide)).trans <|
    (V6_of m outs c main_v14 (by decide)).trans <| (V5_of m outs c main_v14 (by decide)).trans (V4_v14 m outs c)

/-- The program's result: the tail of the three seams. -/
theorem result_eq : (V11 m outs c main_v104 : S4.Idx → F .f32)
    = tail3 (seamMeans (outs 2 main_v1_0 c) (outs 2 main_v1_1 c)) (seamPresent (outs 2 main_v1_1 c : FVec F S16x64 .f32))
        (seamPn (outs 4 main_v15 c) (outs 2 main_v1_1 c)) :=
  h26_v104 (V10 m outs c) (V10_v74 m outs c) (V10_v73 m outs c) (V10_v8 m outs c) (V10_v11 m outs c) (V10_v14 m outs c)
    (V10_v24 m outs c) (V10_v69 m outs c)

end Chain

end Cert.KernelIdeal.KTail

end
-- ==== Proof.KPay0.lean ====
/-
  Region 0's arithmetic, read entry by entry at the extended reals.

  One grid point of region 0 holds a block of 8 batch rows by 2048 points. For every point of the block the body forms
  a ONE-HOT row over the 64 instance words: entry k is one when the point is valid (its mask word is not zero and its
  id is non-negative as a signed word) and its id is the word k, else zero. A word equal to k below 64 is
  non-negative, so the sign test is implied by the equality and the entry is one exactly when the mask word is
  not zero and the id is the word k.

  The per-instance sums are the batched product of the one-hot rows (transposed) with the embeddings, contracted
  over the 2048 points of the block, added to what the accumulator held; the per-instance counts are the one-hot
  rows summed over the 2048 points, added to what the accumulator held. The two reset values are zero.
-/
import proofs.«400001_j6614249636120_4_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.KValue

open Cert.KernelIdeal Cert.KernelIdeal.Gen
open Idealize.ShloMosaic Idealize.ShloMosaic.ValueIdx

/-! ## The one-hot entry, as a word -/

/-- A word below 64 is non-negative as a signed 32-bit word. -/
theorem sge_zero_of_lt64 : ∀ k : Fin 64, IntOp.cmpi .sge (BitVec.ofNat 32 k.val) 0#32 = 1#1 := by decide

/-- The all-ones word is no word below 64. -/
theorem neg_one_ne_lt64 : ∀ k : Fin 64, IntOp.cmpi .eq 4294967295#32 (BitVec.ofNat 32 k.val) = 0#1 := by decide

/-- The one-hot entry of a point with id word i and mask word w at instance k, as a number: one when the
    mask word is not zero and the id is the word k, else zero. -/
theorem onehot_word (i w : BitVec 32) (k : Fin 64) :
    ((((IntOp.cmpi .eq (Scalar.select (IntOp.andi (IntOp.cmpi .ne w 0#32) (IntOp.cmpi .sge i 0#32)) i 4294967295#32)
        (BitVec.ofNat 32 k.val)).setWidth 32).toInt : ℝ) : EReal)
      = if (w ≠ 0#32 ∧ i = BitVec.ofNat 32 k.val) then 1 else 0 := by
  by_cases hw : w = 0#32
  · subst hw
    rw [if_neg (fun h => h.1 rfl)]
    have : IntOp.andi (IntOp.cmpi .ne (0#32) 0#32) (IntOp.cmpi .sge i 0#32) = 0#1 := by
      rcases BitVec.eq_zero_or_eq_one (IntOp.cmpi .sge i 0#32) with h | h <;> rw [h] <;> decide
    rw [this, select_zero, neg_one_ne_lt64 k]
    simp
  · by_cases hi : i = BitVec.ofNat 32 k.val
    · subst hi
      rw [if_pos ⟨hw, rfl⟩, sge_zero_of_lt64 k]
      have : IntOp.cmpi .ne w 0#32 = 1#1 := by
        unfold IntOp.cmpi
        show BitVec.ofBool (w != 0#32) = 1#1
        rw [show (w != 0#32) = true from bne_iff_ne.mpr hw]; rfl
      rw [this]
      have : IntOp.andi 1#1 1#1 = 1#1 := by decide
      rw [this, select_one]
      have : IntOp.cmpi .eq (BitVec.ofNat 32 k.val) (BitVec.ofNat 32 k.val) = 1#1 := by
        unfold IntOp.cmpi; simp
      rw [this]
      simp
    · rw [if_neg (fun h => hi h.2)]
      have : IntOp.cmpi .eq (Scalar.select (IntOp.andi (IntOp.cmpi .ne w 0#32) (IntOp.cmpi .sge i 0#32)) i 4294967295#32)
          (BitVec.ofNat 32 k.val) = 0#1 := by
        unfold Scalar.select
        split
        · unfold IntOp.cmpi
          show BitVec.ofBool (i == BitVec.ofNat 32 k.val) = 0#1
          rw [show (i == BitVec.ofNat 32 k.val) = false from beq_eq_false_iff_ne.mpr hi]; rfl
        · exact neg_one_ne_lt64 k
      rw [this]
      simp

/-! ## The one-hot rows at an index -/

/-- The ids with the invalid points' replaced by the all-ones word, column-broadcast over the 64 instance words, read
    at (b, t, k): the word at point (b, t). -/
theorem column_apply (v : IVec S8x2048 32) (b : Fin 8) (t : Fin 2048) (k : Fin 64) :
    broadcastTo S8x2048x64 (shapeCast S8x2048x1 v shapeCasts_S8x2048_S8x2048x1) broadcasts_S8x2048x1_S8x2048x64 (ix3 b t k)
      = v (ix2 b t) := by
  refine (broadcastTo_apply _ _ (ix3 b t k) (ix3 b t (0 : Fin 1)) (fun a => ?_)).trans ?_
  · match a with
    | ⟨0, _⟩ => rfl
    | ⟨1, _⟩ => rfl
    | ⟨2, _⟩ => rfl
  · refine shapeCast_apply v _ (ix3 b t (0 : Fin 1)) (ix2 b t) ?_
    rw [Shape.rowMajor_val_two, Shape.rowMajor_val_three]
    show b.val * 2048 + t.val = (b.val * 2048 + t.val) * 1 + 0
    omega

/-- The one-hot rows at (b, t, k): one when point (b, t)'s mask word is not zero and its id is the word k, else zero. -/
theorem pay3_apply (x1 x2 : Vec Ideal S8x2048 .i32) (b : Fin 8) (t : Fin 2048) (k : Fin 64) :
    k0_pay3 (F := Ideal) x1 x2 (ix3 b t k)
      = if (x2 (ix2 b t) ≠ 0#32 ∧ x1 (ix2 b t) = BitVec.ofNat 32 k.val) then 1 else 0 := by
  refine Eq.trans ?_ (onehot_word (x1 (ix2 b t)) (x2 (ix2 b t)) k)
  unfold k0_pay3
  dsimp only
  rw [shapeCast_self]
  show ((((IntOp.cmpi .eq
      (broadcastTo S8x2048x64 (shapeCast S8x2048x1 (select (andi (cmpi .ne x2 (broadcast S8x2048 0#32))
        (cmpi .sge x1 (broadcast S8x2048 0#32))) x1 (broadcast S8x2048 4294967295#32)) shapeCasts_S8x2048_S8x2048x1)
        broadcasts_S8x2048x1_S8x2048x64 (ix3 b t k))
      (iota Kind.tc S8x2048x64 32 [2] iota_S8x2048x64_d2_w32 (ix3 b t k))).setWidth 32).toInt : ℝ) : EReal) = _
  rw [column_apply, iota_single_apply]
  rfl

/-! ## The batched contraction's operand indices

  The product has a batch axis 0 on both operands and on the result and contracts axis 1 of both: at result index
  (b, k, d) and contraction coordinate t the left operand is read at (b, t, k) and the right one at (b, t, d). -/

theorem lhs_at (b : Fin 8) (k : Fin 64) (d : Fin 32) (t : Fin 2048) :
    dot_S8x2048x64_S8x2048x32_S8x64x32_1_1_2_2_0_0.lhsIdx (ix3 b k d)
      ((contrEquiv1 dot_S8x2048x64_S8x2048x32_S8x64x32_1_1_2_2_0_0 2048 rfl rfl).symm t) = ix3 b t k := by
  have c3 := contrEquiv1_symm_val dot_S8x2048x64_S8x2048x32_S8x64x32_1_1_2_2_0_0 2048 rfl rfl t
  funext ax; apply Fin.ext
  match ax with
  | ⟨0, _⟩ => simp [DotDims.lhsIdx, dot_S8x2048x64_S8x2048x32_S8x64x32_1_1_2_2_0_0]; rfl
  | ⟨1, _⟩ => simp [DotDims.lhsIdx, dot_S8x2048x64_S8x2048x32_S8x64x32_1_1_2_2_0_0]; exact c3
  | ⟨2, _⟩ => simp [DotDims.lhsIdx, dot_S8x2048x64_S8x2048x32_S8x64x32_1_1_2_2_0_0]; rfl

theorem rhs_at (b : Fin 8) (k : Fin 64) (d : Fin 32) (t : Fin 2048) :
    dot_S8x2048x64_S8x2048x32_S8x64x32_1_1_2_2_0_0.rhsIdx (ix3 b k d)
      ((contrEquiv1 dot_S8x2048x64_S8x2048x32_S8x64x32_1_1_2_2_0_0 2048 rfl rfl).symm t) = ix3 b t d := by
  have c3 := contrEquiv1_symm_val dot_S8x2048x64_S8x2048x32_S8x64x32_1_1_2_2_0_0 2048 rfl rfl t
  funext ax; apply Fin.ext
  match ax with
  | ⟨0, _⟩ => simp [DotDims.rhsIdx, dot_S8x2048x64_S8x2048x32_S8x64x32_1_1_2_2_0_0]; rfl
  | ⟨1, _⟩ => simp [DotDims.rhsIdx, dot_S8x2048x64_S8x2048x32_S8x64x32_1_1_2_2_0_0]; exact c3
  | ⟨2, _⟩ => simp [DotDims.rhsIdx, dot_S8x2048x64_S8x2048x32_S8x64x32_1_1_2_2_0_0]; rfl

/-! ## The two accumulations and the two reset values at an index -/

/-- The per-instance sums after one block: what the accumulator held plus the embeddings of the block's points of
    batch row b that belong to instance k. -/
theorem pay4_apply (x1 x2 : Vec Ideal S8x2048 .i32) (x0 : Vec Ideal S8x2048x32 .f32) (prev3 : Vec Ideal S8x64x32 .f32)
    (b : Fin 8) (k : Fin 64) (d : Fin 32) :
    k0_pay4 x1 x2 x0 prev3 (ix3 b k d) = prev3 (ix3 b k d) + ∑ t : Fin 2048,
      (if (x2 (ix2 b t) ≠ 0#32 ∧ x1 (ix2 b t) = BitVec.ofNat 32 k.val) then x0 (ix3 b t d) else 0) := by
  unfold k0_pay4
  rw [shapeCast_self]
  refine congrArg (prev3 (ix3 b k d) + ·) ?_
  refine (Ideal.matmul_constant_zero_apply dot_S8x2048x64_S8x2048x32_S8x64x32_1_1_2_2_0_0 none
    (truncf .bf16 (k0_pay3 (F := Ideal) x1 x2) bitsLt_bf16_f32) (truncf .bf16 x0 bitsLt_bf16_f32) (ix3 b k d)).trans ?_
  rw [← Equiv.sum_comp (contrEquiv1 dot_S8x2048x64_S8x2048x32_S8x64x32_1_1_2_2_0_0 2048 rfl rfl).symm]
  refine Finset.sum_congr rfl fun t _ => ?_
  rw [lhs_at, rhs_at]
  show k0_pay3 (F := Ideal) x1 x2 (ix3 b t k) * x0 (ix3 b t d) = _
  rw [pay3_apply]
  split
  · exact one_mul _
  · exact zero_mul _

/-- The per-instance counts after one block: what the accumulator held plus the number of the block's points of batch
    row b that belong to instance k. -/
theorem pay5_apply (x1 x2 : Vec Ideal S8x2048 .i32) (prev4 : Vec Ideal S8x64 .f32) (b : Fin 8) (k : Fin 64) :
    k0_pay5 x1 x2 prev4 (ix2 b k) = prev4 (ix2 b k) + ∑ t : Fin 2048,
      (if (x2 (ix2 b t) ≠ 0#32 ∧ x1 (ix2 b t) = BitVec.ofNat 32 k.val) then (1 : EReal) else 0) := by
  unfold k0_pay5
  dsimp only
  rw [shapeCast_self]
  refine congrArg (prev4 (ix2 b k) + ·) ?_
  refine (Ideal.multiReduction_add_single (k0_pay3 (F := Ideal) x1 x2) 0x00000000#32 reduces_S8x2048x64_S8x64 (.inl rfl) rfl (ix2 b k)).trans ?_
  show ∑ t : Fin 2048, k0_pay3 (F := Ideal) x1 x2 (reduces_S8x2048x64_S8x64.lift (ix2 b k) t) = _
  refine Finset.sum_congr rfl fun t _ => ?_
  have e : reduces_S8x2048x64_S8x64.lift (ix2 b k) t = ix3 b t k := by
    funext a; apply Fin.ext
    match a with
    | ⟨0, _⟩ => rfl
    | ⟨1, _⟩ => rfl
    | ⟨2, _⟩ => rfl
  rw [e]
  exact pay3_apply x1 x2 b t k

/-- The sums' reset value is zero. -/
theorem pay1_apply (b : Fin 8) (k : Fin 64) (d : Fin 32) : k0_pay1 (F := Ideal) (ix3 b k d) = 0 :=
  Ideal.ofBits_zero_f32

/-- The counts' reset value is zero. -/
theorem pay2_apply (b : Fin 8) (k : Fin 64) : k0_pay2 (F := Ideal) (ix2 b k) = 0 :=
  Ideal.ofBits_zero_f32

end Cert.KernelIdeal.KValue

end
-- ==== Proof.KTiles.lean ====
/-
  A segment sum over the 65536 points of one batch row, cut into tiles of 2048 points.

  The sum over the points that belong to an instance is written as a sum over the points' NUMBERS (the term of a
  number past the last point is zero); the sum over the first (j + 1) tiles is then the sum over the first j tiles
  plus the sum over the 2048 points of tile j, and the sum over all 32 tiles is the whole segment sum.
-/
import proofs.«400001_j6614249636120_4_alg».proof.Proof.Spec
import Mathlib.Algebra.BigOperators.Fin

noncomputable section

open scoped BigOperators

namespace Cert.KernelIdeal.KValue

open Cert.Spec
open Idealize.ShloMosaic Idealize.ShloMosaic.ValueIdx

/-- The term of point number n in the segment sum of instance k of batch row r: the point's quantity when the point
    belongs to the instance, else zero; zero past the last point. -/
def segTerm (ids : IVec SI 32) (msk : IVec SI 1) (pt : Fin 16 → Fin 65536 → EReal) (r : Fin 16) (k : Fin 64) (n : ℕ) : EReal :=
  if h : n < 65536 then (if Hit ids msk r ⟨n, h⟩ k then pt r ⟨n, h⟩ else 0) else 0

/-- The segment sum is the sum of the terms of the first 65536 numbers. -/
theorem segSum_eq_range (ids : IVec SI 32) (msk : IVec SI 1) (pt : Fin 16 → Fin 65536 → EReal) (r : Fin 16) (k : Fin 64) :
    segSum ids msk pt r k = ∑ n ∈ Finset.range 65536, segTerm ids msk pt r k n := by
  unfold segSum
  rw [Finset.sum_range]
  refine Finset.sum_congr rfl fun n _ => ?_
  unfold segTerm
  rw [dif_pos n.isLt]

/-- One more tile: the sum over the first (j + 1) tiles is the sum over the first j tiles plus the sum over tile j. -/
theorem tiles_succ (f : ℕ → EReal) (j : ℕ) :
    ∑ n ∈ Finset.range (2048 * (j + 1)), f n = ∑ n ∈ Finset.range (2048 * j), f n + ∑ s : Fin 2048, f (2048 * j + s.val) := by
  rw [show 2048 * (j + 1) = 2048 * j + 2048 by ring, Finset.sum_range_add]
  exact congrArg (_ + ·) (Finset.sum_range fun x => f (2048 * j + x))

/-- The first tile alone. -/
theorem tiles_one (f : ℕ → EReal) : ∑ n ∈ Finset.range (2048 * (0 + 1)), f n = 0 + ∑ s : Fin 2048, f (2048 * 0 + s.val) := by
  rw [tiles_succ, Nat.mul_zero, Finset.range_zero, Finset.sum_empty]

/-- The term of a point of tile j below 32, by the point's number inside the tile. -/
theorem segTerm_tile (ids : IVec SI 32) (msk : IVec SI 1) (pt : Fin 16 → Fin 65536 → EReal) (r : Fin 16) (k : Fin 64)
    (j : ℕ) (hj : j < 32) (s : Fin 2048) :
    segTerm ids msk pt r k (2048 * j + s.val)
      = if Hit ids msk r ⟨2048 * j + s.val, by have := s.isLt; omega⟩ k then pt r ⟨2048 * j + s.val, by have := s.isLt; omega⟩ else 0 := by
  unfold segTerm
  rw [dif_pos (by have := s.isLt; omega)]

end Cert.KernelIdeal.KValue

end
-- ==== Proof.KPieces.lean ====
/-
  The pieces the two regions' runs found ARE the body's payloads: what each control case of each body leaves in an
  output's staging buffer, read back as a value of the loaded blocks. A body loads and stores its whole staging
  buffers (through the whole-shape rectangle at zero offsets), so a store leaves its payload and a load reads the
  contents; where the accumulators are reset first, the reset is stored, read back and accumulated on. At any float
  instance.
-/
import proofs.«400001_j6614249636120_4_alg».proof.Proof.Region0
import proofs.«400001_j6614249636120_4_alg».proof.Proof.Region1
import Idealize.ShloMosaic.Lib.Pipeline.Value
import Idealize.ShloMosaic.Lib.Tactic

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.Tactic Idealize.SL.Sem

variable {F : FTy → Type} [FloatOps F]

/-- The zero offsets of a rank-2 buffer, however spelt. -/
theorem hz2 : (![0, 0] : Fin 2 → Nat) = fun _ => 0 := funext fun a => by fin_cases a <;> rfl
/-- The zero offsets of a rank-3 buffer, however spelt. -/
theorem hz3 : (![0, 0, 0] : Fin 3 → Nat) = fun _ => 0 := funext fun a => by fin_cases a <;> rfl

/-! ## Region 0: the per-instance sums (output 3) and counts (output 4) -/

/-- Where the accumulators are reset: the sums' buffer is left at the update of the zero block (the reset stored,
    read back, accumulated on). -/
theorem out0_A_3_eq (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : cond0 i)
    (x0 : Vec F S8x2048x32 .f32) (x1 : Vec F S8x2048 .i32) (x2 : Vec F S8x2048 .i32) :
    out0_A_3 c i arg2 harg2 arg3 harg3 arg4 harg4 arg5 harg5 arg6 harg6 hc x0 x1 x2 = k0_pay4 x1 x2 x0 k0_pay1 := by
  unfold out0_A_3
  rw [View.read_writes_eq_canon _ _ _ (cover0_A_3 c i arg2 harg2 arg3 harg3 arg4 harg4 arg5 harg5 arg6 harg6 hc x0 x1 x2)]
  unfold kernelRun0_A
  dsimp only
  sl_unfold_words
  rw [View.canon_cons_unit_zero (S := S8x64x32) hz3, View.readCov_unit_zero (S := S8x64x32) _ hz3]
  simp only [View.readAt_eq_ld, harg2.read_unread, harg3.read_unread, harg4.read_unread, View.ld_unit_zero (S := S8x2048x32) hz3, View.ld_unit_zero (S := S8x2048) hz2]

/-- Where the accumulators are reset: the counts' buffer is left at the update of the zero block. -/
theorem out0_A_4_eq (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : cond0 i)
    (x0 : Vec F S8x2048x32 .f32) (x1 : Vec F S8x2048 .i32) (x2 : Vec F S8x2048 .i32) :
    out0_A_4 c i arg2 harg2 arg3 harg3 arg4 harg4 arg5 harg5 arg6 harg6 hc x0 x1 x2 = k0_pay5 x1 x2 k0_pay2 := by
  unfold out0_A_4
  rw [View.read_writes_eq_canon _ _ _ (cover0_A_4 c i arg2 harg2 arg3 harg3 arg4 harg4 arg5 harg5 arg6 harg6 hc x0 x1 x2)]
  unfold kernelRun0_A
  dsimp only
  sl_unfold_words
  rw [View.canon_cons_unit_zero (S := S8x64) hz2, View.readCov_unit_zero (S := S8x64) _ hz2]
  simp only [View.readAt_eq_ld, harg2.read_unread, harg3.read_unread, harg4.read_unread, View.ld_unit_zero (S := S8x2048x32) hz3, View.ld_unit_zero (S := S8x2048) hz2]

/-- At an accumulating point: the sums' buffer, holding `xo3`, is left at its update. -/
theorem out0_B_3_eq (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : ¬cond0 i)
    (x0 : Vec F S8x2048x32 .f32) (x1 : Vec F S8x2048 .i32) (x2 : Vec F S8x2048 .i32) (xo3 : Vec F S8x64x32 .f32) (xo4 : Vec F S8x64 .f32) :
    out0_B_3 c i arg2 harg2 arg3 harg3 arg4 harg4 arg5 harg5 arg6 harg6 hc x0 x1 x2 xo3 xo4 = k0_pay4 x1 x2 x0 xo3 := by
  unfold out0_B_3
  rw [View.read_writes_eq_canon _ _ _ (cover0_B_3 c i arg2 harg2 arg3 harg3 arg4 harg4 arg5 harg5 arg6 harg6 hc x0 x1 x2 xo3 xo4)]
  unfold kernelRun0_B
  dsimp only
  sl_unfold_words
  rw [View.canon_unit_zero hz3]
  simp only [View.readAt_eq_ld, harg2.read_unread, harg3.read_unread, harg4.read_unread, harg5.read_unread, harg6.read_unread, View.ld_unit_zero (S := S8x2048x32) hz3, View.ld_unit_zero (S := S8x2048) hz2, View.ld_unit_zero (S := S8x64x32) hz3, View.ld_unit_zero (S := S8x64) hz2]

/-- At an accumulating point: the counts' buffer, holding `xo4`, is left at its update. -/
theorem out0_B_4_eq (c : Dev nD) (i : grid0.Coords) (arg2 : Memref sig .tc .vmem S8x2048x32 .f32) (harg2 : arg2.IsWhole) (arg3 : Memref sig .tc .vmem S8x2048 .i32) (harg3 : arg3.IsWhole) (arg4 : Memref sig .tc .vmem S8x2048 .i32) (harg4 : arg4.IsWhole) (arg5 : Memref sig .tc .vmem S8x64x32 .f32) (harg5 : arg5.IsWhole) (arg6 : Memref sig .tc .vmem S8x64 .f32) (harg6 : arg6.IsWhole) (hc : ¬cond0 i)
    (x0 : Vec F S8x2048x32 .f32) (x1 : Vec F S8x2048 .i32) (x2 : Vec F S8x2048 .i32) (xo3 : Vec F S8x64x32 .f32) (xo4 : Vec F S8x64 .f32) :
    out0_B_4 c i arg2 harg2 arg3 harg3 arg4 harg4 arg5 harg5 arg6 harg6 hc x0 x1 x2 xo3 xo4 = k0_pay5 x1 x2 xo4 := by
  unfold out0_B_4
  rw [View.read_writes_eq_canon _ _ _ (cover0_B_4 c i arg2 harg2 arg3 harg3 arg4 harg4 arg5 harg5 arg6 harg6 hc x0 x1 x2 xo3 xo4)]
  unfold kernelRun0_B
  dsimp only
  sl_unfold_words
  rw [View.canon_unit_zero hz2]
  simp only [View.readAt_eq_ld, harg2.read_unread, harg3.read_unread, harg4.read_unread, harg5.read_unread, harg6.read_unread, View.ld_unit_zero (S := S8x2048x32) hz3, View.ld_unit_zero (S := S8x2048) hz2, View.ld_unit_zero (S := S8x64x32) hz3, View.ld_unit_zero (S := S8x64) hz2]

/-! ## Region 1: the per-instance pull penalties (output 4) -/

/-- Where the accumulator is reset: the penalties' buffer is left at the update of the zero block. -/
theorem out1_A_4_eq (c : Dev nD) (i : grid1.Coords) (arg2 : Memref sig .tc .vmem S8x1024x32 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x64x32 .f32) (harg5 : arg5.IsWhole) (arg6 : Memref sig .tc .vmem S8x64 .f32) (harg6 : arg6.IsWhole) (hc : cond1 i)
    (x0 : Vec F S8x1024x32 .f32) (x1 : Vec F S8x1024 .i32) (x2 : Vec F S8x1024 .i32) (x3 : Vec F S8x64x32 .f32) :
    out1_A_4 c i arg2 harg2 arg3 harg3 arg4 harg4 arg5 harg5 arg6 harg6 hc x0 x1 x2 x3 = k1_pay1 (k1_pay4 x1 x2) (k1_pay5 x1 x2) (k1_pay6 x1 x2 x3 x0) k1_pay2 := by
  unfold out1_A_4
  rw [View.read_writes_eq_canon _ _ _ (cover1_A_4 c i arg2 harg2 arg3 harg3 arg4 harg4 arg5 harg5 arg6 harg6 hc x0 x1 x2 x3)]
  unfold kernelRun1_A
  dsimp only
  sl_unfold_words
  rw [View.canon_cons_unit_zero (S := S8x64) hz2, View.readCov_unit_zero (S := S8x64) _ hz2]
  simp only [View.readAt_eq_ld, harg2.read_unread, harg3.read_unread, harg4.read_unread, harg5.read_unread, View.ld_unit_zero (S := S8x1024x32) hz3, View.ld_unit_zero (S := S8x1024) hz2, View.ld_unit_zero (S := S8x64x32) hz3]

/-- At an accumulating point: the penalties' buffer, holding `xo4`, is left at its update. -/
theorem out1_B_4_eq (c : Dev nD) (i : grid1.Coords) (arg2 : Memref sig .tc .vmem S8x1024x32 .f32) (harg2 : arg2.IsWhole) (arg3 : Memref sig .tc .vmem S8x1024 .i32) (harg3 : arg3.IsWhole) (arg4 : Memref sig .tc .vmem S8x1024 .i32) (harg4 : arg4.IsWhole) (arg5 : Memref sig .tc .vmem S8x64x32 .f32) (harg5 : arg5.IsWhole) (arg6 : Memref sig .tc .vmem S8x64 .f32) (harg6 : arg6.IsWhole) (hc : ¬cond1 i)
    (x0 : Vec F S8x1024x32 .f32) (x1 : Vec F S8x1024 .i32) (x2 : Vec F S8x1024 .i32) (x3 : Vec F S8x64x32 .f32) (xo4 : Vec F S8x64 .f32) :
    out1_B_4 c i arg2 harg2 arg3 harg3 arg4 harg4 arg5 harg5 arg6 harg6 hc x0 x1 x2 x3 xo4 = k1_pay1 (k1_pay4 x1 x2) (k1_pay5 x1 x2) (k1_pay6 x1 x2 x3 x0) xo4 := by
  unfold out1_B_4
  rw [View.read_writes_eq_canon _ _ _ (cover1_B_4 c i arg2 harg2 arg3 harg3 arg4 harg4 arg5 harg5 arg6 harg6 hc x0 x1 x2 x3 xo4)]
  unfold kernelRun1_B
  dsimp only
  sl_unfold_words
  rw [View.canon_unit_zero hz2]
  simp only [View.readAt_eq_ld, harg2.read_unread, harg3.read_unread, harg4.read_unread, harg5.read_unread, harg6.read_unread, View.ld_unit_zero (S := S8x1024x32) hz3, View.ld_unit_zero (S := S8x1024) hz2, View.ld_unit_zero (S := S8x64x32) hz3, View.ld_unit_zero (S := S8x64) hz2]

end Cert.KernelIdeal.KValue

end
-- ==== Proof.KBlocks.lean ====
/-
  The pipelines' blocks and arrays, read at explicit coordinates.

  (A) Each input window's block at a grid point is its array read where the point says: point t of the
  first grid (2 x 32) is (t / 32, t % 32) and its blocks are 8 rows by 2048 points, so block entry (b', s)
  is array entry (8 (t / 32) + b', 2048 (t % 32) + s); point t of the second grid (2 x 64) is
  (t / 64, t % 64) with blocks of 8 rows by 1024 points; the means' block depends on the first grid
  coordinate only.

  (B) Each output array after its pipeline is read, at batch element b, from what the accumulating buffer
  held after the LAST point of the grid row b / 8 (the only point of the row that writes the block back),
  at row b % 8 of the block.
-/
import proofs.«400001_j6614249636120_4_alg».proof.Proof.Region0
import proofs.«400001_j6614249636120_4_alg».proof.Proof.Region1
import Idealize.ShloMosaic.Lib.Pipeline.Value
import Idealize.ShloMosaic.Lib.ValueIdx

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.ShloMosaic.Pipeline (Dat)

variable {F : FTy → Type} [FloatOps F]
variable (V : (c : Dev nD) → (b : Ref sig .tc) → Buf (Elt F) ((c : Thread nD τ).loc b))

/-! ## The grids' sizes and the printed index maps, decided once over each grid -/

theorem lt0 (t : Fin cfg0.N) : t.val < 64 := lt_of_lt_of_eq t.isLt (show cfg0.N = 64 from N_0)
theorem lt1 (t : Fin cfg1.N) : t.val < 128 := lt_of_lt_of_eq t.isLt (show cfg1.N = 128 from N_1)

/-- Grid 0: every window's block index on every axis, from the point's position. -/
theorem idx0 : ∀ t : Fin cfg0.N,
    win0_0.index t (0 : Fin 3) = t.val / 32 ∧ win0_0.index t (1 : Fin 3) = t.val % 32 ∧ win0_0.index t (2 : Fin 3) = 0
    ∧ win0_1.index t (0 : Fin 2) = t.val / 32 ∧ win0_1.index t (1 : Fin 2) = t.val % 32
    ∧ win0_2.index t (0 : Fin 2) = t.val / 32 ∧ win0_2.index t (1 : Fin 2) = t.val % 32
    ∧ win0_3.index t (0 : Fin 3) = t.val / 32 ∧ win0_3.index t (1 : Fin 3) = 0 ∧ win0_3.index t (2 : Fin 3) = 0
    ∧ win0_4.index t (0 : Fin 2) = t.val / 32 ∧ win0_4.index t (1 : Fin 2) = 0 :=
  (by decide +kernel : ∀ t : Fin grid0.N, _)

/-- Grid 1: every window's block index on every axis, from the point's position. -/
theorem idx1 : ∀ t : Fin cfg1.N,
    win1_0.index t (0 : Fin 3) = t.val / 64 ∧ win1_0.index t (1 : Fin 3) = t.val % 64 ∧ win1_0.index t (2 : Fin 3) = 0
    ∧ win1_1.index t (0 : Fin 2) = t.val / 64 ∧ win1_1.index t (1 : Fin 2) = t.val % 64
    ∧ win1_2.index t (0 : Fin 2) = t.val / 64 ∧ win1_2.index t (1 : Fin 2) = t.val % 64
    ∧ win1_3.index t (0 : Fin 3) = t.val / 64 ∧ win1_3.index t (1 : Fin 3) = 0 ∧ win1_3.index t (2 : Fin 3) = 0
    ∧ win1_4.index t (0 : Fin 2) = t.val / 64 ∧ win1_4.index t (1 : Fin 2) = 0 :=
  (by decide +kernel : ∀ t : Fin grid1.N, _)

/-! ## (A) The input blocks, read where the grid point says -/

/-- Grid 0, the embeddings' block: entry (b', s, d) at point t is array entry (8 (t / 32) + b', 2048 (t % 32) + s, d). -/
theorem iblk0_0_apply (c : Dev nD) (t : Fin cfg0.N) (b' : Fin 8) (s : Fin 2048) (d : Fin 32) :
    (iblk0 V c 0 t : Vec F S8x2048x32 .f32) (ix3 b' s d)
      = (V c main_arg0 : S16x65536x32.Idx → Elt F .f32)
          (ix3 ⟨8 * (t.val / 32) + b'.val, by have := lt0 t; omega⟩ ⟨2048 * (t.val % 32) + s.val, by omega⟩ d) := by
  obtain ⟨e0, e1, e2, -⟩ := idx0 t
  unfold iblk0
  rw [View.read_apply]
  show V c main_arg0 _ = V c main_arg0 _
  congr 1
  funext a
  apply Fin.ext
  match a with
  | ⟨0, _⟩ => show win0_0.index t (0 : Fin 3) * 8 + 1 * b'.val = 8 * (t.val / 32) + b'.val; omega
  | ⟨1, _⟩ => show win0_0.index t (1 : Fin 3) * 2048 + 1 * s.val = 2048 * (t.val % 32) + s.val; omega
  | ⟨2, _⟩ => show win0_0.index t (2 : Fin 3) * 32 + 1 * d.val = d.val; omega

/-- Grid 0, the instance ids' block. -/
theorem iblk0_1_apply (c : Dev nD) (t : Fin cfg0.N) (b' : Fin 8) (s : Fin 2048) :
    (iblk0 V c 1 t : Vec F S8x2048 .i32) (ix2 b' s)
      = (V c main_arg1 : S16x65536.Idx → Elt F .i32)
          (ix2 ⟨8 * (t.val / 32) + b'.val, by have := lt0 t; omega⟩ ⟨2048 * (t.val % 32) + s.val, by omega⟩) := by
  obtain ⟨-, -, -, e0, e1, -⟩ := idx0 t
  unfold iblk0
  rw [View.read_apply]
  show V c main_arg1 _ = V c main_arg1 _
  congr 1
  funext a
  apply Fin.ext
  match a with
  | ⟨0, _⟩ => show win0_1.index t (0 : Fin 2) * 8 + 1 * b'.val = 8 * (t.val / 32) + b'.val; omega
  | ⟨1, _⟩ => show win0_1.index t (1 : Fin 2) * 2048 + 1 * s.val = 2048 * (t.val % 32) + s.val; omega

/-- Grid 0, the widened mask's block. -/
theorem iblk0_2_apply (c : Dev nD) (t : Fin cfg0.N) (b' : Fin 8) (s : Fin 2048) :
    (iblk0 V c 2 t : Vec F S8x2048 .i32) (ix2 b' s)
      = (V c main_v0 : S16x65536.Idx → Elt F .i32)
          (ix2 ⟨8 * (t.val / 32) + b'.val, by have := lt0 t; omega⟩ ⟨2048 * (t.val % 32) + s.val, by omega⟩) := by
  obtain ⟨-, -, -, -, -, e0, e1, -⟩ := idx0 t
  unfold iblk0
  rw [View.read_apply]
  show V c main_v0 _ = V c main_v0 _
  congr 1
  funext a
  apply Fin.ext
  match a with
  | ⟨0, _⟩ => show win0_2.index t (0 : Fin 2) * 8 + 1 * b'.val = 8 * (t.val / 32) + b'.val; omega
  | ⟨1, _⟩ => show win0_2.index t (1 : Fin 2) * 2048 + 1 * s.val = 2048 * (t.val % 32) + s.val; omega

/-- Grid 1, the embeddings' block: entry (b', s, d) at point t is array entry (8 (t / 64) + b', 1024 (t % 64) + s, d). -/
theorem iblk1_0_apply (c : Dev nD) (t : Fin cfg1.N) (b' : Fin 8) (s : Fin 1024) (d : Fin 32) :
    (iblk1 V c 0 t : Vec F S8x1024x32 .f32) (ix3 b' s d)
      = (V c main_arg0 : S16x65536x32.Idx → Elt F .f32)
          (ix3 ⟨8 * (t.val / 64) + b'.val, by have := lt1 t; omega⟩ ⟨1024 * (t.val % 64) + s.val, by omega⟩ d) := by
  obtain ⟨e0, e1, e2, -⟩ := idx1 t
  unfold iblk1
  rw [View.read_apply]
  show V c main_arg0 _ = V c main_arg0 _
  congr 1
  funext a
  apply Fin.ext
  match a with
  | ⟨0, _⟩ => show win1_0.index t (0 : Fin 3) * 8 + 1 * b'.val = 8 * (t.val / 64) + b'.val; omega
  | ⟨1, _⟩ => show win1_0.index t (1 : Fin 3) * 1024 + 1 * s.val = 1024 * (t.val % 64) + s.val; omega
  | ⟨2, _⟩ => show win1_0.index t (2 : Fin 3) * 32 + 1 * d.val = d.val; omega

/-- Grid 1, the instance ids' block. -/
theorem iblk1_1_apply (c : Dev nD) (t : Fin cfg1.N) (b' : Fin 8) (s : Fin 1024) :
    (iblk1 V c 1 t : Vec F S8x1024 .i32) (ix2 b' s)
      = (V c main_arg1 : S16x65536.Idx → Elt F .i32)
          (ix2 ⟨8 * (t.val / 64) + b'.val, by have := lt1 t; omega⟩ ⟨1024 * (t.val % 64) + s.val, by omega⟩) := by
  obtain ⟨-, -, -, e0, e1, -⟩ := idx1 t
  unfold iblk1
  rw [View.read_apply]
  show V c main_arg1 _ = V c main_arg1 _
  congr 1
  funext a
  apply Fin.ext
  match a with
  | ⟨0, _⟩ => show win1_1.index t (0 : Fin 2) * 8 + 1 * b'.val = 8 * (t.val / 64) + b'.val; omega
  | ⟨1, _⟩ => show win1_1.index t (1 : Fin 2) * 1024 + 1 * s.val = 1024 * (t.val % 64) + s.val; omega

/-- Grid 1, the widened mask's block. -/
theorem iblk1_2_apply (c : Dev nD) (t : Fin cfg1.N) (b' : Fin 8) (s : Fin 1024) :
    (iblk1 V c 2 t : Vec F S8x1024 .i32) (ix2 b' s)
      = (V c main_v0 : S16x65536.Idx → Elt F .i32)
          (ix2 ⟨8 * (t.val / 64) + b'.val, by have := lt1 t; omega⟩ ⟨1024 * (t.val % 64) + s.val, by omega⟩) := by
  obtain ⟨-, -, -, -, -, e0, e1, -⟩ := idx1 t
  unfold iblk1
  rw [View.read_apply]
  show V c main_v0 _ = V c main_v0 _
  congr 1
  funext a
  apply Fin.ext
  match a with
  | ⟨0, _⟩ => show win1_2.index t (0 : Fin 2) * 8 + 1 * b'.val = 8 * (t.val / 64) + b'.val; omega
  | ⟨1, _⟩ => show win1_2.index t (1 : Fin 2) * 1024 + 1 * s.val = 1024 * (t.val % 64) + s.val; omega

/-- Grid 1, the means' block: it follows the first grid coordinate only. -/
theorem iblk1_3_apply (c : Dev nD) (t : Fin cfg1.N) (b' : Fin 8) (k : Fin 64) (d : Fin 32) :
    (iblk1 V c 3 t : Vec F S8x64x32 .f32) (ix3 b' k d)
      = (V c main_v6 : S16x64x32.Idx → Elt F .f32) (ix3 ⟨8 * (t.val / 64) + b'.val, by have := lt1 t; omega⟩ k d) := by
  obtain ⟨-, -, -, -, -, -, -, e0, e1, e2, -⟩ := idx1 t
  unfold iblk1
  rw [View.read_apply]
  show V c main_v6 _ = V c main_v6 _
  congr 1
  funext a
  apply Fin.ext
  match a with
  | ⟨0, _⟩ => show win1_3.index t (0 : Fin 3) * 8 + 1 * b'.val = 8 * (t.val / 64) + b'.val; omega
  | ⟨1, _⟩ => show win1_3.index t (1 : Fin 3) * 64 + 1 * k.val = k.val; omega
  | ⟨2, _⟩ => show win1_3.index t (2 : Fin 3) * 32 + 1 * d.val = d.val; omega

/-! ## (B) Each output array, from the last point of its row of the grid -/

/-- The accumulated buffers depend on the position only, and are read at an index through its coordinates. -/
theorem outs0_3_at (c : Dev nD) (n n' : ℕ) (hn : n < cfg0.N) (hn' : n' < cfg0.N) (y y' : S8x64x32.Idx) (h : n = n')
    (h0 : (y 0).val = (y' 0).val) (h1 : (y 1).val = (y' 1).val) (h2 : (y 2).val = (y' 2).val) :
    (outsAt0 V c n hn).1 y = (outsAt0 V c n' hn').1 y' := by
  subst h
  refine congrArg _ (funext fun a => Fin.ext ?_)
  match a with
  | ⟨0, _⟩ => exact h0
  | ⟨1, _⟩ => exact h1
  | ⟨2, _⟩ => exact h2

/-- The sums' array as ONE function of the index: batch element b reads row b % 8 of what the buffer held
    after the last point of grid row b / 8. -/
abbrev G0_3 (c : Dev nD) : S16x64x32.Idx → Elt F .f32 := fun j =>
  (outsAt0 V c (32 * ((j 0).val / 8) + 31) (by rw [show cfg0.N = 64 from N_0]; have : (j 0).val < 16 := (j 0).isLt; omega)).1
    (ix3 ⟨(j 0).val % 8, Nat.mod_lt _ (by decide)⟩ (j 1) (j 2))

/-- What a writing-back point writes is its block of that function. -/
theorem flushed0_3_eq (c : Dev nD) (t : Fin cfg0.N) (hf : (cfg0.win 3).flush t = true) :
    (dat0 V c).flushed 3 t = ((cfg0.win 3).blk t).view.read (Elt F) (G0_3 V c) := by
  have h31 : t.val % 32 = 31 := (flush0_3 t).mp hf
  have hN := lt0 t
  obtain ⟨-, -, -, -, -, -, -, e0, e1, e2, -⟩ := idx0 t
  show (cfg0.win 3).cut (grid0.coords t) ((dat0 V c).after 3 t) = _
  rw [after0_3]
  funext y
  rw [View.read_apply]
  have hy0 : (y 0).val < 8 := (y 0).isLt
  have k0 : ((((cfg0.win 3).blk t).view.emb y) 0).val = win0_3.index t (0 : Fin 3) * 8 + 1 * (y 0).val := rfl
  have k1 : ((((cfg0.win 3).blk t).view.emb y) 1).val = win0_3.index t (1 : Fin 3) * 64 + 1 * (y 1).val := rfl
  have k2 : ((((cfg0.win 3).blk t).view.emb y) 2).val = win0_3.index t (2 : Fin 3) * 32 + 1 * (y 2).val := rfl
  show (outsAt0 V c t.val t.isLt).1 _ = (outsAt0 V c _ _).1 _
  refine outs0_3_at V c _ _ _ _ _ _ ?_ ?_ ?_ ?_
  · rw [k0, e0]; omega
  · show (y 0).val = ((((cfg0.win 3).blk t).view.emb y) 0).val % 8; rw [k0, e0]; omega
  · show (y 1).val = ((((cfg0.win 3).blk t).view.emb y) 1).val; rw [k1, e1]; omega
  · show (y 2).val = ((((cfg0.win 3).blk t).view.emb y) 2).val; rw [k2, e2]; omega

/-- An index of the sums' array is in point t's block iff each coordinate is in the block's range on its axis. -/
theorem mem_blk0_3 (t : Fin cfg0.N) (i : S16x64x32.Idx) :
    i ∈ ((cfg0.win 3).blk t).view.set ↔ ∀ a : Fin 3, win0_3.index t a * S8x64x32.size a ≤ (i a).val ∧ (i a).val < win0_3.index t a * S8x64x32.size a + S8x64x32.size a := by
  show i ∈ ((View.whole main_v1_0).slice (win0_3.rect t)).set ↔ _
  rw [View.set_slice_whole, Rect.mem_set_unit]
  exact Iff.rfl

/-- Every index of the sums' array is in the block of the last point of its grid row, which writes back. -/
theorem cover0_3 (i : S16x64x32.Idx) : ∃ t : Fin cfg0.N, (cfg0.win 3).flush t = true ∧ i ∈ ((cfg0.win 3).blk t).view.set := by
  have hi0 : (i 0).val < 16 := (i 0).isLt
  have hi1 : (i 1).val < 64 := (i 1).isLt
  have hi2 : (i 2).val < 32 := (i 2).isLt
  refine ⟨⟨32 * ((i 0).val / 8) + 31, by rw [show cfg0.N = 64 from N_0]; omega⟩, (flush0_3 _).mpr (by show (32 * ((i 0).val / 8) + 31) % 32 = 31; omega), ?_⟩
  rw [mem_blk0_3]
  obtain ⟨-, -, -, -, -, -, -, e0, e1, e2, -⟩ := idx0 ⟨32 * ((i 0).val / 8) + 31, by rw [show cfg0.N = 64 from N_0]; omega⟩
  have q : (32 * ((i 0).val / 8) + 31) / 32 = (i 0).val / 8 := by omega
  intro a
  match a with
  | ⟨0, _⟩ => show win0_3.index _ (0 : Fin 3) * 8 ≤ (i 0).val ∧ (i 0).val < win0_3.index _ (0 : Fin 3) * 8 + 8; rw [e0]; dsimp only; omega
  | ⟨1, _⟩ => show win0_3.index _ (1 : Fin 3) * 64 ≤ (i 1).val ∧ (i 1).val < win0_3.index _ (1 : Fin 3) * 64 + 64; rw [e1]; omega
  | ⟨2, _⟩ => show win0_3.index _ (2 : Fin 3) * 32 ≤ (i 2).val ∧ (i 2).val < win0_3.index _ (2 : Fin 3) * 32 + 32; rw [e2]; omega

/-- So the sums' array ends holding that function. -/
theorem final0_3 (c : Dev nD) : (dat0 V c).arrAt 3 cfg0.N = G0_3 V c :=
  (dat0 V c).arrAt_eq_of_cover 3 (G0_3 V c) (flushed0_3_eq V c) cover0_3

/-- THE SUMS' ARRAY after pipeline 0, at (b, k, d): row b % 8 of the buffer after the last point of grid row b / 8. -/
theorem arrAt0_3 (c : Dev nD) (b : Fin 16) (k : Fin 64) (d : Fin 32) :
    (dat0 V c).arrAt 3 cfg0.N (ix3 b k d)
      = (outsAt0 V c (32 * (b.val / 8) + 31) (by rw [show cfg0.N = 64 from N_0]; omega)).1 (ix3 ⟨b.val % 8, Nat.mod_lt _ (by decide)⟩ k d) :=
  congrFun (final0_3 V c) (ix3 b k d)

/-- The counts' buffer likewise depends on the position only, and is read through the index's coordinates. -/
theorem outs0_4_at (c : Dev nD) (n n' : ℕ) (hn : n < cfg0.N) (hn' : n' < cfg0.N) (y y' : S8x64.Idx) (h : n = n')
    (h0 : (y 0).val = (y' 0).val) (h1 : (y 1).val = (y' 1).val) :
    (outsAt0 V c n hn).2 y = (outsAt0 V c n' hn').2 y' := by
  subst h
  refine congrArg _ (funext fun a => Fin.ext ?_)
  match a with
  | ⟨0, _⟩ => exact h0
  | ⟨1, _⟩ => exact h1

/-- The counts' array as one function of the index. -/
abbrev G0_4 (c : Dev nD) : S16x64.Idx → Elt F .f32 := fun j =>
  (outsAt0 V c (32 * ((j 0).val / 8) + 31) (by rw [show cfg0.N = 64 from N_0]; have : (j 0).val < 16 := (j 0).isLt; omega)).2
    (ix2 ⟨(j 0).val % 8, Nat.mod_lt _ (by decide)⟩ (j 1))

/-- What a writing-back point writes is its block of that function. -/
theorem flushed0_4_eq (c : Dev nD) (t : Fin cfg0.N) (hf : (cfg0.win 4).flush t = true) :
    (dat0 V c).flushed 4 t = ((cfg0.win 4).blk t).view.read (Elt F) (G0_4 V c) := by
  have h31 : t.val % 32 = 31 := (flush0_4 t).mp hf
  have hN := lt0 t
  obtain ⟨-, -, -, -, -, -, -, -, -, -, e0, e1⟩ := idx0 t
  show (cfg0.win 4).cut (grid0.coords t) ((dat0 V c).after 4 t) = _
  rw [after0_4]
  funext y
  rw [View.read_apply]
  have hy0 : (y 0).val < 8 := (y 0).isLt
  have k0 : ((((cfg0.win 4).blk t).view.emb y) 0).val = win0_4.index t (0 : Fin 2) * 8 + 1 * (y 0).val := rfl
  have k1 : ((((cfg0.win 4).blk t).view.emb y) 1).val = win0_4.index t (1 : Fin 2) * 64 + 1 * (y 1).val := rfl
  show (outsAt0 V c t.val t.isLt).2 _ = (outsAt0 V c _ _).2 _
  refine outs0_4_at V c _ _ _ _ _ _ ?_ ?_ ?_
  · rw [k0, e0]; omega
  · show (y 0).val = ((((cfg0.win 4).blk t).view.emb y) 0).val % 8; rw [k0, e0]; omega
  · show (y 1).val = ((((cfg0.win 4).blk t).view.emb y) 1).val; rw [k1, e1]; omega

/-- An index of the counts' array is in point t's block iff each coordinate is in the block's range on its axis. -/
theorem mem_blk0_4 (t : Fin cfg0.N) (i : S16x64.Idx) :
    i ∈ ((cfg0.win 4).blk t).view.set ↔ ∀ a : Fin 2, win0_4.index t a * S8x64.size a ≤ (i a).val ∧ (i a).val < win0_4.index t a * S8x64.size a + S8x64.size a := by
  show i ∈ ((View.whole main_v1_1).slice (win0_4.rect t)).set ↔ _
  rw [View.set_slice_whole, Rect.mem_set_unit]
  exact Iff.rfl

/-- Every index of the counts' array is in the block of the last point of its grid row, which writes back. -/
theorem cover0_4 (i : S16x64.Idx) : ∃ t : Fin cfg0.N, (cfg0.win 4).flush t = true ∧ i ∈ ((cfg0.win 4).blk t).view.set := by
  have hi0 : (i 0).val < 16 := (i 0).isLt
  have hi1 : (i 1).val < 64 := (i 1).isLt
  refine ⟨⟨32 * ((i 0).val / 8) + 31, by rw [show cfg0.N = 64 from N_0]; omega⟩, (flush0_4 _).mpr (by show (32 * ((i 0).val / 8) + 31) % 32 = 31; omega), ?_⟩
  rw [mem_blk0_4]
  obtain ⟨-, -, -, -, -, -, -, -, -, -, e0, e1⟩ := idx0 ⟨32 * ((i 0).val / 8) + 31, by rw [show cfg0.N = 64 from N_0]; omega⟩
  have q : (32 * ((i 0).val / 8) + 31) / 32 = (i 0).val / 8 := by omega
  intro a
  match a with
  | ⟨0, _⟩ => show win0_4.index _ (0 : Fin 2) * 8 ≤ (i 0).val ∧ (i 0).val < win0_4.index _ (0 : Fin 2) * 8 + 8; rw [e0]; dsimp only; omega
  | ⟨1, _⟩ => show win0_4.index _ (1 : Fin 2) * 64 ≤ (i 1).val ∧ (i 1).val < win0_4.index _ (1 : Fin 2) * 64 + 64; rw [e1]; omega

/-- So the counts' array ends holding that function. -/
theorem final0_4 (c : Dev nD) : (dat0 V c).arrAt 4 cfg0.N = G0_4 V c :=
  (dat0 V c).arrAt_eq_of_cover 4 (G0_4 V c) (flushed0_4_eq V c) cover0_4

/-- THE COUNTS' ARRAY after pipeline 0, at (b, k): row b % 8 of the buffer after the last point of grid row b / 8. -/
theorem arrAt0_4 (c : Dev nD) (b : Fin 16) (k : Fin 64) :
    (dat0 V c).arrAt 4 cfg0.N (ix2 b k)
      = (outsAt0 V c (32 * (b.val / 8) + 31) (by rw [show cfg0.N = 64 from N_0]; omega)).2 (ix2 ⟨b.val % 8, Nat.mod_lt _ (by decide)⟩ k) :=
  congrFun (final0_4 V c) (ix2 b k)

/-- Pipeline 1's accumulated buffer depends on the position only, and is read through the index's coordinates. -/
theorem outs1_4_at (c : Dev nD) (n n' : ℕ) (hn : n < cfg1.N) (hn' : n' < cfg1.N) (y y' : S8x64.Idx) (h : n = n')
    (h0 : (y 0).val = (y' 0).val) (h1 : (y 1).val = (y' 1).val) :
    outsAt1 V c n hn y = outsAt1 V c n' hn' y' := by
  subst h
  refine congrArg _ (funext fun a => Fin.ext ?_)
  match a with
  | ⟨0, _⟩ => exact h0
  | ⟨1, _⟩ => exact h1

/-- The penalties' array as one function of the index: batch element b reads row b % 8 of what the buffer
    held after the last point of grid row b / 8 of the second grid. -/
abbrev G1_4 (c : Dev nD) : S16x64.Idx → Elt F .f32 := fun j =>
  outsAt1 V c (64 * ((j 0).val / 8) + 63) (by rw [show cfg1.N = 128 from N_1]; have : (j 0).val < 16 := (j 0).isLt; omega)
    (ix2 ⟨(j 0).val % 8, Nat.mod_lt _ (by decide)⟩ (j 1))

/-- What a writing-back point writes is its block of that function. -/
theorem flushed1_4_eq (c : Dev nD) (t : Fin cfg1.N) (hf : (cfg1.win 4).flush t = true) :
    (dat1 V c).flushed 4 t = ((cfg1.win 4).blk t).view.read (Elt F) (G1_4 V c) := by
  have h63 : t.val % 64 = 63 := (flush1_4 t).mp hf
  have hN := lt1 t
  obtain ⟨-, -, -, -, -, -, -, -, -, -, e0, e1⟩ := idx1 t
  show (cfg1.win 4).cut (grid1.coords t) ((dat1 V c).after 4 t) = _
  rw [after1_4]
  funext y
  rw [View.read_apply]
  have hy0 : (y 0).val < 8 := (y 0).isLt
  have k0 : ((((cfg1.win 4).blk t).view.emb y) 0).val = win1_4.index t (0 : Fin 2) * 8 + 1 * (y 0).val := rfl
  have k1 : ((((cfg1.win 4).blk t).view.emb y) 1).val = win1_4.index t (1 : Fin 2) * 64 + 1 * (y 1).val := rfl
  show outsAt1 V c t.val t.isLt _ = outsAt1 V c _ _ _
  refine outs1_4_at V c _ _ _ _ _ _ ?_ ?_ ?_
  · rw [k0, e0]; omega
  · show (y 0).val = ((((cfg1.win 4).blk t).view.emb y) 0).val % 8; rw [k0, e0]; omega
  · show (y 1).val = ((((cfg1.win 4).blk t).view.emb y) 1).val; rw [k1, e1]; omega

/-- An index of the penalties' array is in point t's block iff each coordinate is in the block's range on its axis. -/
theorem mem_blk1_4 (t : Fin cfg1.N) (i : S16x64.Idx) :
    i ∈ ((cfg1.win 4).blk t).view.set ↔ ∀ a : Fin 2, win1_4.index t a * S8x64.size a ≤ (i a).val ∧ (i a).val < win1_4.index t a * S8x64.size a + S8x64.size a := by
  show i ∈ ((View.whole main_v15).slice (win1_4.rect t)).set ↔ _
  rw [View.set_slice_whole, Rect.mem_set_unit]
  exact Iff.rfl

/-- Every index of the penalties' array is in the block of the last point of its grid row, which writes back. -/
theorem cover1_4 (i : S16x64.Idx) : ∃ t : Fin cfg1.N, (cfg1.win 4).flush t = true ∧ i ∈ ((cfg1.win 4).blk t).view.set := by
  have hi0 : (i 0).val < 16 := (i 0).isLt
  have hi1 : (i 1).val < 64 := (i 1).isLt
  refine ⟨⟨64 * ((i 0).val / 8) + 63, by rw [show cfg1.N = 128 from N_1]; omega⟩, (flush1_4 _).mpr (by show (64 * ((i 0).val / 8) + 63) % 64 = 63; omega), ?_⟩
  rw [mem_blk1_4]
  obtain ⟨-, -, -, -, -, -, -, -, -, -, e0, e1⟩ := idx1 ⟨64 * ((i 0).val / 8) + 63, by rw [show cfg1.N = 128 from N_1]; omega⟩
  have q : (64 * ((i 0).val / 8) + 63) / 64 = (i 0).val / 8 := by omega
  intro a
  match a with
  | ⟨0, _⟩ => show win1_4.index _ (0 : Fin 2) * 8 ≤ (i 0).val ∧ (i 0).val < win1_4.index _ (0 : Fin 2) * 8 + 8; rw [e0]; dsimp only; omega
  | ⟨1, _⟩ => show win1_4.index _ (1 : Fin 2) * 64 ≤ (i 1).val ∧ (i 1).val < win1_4.index _ (1 : Fin 2) * 64 + 64; rw [e1]; omega

/-- So the penalties' array ends holding that function. -/
theorem final1_4 (c : Dev nD) : (dat1 V c).arrAt 4 cfg1.N = G1_4 V c :=
  (dat1 V c).arrAt_eq_of_cover 4 (G1_4 V c) (flushed1_4_eq V c) cover1_4

/-- THE PENALTIES' ARRAY after pipeline 1, at (b, k): row b % 8 of the buffer after the last point of grid row b / 8. -/
theorem arrAt1_4 (c : Dev nD) (b : Fin 16) (k : Fin 64) :
    (dat1 V c).arrAt 4 cfg1.N (ix2 b k)
      = outsAt1 V c (64 * (b.val / 8) + 63) (by rw [show cfg1.N = 128 from N_1]; omega) (ix2 ⟨b.val % 8, Nat.mod_lt _ (by decide)⟩ k) :=
  congrFun (final1_4 V c) (ix2 b k)

end Cert.KernelIdeal.KValue

end
-- ==== Proof.KValue0.lean ====
/-
  What region 0 leaves in its two output arrays: the per-instance sums and counts.

  Grid point t = 32 * i + j of region 0 holds points 2048 * j … 2048 * j + 2047 of batch rows 8 * i … 8 * i + 7. Within
  a row of the grid the two accumulators are reset at j = 0 and added to at every point, and written back after j = 31.
  So after point t the sums' buffer holds, at (b', k, d), the sum over the first j + 1 tiles of batch row 8 * i + b' of
  the embeddings' coordinate d over the points that belong to instance k; the counts' buffer the number of those points.
  After the last point of a grid row that is the whole segment sum.
-/
import proofs.«400001_j6614249636120_4_alg».proof.Proof.KPay0
import proofs.«400001_j6614249636120_4_alg».proof.Proof.KTiles
import proofs.«400001_j6614249636120_4_alg».proof.Proof.KPieces
import proofs.«400001_j6614249636120_4_alg».proof.Proof.KBlocks

set_option maxRecDepth 16384

noncomputable section

open scoped BigOperators

namespace Cert.KernelIdeal.KValue

open Cert.KernelIdeal Cert.KernelIdeal.Gen Cert.KernelIdeal.Hand
open Cert.Spec
open Idealize.ShloMosaic Idealize.ShloMosaic.TcCoe Idealize.ShloMosaic.ValueIdx Idealize.SL.Sem

variable (V : (c : Dev nD) → (b : Ref sig .tc) → Buf (Elt Ideal) ((c : Thread nD τ).loc b))

/-- The embeddings' block at grid point t. -/
abbrev embBlk0 (c : Dev nD) (t : Fin cfg0.N) : Vec Ideal S8x2048x32 .f32 := iblk0 V c 0 t
/-- The ids' block at grid point t. -/
abbrev idsBlk0 (c : Dev nD) (t : Fin cfg0.N) : Vec Ideal S8x2048 .i32 := iblk0 V c 1 t
/-- The mask words' block at grid point t. -/
abbrev mskBlk0 (c : Dev nD) (t : Fin cfg0.N) : Vec Ideal S8x2048 .i32 := iblk0 V c 2 t

/-- ONE TILE. At grid point t the sum over the block's 2048 points of batch row b' of a per-point quantity q, kept
    where the mask word is not zero and the id is the word k, is the sum of the segment's terms over tile t % 32 of
    batch row 8 * (t / 32) + b': the block's words are the arrays' at those points, and a mask word is not zero exactly
    when the mask bit is set. -/
theorem tile0_eq (c : Dev nD) (ids mi : IVec SI 32) (msk : IVec SI 1)
    (hids : (V c main_arg1 : SI.Idx → BitVec 32) = ids) (hmw : (V c main_v0 : SI.Idx → BitVec 32) = mi)
    (hmi : ∀ j, mi j ≠ 0#32 ↔ msk j = 1#1)
    (pt : Fin 16 → Fin 65536 → EReal) (t : Fin cfg0.N) (b' : Fin 8) (r : Fin 16) (hr : r.val = 8 * (t.val / 32) + b'.val)
    (k : Fin 64) (q : Fin 2048 → EReal)
    (hq : ∀ s : Fin 2048, q s = pt r ⟨2048 * (t.val % 32) + s.val, by have := s.isLt; omega⟩) :
    ∑ s : Fin 2048, (if (mskBlk0 V c t (ix2 b' s) ≠ 0#32 ∧ idsBlk0 V c t (ix2 b' s) = BitVec.ofNat 32 k.val) then q s else 0)
      = ∑ s : Fin 2048, segTerm ids msk pt r k (2048 * (t.val % 32) + s.val) := by
  have hN : t.val < 64 := lt_of_lt_of_eq t.isLt (show cfg0.N = 64 from N_0)
  have hb : 8 * (t.val / 32) + b'.val < 16 := by clear hr hq; have := b'.isLt; omega
  obtain rfl : r = ⟨8 * (t.val / 32) + b'.val, hb⟩ := Fin.ext hr
  refine Finset.sum_congr rfl fun s _ => ?_
  rw [segTerm_tile ids msk pt _ k (t.val % 32) (Nat.mod_lt _ (by decide)) s, hq s]
  have e1 : idsBlk0 V c t (ix2 b' s) = ids (ix2 ⟨8 * (t.val / 32) + b'.val, by have := b'.isLt; omega⟩
      ⟨2048 * (t.val % 32) + s.val, by have := s.isLt; omega⟩) := by
    rw [← hids]; exact iblk0_1_apply V c t b' s
  have e2 : mskBlk0 V c t (ix2 b' s) = mi (ix2 ⟨8 * (t.val / 32) + b'.val, by have := b'.isLt; omega⟩
      ⟨2048 * (t.val % 32) + s.val, by have := s.isLt; omega⟩) := by
    rw [← hmw]; exact iblk0_2_apply V c t b' s
  rw [e1, e2]
  refine if_congr ?_ rfl rfl
  unfold Hit
  rw [hmi]

/-- THE SUMS' INVARIANT. After grid point n the sums' buffer holds at (b', k, d) the sum, over the first n % 32 + 1
    tiles of batch row 8 * (n / 32) + b', of the embeddings' coordinate d over the points that belong to instance k. By
    induction on the point: the first point of a grid row starts from the zero block, every other from what the
    point before left. -/
theorem sums0_inv (c : Dev nD) (emb : FVec Ideal SE .f32) (ids mi : IVec SI 32) (msk : IVec SI 1)
    (hemb : (V c main_arg0 : SE.Idx → EReal) = emb)
    (hids : (V c main_arg1 : SI.Idx → BitVec 32) = ids) (hmw : (V c main_v0 : SI.Idx → BitVec 32) = mi)
    (hmi : ∀ j, mi j ≠ 0#32 ↔ msk j = 1#1) (k : Fin 64) (d : Fin 32) :
    ∀ (n : ℕ) (hn : n < cfg0.N) (b' : Fin 8) (r : Fin 16), r.val = 8 * (n / 32) + b'.val →
      (outsAt0 V c n hn).1 (ix3 b' k d)
        = ∑ m ∈ Finset.range (2048 * (n % 32 + 1)), segTerm ids msk (fun r p => emb (ix3 r p d)) r k m := by
  intro n
  induction n using Nat.strong_induction_on with
  | _ n ih =>
    intro hn b' r hr
    have hN : n < 64 := lt_of_lt_of_eq hn (show cfg0.N = 64 from N_0)
    have hb : 8 * (n / 32) + b'.val < 16 := by clear hr ih; have := b'.isLt; omega
    obtain rfl : r = ⟨8 * (n / 32) + b'.val, hb⟩ := Fin.ext hr
    have htile := tile0_eq V c ids mi msk hids hmw hmi (fun r p => emb (ix3 r p d)) ⟨n, hn⟩ b' ⟨8 * (n / 32) + b'.val, hb⟩ rfl k
      (fun s => embBlk0 V c ⟨n, hn⟩ (ix3 b' s d)) (fun s => by
        show iblk0 V c 0 ⟨n, hn⟩ (ix3 b' s d) = emb _
        rw [← hemb]; exact iblk0_0_apply V c ⟨n, hn⟩ b' s d)
    dsimp only at htile
    by_cases h0 : n % 32 = 0
    · rw [outsAt0_A V c ⟨n, hn⟩ h0]
      dsimp only
      rw [out0_A_3_eq]
      refine (pay4_apply (idsBlk0 V c ⟨n, hn⟩) (mskBlk0 V c ⟨n, hn⟩) (embBlk0 V c ⟨n, hn⟩) (k0_pay1 (F := Ideal)) b' k d).trans ?_
      rw [pay1_apply, htile, h0]
      exact (tiles_one _).symm
    · rw [outsAt0_B V c ⟨n, hn⟩ h0]
      dsimp only
      rw [out0_B_3_eq]
      refine (pay4_apply (idsBlk0 V c ⟨n, hn⟩) (mskBlk0 V c ⟨n, hn⟩) (embBlk0 V c ⟨n, hn⟩) _ b' k d).trans ?_
      rw [ih (n - 1) (by omega) _ b' ⟨8 * (n / 32) + b'.val, hb⟩ (by show 8 * (n / 32) + b'.val = 8 * ((n - 1) / 32) + b'.val; omega), htile,
        show (n - 1) % 32 + 1 = n % 32 by omega]
      exact (tiles_succ _ (n % 32)).symm

/-- THE COUNTS' INVARIANT. After grid point n the counts' buffer holds at (b', k) the number, over the first
    n % 32 + 1 tiles of batch row 8 * (n / 32) + b', of the points that belong to instance k. -/
theorem counts0_inv (c : Dev nD) (ids mi : IVec SI 32) (msk : IVec SI 1)
    (hids : (V c main_arg1 : SI.Idx → BitVec 32) = ids) (hmw : (V c main_v0 : SI.Idx → BitVec 32) = mi)
    (hmi : ∀ j, mi j ≠ 0#32 ↔ msk j = 1#1) (k : Fin 64) :
    ∀ (n : ℕ) (hn : n < cfg0.N) (b' : Fin 8) (r : Fin 16), r.val = 8 * (n / 32) + b'.val →
      (outsAt0 V c n hn).2 (ix2 b' k)
        = ∑ m ∈ Finset.range (2048 * (n % 32 + 1)), segTerm ids msk (fun _ _ => 1) r k m := by
  intro n
  induction n using Nat.strong_induction_on with
  | _ n ih =>
    intro hn b' r hr
    have hN : n < 64 := lt_of_lt_of_eq hn (show cfg0.N = 64 from N_0)
    have htile := tile0_eq V c ids mi msk hids hmw hmi (fun _ _ => 1) ⟨n, hn⟩ b' r hr k (fun _ => 1) (fun _ => rfl)
    dsimp only at htile
    by_cases h0 : n % 32 = 0
    · rw [outsAt0_A V c ⟨n, hn⟩ h0]
      dsimp only
      rw [out0_A_4_eq]
      refine (pay5_apply (idsBlk0 V c ⟨n, hn⟩) (mskBlk0 V c ⟨n, hn⟩) (k0_pay2 (F := Ideal)) b' k).trans ?_
      rw [pay2_apply, htile, h0]
      exact (tiles_one _).symm
    · rw [outsAt0_B V c ⟨n, hn⟩ h0]
      dsimp only
      rw [out0_B_4_eq]
      refine (pay5_apply (idsBlk0 V c ⟨n, hn⟩) (mskBlk0 V c ⟨n, hn⟩) _ b' k).trans ?_
      rw [ih (n - 1) (by omega) _ b' r (by rw [hr]; omega), htile, show (n - 1) % 32 + 1 = n % 32 by omega]
      exact (tiles_succ _ (n % 32)).symm

/-- THE SUMS' ARRAY. Row b of the sums' array is written back after the last point of grid row b / 8, from row b % 8
    of the buffer: all 32 tiles of batch row b have been added by then, which is the whole segment sum. -/
theorem arr0_3 (c : Dev nD) (emb : FVec Ideal SE .f32) (ids mi : IVec SI 32) (msk : IVec SI 1)
    (hemb : (V c main_arg0 : SE.Idx → EReal) = emb)
    (hids : (V c main_arg1 : SI.Idx → BitVec 32) = ids) (hmw : (V c main_v0 : SI.Idx → BitVec 32) = mi)
    (hmi : ∀ j, mi j ≠ 0#32 ↔ msk j = 1#1) (b : Fin 16) (k : Fin 64) (d : Fin 32) :
    (dat0 V c).arrAt 3 cfg0.N (ix3 b k d) = Cert.Spec.sums emb ids msk b k d := by
  have hb := b.isLt
  rw [arrAt0_3 V c b k d,
    sums0_inv V c emb ids mi msk hemb hids hmw hmi k d (32 * (b.val / 8) + 31) _ ⟨b.val % 8, Nat.mod_lt _ (by decide)⟩ b
      (by show b.val = 8 * ((32 * (b.val / 8) + 31) / 32) + b.val % 8; omega),
    show 2048 * ((32 * (b.val / 8) + 31) % 32 + 1) = 65536 by omega]
  unfold Cert.Spec.sums
  exact (segSum_eq_range ids msk _ b k).symm

/-- THE COUNTS' ARRAY, likewise. -/
theorem arr0_4 (c : Dev nD) (ids mi : IVec SI 32) (msk : IVec SI 1)
    (hids : (V c main_arg1 : SI.Idx → BitVec 32) = ids) (hmw : (V c main_v0 : SI.Idx → BitVec 32) = mi)
    (hmi : ∀ j, mi j ≠ 0#32 ↔ msk j = 1#1) (b : Fin 16) (k : Fin 64) :
    (dat0 V c).arrAt 4 cfg0.N (ix2 b k) = Cert.Spec.counts ids msk b k := by
  have hb := b.isLt
  rw [arrAt0_4 V c b k,
    counts0_inv V c ids mi msk hids hmw hmi k (32 * (b.val / 8) + 31) _ ⟨b.val % 8, Nat.mod_lt _ (by decide)⟩ b
      (by show b.val = 8 * ((32 * (b.val / 8) + 31) / 32) + b.val % 8; omega),
    show 2048 * ((32 * (b.val / 8) + 31) % 32 + 1) = 65536 by omega]
  unfold Cert.Spec.counts
  exact (segSum_eq_range ids msk _ b k).symm

end Cert.KernelIdeal.KValue

end
-- ==== Proof.KPay1.lean ====
/-
  The arithmetic of one step of region 1, read at one entry of the [8, 64] accumulator.

  A point (b, t) of a tile carries a mask word, an id word and an embedding row. Its VALIDITY bit says the mask word is
  not zero and the id is non-negative; its ONE-HOT row has, at column k, the bit "the id, or −1 when the point is not
  valid, equals the word k". For k below 64 the word k is non-negative and is not −1, so the bit at column k is set
  exactly when the mask word is not zero and the id is the word k; in particular at most one column is set.
  The tile's step adds to entry (b, k) the sum over the points t of
      bit (b, t, k) · (penalty of the distance of the point to its gathered mean · validity),
  where the gathered mean of a point is the one-hot row times the table of means: the row of the table at the set
  column (one term of the sum survives, 1 · x = x and 0 · x = 0 on every extended real). Where the bit is set the
  validity is 1 and the summand is the penalty of the point against mean k; elsewhere the summand is 0 · x = 0.
-/
import proofs.«400001_j6614249636120_4_alg».proof.Proof.Gen.KernelIdeal.Skeleton
import proofs.«400001_j6614249636120_4_alg».proof.Proof.Spec
import Idealize.ShloMosaic.PureOps.Ideal.Laws
import Idealize.ShloMosaic.Lib.ValueIdx
import Idealize.ShloMosaic.Lib.Pipeline.Value

noncomputable section

namespace Cert.KernelIdeal.KValue.Pen

open Cert.KernelIdeal Cert.KernelIdeal.Gen
open Idealize.ShloMosaic Idealize.ShloMosaic.ValueIdx
open scoped BigOperators

/-! ## Words -/

theorem ofBool_eq_one (p : Bool) : BitVec.ofBool p = 1#1 ↔ p = true := by cases p <;> decide

theorem and_eq_one (a c : BitVec 1) : a &&& c = 1#1 ↔ a = 1#1 ∧ c = 1#1 := by
  revert a c; decide

theorem cmpi_eq_eq_one (x y : BitVec 32) : IntOp.cmpi .eq x y = 1#1 ↔ x = y := by
  show BitVec.ofBool (x == y) = 1#1 ↔ _
  rw [ofBool_eq_one, beq_iff_eq]

/-- The validity bit of a point from its id word and its mask word. -/
def vbit (i m : BitVec 32) : BitVec 1 := IntOp.andi (IntOp.cmpi .ne m 0#32) (IntOp.cmpi .sge i 0#32)

/-- The one-hot bit of a point at column k. -/
def hbit (i m : BitVec 32) (k : Fin 64) : BitVec 1 :=
  IntOp.cmpi .eq (Scalar.select (vbit i m) i 4294967295#32) (BitVec.ofNat 32 k.val)

/-- A point is valid when its mask word is not zero and its id is non-negative. -/
theorem vbit_eq_one_iff (i m : BitVec 32) : vbit i m = 1#1 ↔ (m ≠ 0#32 ∧ (0#32).sle i = true) := by
  show BitVec.ofBool (m != 0#32) &&& BitVec.ofBool ((0#32).sle i) = 1#1 ↔ _
  rw [and_eq_one, ofBool_eq_one, ofBool_eq_one, bne_iff_ne]

/-- The word of a column is non-negative and is not the word −1. -/
theorem word_facts : ∀ k : Fin 64, (0#32).sle (BitVec.ofNat 32 k.val) = true ∧ (4294967295#32 : BitVec 32) ≠ BitVec.ofNat 32 k.val := by
  decide

/-- The one-hot bit at column k is set exactly when the mask word is not zero and the id is the word k. -/
theorem hbit_eq_one_iff (i m : BitVec 32) (k : Fin 64) : hbit i m k = 1#1 ↔ (m ≠ 0#32 ∧ i = BitVec.ofNat 32 k.val) := by
  obtain ⟨h1, h2⟩ := word_facts k
  unfold hbit
  rw [cmpi_eq_eq_one]
  by_cases hv : vbit i m = 1#1
  · rw [hv, select_one]
    exact ⟨fun h => ⟨((vbit_eq_one_iff i m).mp hv).1, h⟩, fun h => h.2⟩
  · rw [eq_zero_of_ne_one hv, select_zero]
    refine ⟨fun h => absurd h h2, fun h => absurd ((vbit_eq_one_iff i m).mpr ⟨h.1, ?_⟩) hv⟩
    rw [h.2]; exact h1

/-- Where the one-hot bit is set the point is valid. -/
theorem vbit_of_hbit {i m : BitVec 32} {k : Fin 64} (h : hbit i m k = 1#1) : vbit i m = 1#1 := by
  obtain ⟨h1, _⟩ := word_facts k
  obtain ⟨hm, hi⟩ := (hbit_eq_one_iff i m k).mp h
  refine (vbit_eq_one_iff i m).mpr ⟨hm, ?_⟩
  rw [hi]; exact h1

/-- The words of two different columns differ, so a one-hot row has at most one bit set. -/
theorem hbit_unique {i m : BitVec 32} {k k' : Fin 64} (h : hbit i m k = 1#1) (h' : hbit i m k' = 1#1) : k' = k := by
  have e : BitVec.ofNat 32 k'.val = BitVec.ofNat 32 k.val := ((hbit_eq_one_iff i m k').mp h').2.symm.trans ((hbit_eq_one_iff i m k).mp h).2
  have := congrArg BitVec.toNat e
  simp only [BitVec.toNat_ofNat] at this
  exact Fin.ext (by omega)

/-- A bit read as a signed integer and then as a number is one when set and zero when clear. -/
theorem sitofp_extui (c : BitVec 1) : (FloatOps.sitofp (F := Ideal) .f32 (c.setWidth 32) : EReal) = Cert.Spec.bit01 c := by
  rcases BitVec.eq_zero_or_eq_one c with h | h <;> subst h
  · show (((BitVec.setWidth 32 0#1).toInt : ℝ) : EReal) = _
    simp [Cert.Spec.bit01]
  · show (((BitVec.setWidth 32 1#1).toInt : ℝ) : EReal) = _
    simp [Cert.Spec.bit01]

/-! ## Layout and index facts at the literal shapes -/

/-- A [8, 1024] vector viewed [8, 1024, 1] and broadcast along 64 columns reads, at (b, t, k), the vector at (b, t). -/
theorem col_apply {α : Type} (v : S8x1024.Idx → α) (b : Fin 8) (t : Fin 1024) (k : Fin 64) :
    broadcastTo S8x1024x64 (shapeCast S8x1024x1 v shapeCasts_S8x1024_S8x1024x1) broadcasts_S8x1024x1_S8x1024x64 (ix3 b t k)
      = v (ix2 b t) := by
  refine (broadcastTo_apply _ _ (ix3 b t k) (ix3 b t (0 : Fin 1)) ?_).trans ?_
  · intro a
    match a with
    | ⟨0, _⟩ => rfl
    | ⟨1, _⟩ => rfl
    | ⟨2, _⟩ => rfl
  · refine shapeCast_apply _ _ (ix3 b t (0 : Fin 1)) (ix2 b t) ?_
    rw [Shape.rowMajor_val_two, Shape.rowMajor_val_three]
    show b.val * 1024 + t.val = (b.val * 1024 + t.val) * 1 + 0
    omega

/-- The column counter at (b, t, k) is the word k. -/
theorem iota_apply (b : Fin 8) (t : Fin 1024) (k : Fin 64) :
    iota .tc S8x1024x64 32 [2] iota_S8x1024x64_d2_w32 (ix3 b t k) = BitVec.ofNat 32 k.val :=
  iota_single_apply .tc S8x1024x64 32 2 iota_S8x1024x64_d2_w32 (ix3 b t k)

section Pay
variable (x0 : Vec Ideal S8x1024x32 .f32) (x1 x2 : Vec Ideal S8x1024 .i32) (mu : Vec Ideal S8x64x32 .f32) (prev : Vec Ideal S8x64 .f32)

/-- The validity bits at a point. -/
theorem pay3_apply (b : Fin 8) (t : Fin 1024) :
    k1_pay3 (F := Ideal) x1 x2 (ix2 b t) = vbit (x1 (ix2 b t)) (x2 (ix2 b t)) := by
  have e : shapeCast S8x1024 x2 shapeCasts_S8x1024_S8x1024 = x2 := shapeCast_self _ _
  unfold k1_pay3
  show vbit (x1 (ix2 b t)) (shapeCast S8x1024 x2 shapeCasts_S8x1024_S8x1024 (ix2 b t)) = _
  exact congrArg (fun v : S8x1024.Idx → BitVec 32 => vbit (x1 (ix2 b t)) (v (ix2 b t))) e

/-- The one-hot bits at a point and a column. -/
theorem pay5_apply (b : Fin 8) (t : Fin 1024) (k : Fin 64) :
    k1_pay5 (F := Ideal) x1 x2 (ix3 b t k) = hbit (x1 (ix2 b t)) (x2 (ix2 b t)) k := by
  unfold k1_pay5
  dsimp only
  show IntOp.cmpi .eq
      (broadcastTo S8x1024x64 (shapeCast S8x1024x1 (select (k1_pay3 (F := Ideal) x1 x2) x1 (broadcast S8x1024 4294967295#32)) shapeCasts_S8x1024_S8x1024x1)
        broadcasts_S8x1024x1_S8x1024x64 (ix3 b t k))
      (iota .tc S8x1024x64 32 [2] iota_S8x1024x64_d2_w32 (ix3 b t k)) = _
  rw [col_apply, iota_apply]
  show IntOp.cmpi .eq (Scalar.select (k1_pay3 (F := Ideal) x1 x2 (ix2 b t)) (x1 (ix2 b t)) 4294967295#32) (BitVec.ofNat 32 k.val) = _
  rw [pay3_apply]
  rfl

/-- The validity of a point as a number. -/
theorem pay4_apply (b : Fin 8) (t : Fin 1024) :
    k1_pay4 (F := Ideal) x1 x2 (ix2 b t) = Cert.Spec.bit01 (vbit (x1 (ix2 b t)) (x2 (ix2 b t))) := by
  unfold k1_pay4
  show FloatOps.sitofp (F := Ideal) .f32 ((k1_pay3 (F := Ideal) x1 x2 (ix2 b t)).setWidth 32) = _
  rw [pay3_apply]
  exact sitofp_extui _

end Pay

/-! ## The gathered mean: the one-hot row times the table of means

  The product has the batch axis b, contracts the one-hot row's column axis with the table's row axis, and keeps the
  point axis t of the left operand and the coordinate axis d of the right one. -/

theorem lhs_dot_0 (j : S8x1024x32.Idx) (q : dot_S8x1024x64_S8x64x32_S8x1024x32_2_1_1_2_0_0.contr.Idx) :
    (dot_S8x1024x64_S8x64x32_S8x1024x32_2_1_1_2_0_0.lhsIdx j q 0 : ℕ) = j 0 := by
  simp [DotDims.lhsIdx, dot_S8x1024x64_S8x64x32_S8x1024x32_2_1_1_2_0_0]; rfl
theorem lhs_dot_1 (j : S8x1024x32.Idx) (q : dot_S8x1024x64_S8x64x32_S8x1024x32_2_1_1_2_0_0.contr.Idx) :
    (dot_S8x1024x64_S8x64x32_S8x1024x32_2_1_1_2_0_0.lhsIdx j q 1 : ℕ) = j 1 := by
  simp [DotDims.lhsIdx, dot_S8x1024x64_S8x64x32_S8x1024x32_2_1_1_2_0_0]; rfl
theorem lhs_dot_2 (j : S8x1024x32.Idx) (q : dot_S8x1024x64_S8x64x32_S8x1024x32_2_1_1_2_0_0.contr.Idx) :
    (dot_S8x1024x64_S8x64x32_S8x1024x32_2_1_1_2_0_0.lhsIdx j q 2 : ℕ) = q ⟨0, by decide⟩ := by
  simp [DotDims.lhsIdx, dot_S8x1024x64_S8x64x32_S8x1024x32_2_1_1_2_0_0]; rfl
theorem rhs_dot_0 (j : S8x1024x32.Idx) (q : dot_S8x1024x64_S8x64x32_S8x1024x32_2_1_1_2_0_0.contr.Idx) :
    (dot_S8x1024x64_S8x64x32_S8x1024x32_2_1_1_2_0_0.rhsIdx j q 0 : ℕ) = j 0 := by
  simp [DotDims.rhsIdx, dot_S8x1024x64_S8x64x32_S8x1024x32_2_1_1_2_0_0]; rfl
theorem rhs_dot_1 (j : S8x1024x32.Idx) (q : dot_S8x1024x64_S8x64x32_S8x1024x32_2_1_1_2_0_0.contr.Idx) :
    (dot_S8x1024x64_S8x64x32_S8x1024x32_2_1_1_2_0_0.rhsIdx j q 1 : ℕ) = q ⟨0, by decide⟩ := by
  simp [DotDims.rhsIdx, dot_S8x1024x64_S8x64x32_S8x1024x32_2_1_1_2_0_0]; rfl
theorem rhs_dot_2 (j : S8x1024x32.Idx) (q : dot_S8x1024x64_S8x64x32_S8x1024x32_2_1_1_2_0_0.contr.Idx) :
    (dot_S8x1024x64_S8x64x32_S8x1024x32_2_1_1_2_0_0.rhsIdx j q 2 : ℕ) = j 2 := by
  simp [DotDims.rhsIdx, dot_S8x1024x64_S8x64x32_S8x1024x32_2_1_1_2_0_0]; rfl

/-- The contraction's indices are the 64 columns. -/
abbrev colEquiv : dot_S8x1024x64_S8x64x32_S8x1024x32_2_1_1_2_0_0.contr.Idx ≃ Fin 64 :=
  contrEquiv1 dot_S8x1024x64_S8x64x32_S8x1024x32_2_1_1_2_0_0 64 rfl rfl

/-- The left operand is read at (b, t, k'), -/
theorem lhs_dot (b : Fin 8) (t : Fin 1024) (d : Fin 32) (k' : Fin 64) :
    dot_S8x1024x64_S8x64x32_S8x1024x32_2_1_1_2_0_0.lhsIdx (ix3 b t d) (colEquiv.symm k') = ix3 b t k' := by
  funext a
  refine Fin.ext ?_
  match a with
  | ⟨0, _⟩ => exact lhs_dot_0 _ _
  | ⟨1, _⟩ => exact lhs_dot_1 _ _
  | ⟨2, _⟩ => exact (lhs_dot_2 _ _).trans (contrEquiv1_symm_val _ 64 rfl rfl k')

/-- and the right one at (b, k', d). -/
theorem rhs_dot (b : Fin 8) (t : Fin 1024) (d : Fin 32) (k' : Fin 64) :
    dot_S8x1024x64_S8x64x32_S8x1024x32_2_1_1_2_0_0.rhsIdx (ix3 b t d) (colEquiv.symm k') = ix3 b k' d := by
  funext a
  refine Fin.ext ?_
  match a with
  | ⟨0, _⟩ => exact rhs_dot_0 _ _
  | ⟨1, _⟩ => exact (rhs_dot_1 _ _).trans (contrEquiv1_symm_val _ 64 rfl rfl k')
  | ⟨2, _⟩ => exact rhs_dot_2 _ _

/-- The product at (b, t, d) is the sum over the columns of the left operand at (b, t, k') times the right one at (b, k', d). -/
theorem dot_apply (l : FVec Ideal S8x1024x64 .bf16) (r : FVec Ideal S8x64x32 .bf16) (b : Fin 8) (t : Fin 1024) (d : Fin 32) :
    matmul dot_S8x1024x64_S8x64x32_S8x1024x32_2_1_1_2_0_0 none l r (constant (F := Ideal) S8x1024x32 .f32 0x00000000#32) (ix3 b t d)
      = ∑ k' : Fin 64, l (ix3 b t k') * r (ix3 b k' d) := by
  refine (Ideal.matmul_constant_zero_apply dot_S8x1024x64_S8x64x32_S8x1024x32_2_1_1_2_0_0 none l r (ix3 b t d)).trans ?_
  rw [← Equiv.sum_comp colEquiv.symm]
  refine Finset.sum_congr rfl fun k' _ => ?_
  rw [lhs_dot, rhs_dot]

/-! ## The distance of each point to its gathered mean -/

section Dist
variable (x0 : Vec Ideal S8x1024x32 .f32) (x1 x2 : Vec Ideal S8x1024 .i32) (mu : Vec Ideal S8x64x32 .f32)

/-- The gathered means of a tile: the one-hot rows times the table of means. -/
def gath : FVec Ideal S8x1024x32 .f32 :=
  matmul dot_S8x1024x64_S8x64x32_S8x1024x32_2_1_1_2_0_0 none
    (truncf .bf16 (sitofp .f32 (extui 32 (k1_pay5 (F := Ideal) x1 x2) natLt_1_32)) bitsLt_bf16_f32)
    (truncf .bf16 (shapeCast S8x64x32 mu shapeCasts_S8x64x32_S8x64x32) bitsLt_bf16_f32)
    (constant (F := Ideal) S8x1024x32 .f32 0x00000000#32)

/-- The squared distances of a tile's points to their gathered means. -/
def sqv : FVec Ideal S8x1024 .f32 :=
  multiReduction .add [2] S8x1024 (mulf (subf x0 (gath x1 x2 mu)) (subf x0 (gath x1 x2 mu))) 0x00000000#32
    reduces_S8x1024x32_S8x1024 (.inl rfl) rfl

/-- The gathered mean at (b, t, d) is the sum over the columns of the one-hot bit times the table's entry. -/
theorem gath_apply (b : Fin 8) (t : Fin 1024) (d : Fin 32) :
    gath x1 x2 mu (ix3 b t d)
      = ∑ k' : Fin 64, Cert.Spec.bit01 (hbit (x1 (ix2 b t)) (x2 (ix2 b t)) k') * mu (ix3 b k' d) := by
  unfold gath
  refine (dot_apply _ _ b t d).trans ?_
  refine Finset.sum_congr rfl fun k' _ => ?_
  show FloatOps.sitofp (F := Ideal) .f32 ((k1_pay5 (F := Ideal) x1 x2 (ix3 b t k')).setWidth 32)
      * shapeCast S8x64x32 mu shapeCasts_S8x64x32_S8x64x32 (ix3 b k' d) = _
  rw [sitofp_extui, pay5_apply, shapeCast_self]

/-- Where the point's bit is set at column k, its gathered mean is row k of the table: the other columns' bits are clear. -/
theorem gath_of_hit {b : Fin 8} {t : Fin 1024} {k : Fin 64} (h : hbit (x1 (ix2 b t)) (x2 (ix2 b t)) k = 1#1) (d : Fin 32) :
    gath x1 x2 mu (ix3 b t d) = mu (ix3 b k d) := by
  rw [gath_apply, Finset.sum_eq_single k]
  · rw [h]; show (if (1#1 : BitVec 1) = 1#1 then (1 : EReal) else 0) * _ = _
    rw [if_pos rfl, one_mul]
  · intro k' _ hk'
    have hne : ¬ hbit (x1 (ix2 b t)) (x2 (ix2 b t)) k' = 1#1 := fun h' => hk' (hbit_unique h h')
    show (if hbit (x1 (ix2 b t)) (x2 (ix2 b t)) k' = 1#1 then (1 : EReal) else 0) * _ = _
    rw [if_neg hne, zero_mul]
  · intro hk; exact absurd (Finset.mem_univ k) hk

/-- Summing over the coordinate axis of a [8, 1024, 32] vector at (b, t) reads the entries (b, t, d). -/
theorem lift_coord (b : Fin 8) (t : Fin 1024) (d : Fin 32) :
    reduces_S8x1024x32_S8x1024.lift (ix2 b t) d = ix3 b t d := by
  funext a
  match a with
  | ⟨0, _⟩ => exact Fin.ext rfl
  | ⟨1, _⟩ => exact Fin.ext rfl
  | ⟨2, _⟩ => exact Fin.ext rfl

/-- The squared distance at (b, t) is the sum over the 32 coordinates of the squared differences. -/
theorem sqv_apply (b : Fin 8) (t : Fin 1024) :
    sqv x0 x1 x2 mu (ix2 b t)
      = ∑ d : Fin 32, (x0 (ix3 b t d) - gath x1 x2 mu (ix3 b t d)) * (x0 (ix3 b t d) - gath x1 x2 mu (ix3 b t d)) := by
  unfold sqv
  refine (Ideal.multiReduction_add_single _ 0x00000000#32 reduces_S8x1024x32_S8x1024 (.inl rfl) rfl (ix2 b t)).trans
    (Finset.sum_congr rfl fun (d : Fin 32) _ => ?_)
  rw [lift_coord]
  rfl

/-- Where the point's bit is set at column k, that is its squared distance to row k of the table. -/
theorem sqv_of_hit {b : Fin 8} {t : Fin 1024} {k : Fin 64} (h : hbit (x1 (ix2 b t)) (x2 (ix2 b t)) k = 1#1) :
    sqv x0 x1 x2 mu (ix2 b t) = Cert.Spec.sqDist (fun d => x0 (ix3 b t d)) (fun d => mu (ix3 b k d)) := by
  rw [sqv_apply]
  unfold Cert.Spec.sqDist
  refine Finset.sum_congr rfl fun d _ => ?_
  rw [gath_of_hit x1 x2 mu h d]

/-- The distance of a point to its gathered mean, from the squared distance: its root where it is positive, else zero. -/
theorem pay6_apply (b : Fin 8) (t : Fin 1024) :
    k1_pay6 (F := Ideal) x1 x2 mu x0 (ix2 b t)
      = Ideal.sqrt (Scalar.select (Cert.Spec.gate (sqv x0 x1 x2 mu (ix2 b t))) (sqv x0 x1 x2 mu (ix2 b t)) (Ideal.ofBits .f32 0x3F800000#32))
          * Cert.Spec.bit01 (Cert.Spec.gate (sqv x0 x1 x2 mu (ix2 b t))) := by
  unfold k1_pay6
  show Ideal.sqrt (Scalar.select (Cert.Spec.gate (sqv x0 x1 x2 mu (ix2 b t))) (sqv x0 x1 x2 mu (ix2 b t)) (Ideal.ofBits .f32 0x3F800000#32))
      * FloatOps.sitofp (F := Ideal) .f32 ((Cert.Spec.gate (sqv x0 x1 x2 mu (ix2 b t))).setWidth 32) = _
  rw [sitofp_extui]

end Dist

/-! ## One step of the accumulator -/

/-- Summing over the point axis of a [8, 1024, 64] vector at (b, k) reads the entries (b, t, k). -/
theorem lift_point (b : Fin 8) (k : Fin 64) (t : Fin 1024) :
    reduces_S8x1024x64_S8x64.lift (ix2 b k) t = ix3 b t k := by
  funext a
  match a with
  | ⟨0, _⟩ => exact Fin.ext rfl
  | ⟨1, _⟩ => exact Fin.ext rfl
  | ⟨2, _⟩ => exact Fin.ext rfl

/-- The step at entry (b, k), for any validity, one-hot and distance vectors: the accumulator plus the sum over the points
    of the one-hot bit times the penalty of the distance times the validity. -/
theorem pay1_apply (v12 : FVec Ideal S8x1024 .f32) (v18 : IVec S8x1024x64 1) (v37 : FVec Ideal S8x1024 .f32)
    (prev : Vec Ideal S8x64 .f32) (b : Fin 8) (k : Fin 64) :
    k1_pay1 (F := Ideal) v12 v18 v37 prev (ix2 b k)
      = prev (ix2 b k) + ∑ t : Fin 1024, Cert.Spec.bit01 (v18 (ix3 b t k))
          * (max (v37 (ix2 b t) - Ideal.ofBits .f32 0x3F000000#32) (Ideal.ofBits .f32 0x00000000#32)
              * max (v37 (ix2 b t) - Ideal.ofBits .f32 0x3F000000#32) (Ideal.ofBits .f32 0x00000000#32)
            * v12 (ix2 b t)) := by
  unfold k1_pay1
  show shapeCast S8x64 prev shapeCasts_S8x64_S8x64 (ix2 b k)
      + multiReduction .add [1] S8x64
          (mulf (sitofp (F := Ideal) .f32 (extui 32 v18 natLt_1_32))
            (broadcastTo S8x1024x64
              (shapeCast S8x1024x1
                (fun j : S8x1024.Idx => max (v37 j - Ideal.ofBits .f32 0x3F000000#32) (Ideal.ofBits .f32 0x00000000#32)
                    * max (v37 j - Ideal.ofBits .f32 0x3F000000#32) (Ideal.ofBits .f32 0x00000000#32) * v12 j)
                shapeCasts_S8x1024_S8x1024x1)
              broadcasts_S8x1024x1_S8x1024x64))
          0x00000000#32 reduces_S8x1024x64_S8x64 (.inl rfl) rfl (ix2 b k) = _
  refine congrArg₂ (· + ·) (congrFun (shapeCast_self prev _) (ix2 b k)) ?_
  refine (Ideal.multiReduction_add_single _ 0x00000000#32 reduces_S8x1024x64_S8x64 (.inl rfl) rfl (ix2 b k)).trans
    (Finset.sum_congr rfl fun (t : Fin 1024) _ => ?_)
  rw [lift_point]
  show FloatOps.sitofp (F := Ideal) .f32 ((v18 (ix3 b t k)).setWidth 32) * broadcastTo S8x1024x64 _ broadcasts_S8x1024x1_S8x1024x64 (ix3 b t k) = _
  rw [sitofp_extui, col_apply]

/-- THE STEP: one tile adds to entry (b, k) the penalties of its points whose mask word is not zero and whose id is the
    word k, each against row k of the table of means. -/
theorem step_apply (x0 : Vec Ideal S8x1024x32 .f32) (x1 x2 : Vec Ideal S8x1024 .i32) (mu : Vec Ideal S8x64x32 .f32)
    (prev : Vec Ideal S8x64 .f32) (b : Fin 8) (k : Fin 64) :
    k1_pay1 (F := Ideal) (k1_pay4 x1 x2) (k1_pay5 x1 x2) (k1_pay6 x1 x2 mu x0) prev (ix2 b k)
      = prev (ix2 b k) + ∑ t : Fin 1024,
          (if (x2 (ix2 b t) ≠ 0#32 ∧ x1 (ix2 b t) = BitVec.ofNat 32 k.val) then
            Cert.Spec.penPt (fun d => x0 (ix3 b t d)) (fun d => mu (ix3 b k d)) else 0) := by
  rw [pay1_apply]
  refine congrArg (prev (ix2 b k) + ·) (Finset.sum_congr rfl fun t _ => ?_)
  rw [pay5_apply]
  by_cases h : hbit (x1 (ix2 b t)) (x2 (ix2 b t)) k = 1#1
  · rw [if_pos ((hbit_eq_one_iff _ _ k).mp h), pay4_apply, vbit_of_hbit h, h, pay6_apply, sqv_of_hit x0 x1 x2 mu h]
    show (if (1#1 : BitVec 1) = 1#1 then (1 : EReal) else 0)
        * (Cert.Spec.penPt (fun d => x0 (ix3 b t d)) (fun d => mu (ix3 b k d)) * (if (1#1 : BitVec 1) = 1#1 then (1 : EReal) else 0)) = _
    rw [if_pos rfl, one_mul, mul_one]
  · rw [if_neg (fun hh => h ((hbit_eq_one_iff _ _ k).mpr hh))]
    show (if hbit (x1 (ix2 b t)) (x2 (ix2 b t)) k = 1#1 then (1 : EReal) else 0) * _ = _
    rw [if_neg h, zero_mul]

/-- The reset writes zero. -/
theorem reset_apply (b : Fin 8) (k : Fin 64) : k1_pay2 (F := Ideal) (ix2 b k) = 0 := by
  show Ideal.ofBits .f32 0x00000000#32 = 0
  exact Ideal.ofBits_zero_f32

end Cert.KernelIdeal.KValue.Pen

end
-- ==== Proof.KValue1.lean ====
/-
  What region 1 leaves in its output array: the per-instance pull penalties.

  The grid of region 1 has two rows of 64 points; point 64·bi + ni works on the eight batch elements 8·bi … 8·bi + 7
  and on the tile of the 1024 points 1024·ni … 1024·ni + 1023 of each. The accumulator is reset at the first point of a
  row and written back at the last, so after point 64·bi + ni its entry (b', k) holds the sum, over the first ni + 1
  tiles of batch element 8·bi + b', of the penalties of the points whose mask word is not zero and whose id is the word
  k, each against the mean of instance k; after the last point of the row that is the sum over all 65536 points. The
  mask word of a point is not zero exactly when its mask bit is set, so this is the segment sum, over the points that
  belong to instance k, of the point's penalty against the mean of instance k.
-/
import proofs.«400001_j6614249636120_4_alg».proof.Proof.KPay1
import proofs.«400001_j6614249636120_4_alg».proof.Proof.KPieces
import proofs.«400001_j6614249636120_4_alg».proof.Proof.KBlocks
import Mathlib.Algebra.BigOperators.Fin

set_option maxRecDepth 16384

noncomputable section

namespace Cert.KernelIdeal.KValue.Pen

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-! ## The per-point term and the sum over a row of tiles -/

section Sum
variable (emb : FVec Ideal Cert.Spec.SE .f32) (ids mi : IVec Cert.Spec.SI 32) (msk : IVec Cert.Spec.SI 1)
  (means : FVec Ideal ⟨3, ![16, 64, 32]⟩ .f32)

/-- The penalty of point n of batch element b against the mean of instance k, counted when the point's mask word is
    not zero and its id is the word k. -/
def term1 (b : Fin 16) (k : Fin 64) (n : Fin 65536) : EReal :=
  if (mi (ix2 b n) ≠ 0#32 ∧ ids (ix2 b n) = BitVec.ofNat 32 k.val) then
    Cert.Spec.penPt (fun d => emb (ix3 b n d)) (fun d => means (ix3 b k d)) else 0

/-- The same with the batch element and the point as natural numbers: zero outside the array. -/
def termN (B : ℕ) (k : Fin 64) (n : ℕ) : EReal :=
  if h : B < 16 ∧ n < 65536 then term1 emb ids mi means ⟨B, h.1⟩ k ⟨n, h.2⟩ else 0

/-- Inside the array it is the term. -/
theorem termN_eq {B n : ℕ} (hB : B < 16) (hn : n < 65536) (k : Fin 64) :
    termN emb ids mi means B k n = term1 emb ids mi means ⟨B, hB⟩ k ⟨n, hn⟩ := dif_pos ⟨hB, hn⟩

/-- All 65536 points of a batch element. -/
theorem sum_range_termN (b : Fin 16) (k : Fin 64) :
    ∑ n ∈ Finset.range 65536, termN emb ids mi means b.val k n = ∑ n : Fin 65536, term1 emb ids mi means b k n := by
  rw [Finset.sum_range]
  exact Finset.sum_congr rfl fun n _ => termN_eq emb ids mi means b.isLt n.isLt k

/-- The sum of the terms over a batch element's points is the segment sum, over the points that belong to instance k,
    of the point's penalty against the mean of instance k: a point belongs to the instance when its mask bit is set,
    which is when its mask word is not zero, and its id is the word k. -/
theorem sum_term1_eq_segSum (hmi : ∀ j, mi j ≠ 0#32 ↔ msk j = 1#1) (b : Fin 16) (k : Fin 64) :
    ∑ n : Fin 65536, term1 emb ids mi means b k n
      = Cert.Spec.segSum ids msk (fun b' n =>
          Cert.Spec.penPt (fun d => emb (ix3 b' n d)) (fun d => means (ix3 b' k d))) b k := by
  unfold Cert.Spec.segSum
  refine Finset.sum_congr rfl fun n _ => ?_
  unfold term1
  by_cases hH : Cert.Spec.Hit ids msk b n k
  · rw [if_pos hH, if_pos ⟨(hmi _).mpr hH.1, hH.2⟩]
  · rw [if_neg hH, if_neg fun h => hH ⟨(hmi _).mp h.1, h.2⟩]

end Sum

/-! ## The accumulator after each point of a row of the grid -/

/-- The first (j + 1) tiles are the first j tiles and tile j. -/
theorem range_tile (f : ℕ → EReal) (j : ℕ) :
    ∑ n ∈ Finset.range (1024 * (j + 1)), f n = ∑ n ∈ Finset.range (1024 * j), f n + ∑ s : Fin 1024, f (1024 * j + s.val) := by
  have h : 1024 * (j + 1) = 1024 * j + 1024 := by omega
  rw [h, Finset.sum_range_add, Finset.sum_range fun x => f (1024 * j + x)]

section Inv
variable (V : (c : Dev nD) → (b : Ref sig .tc) → Buf (Elt Ideal) ((c : Thread nD τ).loc b)) (c : Dev nD)
variable (emb : FVec Ideal Cert.Spec.SE .f32) (ids mi : IVec Cert.Spec.SI 32) (means : FVec Ideal ⟨3, ![16, 64, 32]⟩ .f32)

/-- The four input blocks of a point, at their literal types. -/
abbrev xb0 (t : Fin cfg1.N) : Vec Ideal S8x1024x32 .f32 := iblk1 V c 0 t
abbrev xb1 (t : Fin cfg1.N) : Vec Ideal S8x1024 .i32 := iblk1 V c 1 t
abbrev xb2 (t : Fin cfg1.N) : Vec Ideal S8x1024 .i32 := iblk1 V c 2 t
abbrev xb3 (t : Fin cfg1.N) : Vec Ideal S8x64x32 .f32 := iblk1 V c 3 t

variable (hE : (V c main_arg0 : Cert.Spec.SE.Idx → EReal) = emb) (hI : (V c main_arg1 : Cert.Spec.SI.Idx → BitVec 32) = ids)
  (hM : (V c main_v0 : Cert.Spec.SI.Idx → BitVec 32) = mi)
  (hG : (V c main_v6 : (⟨3, ![16, 64, 32]⟩ : Shape).Idx → EReal) = means)
include hE hI hM hG

/-- A point's summand, read off the blocks, is the term of the point's batch element and number in the arrays. -/
theorem tile_term (t : Fin cfg1.N) (b' : Fin 8) (k : Fin 64) (s : Fin 1024) :
    (if (xb2 V c t (ix2 b' s) ≠ 0#32 ∧ xb1 V c t (ix2 b' s) = BitVec.ofNat 32 k.val) then
        Cert.Spec.penPt (fun d => xb0 V c t (ix3 b' s d)) (fun d => xb3 V c t (ix3 b' k d)) else 0)
      = termN emb ids mi means (8 * (t.val / 64) + b'.val) k (1024 * (t.val % 64) + s.val) := by
  have hN := lt1 t
  have hB : 8 * (t.val / 64) + b'.val < 16 := by have := b'.isLt; omega
  have hn : 1024 * (t.val % 64) + s.val < 65536 := by have := s.isLt; omega
  have e0 : (fun d : Fin 32 => xb0 V c t (ix3 b' s d))
      = fun d => emb (ix3 ⟨8 * (t.val / 64) + b'.val, hB⟩ ⟨1024 * (t.val % 64) + s.val, hn⟩ d) :=
    funext fun d => (iblk1_0_apply V c t b' s d).trans (congrFun hE _)
  have e1 : xb1 V c t (ix2 b' s) = ids (ix2 ⟨8 * (t.val / 64) + b'.val, hB⟩ ⟨1024 * (t.val % 64) + s.val, hn⟩) :=
    (iblk1_1_apply V c t b' s).trans (congrFun hI _)
  have e2 : xb2 V c t (ix2 b' s) = mi (ix2 ⟨8 * (t.val / 64) + b'.val, hB⟩ ⟨1024 * (t.val % 64) + s.val, hn⟩) :=
    (iblk1_2_apply V c t b' s).trans (congrFun hM _)
  have e3 : (fun d : Fin 32 => xb3 V c t (ix3 b' k d)) = fun d => means (ix3 ⟨8 * (t.val / 64) + b'.val, hB⟩ k d) :=
    funext fun d => (iblk1_3_apply V c t b' k d).trans (congrFun hG _)
  rw [termN_eq emb ids mi means hB hn k, e0, e1, e2, e3]
  rfl

/-- THE INVARIANT: after the point at position ni of its row, entry (b', k) of the accumulator is the sum of the terms
    of the first ni + 1 tiles of the batch element the entry belongs to. -/
theorem inv1 : ∀ (ni : ℕ) (t : Fin cfg1.N), t.val % 64 = ni → ∀ (b' : Fin 8) (k : Fin 64),
    outsAt1 V c t.val t.isLt (ix2 b' k)
      = ∑ n ∈ Finset.range (1024 * (ni + 1)), termN emb ids mi means (8 * (t.val / 64) + b'.val) k n := by
  intro ni
  induction ni with
  | zero =>
    intro t ht b' k
    rw [outsAt1_A V c t ht]
    refine (congrFun (out1_A_4_eq (F := Ideal) c (grid1.coords t) (ms1_0 t) (hs1_0 t) (ms1_1 t) (hs1_1 t) (ms1_2 t) (hs1_2 t)
      (ms1_3 t) (hs1_3 t) (ms1_4 t) (hs1_4 t) ((hcond1 t).mpr ht) (xb0 V c t) (xb1 V c t) (xb2 V c t) (xb3 V c t)) (ix2 b' k)).trans ?_
    refine (step_apply (xb0 V c t) (xb1 V c t) (xb2 V c t) (xb3 V c t) (k1_pay2 (F := Ideal)) b' k).trans ?_
    rw [reset_apply, range_tile, Nat.mul_zero, Finset.range_zero, Finset.sum_empty]
    refine congrArg (0 + ·) (Finset.sum_congr rfl fun s _ => ?_)
    rw [tile_term V c emb ids mi means hE hI hM hG t b' k s, ht, Nat.mul_zero]
  | succ ni ih =>
    intro t ht b' k
    have hN := lt1 t
    have h0 : ¬ t.val % 64 = 0 := by omega
    have hlt : t.val - 1 < cfg1.N := Nat.lt_of_le_of_lt (Nat.sub_le _ _) t.isLt
    have hdiv : (t.val - 1) / 64 = t.val / 64 := by omega
    have hprev : outsAt1 V c (t.val - 1) hlt (ix2 b' k)
        = ∑ n ∈ Finset.range (1024 * (ni + 1)), termN emb ids mi means (8 * ((t.val - 1) / 64) + b'.val) k n :=
      ih ⟨t.val - 1, hlt⟩ (by show (t.val - 1) % 64 = ni; omega) b' k
    rw [hdiv] at hprev
    rw [outsAt1_B V c t h0]
    refine (congrFun (out1_B_4_eq (F := Ideal) c (grid1.coords t) (ms1_0 t) (hs1_0 t) (ms1_1 t) (hs1_1 t) (ms1_2 t) (hs1_2 t)
      (ms1_3 t) (hs1_3 t) (ms1_4 t) (hs1_4 t) (fun h => h0 ((hcond1 t).mp h)) (xb0 V c t) (xb1 V c t) (xb2 V c t) (xb3 V c t)
      (outsAt1 V c (t.val - 1) hlt)) (ix2 b' k)).trans ?_
    refine (step_apply (xb0 V c t) (xb1 V c t) (xb2 V c t) (xb3 V c t) (outsAt1 V c (t.val - 1) hlt) b' k).trans ?_
    rw [hprev, range_tile _ (ni + 1)]
    refine congrArg (_ + ·) (Finset.sum_congr rfl fun s _ => ?_)
    rw [tile_term V c emb ids mi means hE hI hM hG t b' k s, ht]

end Inv

end Cert.KernelIdeal.KValue.Pen

namespace Cert.KernelIdeal.KValue

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-- THE ARRAY region 1 leaves: entry (b, k) is the segment sum, over the points of batch element b that belong to
    instance k, of the point's pull penalty against the mean of instance k. -/
theorem arr1_4 (V : (c : Dev nD) → (b : Ref sig .tc) → Buf (Elt Ideal) ((c : Thread nD τ).loc b)) (c : Dev nD)
    (emb : FVec Ideal Cert.Spec.SE .f32) (ids mi : IVec Cert.Spec.SI 32) (msk : IVec Cert.Spec.SI 1)
    (means : FVec Ideal ⟨3, ![16, 64, 32]⟩ .f32)
    (hE : (V c main_arg0 : Cert.Spec.SE.Idx → EReal) = emb) (hI : (V c main_arg1 : Cert.Spec.SI.Idx → BitVec 32) = ids)
    (hM : (V c main_v0 : Cert.Spec.SI.Idx → BitVec 32) = mi)
    (hG : (V c main_v6 : (⟨3, ![16, 64, 32]⟩ : Shape).Idx → EReal) = means)
    (hmi : ∀ j, mi j ≠ 0#32 ↔ msk j = 1#1) (b : Fin 16) (k : Fin 64) :
    (dat1 V c).arrAt 4 cfg1.N (ix2 b k)
      = Cert.Spec.segSum ids msk (fun b' n =>
          Cert.Spec.penPt (fun d => emb (ix3 b' n d)) (fun d => means (ix3 b' k d))) b k := by
  have hb := b.isLt
  have hlt : 64 * (b.val / 8) + 63 < cfg1.N := by rw [show cfg1.N = 128 from N_1]; omega
  have hB : 8 * ((64 * (b.val / 8) + 63) / 64) + b.val % 8 = b.val := by omega
  refine (arrAt1_4 V c b k).trans ?_
  refine (Pen.inv1 V c emb ids mi means hE hI hM hG 63 ⟨64 * (b.val / 8) + 63, hlt⟩
    (by show (64 * (b.val / 8) + 63) % 64 = 63; omega) ⟨b.val % 8, Nat.mod_lt _ (by decide)⟩ k).trans ?_
  show ∑ n ∈ Finset.range (1024 * (63 + 1)), Pen.termN emb ids mi means (8 * ((64 * (b.val / 8) + 63) / 64) + b.val % 8) k n = _
  rw [hB, show 1024 * (63 + 1) = 65536 from rfl, Pen.sum_range_termN, Pen.sum_term1_eq_segSum emb ids mi msk means hmi]

end Cert.KernelIdeal.KValue

end
-- ==== Proof.KBridge.lean ====
/-
  What the kernel program's run leaves in the three arrays its two regions write, in the specification's terms.

  Region 0 is entered with the embeddings and the instance ids as launched and with the mask widened to words (a word
  is nonzero exactly where the mask's bit is set), so its two results are the per-instance sums and counts of the
  launched arrays. Between the regions the host forms the means, the quotient of each sum by its count floored at
  one. Region 1 is entered with the same three arrays and those means, so its result is, per instance, the sum over
  the points that belong to the instance of the pull penalty of the point against the instance's mean.
-/
import proofs.«400001_j6614249636120_4_alg».proof.Proof.KRun
import proofs.«400001_j6614249636120_4_alg».proof.Proof.KTail
import proofs.«400001_j6614249636120_4_alg».proof.Proof.KValue0
import proofs.«400001_j6614249636120_4_alg».proof.Proof.KValue1

set_option maxRecDepth 16384

noncomputable section

namespace Cert.KernelIdeal.KValue

open Cert.KernelIdeal Cert.KernelIdeal.Gen Cert.KernelIdeal.Hand
open Cert.Spec
open Idealize.ShloMosaic Idealize.ShloMosaic.TcCoe Idealize.ShloMosaic.ValueIdx Idealize.SL.Sem

variable (m : (ℓ : Loc nD τ sig) → Buf (Elt Ideal) ℓ) (c : Dev nD)

/-- The embeddings as launched. -/
abbrev arg0K : FVec Ideal SE .f32 := (m ((c : Thread nD τ).loc main_arg0) : SE.Idx → EReal)
/-- The instance ids as launched. -/
abbrev arg1K : IVec SI 32 := (m ((c : Thread nD τ).loc main_arg1) : SI.Idx → BitVec 32)
/-- The mask as launched. -/
abbrev arg2K : IVec SI 1 := (m ((c : Thread nD τ).loc main_arg2) : SI.Idx → BitVec 1)

/-- Region 0's first result is the per-instance sums of the launched arrays: region 0 is entered with the embeddings
    and ids as launched and the mask widened to words, a word being nonzero exactly where the mask's bit is set. -/
theorem sumsK (b : Fin 16) (k : Fin 64) (d : Fin 32) :
    (outsK m 2 main_v1_0 c : S16x64x32.Idx → EReal) (ix3 b k d) = Cert.Spec.sums (arg0K m c) (arg1K m c) (arg2K m c) b k d := by
  rw [outsK_v1_0 m c]
  exact arr0_3 (E0 m) c (arg0K m c) (arg1K m c) (V1 m c main_v0 : SI.Idx → BitVec 32) (arg2K m c)
    (KTail.arg0_V1 m c) (KTail.arg1_V1 m c) rfl (KTail.v0_ne_zero_iff m c) b k d

/-- Region 0's second result is the per-instance counts. -/
theorem countsK (b : Fin 16) (k : Fin 64) :
    (outsK m 2 main_v1_1 c : S16x64.Idx → EReal) (ix2 b k) = Cert.Spec.counts (arg1K m c) (arg2K m c) b k := by
  rw [outsK_v1_1 m c]
  exact arr0_4 (E0 m) c (arg1K m c) (V1 m c main_v0 : SI.Idx → BitVec 32) (arg2K m c)
    (KTail.arg1_V1 m c) rfl (KTail.v0_ne_zero_iff m c) b k

/-- Region 1's means input at an index: the quotient of region 0's sum by region 0's count floored at one. The host
    forms the means of region 0's two results between the regions. -/
theorem meansK (b' : Fin 16) (k : Fin 64) (d : Fin 32) :
    (E1 m c main_v6 : S16x64x32.Idx → EReal) (ix3 b' k d)
      = Cert.Spec.perCount (Cert.Spec.sums (arg0K m c) (arg1K m c) (arg2K m c) b' k d) (Cert.Spec.counts (arg1K m c) (arg2K m c) b' k) := by
  show (V3 m (outs2 m) c main_v6 : S16x64x32.Idx → EReal) (ix3 b' k d) = _
  rw [KTail.means_eq m (outs2 m) c, KTail.seamMeans_apply,
    show outs2 m 2 main_v1_0 c = outsK m 2 main_v1_0 c from rfl, show outs2 m 2 main_v1_1 c = outsK m 2 main_v1_1 c from rfl,
    sumsK, countsK]

/-- Region 1's result is, per instance, the sum of the pull penalties of the points that belong to it, each against
    the instance's mean: region 1 is entered with the embeddings, ids and widened mask as region 0 was, and with the
    means the host formed of region 0's results. -/
theorem penK (b : Fin 16) (k : Fin 64) :
    (outsK m 4 main_v15 c : S16x64.Idx → EReal) (ix2 b k)
      = Cert.Spec.segSum (arg1K m c) (arg2K m c) (fun b' n => Cert.Spec.penPt (fun d => arg0K m c (ix3 b' n d))
          (fun d => Cert.Spec.perCount (Cert.Spec.sums (arg0K m c) (arg1K m c) (arg2K m c) b' k d)
            (Cert.Spec.counts (arg1K m c) (arg2K m c) b' k))) b k := by
  rw [outsK_v15 m c]
  refine (arr1_4 (E1 m) c (arg0K m c) (arg1K m c) (V1 m c main_v0 : SI.Idx → BitVec 32) (arg2K m c)
    (E1 m c main_v6 : S16x64x32.Idx → EReal)
    (KTail.arg0_V3 m (outs2 m) c) (KTail.arg1_V3 m (outs2 m) c) (KTail.v0_V3 m (outs2 m) c) rfl
    (KTail.v0_ne_zero_iff m c) b k).trans ?_
  refine congrArg (fun f => Cert.Spec.segSum (arg1K m c) (arg2K m c) f b k) ?_
  funext b' n
  refine congrArg (Cert.Spec.penPt _) ?_
  funext d
  exact meansK m c b' k d

end Cert.KernelIdeal.KValue

end
-- ==== Proof.RefRunChunks.lean ====
import proofs.«400001_j6614249636120_4_alg».proof.Proof.Gen.ReferenceIdeal
import Idealize.ShloMosaic.Lib.StableHlo.Run
import Idealize.ShloMosaic.Lib.Pipeline.Frame

set_option Elab.async false

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 62 of 212 (window `main_part0`; a called function's operations stand in its call's place). -/
abbrev ops_part0 : List (HloOp τ sig (Elt F)) :=
  [ nullary main_c (constantI S_ 32 0#32),
    unary main_c main_v0 (broadcastInDim S16x65536 ![] bcast_S_S16x65536 : (⟨S_, .i32⟩ : BufTy).Contents (Elt F) → (⟨S16x65536, .i32⟩ : BufTy).Contents (Elt F)),
    binary main_arg1 main_v0 main_v1 (cmpi .sge : (⟨S16x65536, .i32⟩ : BufTy).Contents (Elt F) → (⟨S16x65536, .i32⟩ : BufTy).Contents (Elt F) → (⟨S16x65536, .i1⟩ : BufTy).Contents (Elt F)),
    binary main_arg2 main_v1 main_v2 (andi : (⟨S16x65536, .i1⟩ : BufTy).Contents (Elt F) → (⟨S16x65536, .i1⟩ : BufTy).Contents (Elt F) → (⟨S16x65536, .i1⟩ : BufTy).Contents (Elt F)),
    nullary main_v3 (iotaInDim S16 32 0),
    unary main_v3 main_v4 (broadcastInDim S16x1 ![0] bcast_S16_S16x1_0 : (⟨S16, .i32⟩ : BufTy).Contents (Elt F) → (⟨S16x1, .i32⟩ : BufTy).Contents (Elt F)),
    nullary main_c_0 (constantI S_ 32 64#32),
    unary main_c_0 main_v5 (broadcastInDim S16x1 ![] bcast_S_S16x1 : (⟨S_, .i32⟩ : BufTy).Contents (Elt F) → (⟨S16x1, .i32⟩ : BufTy).Contents (Elt F)),
    binary main_v4 main_v5 main_v6 (muli : (⟨S16x1, .i32⟩ : BufTy).Contents (Elt F) → (⟨S16x1, .i32⟩ : BufTy).Contents (Elt F) → (⟨S16x1, .i32⟩ : BufTy).Contents (Elt F)),
    unary main_v6 main_v7 (broadcastInDim S16x65536 ![0, 1] bcast_S16x1_S16x65536_0_1 : (⟨S16x1, .i32⟩ : BufTy).Contents (Elt F) → (⟨S16x65536, .i32⟩ : BufTy).Contents (Elt F)),
    binary main_v7 main_arg1 main_v8 (addi : (⟨S16x65536, .i32⟩ : BufTy).Contents (Elt F) → (⟨S16x65536, .i32⟩ : BufTy).Contents (Elt F) → (⟨S16x65536, .i32⟩ : BufTy).Contents (Elt F)),
    nullary main_c_1 (constantI S_ 32 1024#32),
    TRef.unary (TRef.of (T := ⟨S_, .i32⟩) main_c_1) (TRef.of (T := ⟨S_, .i32⟩) main_call0_v0) id,
    TRef.unary (TRef.of (T := ⟨S_, .i32⟩) main_call0_v0) (TRef.of (T := ⟨S16x65536, .i32⟩) main_call0_v1) (broadcastInDim S16x65536 ![] bcast_S_S16x65536),
    TRef.ternary (TRef.of (T := ⟨S16x65536, .i1⟩) main_v2) (TRef.of (T := ⟨S16x65536, .i32⟩) main_v8) (TRef.of (T := ⟨S16x65536, .i32⟩) main_call0_v1) (TRef.of (T := ⟨S16x65536, .i32⟩) main_v9) select,
    reshape main_v9 main_v10 rfl shapeCasts_S16x65536_S1048576,
    reshape main_v2 main_v11 rfl shapeCasts_S16x65536_S1048576,
    unary main_v11 main_v12 (uitofp (F := F) .f32 : (⟨S1048576, .i1⟩ : BufTy).Contents (Elt F) → (⟨S1048576, .f32⟩ : BufTy).Contents (Elt F)),
    reshape main_arg0 main_v13 rfl shapeCasts_S16x65536x32_S1048576x32,
    unary main_v12 main_v14 (broadcastInDim S1048576x1 ![0] bcast_S1048576_S1048576x1_0 : (⟨S1048576, .f32⟩ : BufTy).Contents (Elt F) → (⟨S1048576x1, .f32⟩ : BufTy).Contents (Elt F)),
    unary main_v14 main_v15 (broadcastInDim S1048576x32 ![0, 1] bcast_S1048576x1_S1048576x32_0_1 : (⟨S1048576x1, .f32⟩ : BufTy).Contents (Elt F) → (⟨S1048576x32, .f32⟩ : BufTy).Contents (Elt F)),
    binary main_v13 main_v15 main_v16 (mulf : (⟨S1048576x32, .f32⟩ : BufTy).Contents (Elt F) → (⟨S1048576x32, .f32⟩ : BufTy).Contents (Elt F) → (⟨S1048576x32, .f32⟩ : BufTy).Contents (Elt F)),
    nullary main_cst (constant S_ .f32 0x00000000#32),
    unary main_cst main_v17 (broadcastInDim S1025x32 ![] bcast_S_S1025x32 : (⟨S_, .f32⟩ : BufTy).Contents (Elt F) → (⟨S1025x32, .f32⟩ : BufTy).Contents (Elt F)),
    unary main_v10 main_v18 (broadcastInDim S1048576x1 ![0] bcast_S1048576_S1048576x1_0 : (⟨S1048576, .i32⟩ : BufTy).Contents (Elt F) → (⟨S1048576x1, .i32⟩ : BufTy).Contents (Elt F)),
    ternary main_v17 main_v18 main_v16 main_v19 ((fun x i u => Host.scatterAdd scatter_S1025x32_S1048576x1_S1048576x32_1_0_0_1 x i u) : (⟨S1025x32, .f32⟩ : BufTy).Contents (Elt F) → (⟨S1048576x1, .i32⟩ : BufTy).Contents (Elt F) → (⟨S1048576x32, .f32⟩ : BufTy).Contents (Elt F) → (⟨S1025x32, .f32⟩ : BufTy).Contents (Elt F)),
    unary main_v19 main_v20 ((extractStridedSlice S1024x32 ![0, 0] · slices_S1025x32_S1024x32_0_0) : (⟨S1025x32, .f32⟩ : BufTy).Contents (Elt F) → (⟨S1024x32, .f32⟩ : BufTy).Contents (Elt F)),
    nullary main_cst_2 (constant S_ .f32 0x00000000#32),
    unary main_cst_2 main_v21 (broadcastInDim S1025 ![] bcast_S_S1025 : (⟨S_, .f32⟩ : BufTy).Contents (Elt F) → (⟨S1025, .f32⟩ : BufTy).Contents (Elt F)),
    unary main_v10 main_v22 (broadcastInDim S1048576x1 ![0] bcast_S1048576_S1048576x1_0 : (⟨S1048576, .i32⟩ : BufTy).Contents (Elt F) → (⟨S1048576x1, .i32⟩ : BufTy).Contents (Elt F)),
    ternary main_v21 main_v22 main_v12 main_v23 ((fun x i u => Host.scatterAdd scatter_S1025_S1048576x1_S1048576_n_0_0_1 x i u) : (⟨S1025, .f32⟩ : BufTy).Contents (Elt F) → (⟨S1048576x1, .i32⟩ : BufTy).Contents (Elt F) → (⟨S1048576, .f32⟩ : BufTy).Contents (Elt F) → (⟨S1025, .f32⟩ : BufTy).Contents (Elt F)),
    unary main_v23 main_v24 ((extractStridedSlice S1024 ![0] · slices_S1025_S1024_0) : (⟨S1025, .f32⟩ : BufTy).Contents (Elt F) → (⟨S1024, .f32⟩ : BufTy).Contents (Elt F)),
    nullary main_cst_3 (constant S_ .f32 0x3F800000#32),
    unary main_cst_3 main_v25 (broadcastInDim S1024 ![] bcast_S_S1024 : (⟨S_, .f32⟩ : BufTy).Contents (Elt F) → (⟨S1024, .f32⟩ : BufTy).Contents (Elt F)),
    binary main_v24 main_v25 main_v26 (maximumf : (⟨S1024, .f32⟩ : BufTy).Contents (Elt F) → (⟨S1024, .f32⟩ : BufTy).Contents (Elt F) → (⟨S1024, .f32⟩ : BufTy).Contents (Elt F)),
    unary main_v26 main_v27 (broadcastInDim S1024x1 ![0] bcast_S1024_S1024x1_0 : (⟨S1024, .f32⟩ : BufTy).Contents (Elt F) → (⟨S1024x1, .f32⟩ : BufTy).Contents (Elt F)),
    unary main_v27 main_v28 (broadcastInDim S1024x32 ![0, 1] bcast_S1024x1_S1024x32_0_1 : (⟨S1024x1, .f32⟩ : BufTy).Contents (Elt F) → (⟨S1024x32, .f32⟩ : BufTy).Contents (Elt F)),
    binary main_v20 main_v28 main_v29 (Host.divf : (⟨S1024x32, .f32⟩ : BufTy).Contents (Elt F) → (⟨S1024x32, .f32⟩ : BufTy).Contents (Elt F) → (⟨S1024x32, .f32⟩ : BufTy).Contents (Elt F)),
    nullary main_cst_4 (constant S_ .f32 0x00000000#32),
    unary main_cst_4 main_v30 (broadcastInDim S1024 ![] bcast_S_S1024 : (⟨S_, .f32⟩ : BufTy).Contents (Elt F) → (⟨S1024, .f32⟩ : BufTy).Contents (Elt F)),
    binary main_v24 main_v30 main_v31 (cmpf (F := F) .ogt : (⟨S1024, .f32⟩ : BufTy).Contents (Elt F) → (⟨S1024, .f32⟩ : BufTy).Contents (Elt F) → (⟨S1024, .i1⟩ : BufTy).Contents (Elt F)),
    reshape main_v31 main_v32 rfl shapeCasts_S1024_S16x64,
    unary main_v32 main_v33 ((extui 32 · natLt_1_32) : (⟨S16x64, .i1⟩ : BufTy).Contents (Elt F) → (⟨S16x64, .i32⟩ : BufTy).Contents (Elt F)),
    nullary main_c_5 (constantI S_ 32 0#32),
    binary main_v33 main_c_5 main_v34 ((fun x v => Host.reduce IntOp.addi x v reducesTo_S16x64_S16_d1 h_S_) : (⟨S16x64, .i32⟩ : BufTy).Contents (Elt F) → (⟨S_, .i32⟩ : BufTy).Contents (Elt F) → (⟨S16, .i32⟩ : BufTy).Contents (Elt F)),
    unary main_v34 main_v35 (sitofp (F := F) .f32 : (⟨S16, .i32⟩ : BufTy).Contents (Elt F) → (⟨S16, .f32⟩ : BufTy).Contents (Elt F)),
    nullary main_cst_6 (constant S_ .f32 0x40000000#32),
    unary main_cst_6 main_v36 (broadcastInDim S16 ![] bcast_S_S16 : (⟨S_, .f32⟩ : BufTy).Contents (Elt F) → (⟨S16, .f32⟩ : BufTy).Contents (Elt F)),
    binary main_v35 main_v36 main_v37 (cmpf (F := F) .oge : (⟨S16, .f32⟩ : BufTy).Contents (Elt F) → (⟨S16, .f32⟩ : BufTy).Contents (Elt F) → (⟨S16, .i1⟩ : BufTy).Contents (Elt F)),
    unary main_v37 main_v38 (uitofp (F := F) .f32 : (⟨S16, .i1⟩ : BufTy).Contents (Elt F) → (⟨S16, .f32⟩ : BufTy).Contents (Elt F)),
    nullary main_c_7 (constantI S_ 32 1023#32),
    unary main_c_7 main_v39 (broadcastInDim S1048576 ![] bcast_S_S1048576 : (⟨S_, .i32⟩ : BufTy).Contents (Elt F) → (⟨S1048576, .i32⟩ : BufTy).Contents (Elt F)),
    binary main_v10 main_v39 main_v40 (minsi : (⟨S1048576, .i32⟩ : BufTy).Contents (Elt F) → (⟨S1048576, .i32⟩ : BufTy).Contents (Elt F) → (⟨S1048576, .i32⟩ : BufTy).Contents (Elt F)),
    nullary main_c_8 (constantI S_ 32 0#32),
    unary main_c_8 main_v41 (broadcastInDim S1048576 ![] bcast_S_S1048576 : (⟨S_, .i32⟩ : BufTy).Contents (Elt F) → (⟨S1048576, .i32⟩ : BufTy).Contents (Elt F)),
    binary main_v40 main_v41 main_v42 (cmpi .slt : (⟨S1048576, .i32⟩ : BufTy).Contents (Elt F) → (⟨S1048576, .i32⟩ : BufTy).Contents (Elt F) → (⟨S1048576, .i1⟩ : BufTy).Contents (Elt F)),
    nullary main_c_9 (constantI S_ 32 1024#32),
    unary main_c_9 main_v43 (broadcastInDim S1048576 ![] bcast_S_S1048576 : (⟨S_, .i32⟩ : BufTy).Contents (Elt F) → (⟨S1048576, .i32⟩ : BufTy).Contents (Elt F)),
    binary main_v40 main_v43 main_v44 (addi : (⟨S1048576, .i32⟩ : BufTy).Contents (Elt F) → (⟨S1048576, .i32⟩ : BufTy).Contents (Elt F) → (⟨S1048576, .i32⟩ : BufTy).Contents (Elt F)),
    ternary main_v42 main_v44 main_v40 main_v45 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v45 main_v46 (broadcastInDim S1048576x1 ![0] bcast_S1048576_S1048576x1_0 : (⟨S1048576, .i32⟩ : BufTy).Contents (Elt F) → (⟨S1048576x1, .i32⟩ : BufTy).Contents (Elt F)),
    binary main_v29 main_v46 main_v47 ((fun x i => Host.gather gather_S1024x32_S1048576x1_S1048576x32_1_0_n_n_0_1_132 x i) : (⟨S1024x32, .f32⟩ : BufTy).Contents (Elt F) → (⟨S1048576x1, .i32⟩ : BufTy).Contents (Elt F) → (⟨S1048576x32, .f32⟩ : BufTy).Contents (Elt F)) ]

/-- @main's operations 63 … 124 of 212 (window `main_part1`; a called function's operations stand in its call's place). -/
abbrev ops_part1 : List (HloOp τ sig (Elt F)) :=
  [ binary main_v13 main_v47 main_v48 (subf : (⟨S1048576x32, .f32⟩ : BufTy).Contents (Elt F) → (⟨S1048576x32, .f32⟩ : BufTy).Contents (Elt F) → (⟨S1048576x32, .f32⟩ : BufTy).Contents (Elt F)),
    binary main_v48 main_v48 main_v49 (mulf : (⟨S1048576x32, .f32⟩ : BufTy).Contents (Elt F) → (⟨S1048576x32, .f32⟩ : BufTy).Contents (Elt F) → (⟨S1048576x32, .f32⟩ : BufTy).Contents (Elt F)),
    nullary main_cst_10 (constant S_ .f32 0x00000000#32),
    binary main_v49 main_cst_10 main_v50 ((fun x v => Host.reduceAdd x v reducesTo_S1048576x32_S1048576_d1 h_S_) : (⟨S1048576x32, .f32⟩ : BufTy).Contents (Elt F) → (⟨S_, .f32⟩ : BufTy).Contents (Elt F) → (⟨S1048576, .f32⟩ : BufTy).Contents (Elt F)),
    nullary main_cst_11 (constant S_ .f32 0x00000000#32),
    unary main_cst_11 main_v51 (broadcastInDim S1048576 ![] bcast_S_S1048576 : (⟨S_, .f32⟩ : BufTy).Contents (Elt F) → (⟨S1048576, .f32⟩ : BufTy).Contents (Elt F)),
    binary main_v50 main_v51 main_v52 (cmpf (F := F) .ogt : (⟨S1048576, .f32⟩ : BufTy).Contents (Elt F) → (⟨S1048576, .f32⟩ : BufTy).Contents (Elt F) → (⟨S1048576, .i1⟩ : BufTy).Contents (Elt F)),
    nullary main_cst_12 (constant S_ .f32 0x3F800000#32),
    TRef.unary (TRef.of (T := ⟨S_, .f32⟩) main_cst_12) (TRef.of (T := ⟨S_, .f32⟩) main_call1_v0) id,
    TRef.unary (TRef.of (T := ⟨S_, .f32⟩) main_call1_v0) (TRef.of (T := ⟨S1048576, .f32⟩) main_call1_v1) (broadcastInDim S1048576 ![] bcast_S_S1048576),
    TRef.ternary (TRef.of (T := ⟨S1048576, .i1⟩) main_v52) (TRef.of (T := ⟨S1048576, .f32⟩) main_v50) (TRef.of (T := ⟨S1048576, .f32⟩) main_call1_v1) (TRef.of (T := ⟨S1048576, .f32⟩) main_v53) select,
    unary main_v53 main_v54 (Host.sqrt : (⟨S1048576, .f32⟩ : BufTy).Contents (Elt F) → (⟨S1048576, .f32⟩ : BufTy).Contents (Elt F)),
    unary main_v52 main_v55 (uitofp (F := F) .f32 : (⟨S1048576, .i1⟩ : BufTy).Contents (Elt F) → (⟨S1048576, .f32⟩ : BufTy).Contents (Elt F)),
    binary main_v54 main_v55 main_v56 (mulf : (⟨S1048576, .f32⟩ : BufTy).Contents (Elt F) → (⟨S1048576, .f32⟩ : BufTy).Contents (Elt F) → (⟨S1048576, .f32⟩ : BufTy).Contents (Elt F)),
    nullary main_cst_13 (constant S_ .f32 0x3F000000#32),
    unary main_cst_13 main_v57 (broadcastInDim S1048576 ![] bcast_S_S1048576 : (⟨S_, .f32⟩ : BufTy).Contents (Elt F) → (⟨S1048576, .f32⟩ : BufTy).Contents (Elt F)),
    binary main_v56 main_v57 main_v58 (subf : (⟨S1048576, .f32⟩ : BufTy).Contents (Elt F) → (⟨S1048576, .f32⟩ : BufTy).Contents (Elt F) → (⟨S1048576, .f32⟩ : BufTy).Contents (Elt F)),
    nullary main_cst_14 (constant S_ .f32 0x00000000#32),
    unary main_cst_14 main_v59 (broadcastInDim S1048576 ![] bcast_S_S1048576 : (⟨S_, .f32⟩ : BufTy).Contents (Elt F) → (⟨S1048576, .f32⟩ : BufTy).Contents (Elt F)),
    binary main_v58 main_v59 main_v60 (maximumf : (⟨S1048576, .f32⟩ : BufTy).Contents (Elt F) → (⟨S1048576, .f32⟩ : BufTy).Contents (Elt F) → (⟨S1048576, .f32⟩ : BufTy).Contents (Elt F)),
    binary main_v60 main_v60 main_v61 (mulf : (⟨S1048576, .f32⟩ : BufTy).Contents (Elt F) → (⟨S1048576, .f32⟩ : BufTy).Contents (Elt F) → (⟨S1048576, .f32⟩ : BufTy).Contents (Elt F)),
    binary main_v61 main_v12 main_v62 (mulf : (⟨S1048576, .f32⟩ : BufTy).Contents (Elt F) → (⟨S1048576, .f32⟩ : BufTy).Contents (Elt F) → (⟨S1048576, .f32⟩ : BufTy).Contents (Elt F)),
    nullary main_cst_15 (constant S_ .f32 0x00000000#32),
    unary main_cst_15 main_v63 (broadcastInDim S1025 ![] bcast_S_S1025 : (⟨S_, .f32⟩ : BufTy).Contents (Elt F) → (⟨S1025, .f32⟩ : BufTy).Contents (Elt F)),
    unary main_v10 main_v64 (broadcastInDim S1048576x1 ![0] bcast_S1048576_S1048576x1_0 : (⟨S1048576, .i32⟩ : BufTy).Contents (Elt F) → (⟨S1048576x1, .i32⟩ : BufTy).Contents (Elt F)),
    ternary main_v63 main_v64 main_v62 main_v65 ((fun x i u => Host.scatterAdd scatter_S1025_S1048576x1_S1048576_n_0_0_1 x i u) : (⟨S1025, .f32⟩ : BufTy).Contents (Elt F) → (⟨S1048576x1, .i32⟩ : BufTy).Contents (Elt F) → (⟨S1048576, .f32⟩ : BufTy).Contents (Elt F) → (⟨S1025, .f32⟩ : BufTy).Contents (Elt F)),
    unary main_v65 main_v66 ((extractStridedSlice S1024 ![0] · slices_S1025_S1024_0) : (⟨S1025, .f32⟩ : BufTy).Contents (Elt F) → (⟨S1024, .f32⟩ : BufTy).Contents (Elt F)),
    nullary main_cst_16 (constant S_ .f32 0x3F800000#32),
    unary main_cst_16 main_v67 (broadcastInDim S1024 ![] bcast_S_S1024 : (⟨S_, .f32⟩ : BufTy).Contents (Elt F) → (⟨S1024, .f32⟩ : BufTy).Contents (Elt F)),
    binary main_v24 main_v67 main_v68 (maximumf : (⟨S1024, .f32⟩ : BufTy).Contents (Elt F) → (⟨S1024, .f32⟩ : BufTy).Contents (Elt F) → (⟨S1024, .f32⟩ : BufTy).Contents (Elt F)),
    binary main_v66 main_v68 main_v69 (Host.divf : (⟨S1024, .f32⟩ : BufTy).Contents (Elt F) → (⟨S1024, .f32⟩ : BufTy).Contents (Elt F) → (⟨S1024, .f32⟩ : BufTy).Contents (Elt F)),
    reshape main_v69 main_v70 rfl shapeCasts_S1024_S16x64,
    unary main_v32 main_v71 (uitofp (F := F) .f32 : (⟨S16x64, .i1⟩ : BufTy).Contents (Elt F) → (⟨S16x64, .f32⟩ : BufTy).Contents (Elt F)),
    binary main_v70 main_v71 main_v72 (mulf : (⟨S16x64, .f32⟩ : BufTy).Contents (Elt F) → (⟨S16x64, .f32⟩ : BufTy).Contents (Elt F) → (⟨S16x64, .f32⟩ : BufTy).Contents (Elt F)),
    nullary main_cst_17 (constant S_ .f32 0x00000000#32),
    binary main_v72 main_cst_17 main_v73 ((fun x v => Host.reduceAdd x v reducesTo_S16x64_S16_d1 h_S_) : (⟨S16x64, .f32⟩ : BufTy).Contents (Elt F) → (⟨S_, .f32⟩ : BufTy).Contents (Elt F) → (⟨S16, .f32⟩ : BufTy).Contents (Elt F)),
    nullary main_cst_18 (constant S_ .f32 0x3F800000#32),
    unary main_cst_18 main_v74 (broadcastInDim S16 ![] bcast_S_S16 : (⟨S_, .f32⟩ : BufTy).Contents (Elt F) → (⟨S16, .f32⟩ : BufTy).Contents (Elt F)),
    binary main_v35 main_v74 main_v75 (maximumf : (⟨S16, .f32⟩ : BufTy).Contents (Elt F) → (⟨S16, .f32⟩ : BufTy).Contents (Elt F) → (⟨S16, .f32⟩ : BufTy).Contents (Elt F)),
    binary main_v73 main_v75 main_v76 (Host.divf : (⟨S16, .f32⟩ : BufTy).Contents (Elt F) → (⟨S16, .f32⟩ : BufTy).Contents (Elt F) → (⟨S16, .f32⟩ : BufTy).Contents (Elt F)),
    reshape main_v29 main_v77 rfl shapeCasts_S1024x32_S16x64x32,
    unary main_v77 main_v78 (broadcastInDim S16x64x1x32 ![0, 1, 3] bcast_S16x64x32_S16x64x1x32_0_1_3 : (⟨S16x64x32, .f32⟩ : BufTy).Contents (Elt F) → (⟨S16x64x1x32, .f32⟩ : BufTy).Contents (Elt F)),
    unary main_v77 main_v79 (broadcastInDim S16x1x64x32 ![0, 2, 3] bcast_S16x64x32_S16x1x64x32_0_2_3 : (⟨S16x64x32, .f32⟩ : BufTy).Contents (Elt F) → (⟨S16x1x64x32, .f32⟩ : BufTy).Contents (Elt F)),
    unary main_v78 main_v80 (broadcastInDim S16x64x64x32 ![0, 1, 2, 3] bcast_S16x64x1x32_S16x64x64x32_0_1_2_3 : (⟨S16x64x1x32, .f32⟩ : BufTy).Contents (Elt F) → (⟨S16x64x64x32, .f32⟩ : BufTy).Contents (Elt F)),
    unary main_v79 main_v81 (broadcastInDim S16x64x64x32 ![0, 1, 2, 3] bcast_S16x1x64x32_S16x64x64x32_0_1_2_3 : (⟨S16x1x64x32, .f32⟩ : BufTy).Contents (Elt F) → (⟨S16x64x64x32, .f32⟩ : BufTy).Contents (Elt F)),
    binary main_v80 main_v81 main_v82 (subf : (⟨S16x64x64x32, .f32⟩ : BufTy).Contents (Elt F) → (⟨S16x64x64x32, .f32⟩ : BufTy).Contents (Elt F) → (⟨S16x64x64x32, .f32⟩ : BufTy).Contents (Elt F)),
    binary main_v82 main_v82 main_v83 (mulf : (⟨S16x64x64x32, .f32⟩ : BufTy).Contents (Elt F) → (⟨S16x64x64x32, .f32⟩ : BufTy).Contents (Elt F) → (⟨S16x64x64x32, .f32⟩ : BufTy).Contents (Elt F)),
    nullary main_cst_19 (constant S_ .f32 0x00000000#32),
    binary main_v83 main_cst_19 main_v84 ((fun x v => Host.reduceAdd x v reducesTo_S16x64x64x32_S16x64x64_d3 h_S_) : (⟨S16x64x64x32, .f32⟩ : BufTy).Contents (Elt F) → (⟨S_, .f32⟩ : BufTy).Contents (Elt F) → (⟨S16x64x64, .f32⟩ : BufTy).Contents (Elt F)),
    nullary main_v85 (iotaInDim S64 32 0),
    unary main_v32 main_v86 (broadcastInDim S16x64x1 ![0, 1] bcast_S16x64_S16x64x1_0_1 : (⟨S16x64, .i1⟩ : BufTy).Contents (Elt F) → (⟨S16x64x1, .i1⟩ : BufTy).Contents (Elt F)),
    unary main_v32 main_v87 (broadcastInDim S16x1x64 ![0, 2] bcast_S16x64_S16x1x64_0_2 : (⟨S16x64, .i1⟩ : BufTy).Contents (Elt F) → (⟨S16x1x64, .i1⟩ : BufTy).Contents (Elt F)),
    unary main_v86 main_v88 (broadcastInDim S16x64x64 ![0, 1, 2] bcast_S16x64x1_S16x64x64_0_1_2 : (⟨S16x64x1, .i1⟩ : BufTy).Contents (Elt F) → (⟨S16x64x64, .i1⟩ : BufTy).Contents (Elt F)),
    unary main_v87 main_v89 (broadcastInDim S16x64x64 ![0, 1, 2] bcast_S16x1x64_S16x64x64_0_1_2 : (⟨S16x1x64, .i1⟩ : BufTy).Contents (Elt F) → (⟨S16x64x64, .i1⟩ : BufTy).Contents (Elt F)),
    binary main_v88 main_v89 main_v90 (andi : (⟨S16x64x64, .i1⟩ : BufTy).Contents (Elt F) → (⟨S16x64x64, .i1⟩ : BufTy).Contents (Elt F) → (⟨S16x64x64, .i1⟩ : BufTy).Contents (Elt F)),
    unary main_v85 main_v91 (broadcastInDim S64x1 ![0] bcast_S64_S64x1_0 : (⟨S64, .i32⟩ : BufTy).Contents (Elt F) → (⟨S64x1, .i32⟩ : BufTy).Contents (Elt F)),
    unary main_v85 main_v92 (broadcastInDim S1x64 ![1] bcast_S64_S1x64_1 : (⟨S64, .i32⟩ : BufTy).Contents (Elt F) → (⟨S1x64, .i32⟩ : BufTy).Contents (Elt F)),
    unary main_v91 main_v93 (broadcastInDim S64x64 ![0, 1] bcast_S64x1_S64x64_0_1 : (⟨S64x1, .i32⟩ : BufTy).Contents (Elt F) → (⟨S64x64, .i32⟩ : BufTy).Contents (Elt F)),
    unary main_v92 main_v94 (broadcastInDim S64x64 ![0, 1] bcast_S1x64_S64x64_0_1 : (⟨S1x64, .i32⟩ : BufTy).Contents (Elt F) → (⟨S64x64, .i32⟩ : BufTy).Contents (Elt F)),
    binary main_v93 main_v94 main_v95 (cmpi .slt : (⟨S64x64, .i32⟩ : BufTy).Contents (Elt F) → (⟨S64x64, .i32⟩ : BufTy).Contents (Elt F) → (⟨S64x64, .i1⟩ : BufTy).Contents (Elt F)),
    unary main_v95 main_v96 (broadcastInDim S1x64x64 ![1, 2] bcast_S64x64_S1x64x64_1_2 : (⟨S64x64, .i1⟩ : BufTy).Contents (Elt F) → (⟨S1x64x64, .i1⟩ : BufTy).Contents (Elt F)),
    unary main_v96 main_v97 (broadcastInDim S16x64x64 ![0, 1, 2] bcast_S1x64x64_S16x64x64_0_1_2 : (⟨S1x64x64, .i1⟩ : BufTy).Contents (Elt F) → (⟨S16x64x64, .i1⟩ : BufTy).Contents (Elt F)) ]

/-- @main's operations 125 … 190 of 212 (window `main_part2`; a called function's operations stand in its call's place). -/
abbrev ops_part2 : List (HloOp τ sig (Elt F)) :=
  [ binary main_v90 main_v97 main_v98 (andi : (⟨S16x64x64, .i1⟩ : BufTy).Contents (Elt F) → (⟨S16x64x64, .i1⟩ : BufTy).Contents (Elt F) → (⟨S16x64x64, .i1⟩ : BufTy).Contents (Elt F)),
    unary main_v98 main_v99 (uitofp (F := F) .f32 : (⟨S16x64x64, .i1⟩ : BufTy).Contents (Elt F) → (⟨S16x64x64, .f32⟩ : BufTy).Contents (Elt F)),
    nullary main_cst_20 (constant S_ .f32 0x3F800000#32),
    TRef.unary (TRef.of (T := ⟨S_, .f32⟩) main_cst_20) (TRef.of (T := ⟨S_, .f32⟩) main_call2_v0) id,
    TRef.unary (TRef.of (T := ⟨S_, .f32⟩) main_call2_v0) (TRef.of (T := ⟨S16x64x64, .f32⟩) main_call2_v1) (broadcastInDim S16x64x64 ![] bcast_S_S16x64x64),
    TRef.ternary (TRef.of (T := ⟨S16x64x64, .i1⟩) main_v98) (TRef.of (T := ⟨S16x64x64, .f32⟩) main_v84) (TRef.of (T := ⟨S16x64x64, .f32⟩) main_call2_v1) (TRef.of (T := ⟨S16x64x64, .f32⟩) main_v100) select,
    nullary main_cst_21 (constant S_ .f32 0x00000000#32),
    unary main_cst_21 main_v101 (broadcastInDim S16x64x64 ![] bcast_S_S16x64x64 : (⟨S_, .f32⟩ : BufTy).Contents (Elt F) → (⟨S16x64x64, .f32⟩ : BufTy).Contents (Elt F)),
    binary main_v100 main_v101 main_v102 (cmpf (F := F) .ogt : (⟨S16x64x64, .f32⟩ : BufTy).Contents (Elt F) → (⟨S16x64x64, .f32⟩ : BufTy).Contents (Elt F) → (⟨S16x64x64, .i1⟩ : BufTy).Contents (Elt F)),
    nullary main_cst_22 (constant S_ .f32 0x3F800000#32),
    TRef.unary (TRef.of (T := ⟨S_, .f32⟩) main_cst_22) (TRef.of (T := ⟨S_, .f32⟩) main_call3_v0) id,
    TRef.unary (TRef.of (T := ⟨S_, .f32⟩) main_call3_v0) (TRef.of (T := ⟨S16x64x64, .f32⟩) main_call3_v1) (broadcastInDim S16x64x64 ![] bcast_S_S16x64x64),
    TRef.ternary (TRef.of (T := ⟨S16x64x64, .i1⟩) main_v102) (TRef.of (T := ⟨S16x64x64, .f32⟩) main_v100) (TRef.of (T := ⟨S16x64x64, .f32⟩) main_call3_v1) (TRef.of (T := ⟨S16x64x64, .f32⟩) main_v103) select,
    unary main_v103 main_v104 (Host.sqrt : (⟨S16x64x64, .f32⟩ : BufTy).Contents (Elt F) → (⟨S16x64x64, .f32⟩ : BufTy).Contents (Elt F)),
    unary main_v102 main_v105 (uitofp (F := F) .f32 : (⟨S16x64x64, .i1⟩ : BufTy).Contents (Elt F) → (⟨S16x64x64, .f32⟩ : BufTy).Contents (Elt F)),
    binary main_v104 main_v105 main_v106 (mulf : (⟨S16x64x64, .f32⟩ : BufTy).Contents (Elt F) → (⟨S16x64x64, .f32⟩ : BufTy).Contents (Elt F) → (⟨S16x64x64, .f32⟩ : BufTy).Contents (Elt F)),
    binary main_v106 main_v99 main_v107 (mulf : (⟨S16x64x64, .f32⟩ : BufTy).Contents (Elt F) → (⟨S16x64x64, .f32⟩ : BufTy).Contents (Elt F) → (⟨S16x64x64, .f32⟩ : BufTy).Contents (Elt F)),
    nullary main_cst_23 (constant S_ .f32 0x40400000#32),
    unary main_cst_23 main_v108 (broadcastInDim S16x64x64 ![] bcast_S_S16x64x64 : (⟨S_, .f32⟩ : BufTy).Contents (Elt F) → (⟨S16x64x64, .f32⟩ : BufTy).Contents (Elt F)),
    binary main_v108 main_v107 main_v109 (subf : (⟨S16x64x64, .f32⟩ : BufTy).Contents (Elt F) → (⟨S16x64x64, .f32⟩ : BufTy).Contents (Elt F) → (⟨S16x64x64, .f32⟩ : BufTy).Contents (Elt F)),
    nullary main_cst_24 (constant S_ .f32 0x00000000#32),
    unary main_cst_24 main_v110 (broadcastInDim S16x64x64 ![] bcast_S_S16x64x64 : (⟨S_, .f32⟩ : BufTy).Contents (Elt F) → (⟨S16x64x64, .f32⟩ : BufTy).Contents (Elt F)),
    binary main_v109 main_v110 main_v111 (maximumf : (⟨S16x64x64, .f32⟩ : BufTy).Contents (Elt F) → (⟨S16x64x64, .f32⟩ : BufTy).Contents (Elt F) → (⟨S16x64x64, .f32⟩ : BufTy).Contents (Elt F)),
    binary main_v111 main_v111 main_v112 (mulf : (⟨S16x64x64, .f32⟩ : BufTy).Contents (Elt F) → (⟨S16x64x64, .f32⟩ : BufTy).Contents (Elt F) → (⟨S16x64x64, .f32⟩ : BufTy).Contents (Elt F)),
    binary main_v112 main_v99 main_v113 (mulf : (⟨S16x64x64, .f32⟩ : BufTy).Contents (Elt F) → (⟨S16x64x64, .f32⟩ : BufTy).Contents (Elt F) → (⟨S16x64x64, .f32⟩ : BufTy).Contents (Elt F)),
    nullary main_cst_25 (constant S_ .f32 0x3F800000#32),
    unary main_cst_25 main_v114 (broadcastInDim S16 ![] bcast_S_S16 : (⟨S_, .f32⟩ : BufTy).Contents (Elt F) → (⟨S16, .f32⟩ : BufTy).Contents (Elt F)),
    binary main_v35 main_v114 main_v115 (subf : (⟨S16, .f32⟩ : BufTy).Contents (Elt F) → (⟨S16, .f32⟩ : BufTy).Contents (Elt F) → (⟨S16, .f32⟩ : BufTy).Contents (Elt F)),
    binary main_v35 main_v115 main_v116 (mulf : (⟨S16, .f32⟩ : BufTy).Contents (Elt F) → (⟨S16, .f32⟩ : BufTy).Contents (Elt F) → (⟨S16, .f32⟩ : BufTy).Contents (Elt F)),
    nullary main_cst_26 (constant S_ .f32 0x40000000#32),
    unary main_cst_26 main_v117 (broadcastInDim S16 ![] bcast_S_S16 : (⟨S_, .f32⟩ : BufTy).Contents (Elt F) → (⟨S16, .f32⟩ : BufTy).Contents (Elt F)),
    binary main_v116 main_v117 main_v118 (Host.divf : (⟨S16, .f32⟩ : BufTy).Contents (Elt F) → (⟨S16, .f32⟩ : BufTy).Contents (Elt F) → (⟨S16, .f32⟩ : BufTy).Contents (Elt F)),
    nullary main_cst_27 (constant S_ .f32 0x00000000#32),
    binary main_v113 main_cst_27 main_v119 ((fun x v => Host.reduceAdd x v reducesTo_S16x64x64_S16_d1_2 h_S_) : (⟨S16x64x64, .f32⟩ : BufTy).Contents (Elt F) → (⟨S_, .f32⟩ : BufTy).Contents (Elt F) → (⟨S16, .f32⟩ : BufTy).Contents (Elt F)),
    nullary main_cst_28 (constant S_ .f32 0x3F800000#32),
    unary main_cst_28 main_v120 (broadcastInDim S16 ![] bcast_S_S16 : (⟨S_, .f32⟩ : BufTy).Contents (Elt F) → (⟨S16, .f32⟩ : BufTy).Contents (Elt F)),
    binary main_v118 main_v120 main_v121 (maximumf : (⟨S16, .f32⟩ : BufTy).Contents (Elt F) → (⟨S16, .f32⟩ : BufTy).Contents (Elt F) → (⟨S16, .f32⟩ : BufTy).Contents (Elt F)),
    binary main_v119 main_v121 main_v122 (Host.divf : (⟨S16, .f32⟩ : BufTy).Contents (Elt F) → (⟨S16, .f32⟩ : BufTy).Contents (Elt F) → (⟨S16, .f32⟩ : BufTy).Contents (Elt F)),
    binary main_v77 main_v77 main_v123 (mulf : (⟨S16x64x32, .f32⟩ : BufTy).Contents (Elt F) → (⟨S16x64x32, .f32⟩ : BufTy).Contents (Elt F) → (⟨S16x64x32, .f32⟩ : BufTy).Contents (Elt F)),
    nullary main_cst_29 (constant S_ .f32 0x00000000#32),
    binary main_v123 main_cst_29 main_v124 ((fun x v => Host.reduceAdd x v reducesTo_S16x64x32_S16x64_d2 h_S_) : (⟨S16x64x32, .f32⟩ : BufTy).Contents (Elt F) → (⟨S_, .f32⟩ : BufTy).Contents (Elt F) → (⟨S16x64, .f32⟩ : BufTy).Contents (Elt F)),
    nullary main_cst_30 (constant S_ .f32 0x00000000#32),
    unary main_cst_30 main_v125 (broadcastInDim S16x64 ![] bcast_S_S16x64 : (⟨S_, .f32⟩ : BufTy).Contents (Elt F) → (⟨S16x64, .f32⟩ : BufTy).Contents (Elt F)),
    binary main_v124 main_v125 main_v126 (cmpf (F := F) .ogt : (⟨S16x64, .f32⟩ : BufTy).Contents (Elt F) → (⟨S16x64, .f32⟩ : BufTy).Contents (Elt F) → (⟨S16x64, .i1⟩ : BufTy).Contents (Elt F)),
    nullary main_cst_31 (constant S_ .f32 0x3F800000#32),
    TRef.unary (TRef.of (T := ⟨S_, .f32⟩) main_cst_31) (TRef.of (T := ⟨S_, .f32⟩) main_call4_v0) id,
    TRef.unary (TRef.of (T := ⟨S_, .f32⟩) main_call4_v0) (TRef.of (T := ⟨S16x64, .f32⟩) main_call4_v1) (broadcastInDim S16x64 ![] bcast_S_S16x64),
    TRef.ternary (TRef.of (T := ⟨S16x64, .i1⟩) main_v126) (TRef.of (T := ⟨S16x64, .f32⟩) main_v124) (TRef.of (T := ⟨S16x64, .f32⟩) main_call4_v1) (TRef.of (T := ⟨S16x64, .f32⟩) main_v127) select,
    unary main_v127 main_v128 (Host.sqrt : (⟨S16x64, .f32⟩ : BufTy).Contents (Elt F) → (⟨S16x64, .f32⟩ : BufTy).Contents (Elt F)),
    unary main_v126 main_v129 (uitofp (F := F) .f32 : (⟨S16x64, .i1⟩ : BufTy).Contents (Elt F) → (⟨S16x64, .f32⟩ : BufTy).Contents (Elt F)),
    binary main_v128 main_v129 main_v130 (mulf : (⟨S16x64, .f32⟩ : BufTy).Contents (Elt F) → (⟨S16x64, .f32⟩ : BufTy).Contents (Elt F) → (⟨S16x64, .f32⟩ : BufTy).Contents (Elt F)),
    unary main_v32 main_v131 (uitofp (F := F) .f32 : (⟨S16x64, .i1⟩ : BufTy).Contents (Elt F) → (⟨S16x64, .f32⟩ : BufTy).Contents (Elt F)),
    binary main_v130 main_v131 main_v132 (mulf : (⟨S16x64, .f32⟩ : BufTy).Contents (Elt F) → (⟨S16x64, .f32⟩ : BufTy).Contents (Elt F) → (⟨S16x64, .f32⟩ : BufTy).Contents (Elt F)),
    nullary main_cst_32 (constant S_ .f32 0x00000000#32),
    binary main_v132 main_cst_32 main_v133 ((fun x v => Host.reduceAdd x v reducesTo_S16x64_S16_d1 h_S_) : (⟨S16x64, .f32⟩ : BufTy).Contents (Elt F) → (⟨S_, .f32⟩ : BufTy).Contents (Elt F) → (⟨S16, .f32⟩ : BufTy).Contents (Elt F)),
    nullary main_cst_33 (constant S_ .f32 0x3F800000#32),
    unary main_cst_33 main_v134 (broadcastInDim S16 ![] bcast_S_S16 : (⟨S_, .f32⟩ : BufTy).Contents (Elt F) → (⟨S16, .f32⟩ : BufTy).Contents (Elt F)),
    binary main_v35 main_v134 main_v135 (maximumf : (⟨S16, .f32⟩ : BufTy).Contents (Elt F) → (⟨S16, .f32⟩ : BufTy).Contents (Elt F) → (⟨S16, .f32⟩ : BufTy).Contents (Elt F)),
    binary main_v133 main_v135 main_v136 (Host.divf : (⟨S16, .f32⟩ : BufTy).Contents (Elt F) → (⟨S16, .f32⟩ : BufTy).Contents (Elt F) → (⟨S16, .f32⟩ : BufTy).Contents (Elt F)),
    nullary main_cst_34 (constant S_ .f32 0x00000000#32),
    binary main_v38 main_cst_34 main_v137 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_35 (constant S_ .f32 0x3F800000#32),
    binary main_v137 main_cst_35 main_v138 (maximumf : (⟨S_, .f32⟩ : BufTy).Contents (Elt F) → (⟨S_, .f32⟩ : BufTy).Contents (Elt F) → (⟨S_, .f32⟩ : BufTy).Contents (Elt F)),
    binary main_v76 main_v38 main_v139 (mulf : (⟨S16, .f32⟩ : BufTy).Contents (Elt F) → (⟨S16, .f32⟩ : BufTy).Contents (Elt F) → (⟨S16, .f32⟩ : BufTy).Contents (Elt F)),
    nullary main_cst_36 (constant S_ .f32 0x00000000#32),
    binary main_v139 main_cst_36 main_v140 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)) ]

/-- @main's operations 191 … 212 of 212 (window `main_part3`; a called function's operations stand in its call's place). -/
abbrev ops_part3 : List (HloOp τ sig (Elt F)) :=
  [ binary main_v140 main_v138 main_v141 (Host.divf : (⟨S_, .f32⟩ : BufTy).Contents (Elt F) → (⟨S_, .f32⟩ : BufTy).Contents (Elt F) → (⟨S_, .f32⟩ : BufTy).Contents (Elt F)),
    binary main_v122 main_v38 main_v142 (mulf : (⟨S16, .f32⟩ : BufTy).Contents (Elt F) → (⟨S16, .f32⟩ : BufTy).Contents (Elt F) → (⟨S16, .f32⟩ : BufTy).Contents (Elt F)),
    nullary main_cst_37 (constant S_ .f32 0x00000000#32),
    binary main_v142 main_cst_37 main_v143 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    binary main_v143 main_v138 main_v144 (Host.divf : (⟨S_, .f32⟩ : BufTy).Contents (Elt F) → (⟨S_, .f32⟩ : BufTy).Contents (Elt F) → (⟨S_, .f32⟩ : BufTy).Contents (Elt F)),
    binary main_v136 main_v38 main_v145 (mulf : (⟨S16, .f32⟩ : BufTy).Contents (Elt F) → (⟨S16, .f32⟩ : BufTy).Contents (Elt F) → (⟨S16, .f32⟩ : BufTy).Contents (Elt F)),
    nullary main_cst_38 (constant S_ .f32 0x00000000#32),
    binary main_v145 main_cst_38 main_v146 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    binary main_v146 main_v138 main_v147 (Host.divf : (⟨S_, .f32⟩ : BufTy).Contents (Elt F) → (⟨S_, .f32⟩ : BufTy).Contents (Elt F) → (⟨S_, .f32⟩ : BufTy).Contents (Elt F)),
    nullary main_cst_39 (constant S_ .f32 0x3F800000#32),
    binary main_cst_39 main_v141 main_v148 (mulf : (⟨S_, .f32⟩ : BufTy).Contents (Elt F) → (⟨S_, .f32⟩ : BufTy).Contents (Elt F) → (⟨S_, .f32⟩ : BufTy).Contents (Elt F)),
    nullary main_cst_40 (constant S_ .f32 0x3F800000#32),
    binary main_cst_40 main_v144 main_v149 (mulf : (⟨S_, .f32⟩ : BufTy).Contents (Elt F) → (⟨S_, .f32⟩ : BufTy).Contents (Elt F) → (⟨S_, .f32⟩ : BufTy).Contents (Elt F)),
    binary main_v148 main_v149 main_v150 (addf : (⟨S_, .f32⟩ : BufTy).Contents (Elt F) → (⟨S_, .f32⟩ : BufTy).Contents (Elt F) → (⟨S_, .f32⟩ : BufTy).Contents (Elt F)),
    nullary main_cst_41 (constant S_ .f32 0x3A83126F#32),
    binary main_cst_41 main_v147 main_v151 (mulf : (⟨S_, .f32⟩ : BufTy).Contents (Elt F) → (⟨S_, .f32⟩ : BufTy).Contents (Elt F) → (⟨S_, .f32⟩ : BufTy).Contents (Elt F)),
    binary main_v150 main_v151 main_v152 (addf : (⟨S_, .f32⟩ : BufTy).Contents (Elt F) → (⟨S_, .f32⟩ : BufTy).Contents (Elt F) → (⟨S_, .f32⟩ : BufTy).Contents (Elt F)),
    unary main_v152 main_v153 (broadcastInDim S1 ![] bcast_S_S1 : (⟨S_, .f32⟩ : BufTy).Contents (Elt F) → (⟨S1, .f32⟩ : BufTy).Contents (Elt F)),
    unary main_v141 main_v154 (broadcastInDim S1 ![] bcast_S_S1 : (⟨S_, .f32⟩ : BufTy).Contents (Elt F) → (⟨S1, .f32⟩ : BufTy).Contents (Elt F)),
    unary main_v144 main_v155 (broadcastInDim S1 ![] bcast_S_S1 : (⟨S_, .f32⟩ : BufTy).Contents (Elt F) → (⟨S1, .f32⟩ : BufTy).Contents (Elt F)),
    unary main_v147 main_v156 (broadcastInDim S1 ![] bcast_S_S1 : (⟨S_, .f32⟩ : BufTy).Contents (Elt F) → (⟨S1, .f32⟩ : BufTy).Contents (Elt F)),
    nary ![main_v153, main_v154, main_v155, main_v156] main_v157 (fun u => concatenate S4 0 [⟨S1, u 0⟩, ⟨S1, u 1⟩, ⟨S1, u 2⟩, ⟨S1, u 3⟩] concatenates_S1_S1_S1_S1_S4_d0) ]

/-- @main's 212 operations, in order. -/
abbrev ops : List (HloOp τ sig (Elt F)) :=
  ops_part0 ++ (ops_part1 ++ (ops_part2 ++ (ops_part3)))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
set_option maxHeartbeats 4000000 in
theorem main_part3_eq (c : Dev nD) : main_part3 (F := F) c = seq ops_part3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., unary_bufs_sub .., binary_bufs_sub .., binary_bufs_sub .., nullary_bufs_sub .., unary_bufs_sub .., nullary_bufs_sub .., unary_bufs_sub .., binary_bufs_sub .., unary_bufs_sub .., binary_bufs_sub .., nullary_bufs_sub .., unary_bufs_sub .., unary_bufs_sub .., ternary_bufs_sub .., reshape_bufs_sub .., reshape_bufs_sub .., unary_bufs_sub .., reshape_bufs_sub .., unary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., unary_bufs_sub .., nullary_bufs_sub .., unary_bufs_sub .., binary_bufs_sub .., unary_bufs_sub .., unary_bufs_sub .., binary_bufs_sub .., nullary_bufs_sub .., unary_bufs_sub .., binary_bufs_sub .., reshape_bufs_sub .., unary_bufs_sub .., nullary_bufs_sub .., binary_bufs_sub .., unary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem ops_part1_sub : (ops_part1 : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., unary_bufs_sub .., ternary_bufs_sub .., unary_bufs_sub .., nullary_bufs_sub .., unary_bufs_sub .., binary_bufs_sub .., binary_bufs_sub .., reshape_bufs_sub .., unary_bufs_sub .., binary_bufs_sub .., nullary_bufs_sub .., binary_bufs_sub .., nullary_bufs_sub .., unary_bufs_sub .., binary_bufs_sub .., binary_bufs_sub .., reshape_bufs_sub .., unary_bufs_sub .., unary_bufs_sub .., unary_bufs_sub .., unary_bufs_sub .., binary_bufs_sub .., binary_bufs_sub .., nullary_bufs_sub .., binary_bufs_sub .., nullary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., unary_bufs_sub ..⟩
set_option maxRecDepth 8192 in
theorem ops_part2_sub : (ops_part2 : List (HloOp τ sig (Elt F))).Forall fun op => op.bufs ⊆ tcRefs τ sig :=
  ⟨binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., binary_bufs_sub .., binary_bufs_sub .., nullary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., nullary_bufs_sub .., binary_bufs_sub .., nullary_bufs_sub .., unary_bufs_sub .., binary_bufs_sub .., binary_bufs_sub .., nullary_bufs_sub .., binary_bufs_sub .., nullary_bufs_sub .., binary_bufs_sub .., binary_bufs_sub .., nullary_bufs_sub .., binary_bufs_sub ..⟩
set_option maxRecDepth 8192 in
theorem ops_part3_sub : (ops_part3 : List (HloOp τ sig (Elt F))).Forall fun op => op.bufs ⊆ tcRefs τ sig :=
  ⟨binary_bufs_sub .., binary_bufs_sub .., nullary_bufs_sub .., binary_bufs_sub .., binary_bufs_sub .., binary_bufs_sub .., nullary_bufs_sub .., binary_bufs_sub .., binary_bufs_sub .., nullary_bufs_sub .., binary_bufs_sub .., nullary_bufs_sub .., binary_bufs_sub .., binary_bufs_sub .., nullary_bufs_sub .., binary_bufs_sub .., binary_bufs_sub .., unary_bufs_sub .., unary_bufs_sub .., unary_bufs_sub .., unary_bufs_sub .., nary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops_part0_sub op h, List.forall_iff_forall_mem.mp ops_part1_sub op h, List.forall_iff_forall_mem.mp ops_part2_sub op h, List.forall_iff_forall_mem.mp ops_part3_sub op h]
set_option maxRecDepth 8192 in
set_option maxHeartbeats 4000000 in
/-- Every operation of window `main_part0` determines its results. -/
theorem ops_part0_fresh : ∀ op ∈ (ops_part0 : List (HloOp τ sig (Elt F))), op.fresh = ∅ := by
  intro _ h; (repeat (cases h with | head => rfl | tail _ h => ?_)); exact nomatch h
set_option maxRecDepth 8192 in
set_option maxHeartbeats 4000000 in
/-- Every operation of window `main_part1` determines its results. -/
theorem ops_part1_fresh : ∀ op ∈ (ops_part1 : List (HloOp τ sig (Elt F))), op.fresh = ∅ := by
  intro _ h; (repeat (cases h with | head => rfl | tail _ h => ?_)); exact nomatch h
set_option maxRecDepth 8192 in
set_option maxHeartbeats 4000000 in
/-- Every operation of window `main_part2` determines its results. -/
theorem ops_part2_fresh : ∀ op ∈ (ops_part2 : List (HloOp τ sig (Elt F))), op.fresh = ∅ := by
  intro _ h; (repeat (cases h with | head => rfl | tail _ h => ?_)); exact nomatch h
set_option maxRecDepth 8192 in
set_option maxHeartbeats 4000000 in
/-- Every operation of window `main_part3` determines its results. -/
theorem ops_part3_fresh : ∀ op ∈ (ops_part3 : List (HloOp τ sig (Elt F))), op.fresh = ∅ := by
  intro _ h; (repeat (cases h with | head => rfl | tail _ h => ?_)); exact nomatch h
theorem ops_fresh : ∀ op ∈ (ops : List (HloOp τ sig (Elt F))), op.fresh = ∅ := fun op h => by
  simp only [ops, List.mem_append] at h
  rcases h with h | h | h | h
  exacts [ops_part0_fresh op h, ops_part1_fresh op h, ops_part2_fresh op h, ops_part3_fresh op h]

/-! ## The stages: each buffer's value as a function of @main's arguments -/

def stg_main_c : (⟨S_, .i32⟩ : BufTy).Contents (Elt F) :=
  constantI S_ 32 0#32
def stg_main_v0 : (⟨S16x65536, .i32⟩ : BufTy).Contents (Elt F) :=
  broadcastInDim S16x65536 ![] bcast_S_S16x65536 (stg_main_c (F := F))
def stg_main_v1 (x1 : (⟨S16x65536, .i32⟩ : BufTy).Contents (Elt F)) : (⟨S16x65536, .i1⟩ : BufTy).Contents (Elt F) :=
  cmpi .sge (x1) (stg_main_v0 (F := F))
def stg_main_v2 (x1 : (⟨S16x65536, .i32⟩ : BufTy).Contents (Elt F)) (x2 : (⟨S16x65536, .i1⟩ : BufTy).Contents (Elt F)) : (⟨S16x65536, .i1⟩ : BufTy).Contents (Elt F) :=
  andi (x2) (stg_main_v1 (F := F) x1)
def stg_main_v3 : (⟨S16, .i32⟩ : BufTy).Contents (Elt F) :=
  iotaInDim S16 32 0
def stg_main_v4 : (⟨S16x1, .i32⟩ : BufTy).Contents (Elt F) :=
  broadcastInDim S16x1 ![0] bcast_S16_S16x1_0 (stg_main_v3 (F := F))
def stg_main_c_0 : (⟨S_, .i32⟩ : BufTy).Contents (Elt F) :=
  constantI S_ 32 64#32
def stg_main_v5 : (⟨S16x1, .i32⟩ : BufTy).Contents (Elt F) :=
  broadcastInDim S16x1 ![] bcast_S_S16x1 (stg_main_c_0 (F := F))
def stg_main_v6 : (⟨S16x1, .i32⟩ : BufTy).Contents (Elt F) :=
  muli (stg_main_v4 (F := F)) (stg_main_v5 (F := F))
def stg_main_v7 : (⟨S16x65536, .i32⟩ : BufTy).Contents (Elt F) :=
  broadcastInDim S16x65536 ![0, 1] bcast_S16x1_S16x65536_0_1 (stg_main_v6 (F := F))
def stg_main_v8 (x1 : (⟨S16x65536, .i32⟩ : BufTy).Contents (Elt F)) : (⟨S16x65536, .i32⟩ : BufTy).Contents (Elt F) :=
  addi (stg_main_v7 (F := F)) (x1)
def stg_main_c_1 : (⟨S_, .i32⟩ : BufTy).Contents (Elt F) :=
  constantI S_ 32 1024#32
def stg_main_call0_v0 : (⟨S_, .i32⟩ : BufTy).Contents (Elt F) :=
  id (stg_main_c_1 (F := F))
def stg_main_call0_v1 : (⟨S16x65536, .i32⟩ : BufTy).Contents (Elt F) :=
  broadcastInDim S16x65536 ![] bcast_S_S16x65536 (stg_main_call0_v0 (F := F))
def stg_main_v9 (x1 : (⟨S16x65536, .i32⟩ : BufTy).Contents (Elt F)) (x2 : (⟨S16x65536, .i1⟩ : BufTy).Contents (Elt F)) : (⟨S16x65536, .i32⟩ : BufTy).Contents (Elt F) :=
  select (stg_main_v2 (F := F) x1 x2) (stg_main_v8 (F := F) x1) (stg_main_call0_v1 (F := F))
def stg_main_v10 (x1 : (⟨S16x65536, .i32⟩ : BufTy).Contents (Elt F)) (x2 : (⟨S16x65536, .i1⟩ : BufTy).Contents (Elt F)) : (⟨S1048576, .i32⟩ : BufTy).Contents (Elt F) :=
  shapeCast _ (stg_main_v9 (F := F) x1 x2) shapeCasts_S16x65536_S1048576
def stg_main_v11 (x1 : (⟨S16x65536, .i32⟩ : BufTy).Contents (Elt F)) (x2 : (⟨S16x65536, .i1⟩ : BufTy).Contents (Elt F)) : (⟨S1048576, .i1⟩ : BufTy).Contents (Elt F) :=
  shapeCast _ (stg_main_v2 (F := F) x1 x2) shapeCasts_S16x65536_S1048576
def stg_main_v12 (x1 : (⟨S16x65536, .i32⟩ : BufTy).Contents (Elt F)) (x2 : (⟨S16x65536, .i1⟩ : BufTy).Contents (Elt F)) : (⟨S1048576, .f32⟩ : BufTy).Contents (Elt F) :=
  uitofp (F := F) .f32 (stg_main_v11 (F := F) x1 x2)
def stg_main_v13 (x0 : (⟨S16x65536x32, .f32⟩ : BufTy).Contents (Elt F)) : (⟨S1048576x32, .f32⟩ : BufTy).Contents (Elt F) :=
  shapeCast _ (x0) shapeCasts_S16x65536x32_S1048576x32
def stg_main_v14 (x1 : (⟨S16x65536, .i32⟩ : BufTy).Contents (Elt F)) (x2 : (⟨S16x65536, .i1⟩ : BufTy).Contents (Elt F)) : (⟨S1048576x1, .f32⟩ : BufTy).Contents (Elt F) :=
  broadcastInDim S1048576x1 ![0] bcast_S1048576_S1048576x1_0 (stg_main_v12 (F := F) x1 x2)
def stg_main_v15 (x1 : (⟨S16x65536, .i32⟩ : BufTy).Contents (Elt F)) (x2 : (⟨S16x65536, .i1⟩ : BufTy).Contents (Elt F)) : (⟨S1048576x32, .f32⟩ : BufTy).Contents (Elt F) :=
  broadcastInDim S1048576x32 ![0, 1] bcast_S1048576x1_S1048576x32_0_1 (stg_main_v14 (F := F) x1 x2)
def stg_main_v16 (x0 : (⟨S16x65536x32, .f32⟩ : BufTy).Contents (Elt F)) (x1 : (⟨S16x65536, .i32⟩ : BufTy).Contents (Elt F)) (x2 : (⟨S16x65536, .i1⟩ : BufTy).Contents (Elt F)) : (⟨S1048576x32, .f32⟩ : BufTy).Contents (Elt F) :=
  mulf (stg_main_v13 (F := F) x0) (stg_main_v15 (F := F) x1 x2)
def stg_main_cst : (⟨S_, .f32⟩ : BufTy).Contents (Elt F) :=
  constant S_ .f32 0x00000000#32
def stg_main_v17 : (⟨S1025x32, .f32⟩ : BufTy).Contents (Elt F) :=
  broadcastInDim S1025x32 ![] bcast_S_S1025x32 (stg_main_cst (F := F))
def stg_main_v18 (x1 : (⟨S16x65536, .i32⟩ : BufTy).Contents (Elt F)) (x2 : (⟨S16x65536, .i1⟩ : BufTy).Contents (Elt F)) : (⟨S1048576x1, .i32⟩ : BufTy).Contents (Elt F) :=
  broadcastInDim S1048576x1 ![0] bcast_S1048576_S1048576x1_0 (stg_main_v10 (F := F) x1 x2)
def stg_main_v19 (x0 : (⟨S16x65536x32, .f32⟩ : BufTy).Contents (Elt F)) (x1 : (⟨S16x65536, .i32⟩ : BufTy).Contents (Elt F)) (x2 : (⟨S16x65536, .i1⟩ : BufTy).Contents (Elt F)) : (⟨S1025x32, .f32⟩ : BufTy).Contents (Elt F) :=
  Host.scatterAdd scatter_S1025x32_S1048576x1_S1048576x32_1_0_0_1 (stg_main_v17 (F := F)) (stg_main_v18 (F := F) x1 x2) (stg_main_v16 (F := F) x0 x1 x2)
def stg_main_v20 (x0 : (⟨S16x65536x32, .f32⟩ : BufTy).Contents (Elt F)) (x1 : (⟨S16x65536, .i32⟩ : BufTy).Contents (Elt F)) (x2 : (⟨S16x65536, .i1⟩ : BufTy).Contents (Elt F)) : (⟨S1024x32, .f32⟩ : BufTy).Contents (Elt F) :=
  extractStridedSlice S1024x32 ![0, 0] (stg_main_v19 (F := F) x0 x1 x2) slices_S1025x32_S1024x32_0_0
def stg_main_cst_2 : (⟨S_, .f32⟩ : BufTy).Contents (Elt F) :=
  constant S_ .f32 0x00000000#32
def stg_main_v21 : (⟨S1025, .f32⟩ : BufTy).Contents (Elt F) :=
  broadcastInDim S1025 ![] bcast_S_S1025 (stg_main_cst_2 (F := F))
def stg_main_v22 (x1 : (⟨S16x65536, .i32⟩ : BufTy).Contents (Elt F)) (x2 : (⟨S16x65536, .i1⟩ : BufTy).Contents (Elt F)) : (⟨S1048576x1, .i32⟩ : BufTy).Contents (Elt F) :=
  broadcastInDim S1048576x1 ![0] bcast_S1048576_S1048576x1_0 (stg_main_v10 (F := F) x1 x2)
def stg_main_v23 (x1 : (⟨S16x65536, .i32⟩ : BufTy).Contents (Elt F)) (x2 : (⟨S16x65536, .i1⟩ : BufTy).Contents (Elt F)) : (⟨S1025, .f32⟩ : BufTy).Contents (Elt F) :=
  Host.scatterAdd scatter_S1025_S1048576x1_S1048576_n_0_0_1 (stg_main_v21 (F := F)) (stg_main_v22 (F := F) x1 x2) (stg_main_v12 (F := F) x1 x2)
def stg_main_v24 (x1 : (⟨S16x65536, .i32⟩ : BufTy).Contents (Elt F)) (x2 : (⟨S16x65536, .i1⟩ : BufTy).Contents (Elt F)) : (⟨S1024, .f32⟩ : BufTy).Contents (Elt F) :=
  extractStridedSlice S1024 ![0] (stg_main_v23 (F := F) x1 x2) slices_S1025_S1024_0
def stg_main_cst_3 : (⟨S_, .f32⟩ : BufTy).Contents (Elt F) :=
  constant S_ .f32 0x3F800000#32
def stg_main_v25 : (⟨S1024, .f32⟩ : BufTy).Contents (Elt F) :=
  broadcastInDim S1024 ![] bcast_S_S1024 (stg_main_cst_3 (F := F))
def stg_main_v26 (x1 : (⟨S16x65536, .i32⟩ : BufTy).Contents (Elt F)) (x2 : (⟨S16x65536, .i1⟩ : BufTy).Contents (Elt F)) : (⟨S1024, .f32⟩ : BufTy).Contents (Elt F) :=
  maximumf (stg_main_v24 (F := F) x1 x2) (stg_main_v25 (F := F))
def stg_main_v27 (x1 : (⟨S16x65536, .i32⟩ : BufTy).Contents (Elt F)) (x2 : (⟨S16x65536, .i1⟩ : BufTy).Contents (Elt F)) : (⟨S1024x1, .f32⟩ : BufTy).Contents (Elt F) :=
  broadcastInDim S1024x1 ![0] bcast_S1024_S1024x1_0 (stg_main_v26 (F := F) x1 x2)
def stg_main_v28 (x1 : (⟨S16x65536, .i32⟩ : BufTy).Contents (Elt F)) (x2 : (⟨S16x65536, .i1⟩ : BufTy).Contents (Elt F)) : (⟨S1024x32, .f32⟩ : BufTy).Contents (Elt F) :=
  broadcastInDim S1024x32 ![0, 1] bcast_S1024x1_S1024x32_0_1 (stg_main_v27 (F := F) x1 x2)
def stg_main_v29 (x0 : (⟨S16x65536x32, .f32⟩ : BufTy).Contents (Elt F)) (x1 : (⟨S16x65536, .i32⟩ : BufTy).Contents (Elt F)) (x2 : (⟨S16x65536, .i1⟩ : BufTy).Contents (Elt F)) : (⟨S1024x32, .f32⟩ : BufTy).Contents (Elt F) :=
  Host.divf (stg_main_v20 (F := F) x0 x1 x2) (stg_main_v28 (F := F) x1 x2)
def stg_main_cst_4 : (⟨S_, .f32⟩ : BufTy).Contents (Elt F) :=
  constant S_ .f32 0x00000000#32
def stg_main_v30 : (⟨S1024, .f32⟩ : BufTy).Contents (Elt F) :=
  broadcastInDim S1024 ![] bcast_S_S1024 (stg_main_cst_4 (F := F))
def stg_main_v31 (x1 : (⟨S16x65536, .i32⟩ : BufTy).Contents (Elt F)) (x2 : (⟨S16x65536, .i1⟩ : BufTy).Contents (Elt F)) : (⟨S1024, .i1⟩ : BufTy).Contents (Elt F) :=
  cmpf (F := F) .ogt (stg_main_v24 (F := F) x1 x2) (stg_main_v30 (F := F))
def stg_main_v32 (x1 : (⟨S16x65536, .i32⟩ : BufTy).Contents (Elt F)) (x2 : (⟨S16x65536, .i1⟩ : BufTy).Contents (Elt F)) : (⟨S16x64, .i1⟩ : BufTy).Contents (Elt F) :=
  shapeCast _ (stg_main_v31 (F := F) x1 x2) shapeCasts_S1024_S16x64
def stg_main_v33 (x1 : (⟨S16x65536, .i32⟩ : BufTy).Contents (Elt F)) (x2 : (⟨S16x65536, .i1⟩ : BufTy).Contents (Elt F)) : (⟨S16x64, .i32⟩ : BufTy).Contents (Elt F) :=
  extui 32 (stg_main_v32 (F := F) x1 x2) natLt_1_32
def stg_main_c_5 : (⟨S_, .i32⟩ : BufTy).Contents (Elt F) :=
  constantI S_ 32 0#32
def stg_main_v34 (x1 : (⟨S16x65536, .i32⟩ : BufTy).Contents (Elt F)) (x2 : (⟨S16x65536, .i1⟩ : BufTy).Contents (Elt F)) : (⟨S16, .i32⟩ : BufTy).Contents (Elt F) :=
  Host.reduce IntOp.addi (stg_main_v33 (F := F) x1 x2) (stg_main_c_5 (F := F)) reducesTo_S16x64_S16_d1 h_S_
def stg_main_v35 (x1 : (⟨S16x65536, .i32⟩ : BufTy).Contents (Elt F)) (x2 : (⟨S16x65536, .i1⟩ : BufTy).Contents (Elt F)) : (⟨S16, .f32⟩ : BufTy).Contents (Elt F) :=
  sitofp (F := F) .f32 (stg_main_v34 (F := F) x1 x2)
def stg_main_cst_6 : (⟨S_, .f32⟩ : BufTy).Contents (Elt F) :=
  constant S_ .f32 0x40000000#32
def stg_main_v36 : (⟨S16, .f32⟩ : BufTy).Contents (Elt F) :=
  broadcastInDim S16 ![] bcast_S_S16 (stg_main_cst_6 (F := F))
def stg_main_v37 (x1 : (⟨S16x65536, .i32⟩ : BufTy).Contents (Elt F)) (x2 : (⟨S16x65536, .i1⟩ : BufTy).Contents (Elt F)) : (⟨S16, .i1⟩ : BufTy).Contents (Elt F) :=
  cmpf (F := F) .oge (stg_main_v35 (F := F) x1 x2) (stg_main_v36 (F := F))
def stg_main_v38 (x1 : (⟨S16x65536, .i32⟩ : BufTy).Contents (Elt F)) (x2 : (⟨S16x65536, .i1⟩ : BufTy).Contents (Elt F)) : (⟨S16, .f32⟩ : BufTy).Contents (Elt F) :=
  uitofp (F := F) .f32 (stg_main_v37 (F := F) x1 x2)
def stg_main_c_7 : (⟨S_, .i32⟩ : BufTy).Contents (Elt F) :=
  constantI S_ 32 1023#32
def stg_main_v39 : (⟨S1048576, .i32⟩ : BufTy).Contents (Elt F) :=
  broadcastInDim S1048576 ![] bcast_S_S1048576 (stg_main_c_7 (F := F))
def stg_main_v40 (x1 : (⟨S16x65536, .i32⟩ : BufTy).Contents (Elt F)) (x2 : (⟨S16x65536, .i1⟩ : BufTy).Contents (Elt F)) : (⟨S1048576, .i32⟩ : BufTy).Contents (Elt F) :=
  minsi (stg_main_v10 (F := F) x1 x2) (stg_main_v39 (F := F))
def stg_main_c_8 : (⟨S_, .i32⟩ : BufTy).Contents (Elt F) :=
  constantI S_ 32 0#32
def stg_main_v41 : (⟨S1048576, .i32⟩ : BufTy).Contents (Elt F) :=
  broadcastInDim S1048576 ![] bcast_S_S1048576 (stg_main_c_8 (F := F))
def stg_main_v42 (x1 : (⟨S16x65536, .i32⟩ : BufTy).Contents (Elt F)) (x2 : (⟨S16x65536, .i1⟩ : BufTy).Contents (Elt F)) : (⟨S1048576, .i1⟩ : BufTy).Contents (Elt F) :=
  cmpi .slt (stg_main_v40 (F := F) x1 x2) (stg_main_v41 (F := F))
def stg_main_c_9 : (⟨S_, .i32⟩ : BufTy).Contents (Elt F) :=
  constantI S_ 32 1024#32
def stg_main_v43 : (⟨S1048576, .i32⟩ : BufTy).Contents (Elt F) :=
  broadcastInDim S1048576 ![] bcast_S_S1048576 (stg_main_c_9 (F := F))
def stg_main_v44 (x1 : (⟨S16x65536, .i32⟩ : BufTy).Contents (Elt F)) (x2 : (⟨S16x65536, .i1⟩ : BufTy).Contents (Elt F)) : (⟨S1048576, .i32⟩ : BufTy).Contents (Elt F) :=
  addi (stg_main_v40 (F := F) x1 x2) (stg_main_v43 (F := F))
def stg_main_v45 (x1 : (⟨S16x65536, .i32⟩ : BufTy).Contents (Elt F)) (x2 : (⟨S16x65536, .i1⟩ : BufTy).Contents (Elt F)) : (⟨S1048576, .i32⟩ : BufTy).Contents (Elt F) :=
  select (stg_main_v42 (F := F) x1 x2) (stg_main_v44 (F := F) x1 x2) (stg_main_v40 (F := F) x1 x2)
def stg_main_v46 (x1 : (⟨S16x65536, .i32⟩ : BufTy).Contents (Elt F)) (x2 : (⟨S16x65536, .i1⟩ : BufTy).Contents (Elt F)) : (⟨S1048576x1, .i32⟩ : BufTy).Contents (Elt F) :=
  broadcastInDim S1048576x1 ![0] bcast_S1048576_S1048576x1_0 (stg_main_v45 (F := F) x1 x2)
def stg_main_v47 (x0 : (⟨S16x65536x32, .f32⟩ : BufTy).Contents (Elt F)) (x1 : (⟨S16x65536, .i32⟩ : BufTy).Contents (Elt F)) (x2 : (⟨S16x65536, .i1⟩ : BufTy).Contents (Elt F)) : (⟨S1048576x32, .f32⟩ : BufTy).Contents (Elt F) :=
  Host.gather gather_S1024x32_S1048576x1_S1048576x32_1_0_n_n_0_1_132 (stg_main_v29 (F := F) x0 x1 x2) (stg_main_v46 (F := F) x1 x2)
def stg_main_v48 (x0 : (⟨S16x65536x32, .f32⟩ : BufTy).Contents (Elt F)) (x1 : (⟨S16x65536, .i32⟩ : BufTy).Contents (Elt F)) (x2 : (⟨S16x65536, .i1⟩ : BufTy).Contents (Elt F)) : (⟨S1048576x32, .f32⟩ : BufTy).Contents (Elt F) :=
  subf (stg_main_v13 (F := F) x0) (stg_main_v47 (F := F) x0 x1 x2)
def stg_main_v49 (x0 : (⟨S16x65536x32, .f32⟩ : BufTy).Contents (Elt F)) (x1 : (⟨S16x65536, .i32⟩ : BufTy).Contents (Elt F)) (x2 : (⟨S16x65536, .i1⟩ : BufTy).Contents (Elt F)) : (⟨S1048576x32, .f32⟩ : BufTy).Contents (Elt F) :=
  mulf (stg_main_v48 (F := F) x0 x1 x2) (stg_main_v48 (F := F) x0 x1 x2)
def stg_main_cst_10 : (⟨S_, .f32⟩ : BufTy).Contents (Elt F) :=
  constant S_ .f32 0x00000000#32
def stg_main_v50 (x0 : (⟨S16x65536x32, .f32⟩ : BufTy).Contents (Elt F)) (x1 : (⟨S16x65536, .i32⟩ : BufTy).Contents (Elt F)) (x2 : (⟨S16x65536, .i1⟩ : BufTy).Contents (Elt F)) : (⟨S1048576, .f32⟩ : BufTy).Contents (Elt F) :=
  Host.reduceAdd (stg_main_v49 (F := F) x0 x1 x2) (stg_main_cst_10 (F := F)) reducesTo_S1048576x32_S1048576_d1 h_S_
def stg_main_cst_11 : (⟨S_, .f32⟩ : BufTy).Contents (Elt F) :=
  constant S_ .f32 0x00000000#32
def stg_main_v51 : (⟨S1048576, .f32⟩ : BufTy).Contents (Elt F) :=
  broadcastInDim S1048576 ![] bcast_S_S1048576 (stg_main_cst_11 (F := F))
def stg_main_v52 (x0 : (⟨S16x65536x32, .f32⟩ : BufTy).Contents (Elt F)) (x1 : (⟨S16x65536, .i32⟩ : BufTy).Contents (Elt F)) (x2 : (⟨S16x65536, .i1⟩ : BufTy).Contents (Elt F)) : (⟨S1048576, .i1⟩ : BufTy).Contents (Elt F) :=
  cmpf (F := F) .ogt (stg_main_v50 (F := F) x0 x1 x2) (stg_main_v51 (F := F))
def stg_main_cst_12 : (⟨S_, .f32⟩ : BufTy).Contents (Elt F) :=
  constant S_ .f32 0x3F800000#32
def stg_main_call1_v0 : (⟨S_, .f32⟩ : BufTy).Contents (Elt F) :=
  id (stg_main_cst_12 (F := F))
def stg_main_call1_v1 : (⟨S1048576, .f32⟩ : BufTy).Contents (Elt F) :=
  broadcastInDim S1048576 ![] bcast_S_S1048576 (stg_main_call1_v0 (F := F))
def stg_main_v53 (x0 : (⟨S16x65536x32, .f32⟩ : BufTy).Contents (Elt F)) (x1 : (⟨S16x65536, .i32⟩ : BufTy).Contents (Elt F)) (x2 : (⟨S16x65536, .i1⟩ : BufTy).Contents (Elt F)) : (⟨S1048576, .f32⟩ : BufTy).Contents (Elt F) :=
  select (stg_main_v52 (F := F) x0 x1 x2) (stg_main_v50 (F := F) x0 x1 x2) (stg_main_call1_v1 (F := F))
def stg_main_v54 (x0 : (⟨S16x65536x32, .f32⟩ : BufTy).Contents (Elt F)) (x1 : (⟨S16x65536, .i32⟩ : BufTy).Contents (Elt F)) (x2 : (⟨S16x65536, .i1⟩ : BufTy).Contents (Elt F)) : (⟨S1048576, .f32⟩ : BufTy).Contents (Elt F) :=
  Host.sqrt (stg_main_v53 (F := F) x0 x1 x2)
def stg_main_v55 (x0 : (⟨S16x65536x32, .f32⟩ : BufTy).Contents (Elt F)) (x1 : (⟨S16x65536, .i32⟩ : BufTy).Contents (Elt F)) (x2 : (⟨S16x65536, .i1⟩ : BufTy).Contents (Elt F)) : (⟨S1048576, .f32⟩ : BufTy).Contents (Elt F) :=
  uitofp (F := F) .f32 (stg_main_v52 (F := F) x0 x1 x2)
def stg_main_v56 (x0 : (⟨S16x65536x32, .f32⟩ : BufTy).Contents (Elt F)) (x1 : (⟨S16x65536, .i32⟩ : BufTy).Contents (Elt F)) (x2 : (⟨S16x65536, .i1⟩ : BufTy).Contents (Elt F)) : (⟨S1048576, .f32⟩ : BufTy).Contents (Elt F) :=
  mulf (stg_main_v54 (F := F) x0 x1 x2) (stg_main_v55 (F := F) x0 x1 x2)
def stg_main_cst_13 : (⟨S_, .f32⟩ : BufTy).Contents (Elt F) :=
  constant S_ .f32 0x3F000000#32
def stg_main_v57 : (⟨S1048576, .f32⟩ : BufTy).Contents (Elt F) :=
  broadcastInDim S1048576 ![] bcast_S_S1048576 (stg_main_cst_13 (F := F))
def stg_main_v58 (x0 : (⟨S16x65536x32, .f32⟩ : BufTy).Contents (Elt F)) (x1 : (⟨S16x65536, .i32⟩ : BufTy).Contents (Elt F)) (x2 : (⟨S16x65536, .i1⟩ : BufTy).Contents (Elt F)) : (⟨S1048576, .f32⟩ : BufTy).Contents (Elt F) :=
  subf (stg_main_v56 (F := F) x0 x1 x2) (stg_main_v57 (F := F))
def stg_main_cst_14 : (⟨S_, .f32⟩ : BufTy).Contents (Elt F) :=
  constant S_ .f32 0x00000000#32
def stg_main_v59 : (⟨S1048576, .f32⟩ : BufTy).Contents (Elt F) :=
  broadcastInDim S1048576 ![] bcast_S_S1048576 (stg_main_cst_14 (F := F))
def stg_main_v60 (x0 : (⟨S16x65536x32, .f32⟩ : BufTy).Contents (Elt F)) (x1 : (⟨S16x65536, .i32⟩ : BufTy).Contents (Elt F)) (x2 : (⟨S16x65536, .i1⟩ : BufTy).Contents (Elt F)) : (⟨S1048576, .f32⟩ : BufTy).Contents (Elt F) :=
  maximumf (stg_main_v58 (F := F) x0 x1 x2) (stg_main_v59 (F := F))
def stg_main_v61 (x0 : (⟨S16x65536x32, .f32⟩ : BufTy).Contents (Elt F)) (x1 : (⟨S16x65536, .i32⟩ : BufTy).Contents (Elt F)) (x2 : (⟨S16x65536, .i1⟩ : BufTy).Contents (Elt F)) : (⟨S1048576, .f32⟩ : BufTy).Contents (Elt F) :=
  mulf (stg_main_v60 (F := F) x0 x1 x2) (stg_main_v60 (F := F) x0 x1 x2)
def stg_main_v62 (x0 : (⟨S16x65536x32, .f32⟩ : BufTy).Contents (Elt F)) (x1 : (⟨S16x65536, .i32⟩ : BufTy).Contents (Elt F)) (x2 : (⟨S16x65536, .i1⟩ : BufTy).Contents (Elt F)) : (⟨S1048576, .f32⟩ : BufTy).Contents (Elt F) :=
  mulf (stg_main_v61 (F := F) x0 x1 x2) (stg_main_v12 (F := F) x1 x2)
def stg_main_cst_15 : (⟨S_, .f32⟩ : BufTy).Contents (Elt F) :=
  constant S_ .f32 0x00000000#32
def stg_main_v63 : (⟨S1025, .f32⟩ : BufTy).Contents (Elt F) :=
  broadcastInDim S1025 ![] bcast_S_S1025 (stg_main_cst_15 (F := F))
def stg_main_v64 (x1 : (⟨S16x65536, .i32⟩ : BufTy).Contents (Elt F)) (x2 : (⟨S16x65536, .i1⟩ : BufTy).Contents (Elt F)) : (⟨S1048576x1, .i32⟩ : BufTy).Contents (Elt F) :=
  broadcastInDim S1048576x1 ![0] bcast_S1048576_S1048576x1_0 (stg_main_v10 (F := F) x1 x2)
def stg_main_v65 (x0 : (⟨S16x65536x32, .f32⟩ : BufTy).Contents (Elt F)) (x1 : (⟨S16x65536, .i32⟩ : BufTy).Contents (Elt F)) (x2 : (⟨S16x65536, .i1⟩ : BufTy).Contents (Elt F)) : (⟨S1025, .f32⟩ : BufTy).Contents (Elt F) :=
  Host.scatterAdd scatter_S1025_S1048576x1_S1048576_n_0_0_1 (stg_main_v63 (F := F)) (stg_main_v64 (F := F) x1 x2) (stg_main_v62 (F := F) x0 x1 x2)
def stg_main_v66 (x0 : (⟨S16x65536x32, .f32⟩ : BufTy).Contents (Elt F)) (x1 : (⟨S16x65536, .i32⟩ : BufTy).Contents (Elt F)) (x2 : (⟨S16x65536, .i1⟩ : BufTy).Contents (Elt F)) : (⟨S1024, .f32⟩ : BufTy).Contents (Elt F) :=
  extractStridedSlice S1024 ![0] (stg_main_v65 (F := F) x0 x1 x2) slices_S1025_S1024_0
def stg_main_cst_16 : (⟨S_, .f32⟩ : BufTy).Contents (Elt F) :=
  constant S_ .f32 0x3F800000#32
def stg_main_v67 : (⟨S1024, .f32⟩ : BufTy).Contents (Elt F) :=
  broadcastInDim S1024 ![] bcast_S_S1024 (stg_main_cst_16 (F := F))
def stg_main_v68 (x1 : (⟨S16x65536, .i32⟩ : BufTy).Contents (Elt F)) (x2 : (⟨S16x65536, .i1⟩ : BufTy).Contents (Elt F)) : (⟨S1024, .f32⟩ : BufTy).Contents (Elt F) :=
  maximumf (stg_main_v24 (F := F) x1 x2) (stg_main_v67 (F := F))
def stg_main_v69 (x0 : (⟨S16x65536x32, .f32⟩ : BufTy).Contents (Elt F)) (x1 : (⟨S16x65536, .i32⟩ : BufTy).Contents (Elt F)) (x2 : (⟨S16x65536, .i1⟩ : BufTy).Contents (Elt F)) : (⟨S1024, .f32⟩ : BufTy).Contents (Elt F) :=
  Host.divf (stg_main_v66 (F := F) x0 x1 x2) (stg_main_v68 (F := F) x1 x2)
def stg_main_v70 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64, .f32⟩ : BufTy).Contents (Elt F) :=
  shapeCast _ (stg_main_v69 (F := F) x0 x1 x2) shapeCasts_S1024_S16x64
def stg_main_v71 (x1 : (⟨S16x65536, .i32⟩ : BufTy).Contents (Elt F)) (x2 : (⟨S16x65536, .i1⟩ : BufTy).Contents (Elt F)) : (⟨S16x64, .f32⟩ : BufTy).Contents (Elt F) :=
  uitofp (F := F) .f32 (stg_main_v32 (F := F) x1 x2)
def stg_main_v72 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64, .f32⟩ : BufTy).Contents (Elt F) :=
  mulf (stg_main_v70 (F := F) x0 x1 x2) (stg_main_v71 (F := F) x1 x2)
def stg_main_cst_17 : (⟨S_, .f32⟩ : BufTy).Contents (Elt F) :=
  constant S_ .f32 0x00000000#32
def stg_main_v73 (x0 : (⟨S16x65536x32, .f32⟩ : BufTy).Contents (Elt F)) (x1 : (⟨S16x65536, .i32⟩ : BufTy).Contents (Elt F)) (x2 : (⟨S16x65536, .i1⟩ : BufTy).Contents (Elt F)) : (⟨S16, .f32⟩ : BufTy).Contents (Elt F) :=
  Host.reduceAdd (stg_main_v72 (F := F) x0 x1 x2) (stg_main_cst_17 (F := F)) reducesTo_S16x64_S16_d1 h_S_
def stg_main_cst_18 : (⟨S_, .f32⟩ : BufTy).Contents (Elt F) :=
  constant S_ .f32 0x3F800000#32
def stg_main_v74 : (⟨S16, .f32⟩ : BufTy).Contents (Elt F) :=
  broadcastInDim S16 ![] bcast_S_S16 (stg_main_cst_18 (F := F))
def stg_main_v75 (x1 : (⟨S16x65536, .i32⟩ : BufTy).Contents (Elt F)) (x2 : (⟨S16x65536, .i1⟩ : BufTy).Contents (Elt F)) : (⟨S16, .f32⟩ : BufTy).Contents (Elt F) :=
  maximumf (stg_main_v35 (F := F) x1 x2) (stg_main_v74 (F := F))
def stg_main_v76 (x0 : (⟨S16x65536x32, .f32⟩ : BufTy).Contents (Elt F)) (x1 : (⟨S16x65536, .i32⟩ : BufTy).Contents (Elt F)) (x2 : (⟨S16x65536, .i1⟩ : BufTy).Contents (Elt F)) : (⟨S16, .f32⟩ : BufTy).Contents (Elt F) :=
  Host.divf (stg_main_v73 (F := F) x0 x1 x2) (stg_main_v75 (F := F) x1 x2)
def stg_main_v77 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64x32, .f32⟩ : BufTy).Contents (Elt F) :=
  shapeCast _ (stg_main_v29 (F := F) x0 x1 x2) shapeCasts_S1024x32_S16x64x32
def stg_main_v78 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64x1x32, .f32⟩ : BufTy).Contents (Elt F) :=
  broadcastInDim S16x64x1x32 ![0, 1, 3] bcast_S16x64x32_S16x64x1x32_0_1_3 (stg_main_v77 (F := F) x0 x1 x2)
def stg_main_v79 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x1x64x32, .f32⟩ : BufTy).Contents (Elt F) :=
  broadcastInDim S16x1x64x32 ![0, 2, 3] bcast_S16x64x32_S16x1x64x32_0_2_3 (stg_main_v77 (F := F) x0 x1 x2)
def stg_main_v80 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64x64x32, .f32⟩ : BufTy).Contents (Elt F) :=
  broadcastInDim S16x64x64x32 ![0, 1, 2, 3] bcast_S16x64x1x32_S16x64x64x32_0_1_2_3 (stg_main_v78 (F := F) x0 x1 x2)
def stg_main_v81 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64x64x32, .f32⟩ : BufTy).Contents (Elt F) :=
  broadcastInDim S16x64x64x32 ![0, 1, 2, 3] bcast_S16x1x64x32_S16x64x64x32_0_1_2_3 (stg_main_v79 (F := F) x0 x1 x2)
def stg_main_v82 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64x64x32, .f32⟩ : BufTy).Contents (Elt F) :=
  subf (stg_main_v80 (F := F) x0 x1 x2) (stg_main_v81 (F := F) x0 x1 x2)
def stg_main_v83 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64x64x32, .f32⟩ : BufTy).Contents (Elt F) :=
  mulf (stg_main_v82 (F := F) x0 x1 x2) (stg_main_v82 (F := F) x0 x1 x2)
def stg_main_cst_19 : (⟨S_, .f32⟩ : BufTy).Contents (Elt F) :=
  constant S_ .f32 0x00000000#32
def stg_main_v84 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64x64, .f32⟩ : BufTy).Contents (Elt F) :=
  Host.reduceAdd (stg_main_v83 (F := F) x0 x1 x2) (stg_main_cst_19 (F := F)) reducesTo_S16x64x64x32_S16x64x64_d3 h_S_
def stg_main_v85 : (⟨S64, .i32⟩ : BufTy).Contents (Elt F) :=
  iotaInDim S64 32 0
def stg_main_v86 (x1 : (⟨S16x65536, .i32⟩ : BufTy).Contents (Elt F)) (x2 : (⟨S16x65536, .i1⟩ : BufTy).Contents (Elt F)) : (⟨S16x64x1, .i1⟩ : BufTy).Contents (Elt F) :=
  broadcastInDim S16x64x1 ![0, 1] bcast_S16x64_S16x64x1_0_1 (stg_main_v32 (F := F) x1 x2)
def stg_main_v87 (x1 : (⟨S16x65536, .i32⟩ : BufTy).Contents (Elt F)) (x2 : (⟨S16x65536, .i1⟩ : BufTy).Contents (Elt F)) : (⟨S16x1x64, .i1⟩ : BufTy).Contents (Elt F) :=
  broadcastInDim S16x1x64 ![0, 2] bcast_S16x64_S16x1x64_0_2 (stg_main_v32 (F := F) x1 x2)
def stg_main_v88 (x1 : (⟨S16x65536, .i32⟩ : BufTy).Contents (Elt F)) (x2 : (⟨S16x65536, .i1⟩ : BufTy).Contents (Elt F)) : (⟨S16x64x64, .i1⟩ : BufTy).Contents (Elt F) :=
  broadcastInDim S16x64x64 ![0, 1, 2] bcast_S16x64x1_S16x64x64_0_1_2 (stg_main_v86 (F := F) x1 x2)
def stg_main_v89 (x1 : (⟨S16x65536, .i32⟩ : BufTy).Contents (Elt F)) (x2 : (⟨S16x65536, .i1⟩ : BufTy).Contents (Elt F)) : (⟨S16x64x64, .i1⟩ : BufTy).Contents (Elt F) :=
  broadcastInDim S16x64x64 ![0, 1, 2] bcast_S16x1x64_S16x64x64_0_1_2 (stg_main_v87 (F := F) x1 x2)
def stg_main_v90 (x1 : (⟨S16x65536, .i32⟩ : BufTy).Contents (Elt F)) (x2 : (⟨S16x65536, .i1⟩ : BufTy).Contents (Elt F)) : (⟨S16x64x64, .i1⟩ : BufTy).Contents (Elt F) :=
  andi (stg_main_v88 (F := F) x1 x2) (stg_main_v89 (F := F) x1 x2)
def stg_main_v91 : (⟨S64x1, .i32⟩ : BufTy).Contents (Elt F) :=
  broadcastInDim S64x1 ![0] bcast_S64_S64x1_0 (stg_main_v85 (F := F))
def stg_main_v92 : (⟨S1x64, .i32⟩ : BufTy).Contents (Elt F) :=
  broadcastInDim S1x64 ![1] bcast_S64_S1x64_1 (stg_main_v85 (F := F))
def stg_main_v93 : (⟨S64x64, .i32⟩ : BufTy).Contents (Elt F) :=
  broadcastInDim S64x64 ![0, 1] bcast_S64x1_S64x64_0_1 (stg_main_v91 (F := F))
def stg_main_v94 : (⟨S64x64, .i32⟩ : BufTy).Contents (Elt F) :=
  broadcastInDim S64x64 ![0, 1] bcast_S1x64_S64x64_0_1 (stg_main_v92 (F := F))
def stg_main_v95 : (⟨S64x64, .i1⟩ : BufTy).Contents (Elt F) :=
  cmpi .slt (stg_main_v93 (F := F)) (stg_main_v94 (F := F))
def stg_main_v96 : (⟨S1x64x64, .i1⟩ : BufTy).Contents (Elt F) :=
  broadcastInDim S1x64x64 ![1, 2] bcast_S64x64_S1x64x64_1_2 (stg_main_v95 (F := F))
def stg_main_v97 : (⟨S16x64x64, .i1⟩ : BufTy).Contents (Elt F) :=
  broadcastInDim S16x64x64 ![0, 1, 2] bcast_S1x64x64_S16x64x64_0_1_2 (stg_main_v96 (F := F))
def stg_main_v98 (x1 : (⟨S16x65536, .i32⟩ : BufTy).Contents (Elt F)) (x2 : (⟨S16x65536, .i1⟩ : BufTy).Contents (Elt F)) : (⟨S16x64x64, .i1⟩ : BufTy).Contents (Elt F) :=
  andi (stg_main_v90 (F := F) x1 x2) (stg_main_v97 (F := F))
def stg_main_v99 (x1 : (⟨S16x65536, .i32⟩ : BufTy).Contents (Elt F)) (x2 : (⟨S16x65536, .i1⟩ : BufTy).Contents (Elt F)) : (⟨S16x64x64, .f32⟩ : BufTy).Contents (Elt F) :=
  uitofp (F := F) .f32 (stg_main_v98 (F := F) x1 x2)
def stg_main_cst_20 : (⟨S_, .f32⟩ : BufTy).Contents (Elt F) :=
  constant S_ .f32 0x3F800000#32
def stg_main_call2_v0 : (⟨S_, .f32⟩ : BufTy).Contents (Elt F) :=
  id (stg_main_cst_20 (F := F))
def stg_main_call2_v1 : (⟨S16x64x64, .f32⟩ : BufTy).Contents (Elt F) :=
  broadcastInDim S16x64x64 ![] bcast_S_S16x64x64 (stg_main_call2_v0 (F := F))
def stg_main_v100 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64x64, .f32⟩ : BufTy).Contents (Elt F) :=
  select (stg_main_v98 (F := F) x1 x2) (stg_main_v84 (F := F) x0 x1 x2) (stg_main_call2_v1 (F := F))
def stg_main_cst_21 : (⟨S_, .f32⟩ : BufTy).Contents (Elt F) :=
  constant S_ .f32 0x00000000#32
def stg_main_v101 : (⟨S16x64x64, .f32⟩ : BufTy).Contents (Elt F) :=
  broadcastInDim S16x64x64 ![] bcast_S_S16x64x64 (stg_main_cst_21 (F := F))
def stg_main_v102 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64x64, .i1⟩ : BufTy).Contents (Elt F) :=
  cmpf (F := F) .ogt (stg_main_v100 (F := F) x0 x1 x2) (stg_main_v101 (F := F))
def stg_main_cst_22 : (⟨S_, .f32⟩ : BufTy).Contents (Elt F) :=
  constant S_ .f32 0x3F800000#32
def stg_main_call3_v0 : (⟨S_, .f32⟩ : BufTy).Contents (Elt F) :=
  id (stg_main_cst_22 (F := F))
def stg_main_call3_v1 : (⟨S16x64x64, .f32⟩ : BufTy).Contents (Elt F) :=
  broadcastInDim S16x64x64 ![] bcast_S_S16x64x64 (stg_main_call3_v0 (F := F))
def stg_main_v103 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64x64, .f32⟩ : BufTy).Contents (Elt F) :=
  select (stg_main_v102 (F := F) x0 x1 x2) (stg_main_v100 (F := F) x0 x1 x2) (stg_main_call3_v1 (F := F))
def stg_main_v104 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64x64, .f32⟩ : BufTy).Contents (Elt F) :=
  Host.sqrt (stg_main_v103 (F := F) x0 x1 x2)
def stg_main_v105 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64x64, .f32⟩ : BufTy).Contents (Elt F) :=
  uitofp (F := F) .f32 (stg_main_v102 (F := F) x0 x1 x2)
def stg_main_v106 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64x64, .f32⟩ : BufTy).Contents (Elt F) :=
  mulf (stg_main_v104 (F := F) x0 x1 x2) (stg_main_v105 (F := F) x0 x1 x2)
def stg_main_v107 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64x64, .f32⟩ : BufTy).Contents (Elt F) :=
  mulf (stg_main_v106 (F := F) x0 x1 x2) (stg_main_v99 (F := F) x1 x2)
def stg_main_cst_23 : (⟨S_, .f32⟩ : BufTy).Contents (Elt F) :=
  constant S_ .f32 0x40400000#32
def stg_main_v108 : (⟨S16x64x64, .f32⟩ : BufTy).Contents (Elt F) :=
  broadcastInDim S16x64x64 ![] bcast_S_S16x64x64 (stg_main_cst_23 (F := F))
def stg_main_v109 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64x64, .f32⟩ : BufTy).Contents (Elt F) :=
  subf (stg_main_v108 (F := F)) (stg_main_v107 (F := F) x0 x1 x2)
def stg_main_cst_24 : (⟨S_, .f32⟩ : BufTy).Contents (Elt F) :=
  constant S_ .f32 0x00000000#32
def stg_main_v110 : (⟨S16x64x64, .f32⟩ : BufTy).Contents (Elt F) :=
  broadcastInDim S16x64x64 ![] bcast_S_S16x64x64 (stg_main_cst_24 (F := F))
def stg_main_v111 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64x64, .f32⟩ : BufTy).Contents (Elt F) :=
  maximumf (stg_main_v109 (F := F) x0 x1 x2) (stg_main_v110 (F := F))
def stg_main_v112 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64x64, .f32⟩ : BufTy).Contents (Elt F) :=
  mulf (stg_main_v111 (F := F) x0 x1 x2) (stg_main_v111 (F := F) x0 x1 x2)
def stg_main_v113 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64x64, .f32⟩ : BufTy).Contents (Elt F) :=
  mulf (stg_main_v112 (F := F) x0 x1 x2) (stg_main_v99 (F := F) x1 x2)
def stg_main_cst_25 : (⟨S_, .f32⟩ : BufTy).Contents (Elt F) :=
  constant S_ .f32 0x3F800000#32
def stg_main_v114 : (⟨S16, .f32⟩ : BufTy).Contents (Elt F) :=
  broadcastInDim S16 ![] bcast_S_S16 (stg_main_cst_25 (F := F))
def stg_main_v115 (x1 : (⟨S16x65536, .i32⟩ : BufTy).Contents (Elt F)) (x2 : (⟨S16x65536, .i1⟩ : BufTy).Contents (Elt F)) : (⟨S16, .f32⟩ : BufTy).Contents (Elt F) :=
  subf (stg_main_v35 (F := F) x1 x2) (stg_main_v114 (F := F))
def stg_main_v116 (x1 : (⟨S16x65536, .i32⟩ : BufTy).Contents (Elt F)) (x2 : (⟨S16x65536, .i1⟩ : BufTy).Contents (Elt F)) : (⟨S16, .f32⟩ : BufTy).Contents (Elt F) :=
  mulf (stg_main_v35 (F := F) x1 x2) (stg_main_v115 (F := F) x1 x2)
def stg_main_cst_26 : (⟨S_, .f32⟩ : BufTy).Contents (Elt F) :=
  constant S_ .f32 0x40000000#32
def stg_main_v117 : (⟨S16, .f32⟩ : BufTy).Contents (Elt F) :=
  broadcastInDim S16 ![] bcast_S_S16 (stg_main_cst_26 (F := F))
def stg_main_v118 (x1 : (⟨S16x65536, .i32⟩ : BufTy).Contents (Elt F)) (x2 : (⟨S16x65536, .i1⟩ : BufTy).Contents (Elt F)) : (⟨S16, .f32⟩ : BufTy).Contents (Elt F) :=
  Host.divf (stg_main_v116 (F := F) x1 x2) (stg_main_v117 (F := F))
def stg_main_cst_27 : (⟨S_, .f32⟩ : BufTy).Contents (Elt F) :=
  constant S_ .f32 0x00000000#32
def stg_main_v119 (x0 : (⟨S16x65536x32, .f32⟩ : BufTy).Contents (Elt F)) (x1 : (⟨S16x65536, .i32⟩ : BufTy).Contents (Elt F)) (x2 : (⟨S16x65536, .i1⟩ : BufTy).Contents (Elt F)) : (⟨S16, .f32⟩ : BufTy).Contents (Elt F) :=
  Host.reduceAdd (stg_main_v113 (F := F) x0 x1 x2) (stg_main_cst_27 (F := F)) reducesTo_S16x64x64_S16_d1_2 h_S_
def stg_main_cst_28 : (⟨S_, .f32⟩ : BufTy).Contents (Elt F) :=
  constant S_ .f32 0x3F800000#32
def stg_main_v120 : (⟨S16, .f32⟩ : BufTy).Contents (Elt F) :=
  broadcastInDim S16 ![] bcast_S_S16 (stg_main_cst_28 (F := F))
def stg_main_v121 (x1 : (⟨S16x65536, .i32⟩ : BufTy).Contents (Elt F)) (x2 : (⟨S16x65536, .i1⟩ : BufTy).Contents (Elt F)) : (⟨S16, .f32⟩ : BufTy).Contents (Elt F) :=
  maximumf (stg_main_v118 (F := F) x1 x2) (stg_main_v120 (F := F))
def stg_main_v122 (x0 : (⟨S16x65536x32, .f32⟩ : BufTy).Contents (Elt F)) (x1 : (⟨S16x65536, .i32⟩ : BufTy).Contents (Elt F)) (x2 : (⟨S16x65536, .i1⟩ : BufTy).Contents (Elt F)) : (⟨S16, .f32⟩ : BufTy).Contents (Elt F) :=
  Host.divf (stg_main_v119 (F := F) x0 x1 x2) (stg_main_v121 (F := F) x1 x2)
def stg_main_v123 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64x32, .f32⟩ : BufTy).Contents (Elt F) :=
  mulf (stg_main_v77 (F := F) x0 x1 x2) (stg_main_v77 (F := F) x0 x1 x2)
def stg_main_cst_29 : (⟨S_, .f32⟩ : BufTy).Contents (Elt F) :=
  constant S_ .f32 0x00000000#32
def stg_main_v124 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64, .f32⟩ : BufTy).Contents (Elt F) :=
  Host.reduceAdd (stg_main_v123 (F := F) x0 x1 x2) (stg_main_cst_29 (F := F)) reducesTo_S16x64x32_S16x64_d2 h_S_
def stg_main_cst_30 : (⟨S_, .f32⟩ : BufTy).Contents (Elt F) :=
  constant S_ .f32 0x00000000#32
def stg_main_v125 : (⟨S16x64, .f32⟩ : BufTy).Contents (Elt F) :=
  broadcastInDim S16x64 ![] bcast_S_S16x64 (stg_main_cst_30 (F := F))
def stg_main_v126 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64, .i1⟩ : BufTy).Contents (Elt F) :=
  cmpf (F := F) .ogt (stg_main_v124 (F := F) x0 x1 x2) (stg_main_v125 (F := F))
def stg_main_cst_31 : (⟨S_, .f32⟩ : BufTy).Contents (Elt F) :=
  constant S_ .f32 0x3F800000#32
def stg_main_call4_v0 : (⟨S_, .f32⟩ : BufTy).Contents (Elt F) :=
  id (stg_main_cst_31 (F := F))
def stg_main_call4_v1 : (⟨S16x64, .f32⟩ : BufTy).Contents (Elt F) :=
  broadcastInDim S16x64 ![] bcast_S_S16x64 (stg_main_call4_v0 (F := F))
def stg_main_v127 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64, .f32⟩ : BufTy).Contents (Elt F) :=
  select (stg_main_v126 (F := F) x0 x1 x2) (stg_main_v124 (F := F) x0 x1 x2) (stg_main_call4_v1 (F := F))
def stg_main_v128 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64, .f32⟩ : BufTy).Contents (Elt F) :=
  Host.sqrt (stg_main_v127 (F := F) x0 x1 x2)
def stg_main_v129 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64, .f32⟩ : BufTy).Contents (Elt F) :=
  uitofp (F := F) .f32 (stg_main_v126 (F := F) x0 x1 x2)
def stg_main_v130 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64, .f32⟩ : BufTy).Contents (Elt F) :=
  mulf (stg_main_v128 (F := F) x0 x1 x2) (stg_main_v129 (F := F) x0 x1 x2)
def stg_main_v131 (x1 : (⟨S16x65536, .i32⟩ : BufTy).Contents (Elt F)) (x2 : (⟨S16x65536, .i1⟩ : BufTy).Contents (Elt F)) : (⟨S16x64, .f32⟩ : BufTy).Contents (Elt F) :=
  uitofp (F := F) .f32 (stg_main_v32 (F := F) x1 x2)
def stg_main_v132 (x0 : (⟨S16x65536x32, .f32⟩ : BufTy).Contents (Elt F)) (x1 : (⟨S16x65536, .i32⟩ : BufTy).Contents (Elt F)) (x2 : (⟨S16x65536, .i1⟩ : BufTy).Contents (Elt F)) : (⟨S16x64, .f32⟩ : BufTy).Contents (Elt F) :=
  mulf (stg_main_v130 (F := F) x0 x1 x2) (stg_main_v131 (F := F) x1 x2)
def stg_main_cst_32 : (⟨S_, .f32⟩ : BufTy).Contents (Elt F) :=
  constant S_ .f32 0x00000000#32
def stg_main_v133 (x0 : (⟨S16x65536x32, .f32⟩ : BufTy).Contents (Elt F)) (x1 : (⟨S16x65536, .i32⟩ : BufTy).Contents (Elt F)) (x2 : (⟨S16x65536, .i1⟩ : BufTy).Contents (Elt F)) : (⟨S16, .f32⟩ : BufTy).Contents (Elt F) :=
  Host.reduceAdd (stg_main_v132 (F := F) x0 x1 x2) (stg_main_cst_32 (F := F)) reducesTo_S16x64_S16_d1 h_S_
def stg_main_cst_33 : (⟨S_, .f32⟩ : BufTy).Contents (Elt F) :=
  constant S_ .f32 0x3F800000#32
def stg_main_v134 : (⟨S16, .f32⟩ : BufTy).Contents (Elt F) :=
  broadcastInDim S16 ![] bcast_S_S16 (stg_main_cst_33 (F := F))
def stg_main_v135 (x1 : (⟨S16x65536, .i32⟩ : BufTy).Contents (Elt F)) (x2 : (⟨S16x65536, .i1⟩ : BufTy).Contents (Elt F)) : (⟨S16, .f32⟩ : BufTy).Contents (Elt F) :=
  maximumf (stg_main_v35 (F := F) x1 x2) (stg_main_v134 (F := F))
def stg_main_v136 (x0 : (⟨S16x65536x32, .f32⟩ : BufTy).Contents (Elt F)) (x1 : (⟨S16x65536, .i32⟩ : BufTy).Contents (Elt F)) (x2 : (⟨S16x65536, .i1⟩ : BufTy).Contents (Elt F)) : (⟨S16, .f32⟩ : BufTy).Contents (Elt F) :=
  Host.divf (stg_main_v133 (F := F) x0 x1 x2) (stg_main_v135 (F := F) x1 x2)
def stg_main_cst_34 : (⟨S_, .f32⟩ : BufTy).Contents (Elt F) :=
  constant S_ .f32 0x00000000#32
def stg_main_v137 (x1 : (⟨S16x65536, .i32⟩ : BufTy).Contents (Elt F)) (x2 : (⟨S16x65536, .i1⟩ : BufTy).Contents (Elt F)) : (⟨S_, .f32⟩ : BufTy).Contents (Elt F) :=
  Host.reduceAdd (stg_main_v38 (F := F) x1 x2) (stg_main_cst_34 (F := F)) reducesTo_S16_S_d0 h_S_
def stg_main_cst_35 : (⟨S_, .f32⟩ : BufTy).Contents (Elt F) :=
  constant S_ .f32 0x3F800000#32
def stg_main_v138 (x1 : (⟨S16x65536, .i32⟩ : BufTy).Contents (Elt F)) (x2 : (⟨S16x65536, .i1⟩ : BufTy).Contents (Elt F)) : (⟨S_, .f32⟩ : BufTy).Contents (Elt F) :=
  maximumf (stg_main_v137 (F := F) x1 x2) (stg_main_cst_35 (F := F))
def stg_main_v139 (x0 : (⟨S16x65536x32, .f32⟩ : BufTy).Contents (Elt F)) (x1 : (⟨S16x65536, .i32⟩ : BufTy).Contents (Elt F)) (x2 : (⟨S16x65536, .i1⟩ : BufTy).Contents (Elt F)) : (⟨S16, .f32⟩ : BufTy).Contents (Elt F) :=
  mulf (stg_main_v76 (F := F) x0 x1 x2) (stg_main_v38 (F := F) x1 x2)
def stg_main_cst_36 : (⟨S_, .f32⟩ : BufTy).Contents (Elt F) :=
  constant S_ .f32 0x00000000#32
def stg_main_v140 (x0 : (⟨S16x65536x32, .f32⟩ : BufTy).Contents (Elt F)) (x1 : (⟨S16x65536, .i32⟩ : BufTy).Contents (Elt F)) (x2 : (⟨S16x65536, .i1⟩ : BufTy).Contents (Elt F)) : (⟨S_, .f32⟩ : BufTy).Contents (Elt F) :=
  Host.reduceAdd (stg_main_v139 (F := F) x0 x1 x2) (stg_main_cst_36 (F := F)) reducesTo_S16_S_d0 h_S_
def stg_main_v141 (x0 : (⟨S16x65536x32, .f32⟩ : BufTy).Contents (Elt F)) (x1 : (⟨S16x65536, .i32⟩ : BufTy).Contents (Elt F)) (x2 : (⟨S16x65536, .i1⟩ : BufTy).Contents (Elt F)) : (⟨S_, .f32⟩ : BufTy).Contents (Elt F) :=
  Host.divf (stg_main_v140 (F := F) x0 x1 x2) (stg_main_v138 (F := F) x1 x2)
def stg_main_v142 (x0 : (⟨S16x65536x32, .f32⟩ : BufTy).Contents (Elt F)) (x1 : (⟨S16x65536, .i32⟩ : BufTy).Contents (Elt F)) (x2 : (⟨S16x65536, .i1⟩ : BufTy).Contents (Elt F)) : (⟨S16, .f32⟩ : BufTy).Contents (Elt F) :=
  mulf (stg_main_v122 (F := F) x0 x1 x2) (stg_main_v38 (F := F) x1 x2)
def stg_main_cst_37 : (⟨S_, .f32⟩ : BufTy).Contents (Elt F) :=
  constant S_ .f32 0x00000000#32
def stg_main_v143 (x0 : (⟨S16x65536x32, .f32⟩ : BufTy).Contents (Elt F)) (x1 : (⟨S16x65536, .i32⟩ : BufTy).Contents (Elt F)) (x2 : (⟨S16x65536, .i1⟩ : BufTy).Contents (Elt F)) : (⟨S_, .f32⟩ : BufTy).Contents (Elt F) :=
  Host.reduceAdd (stg_main_v142 (F := F) x0 x1 x2) (stg_main_cst_37 (F := F)) reducesTo_S16_S_d0 h_S_
def stg_main_v144 (x0 : (⟨S16x65536x32, .f32⟩ : BufTy).Contents (Elt F)) (x1 : (⟨S16x65536, .i32⟩ : BufTy).Contents (Elt F)) (x2 : (⟨S16x65536, .i1⟩ : BufTy).Contents (Elt F)) : (⟨S_, .f32⟩ : BufTy).Contents (Elt F) :=
  Host.divf (stg_main_v143 (F := F) x0 x1 x2) (stg_main_v138 (F := F) x1 x2)
def stg_main_v145 (x0 : (⟨S16x65536x32, .f32⟩ : BufTy).Contents (Elt F)) (x1 : (⟨S16x65536, .i32⟩ : BufTy).Contents (Elt F)) (x2 : (⟨S16x65536, .i1⟩ : BufTy).Contents (Elt F)) : (⟨S16, .f32⟩ : BufTy).Contents (Elt F) :=
  mulf (stg_main_v136 (F := F) x0 x1 x2) (stg_main_v38 (F := F) x1 x2)
def stg_main_cst_38 : (⟨S_, .f32⟩ : BufTy).Contents (Elt F) :=
  constant S_ .f32 0x00000000#32
def stg_main_v146 (x0 : (⟨S16x65536x32, .f32⟩ : BufTy).Contents (Elt F)) (x1 : (⟨S16x65536, .i32⟩ : BufTy).Contents (Elt F)) (x2 : (⟨S16x65536, .i1⟩ : BufTy).Contents (Elt F)) : (⟨S_, .f32⟩ : BufTy).Contents (Elt F) :=
  Host.reduceAdd (stg_main_v145 (F := F) x0 x1 x2) (stg_main_cst_38 (F := F)) reducesTo_S16_S_d0 h_S_
def stg_main_v147 (x0 : (⟨S16x65536x32, .f32⟩ : BufTy).Contents (Elt F)) (x1 : (⟨S16x65536, .i32⟩ : BufTy).Contents (Elt F)) (x2 : (⟨S16x65536, .i1⟩ : BufTy).Contents (Elt F)) : (⟨S_, .f32⟩ : BufTy).Contents (Elt F) :=
  Host.divf (stg_main_v146 (F := F) x0 x1 x2) (stg_main_v138 (F := F) x1 x2)
def stg_main_cst_39 : (⟨S_, .f32⟩ : BufTy).Contents (Elt F) :=
  constant S_ .f32 0x3F800000#32
def stg_main_v148 (x0 : (⟨S16x65536x32, .f32⟩ : BufTy).Contents (Elt F)) (x1 : (⟨S16x65536, .i32⟩ : BufTy).Contents (Elt F)) (x2 : (⟨S16x65536, .i1⟩ : BufTy).Contents (Elt F)) : (⟨S_, .f32⟩ : BufTy).Contents (Elt F) :=
  mulf (stg_main_cst_39 (F := F)) (stg_main_v141 (F := F) x0 x1 x2)
def stg_main_cst_40 : (⟨S_, .f32⟩ : BufTy).Contents (Elt F) :=
  constant S_ .f32 0x3F800000#32
def stg_main_v149 (x0 : (⟨S16x65536x32, .f32⟩ : BufTy).Contents (Elt F)) (x1 : (⟨S16x65536, .i32⟩ : BufTy).Contents (Elt F)) (x2 : (⟨S16x65536, .i1⟩ : BufTy).Contents (Elt F)) : (⟨S_, .f32⟩ : BufTy).Contents (Elt F) :=
  mulf (stg_main_cst_40 (F := F)) (stg_main_v144 (F := F) x0 x1 x2)
def stg_main_v150 (x0 : (⟨S16x65536x32, .f32⟩ : BufTy).Contents (Elt F)) (x1 : (⟨S16x65536, .i32⟩ : BufTy).Contents (Elt F)) (x2 : (⟨S16x65536, .i1⟩ : BufTy).Contents (Elt F)) : (⟨S_, .f32⟩ : BufTy).Contents (Elt F) :=
  addf (stg_main_v148 (F := F) x0 x1 x2) (stg_main_v149 (F := F) x0 x1 x2)
def stg_main_cst_41 : (⟨S_, .f32⟩ : BufTy).Contents (Elt F) :=
  constant S_ .f32 0x3A83126F#32
def stg_main_v151 (x0 : (⟨S16x65536x32, .f32⟩ : BufTy).Contents (Elt F)) (x1 : (⟨S16x65536, .i32⟩ : BufTy).Contents (Elt F)) (x2 : (⟨S16x65536, .i1⟩ : BufTy).Contents (Elt F)) : (⟨S_, .f32⟩ : BufTy).Contents (Elt F) :=
  mulf (stg_main_cst_41 (F := F)) (stg_main_v147 (F := F) x0 x1 x2)
def stg_main_v152 (x0 : (⟨S16x65536x32, .f32⟩ : BufTy).Contents (Elt F)) (x1 : (⟨S16x65536, .i32⟩ : BufTy).Contents (Elt F)) (x2 : (⟨S16x65536, .i1⟩ : BufTy).Contents (Elt F)) : (⟨S_, .f32⟩ : BufTy).Contents (Elt F) :=
  addf (stg_main_v150 (F := F) x0 x1 x2) (stg_main_v151 (F := F) x0 x1 x2)
def stg_main_v153 (x0 : (⟨S16x65536x32, .f32⟩ : BufTy).Contents (Elt F)) (x1 : (⟨S16x65536, .i32⟩ : BufTy).Contents (Elt F)) (x2 : (⟨S16x65536, .i1⟩ : BufTy).Contents (Elt F)) : (⟨S1, .f32⟩ : BufTy).Contents (Elt F) :=
  broadcastInDim S1 ![] bcast_S_S1 (stg_main_v152 (F := F) x0 x1 x2)
def stg_main_v154 (x0 : (⟨S16x65536x32, .f32⟩ : BufTy).Contents (Elt F)) (x1 : (⟨S16x65536, .i32⟩ : BufTy).Contents (Elt F)) (x2 : (⟨S16x65536, .i1⟩ : BufTy).Contents (Elt F)) : (⟨S1, .f32⟩ : BufTy).Contents (Elt F) :=
  broadcastInDim S1 ![] bcast_S_S1 (stg_main_v141 (F := F) x0 x1 x2)
def stg_main_v155 (x0 : (⟨S16x65536x32, .f32⟩ : BufTy).Contents (Elt F)) (x1 : (⟨S16x65536, .i32⟩ : BufTy).Contents (Elt F)) (x2 : (⟨S16x65536, .i1⟩ : BufTy).Contents (Elt F)) : (⟨S1, .f32⟩ : BufTy).Contents (Elt F) :=
  broadcastInDim S1 ![] bcast_S_S1 (stg_main_v144 (F := F) x0 x1 x2)
def stg_main_v156 (x0 : (⟨S16x65536x32, .f32⟩ : BufTy).Contents (Elt F)) (x1 : (⟨S16x65536, .i32⟩ : BufTy).Contents (Elt F)) (x2 : (⟨S16x65536, .i1⟩ : BufTy).Contents (Elt F)) : (⟨S1, .f32⟩ : BufTy).Contents (Elt F) :=
  broadcastInDim S1 ![] bcast_S_S1 (stg_main_v147 (F := F) x0 x1 x2)
def stg_main_v157 (x0 : (⟨S16x65536x32, .f32⟩ : BufTy).Contents (Elt F)) (x1 : (⟨S16x65536, .i32⟩ : BufTy).Contents (Elt F)) (x2 : (⟨S16x65536, .i1⟩ : BufTy).Contents (Elt F)) : (⟨S4, .f32⟩ : BufTy).Contents (Elt F) :=
  concatenate S4 0 [⟨S1, (stg_main_v153 (F := F) x0 x1 x2)⟩, ⟨S1, (stg_main_v154 (F := F) x0 x1 x2)⟩, ⟨S1, (stg_main_v155 (F := F) x0 x1 x2)⟩, ⟨S1, (stg_main_v156 (F := F) x0 x1 x2)⟩] concatenates_S1_S1_S1_S1_S4_d0

/-! ## The run, window by window -/

def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_c, main_v0, main_v1, main_v2, main_v3, main_v4, main_c_0, main_v5, main_v6, main_v7, main_v8, main_c_1, main_call0_v0, main_call0_v1, main_v9, main_v10, main_v11, main_v12, main_v13, main_v14, main_v15, main_v16, main_cst, main_v17, main_v18, main_v19, main_v20, main_cst_2, main_v21, main_v22, main_v23, main_v24, main_cst_3, main_v25, main_v26, main_v27, main_v28, main_v29, main_cst_4, main_v30, main_v31, main_v32, main_v33, main_c_5, main_v34, main_v35, main_cst_6, main_v36, main_v37, main_v38, main_c_7, main_v39, main_v40, main_c_8, main_v41, main_v42, main_c_9, main_v43, main_v44, main_v45, main_v46, main_v47]
set_option maxRecDepth 8192 in
set_option maxHeartbeats 4000000 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
set_option maxRecDepth 8192 in
set_option maxHeartbeats 8000000 in
theorem val1_main_v10 (V0 : Valuation τ sig (Elt F)) : val1 V0 (no_index (Proc.devRef .tc main_v10)) = stg_main_v10 (F := F) (V0 (Proc.devRef .tc main_arg1)) (V0 (Proc.devRef .tc main_arg2)) := by
  unfold val1
  simp only [ops_part0]
  after_results_simp
  (try simp only [val0_main_arg0, val0_main_arg1, val0_main_arg2]) <;> (try simp only [TRef.ofBuf, TRef.toBuf, cast_eq]) <;> rfl
set_option maxRecDepth 8192 in
set_option maxHeartbeats 8000000 in
theorem val1_main_v12 (V0 : Valuation τ sig (Elt F)) : val1 V0 (no_index (Proc.devRef .tc main_v12)) = stg_main_v12 (F := F) (V0 (Proc.devRef .tc main_arg1)) (V0 (Proc.devRef .tc main_arg2)) := by
  unfold val1
  simp only [ops_part0]
  after_results_simp
  (try simp only [val0_main_arg0, val0_main_arg1, val0_main_arg2]) <;> (try simp only [TRef.ofBuf, TRef.toBuf, cast_eq]) <;> rfl
set_option maxRecDepth 8192 in
set_option maxHeartbeats 8000000 in
theorem val1_main_v13 (V0 : Valuation τ sig (Elt F)) : val1 V0 (no_index (Proc.devRef .tc main_v13)) = stg_main_v13 (F := F) (V0 (Proc.devRef .tc main_arg0)) := by
  unfold val1
  simp only [ops_part0]
  after_results_simp
  (try simp only [val0_main_arg0, val0_main_arg1, val0_main_arg2]) <;> (try simp only [TRef.ofBuf, TRef.toBuf, cast_eq]) <;> rfl
set_option maxRecDepth 8192 in
set_option maxHeartbeats 8000000 in
theorem val1_main_v24 (V0 : Valuation τ sig (Elt F)) : val1 V0 (no_index (Proc.devRef .tc main_v24)) = stg_main_v24 (F := F) (V0 (Proc.devRef .tc main_arg1)) (V0 (Proc.devRef .tc main_arg2)) := by
  unfold val1
  simp only [ops_part0]
  after_results_simp
  (try simp only [val0_main_arg0, val0_main_arg1, val0_main_arg2]) <;> (try simp only [TRef.ofBuf, TRef.toBuf, cast_eq]) <;> rfl
set_option maxRecDepth 8192 in
set_option maxHeartbeats 8000000 in
theorem val1_main_v29 (V0 : Valuation τ sig (Elt F)) : val1 V0 (no_index (Proc.devRef .tc main_v29)) = stg_main_v29 (F := F) (V0 (Proc.devRef .tc main_arg0)) (V0 (Proc.devRef .tc main_arg1)) (V0 (Proc.devRef .tc main_arg2)) := by
  unfold val1
  simp only [ops_part0]
  after_results_simp
  (try simp only [val0_main_arg0, val0_main_arg1, val0_main_arg2]) <;> (try simp only [TRef.ofBuf, TRef.toBuf, cast_eq]) <;> rfl
set_option maxRecDepth 8192 in
set_option maxHeartbeats 8000000 in
theorem val1_main_v32 (V0 : Valuation τ sig (Elt F)) : val1 V0 (no_index (Proc.devRef .tc main_v32)) = stg_main_v32 (F := F) (V0 (Proc.devRef .tc main_arg1)) (V0 (Proc.devRef .tc main_arg2)) := by
  unfold val1
  simp only [ops_part0]
  after_results_simp
  (try simp only [val0_main_arg0, val0_main_arg1, val0_main_arg2]) <;> (try simp only [TRef.ofBuf, TRef.toBuf, cast_eq]) <;> rfl
set_option maxRecDepth 8192 in
set_option maxHeartbeats 8000000 in
theorem val1_main_v35 (V0 : Valuation τ sig (Elt F)) : val1 V0 (no_index (Proc.devRef .tc main_v35)) = stg_main_v35 (F := F) (V0 (Proc.devRef .tc main_arg1)) (V0 (Proc.devRef .tc main_arg2)) := by
  unfold val1
  simp only [ops_part0]
  after_results_simp
  (try simp only [val0_main_arg0, val0_main_arg1, val0_main_arg2]) <;> (try simp only [TRef.ofBuf, TRef.toBuf, cast_eq]) <;> rfl
set_option maxRecDepth 8192 in
set_option maxHeartbeats 8000000 in
theorem val1_main_v38 (V0 : Valuation τ sig (Elt F)) : val1 V0 (no_index (Proc.devRef .tc main_v38)) = stg_main_v38 (F := F) (V0 (Proc.devRef .tc main_arg1)) (V0 (Proc.devRef .tc main_arg2)) := by
  unfold val1
  simp only [ops_part0]
  after_results_simp
  (try simp only [val0_main_arg0, val0_main_arg1, val0_main_arg2]) <;> (try simp only [TRef.ofBuf, TRef.toBuf, cast_eq]) <;> rfl
set_option maxRecDepth 8192 in
set_option maxHeartbeats 8000000 in
theorem val1_main_v47 (V0 : Valuation τ sig (Elt F)) : val1 V0 (no_index (Proc.devRef .tc main_v47)) = stg_main_v47 (F := F) (V0 (Proc.devRef .tc main_arg0)) (V0 (Proc.devRef .tc main_arg1)) (V0 (Proc.devRef .tc main_arg2)) := by
  unfold val1
  simp only [ops_part0]
  after_results_simp
  (try simp only [val0_main_arg0, val0_main_arg1, val0_main_arg2]) <;> (try simp only [TRef.ofBuf, TRef.toBuf, cast_eq]) <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v48, main_v49, main_cst_10, main_v50, main_cst_11, main_v51, main_v52, main_cst_12, main_call1_v0, main_call1_v1, main_v53, main_v54, main_v55, main_v56, main_cst_13, main_v57, main_v58, main_cst_14, main_v59, main_v60, main_v61, main_v62, main_cst_15, main_v63, main_v64, main_v65, main_v66, main_cst_16, main_v67, main_v68, main_v69, main_v70, main_v71, main_v72, main_cst_17, main_v73, main_cst_18, main_v74, main_v75, main_v76, main_v77, main_v78, main_v79, main_v80, main_v81, main_v82, main_v83, main_cst_19, main_v84, main_v85, main_v86, main_v87, main_v88, main_v89, main_v90, main_v91, main_v92, main_v93, main_v94, main_v95, main_v96, main_v97]
set_option maxRecDepth 8192 in
set_option maxHeartbeats 4000000 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_v32 (V0 : Valuation τ sig (Elt F)) : val2 V0 (no_index (Proc.devRef .tc main_v32)) = stg_main_v32 (F := F) (V0 (Proc.devRef .tc main_arg1)) (V0 (Proc.devRef .tc main_arg2)) :=
  (val2_keep V0 main_v32 (by decide)).trans (val1_main_v32 V0)
theorem val2_main_v35 (V0 : Valuation τ sig (Elt F)) : val2 V0 (no_index (Proc.devRef .tc main_v35)) = stg_main_v35 (F := F) (V0 (Proc.devRef .tc main_arg1)) (V0 (Proc.devRef .tc main_arg2)) :=
  (val2_keep V0 main_v35 (by decide)).trans (val1_main_v35 V0)
theorem val2_main_v38 (V0 : Valuation τ sig (Elt F)) : val2 V0 (no_index (Proc.devRef .tc main_v38)) = stg_main_v38 (F := F) (V0 (Proc.devRef .tc main_arg1)) (V0 (Proc.devRef .tc main_arg2)) :=
  (val2_keep V0 main_v38 (by decide)).trans (val1_main_v38 V0)
set_option maxRecDepth 8192 in
set_option maxHeartbeats 8000000 in
theorem val2_main_v76 (V0 : Valuation τ sig (Elt F)) : val2 V0 (no_index (Proc.devRef .tc main_v76)) = stg_main_v76 (F := F) (V0 (Proc.devRef .tc main_arg0)) (V0 (Proc.devRef .tc main_arg1)) (V0 (Proc.devRef .tc main_arg2)) := by
  unfold val2
  simp only [ops_part1]
  after_results_simp
  (try simp only [val1_main_arg0, val1_main_arg1, val1_main_arg2, val1_main_v10, val1_main_v12, val1_main_v13, val1_main_v24, val1_main_v29, val1_main_v32, val1_main_v35, val1_main_v38, val1_main_v47]) <;> (try simp only [TRef.ofBuf, TRef.toBuf, cast_eq]) <;> rfl
set_option maxRecDepth 8192 in
set_option maxHeartbeats 8000000 in
theorem val2_main_v77 (V0 : Valuation τ sig (Elt F)) : val2 V0 (no_index (Proc.devRef .tc main_v77)) = stg_main_v77 (F := F) (V0 (Proc.devRef .tc main_arg0)) (V0 (Proc.devRef .tc main_arg1)) (V0 (Proc.devRef .tc main_arg2)) := by
  unfold val2
  simp only [ops_part1]
  after_results_simp
  (try simp only [val1_main_arg0, val1_main_arg1, val1_main_arg2, val1_main_v10, val1_main_v12, val1_main_v13, val1_main_v24, val1_main_v29, val1_main_v32, val1_main_v35, val1_main_v38, val1_main_v47]) <;> (try simp only [TRef.ofBuf, TRef.toBuf, cast_eq]) <;> rfl
set_option maxRecDepth 8192 in
set_option maxHeartbeats 8000000 in
theorem val2_main_v84 (V0 : Valuation τ sig (Elt F)) : val2 V0 (no_index (Proc.devRef .tc main_v84)) = stg_main_v84 (F := F) (V0 (Proc.devRef .tc main_arg0)) (V0 (Proc.devRef .tc main_arg1)) (V0 (Proc.devRef .tc main_arg2)) := by
  unfold val2
  simp only [ops_part1]
  after_results_simp
  (try simp only [val1_main_arg0, val1_main_arg1, val1_main_arg2, val1_main_v10, val1_main_v12, val1_main_v13, val1_main_v24, val1_main_v29, val1_main_v32, val1_main_v35, val1_main_v38, val1_main_v47]) <;> (try simp only [TRef.ofBuf, TRef.toBuf, cast_eq]) <;> rfl
set_option maxRecDepth 8192 in
set_option maxHeartbeats 8000000 in
theorem val2_main_v90 (V0 : Valuation τ sig (Elt F)) : val2 V0 (no_index (Proc.devRef .tc main_v90)) = stg_main_v90 (F := F) (V0 (Proc.devRef .tc main_arg1)) (V0 (Proc.devRef .tc main_arg2)) := by
  unfold val2
  simp only [ops_part1]
  after_results_simp
  (try simp only [val1_main_arg0, val1_main_arg1, val1_main_arg2, val1_main_v10, val1_main_v12, val1_main_v13, val1_main_v24, val1_main_v29, val1_main_v32, val1_main_v35, val1_main_v38, val1_main_v47]) <;> (try simp only [TRef.ofBuf, TRef.toBuf, cast_eq]) <;> rfl
set_option maxRecDepth 8192 in
set_option maxHeartbeats 8000000 in
theorem val2_main_v97 (V0 : Valuation τ sig (Elt F)) : val2 V0 (no_index (Proc.devRef .tc main_v97)) = stg_main_v97 (F := F) := by
  unfold val2
  simp only [ops_part1]
  after_results_simp
  (try simp only [val1_main_arg0, val1_main_arg1, val1_main_arg2, val1_main_v10, val1_main_v12, val1_main_v13, val1_main_v24, val1_main_v29, val1_main_v32, val1_main_v35, val1_main_v38, val1_main_v47]) <;> (try simp only [TRef.ofBuf, TRef.toBuf, cast_eq]) <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v98, main_v99, main_cst_20, main_call2_v0, main_call2_v1, main_v100, main_cst_21, main_v101, main_v102, main_cst_22, main_call3_v0, main_call3_v1, main_v103, main_v104, main_v105, main_v106, main_v107, main_cst_23, main_v108, main_v109, main_cst_24, main_v110, main_v111, main_v112, main_v113, main_cst_25, main_v114, main_v115, main_v116, main_cst_26, main_v117, main_v118, main_cst_27, main_v119, main_cst_28, main_v120, main_v121, main_v122, main_v123, main_cst_29, main_v124, main_cst_30, main_v125, main_v126, main_cst_31, main_call4_v0, main_call4_v1, main_v127, main_v128, main_v129, main_v130, main_v131, main_v132, main_cst_32, main_v133, main_cst_33, main_v134, main_v135, main_v136, main_cst_34, main_v137, main_cst_35, main_v138, main_v139, main_cst_36, main_v140]
set_option maxRecDepth 8192 in
set_option maxHeartbeats 4000000 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_v38 (V0 : Valuation τ sig (Elt F)) : val3 V0 (no_index (Proc.devRef .tc main_v38)) = stg_main_v38 (F := F) (V0 (Proc.devRef .tc main_arg1)) (V0 (Proc.devRef .tc main_arg2)) :=
  (val3_keep V0 main_v38 (by decide)).trans (val2_main_v38 V0)
set_option maxRecDepth 8192 in
set_option maxHeartbeats 8000000 in
theorem val3_main_v122 (V0 : Valuation τ sig (Elt F)) : val3 V0 (no_index (Proc.devRef .tc main_v122)) = stg_main_v122 (F := F) (V0 (Proc.devRef .tc main_arg0)) (V0 (Proc.devRef .tc main_arg1)) (V0 (Proc.devRef .tc main_arg2)) := by
  unfold val3
  simp only [ops_part2]
  after_results_simp
  (try simp only [val2_main_arg0, val2_main_arg1, val2_main_arg2, val2_main_v32, val2_main_v35, val2_main_v38, val2_main_v76, val2_main_v77, val2_main_v84, val2_main_v90, val2_main_v97]) <;> (try simp only [TRef.ofBuf, TRef.toBuf, cast_eq]) <;> rfl
set_option maxRecDepth 8192 in
set_option maxHeartbeats 8000000 in
theorem val3_main_v136 (V0 : Valuation τ sig (Elt F)) : val3 V0 (no_index (Proc.devRef .tc main_v136)) = stg_main_v136 (F := F) (V0 (Proc.devRef .tc main_arg0)) (V0 (Proc.devRef .tc main_arg1)) (V0 (Proc.devRef .tc main_arg2)) := by
  unfold val3
  simp only [ops_part2]
  after_results_simp
  (try simp only [val2_main_arg0, val2_main_arg1, val2_main_arg2, val2_main_v32, val2_main_v35, val2_main_v38, val2_main_v76, val2_main_v77, val2_main_v84, val2_main_v90, val2_main_v97]) <;> (try simp only [TRef.ofBuf, TRef.toBuf, cast_eq]) <;> rfl
set_option maxRecDepth 8192 in
set_option maxHeartbeats 8000000 in
theorem val3_main_v138 (V0 : Valuation τ sig (Elt F)) : val3 V0 (no_index (Proc.devRef .tc main_v138)) = stg_main_v138 (F := F) (V0 (Proc.devRef .tc main_arg1)) (V0 (Proc.devRef .tc main_arg2)) := by
  unfold val3
  simp only [ops_part2]
  after_results_simp
  (try simp only [val2_main_arg0, val2_main_arg1, val2_main_arg2, val2_main_v32, val2_main_v35, val2_main_v38, val2_main_v76, val2_main_v77, val2_main_v84, val2_main_v90, val2_main_v97]) <;> (try simp only [TRef.ofBuf, TRef.toBuf, cast_eq]) <;> rfl
set_option maxRecDepth 8192 in
set_option maxHeartbeats 8000000 in
theorem val3_main_v140 (V0 : Valuation τ sig (Elt F)) : val3 V0 (no_index (Proc.devRef .tc main_v140)) = stg_main_v140 (F := F) (V0 (Proc.devRef .tc main_arg0)) (V0 (Proc.devRef .tc main_arg1)) (V0 (Proc.devRef .tc main_arg2)) := by
  unfold val3
  simp only [ops_part2]
  after_results_simp
  (try simp only [val2_main_arg0, val2_main_arg1, val2_main_arg2, val2_main_v32, val2_main_v35, val2_main_v38, val2_main_v76, val2_main_v77, val2_main_v84, val2_main_v90, val2_main_v97]) <;> (try simp only [TRef.ofBuf, TRef.toBuf, cast_eq]) <;> rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v141, main_v142, main_cst_37, main_v143, main_v144, main_v145, main_cst_38, main_v146, main_v147, main_cst_39, main_v148, main_cst_40, main_v149, main_v150, main_cst_41, main_v151, main_v152, main_v153, main_v154, main_v155, main_v156, main_v157]
set_option maxRecDepth 8192 in
set_option maxHeartbeats 4000000 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
/-- Window `main_part3` up to the concatenate. -/
abbrev ops_part3a : List (HloOp τ sig (Elt F)) :=
  [ binary main_v140 main_v138 main_v141 (Host.divf : (⟨S_, .f32⟩ : BufTy).Contents (Elt F) → (⟨S_, .f32⟩ : BufTy).Contents (Elt F) → (⟨S_, .f32⟩ : BufTy).Contents (Elt F)),
    binary main_v122 main_v38 main_v142 (mulf : (⟨S16, .f32⟩ : BufTy).Contents (Elt F) → (⟨S16, .f32⟩ : BufTy).Contents (Elt F) → (⟨S16, .f32⟩ : BufTy).Contents (Elt F)),
    nullary main_cst_37 (constant S_ .f32 0x00000000#32),
    binary main_v142 main_cst_37 main_v143 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    binary main_v143 main_v138 main_v144 (Host.divf : (⟨S_, .f32⟩ : BufTy).Contents (Elt F) → (⟨S_, .f32⟩ : BufTy).Contents (Elt F) → (⟨S_, .f32⟩ : BufTy).Contents (Elt F)),
    binary main_v136 main_v38 main_v145 (mulf : (⟨S16, .f32⟩ : BufTy).Contents (Elt F) → (⟨S16, .f32⟩ : BufTy).Contents (Elt F) → (⟨S16, .f32⟩ : BufTy).Contents (Elt F)),
    nullary main_cst_38 (constant S_ .f32 0x00000000#32),
    binary main_v145 main_cst_38 main_v146 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    binary main_v146 main_v138 main_v147 (Host.divf : (⟨S_, .f32⟩ : BufTy).Contents (Elt F) → (⟨S_, .f32⟩ : BufTy).Contents (Elt F) → (⟨S_, .f32⟩ : BufTy).Contents (Elt F)),
    nullary main_cst_39 (constant S_ .f32 0x3F800000#32),
    binary main_cst_39 main_v141 main_v148 (mulf : (⟨S_, .f32⟩ : BufTy).Contents (Elt F) → (⟨S_, .f32⟩ : BufTy).Contents (Elt F) → (⟨S_, .f32⟩ : BufTy).Contents (Elt F)),
    nullary main_cst_40 (constant S_ .f32 0x3F800000#32),
    binary main_cst_40 main_v144 main_v149 (mulf : (⟨S_, .f32⟩ : BufTy).Contents (Elt F) → (⟨S_, .f32⟩ : BufTy).Contents (Elt F) → (⟨S_, .f32⟩ : BufTy).Contents (Elt F)),
    binary main_v148 main_v149 main_v150 (addf : (⟨S_, .f32⟩ : BufTy).Contents (Elt F) → (⟨S_, .f32⟩ : BufTy).Contents (Elt F) → (⟨S_, .f32⟩ : BufTy).Contents (Elt F)),
    nullary main_cst_41 (constant S_ .f32 0x3A83126F#32),
    binary main_cst_41 main_v147 main_v151 (mulf : (⟨S_, .f32⟩ : BufTy).Contents (Elt F) → (⟨S_, .f32⟩ : BufTy).Contents (Elt F) → (⟨S_, .f32⟩ : BufTy).Contents (Elt F)),
    binary main_v150 main_v151 main_v152 (addf : (⟨S_, .f32⟩ : BufTy).Contents (Elt F) → (⟨S_, .f32⟩ : BufTy).Contents (Elt F) → (⟨S_, .f32⟩ : BufTy).Contents (Elt F)),
    unary main_v152 main_v153 (broadcastInDim S1 ![] bcast_S_S1 : (⟨S_, .f32⟩ : BufTy).Contents (Elt F) → (⟨S1, .f32⟩ : BufTy).Contents (Elt F)),
    unary main_v141 main_v154 (broadcastInDim S1 ![] bcast_S_S1 : (⟨S_, .f32⟩ : BufTy).Contents (Elt F) → (⟨S1, .f32⟩ : BufTy).Contents (Elt F)),
    unary main_v144 main_v155 (broadcastInDim S1 ![] bcast_S_S1 : (⟨S_, .f32⟩ : BufTy).Contents (Elt F) → (⟨S1, .f32⟩ : BufTy).Contents (Elt F)),
    unary main_v147 main_v156 (broadcastInDim S1 ![] bcast_S_S1 : (⟨S_, .f32⟩ : BufTy).Contents (Elt F) → (⟨S1, .f32⟩ : BufTy).Contents (Elt F)) ]

/-- The concatenate that ends @main. -/
abbrev op_main_v157 : HloOp τ sig (Elt F) :=
  nary ![main_v153, main_v154, main_v155, main_v156] main_v157 (fun u => concatenate S4 0 [⟨S1, u 0⟩, ⟨S1, u 1⟩, ⟨S1, u 2⟩, ⟨S1, u 3⟩] concatenates_S1_S1_S1_S1_S4_d0)
theorem ops_part3_split : (ops_part3 : List (HloOp τ sig (Elt F))) = ops_part3a ++ [op_main_v157] := rfl
/-- The device's buffer contents before the concatenate. -/
def val3b (V0 : Valuation τ sig (Elt F)) : Valuation τ sig (Elt F) := after ops_part3a (val3 V0)
set_option maxRecDepth 8192 in
set_option maxHeartbeats 8000000 in
theorem val3b_main_v153 (V0 : Valuation τ sig (Elt F)) : val3b V0 (no_index (Proc.devRef .tc main_v153)) = stg_main_v153 (F := F) (V0 (Proc.devRef .tc main_arg0)) (V0 (Proc.devRef .tc main_arg1)) (V0 (Proc.devRef .tc main_arg2)) := by
  unfold val3b
  simp only [ops_part3a]
  after_results_simp
  (try simp only [val3_main_arg0, val3_main_arg1, val3_main_arg2, val3_main_v38, val3_main_v122, val3_main_v136, val3_main_v138, val3_main_v140]) <;> (try simp only [TRef.ofBuf, TRef.toBuf, cast_eq]) <;> rfl
set_option maxRecDepth 8192 in
set_option maxHeartbeats 8000000 in
theorem val3b_main_v154 (V0 : Valuation τ sig (Elt F)) : val3b V0 (no_index (Proc.devRef .tc main_v154)) = stg_main_v154 (F := F) (V0 (Proc.devRef .tc main_arg0)) (V0 (Proc.devRef .tc main_arg1)) (V0 (Proc.devRef .tc main_arg2)) := by
  unfold val3b
  simp only [ops_part3a]
  after_results_simp
  (try simp only [val3_main_arg0, val3_main_arg1, val3_main_arg2, val3_main_v38, val3_main_v122, val3_main_v136, val3_main_v138, val3_main_v140]) <;> (try simp only [TRef.ofBuf, TRef.toBuf, cast_eq]) <;> rfl
set_option maxRecDepth 8192 in
set_option maxHeartbeats 8000000 in
theorem val3b_main_v155 (V0 : Valuation τ sig (Elt F)) : val3b V0 (no_index (Proc.devRef .tc main_v155)) = stg_main_v155 (F := F) (V0 (Proc.devRef .tc main_arg0)) (V0 (Proc.devRef .tc main_arg1)) (V0 (Proc.devRef .tc main_arg2)) := by
  unfold val3b
  simp only [ops_part3a]
  after_results_simp
  (try simp only [val3_main_arg0, val3_main_arg1, val3_main_arg2, val3_main_v38, val3_main_v122, val3_main_v136, val3_main_v138, val3_main_v140]) <;> (try simp only [TRef.ofBuf, TRef.toBuf, cast_eq]) <;> rfl
set_option maxRecDepth 8192 in
set_option maxHeartbeats 8000000 in
theorem val3b_main_v156 (V0 : Valuation τ sig (Elt F)) : val3b V0 (no_index (Proc.devRef .tc main_v156)) = stg_main_v156 (F := F) (V0 (Proc.devRef .tc main_arg0)) (V0 (Proc.devRef .tc main_arg1)) (V0 (Proc.devRef .tc main_arg2)) := by
  unfold val3b
  simp only [ops_part3a]
  after_results_simp
  (try simp only [val3_main_arg0, val3_main_arg1, val3_main_arg2, val3_main_v38, val3_main_v122, val3_main_v136, val3_main_v138, val3_main_v140]) <;> (try simp only [TRef.ofBuf, TRef.toBuf, cast_eq]) <;> rfl
set_option maxRecDepth 8192 in
set_option maxHeartbeats 8000000 in
/-- The result: the concatenate of its four operands' stages. -/
theorem val4_main_v157 (V0 : Valuation τ sig (Elt F)) : val4 V0 (no_index (Proc.devRef .tc main_v157)) = stg_main_v157 (F := F) (V0 (Proc.devRef .tc main_arg0)) (V0 (Proc.devRef .tc main_arg1)) (V0 (Proc.devRef .tc main_arg2)) := by
  unfold val4
  rw [ops_part3_split, after_append]
  show (op_main_v157 (F := F)).result (val3b V0) (Proc.devRef .tc main_v157) = _
  unfold op_main_v157
  rw [nary4_result]
  rw [val3b_main_v153 V0, val3b_main_v154 V0, val3b_main_v155 V0, val3b_main_v156 V0]
  rfl

theorem after_ops (V0 : Valuation τ sig (Elt F)) : after ops V0 = val4 V0 := by
  simp only [ops, after_append]
  rfl

set_option maxRecDepth 8192 in
/-- `main_v157`'s composed term of the arguments (named: it is long). -/
def res_main_v157 (m : (ℓ : Loc nD τ sig) → Buf (Elt F) ℓ) (c : Dev nD) : Buf (Elt F) ((c.tc : Thread nD τ).loc main_v157) :=
  concatenate S4 0 [⟨S1, (broadcastInDim S1 ![] bcast_S_S1 (addf (addf (mulf (constant S_ .f32 0x3F800000#32) (Host.divf (Host.reduceAdd (mulf (Host.divf (Host.reduceAdd (mulf (shapeCast _ (Host.divf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (mulf (maximumf (subf (mulf (Host.sqrt (select (cmpf (F := F) .ogt (Host.reduceAdd (mulf (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))))))) (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32)))))))) (constant S_ .f32 0x00000000#32) reducesTo_S1048576x32_S1048576_d1 h_S_) (broadcastInDim S1048576 ![] bcast_S_S1048576 (constant S_ .f32 0x00000000#32))) (Host.reduceAdd (mulf (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))))))) (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32)))))))) (constant S_ .f32 0x00000000#32) reducesTo_S1048576x32_S1048576_d1 h_S_) (broadcastInDim S1048576 ![] bcast_S_S1048576 (id (constant S_ .f32 0x3F800000#32))))) (uitofp (F := F) .f32 (cmpf (F := F) .ogt (Host.reduceAdd (mulf (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))))))) (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32)))))))) (constant S_ .f32 0x00000000#32) reducesTo_S1048576x32_S1048576_d1 h_S_) (broadcastInDim S1048576 ![] bcast_S_S1048576 (constant S_ .f32 0x00000000#32))))) (broadcastInDim S1048576 ![] bcast_S_S1048576 (constant S_ .f32 0x3F000000#32))) (broadcastInDim S1048576 ![] bcast_S_S1048576 (constant S_ .f32 0x00000000#32))) (maximumf (subf (mulf (Host.sqrt (select (cmpf (F := F) .ogt (Host.reduceAdd (mulf (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))))))) (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32)))))))) (constant S_ .f32 0x00000000#32) reducesTo_S1048576x32_S1048576_d1 h_S_) (broadcastInDim S1048576 ![] bcast_S_S1048576 (constant S_ .f32 0x00000000#32))) (Host.reduceAdd (mulf (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))))))) (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32)))))))) (constant S_ .f32 0x00000000#32) reducesTo_S1048576x32_S1048576_d1 h_S_) (broadcastInDim S1048576 ![] bcast_S_S1048576 (id (constant S_ .f32 0x3F800000#32))))) (uitofp (F := F) .f32 (cmpf (F := F) .ogt (Host.reduceAdd (mulf (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))))))) (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32)))))))) (constant S_ .f32 0x00000000#32) reducesTo_S1048576x32_S1048576_d1 h_S_) (broadcastInDim S1048576 ![] bcast_S_S1048576 (constant S_ .f32 0x00000000#32))))) (broadcastInDim S1048576 ![] bcast_S_S1048576 (constant S_ .f32 0x3F000000#32))) (broadcastInDim S1048576 ![] bcast_S_S1048576 (constant S_ .f32 0x00000000#32)))) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))) slices_S1025_S1024_0) (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))) shapeCasts_S1024_S16x64) (uitofp (F := F) .f32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (constant S_ .f32 0x00000000#32) reducesTo_S16x64_S16_d1 h_S_) (maximumf (sitofp (F := F) .f32 (Host.reduce IntOp.addi (extui 32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64) natLt_1_32) (constantI S_ 32 0#32) reducesTo_S16x64_S16_d1 h_S_)) (broadcastInDim S16 ![] bcast_S_S16 (constant S_ .f32 0x3F800000#32)))) (uitofp (F := F) .f32 (cmpf (F := F) .oge (sitofp (F := F) .f32 (Host.reduce IntOp.addi (extui 32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64) natLt_1_32) (constantI S_ 32 0#32) reducesTo_S16x64_S16_d1 h_S_)) (broadcastInDim S16 ![] bcast_S_S16 (constant S_ .f32 0x40000000#32))))) (constant S_ .f32 0x00000000#32) reducesTo_S16_S_d0 h_S_) (maximumf (Host.reduceAdd (uitofp (F := F) .f32 (cmpf (F := F) .oge (sitofp (F := F) .f32 (Host.reduce IntOp.addi (extui 32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64) natLt_1_32) (constantI S_ 32 0#32) reducesTo_S16x64_S16_d1 h_S_)) (broadcastInDim S16 ![] bcast_S_S16 (constant S_ .f32 0x40000000#32)))) (constant S_ .f32 0x00000000#32) reducesTo_S16_S_d0 h_S_) (constant S_ .f32 0x3F800000#32)))) (mulf (constant S_ .f32 0x3F800000#32) (Host.divf (Host.reduceAdd (mulf (Host.divf (Host.reduceAdd (mulf (mulf (maximumf (subf (broadcastInDim S16x64x64 ![] bcast_S_S16x64x64 (constant S_ .f32 0x40400000#32)) (mulf (mulf (Host.sqrt (select (cmpf (F := F) .ogt (select (andi (andi (broadcastInDim S16x64x64 ![0, 1, 2] bcast_S16x64x1_S16x64x64_0_1_2 (broadcastInDim S16x64x1 ![0, 1] bcast_S16x64_S16x64x1_0_1 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (broadcastInDim S16x64x64 ![0, 1, 2] bcast_S16x1x64_S16x64x64_0_1_2 (broadcastInDim S16x1x64 ![0, 2] bcast_S16x64_S16x1x64_0_2 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64)))) (broadcastInDim S16x64x64 ![0, 1, 2] bcast_S1x64x64_S16x64x64_0_1_2 (broadcastInDim S1x64x64 ![1, 2] bcast_S64x64_S1x64x64_1_2 (cmpi .slt (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))))) (Host.reduceAdd (mulf (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32)))) (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))))) (constant S_ .f32 0x00000000#32) reducesTo_S16x64x64x32_S16x64x64_d3 h_S_) (broadcastInDim S16x64x64 ![] bcast_S_S16x64x64 (id (constant S_ .f32 0x3F800000#32)))) (broadcastInDim S16x64x64 ![] bcast_S_S16x64x64 (constant S_ .f32 0x00000000#32))) (select (andi (andi (broadcastInDim S16x64x64 ![0, 1, 2] bcast_S16x64x1_S16x64x64_0_1_2 (broadcastInDim S16x64x1 ![0, 1] bcast_S16x64_S16x64x1_0_1 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (broadcastInDim S16x64x64 ![0, 1, 2] bcast_S16x1x64_S16x64x64_0_1_2 (broadcastInDim S16x1x64 ![0, 2] bcast_S16x64_S16x1x64_0_2 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64)))) (broadcastInDim S16x64x64 ![0, 1, 2] bcast_S1x64x64_S16x64x64_0_1_2 (broadcastInDim S1x64x64 ![1, 2] bcast_S64x64_S1x64x64_1_2 (cmpi .slt (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))))) (Host.reduceAdd (mulf (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32)))) (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))))) (constant S_ .f32 0x00000000#32) reducesTo_S16x64x64x32_S16x64x64_d3 h_S_) (broadcastInDim S16x64x64 ![] bcast_S_S16x64x64 (id (constant S_ .f32 0x3F800000#32)))) (broadcastInDim S16x64x64 ![] bcast_S_S16x64x64 (id (constant S_ .f32 0x3F800000#32))))) (uitofp (F := F) .f32 (cmpf (F := F) .ogt (select (andi (andi (broadcastInDim S16x64x64 ![0, 1, 2] bcast_S16x64x1_S16x64x64_0_1_2 (broadcastInDim S16x64x1 ![0, 1] bcast_S16x64_S16x64x1_0_1 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (broadcastInDim S16x64x64 ![0, 1, 2] bcast_S16x1x64_S16x64x64_0_1_2 (broadcastInDim S16x1x64 ![0, 2] bcast_S16x64_S16x1x64_0_2 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64)))) (broadcastInDim S16x64x64 ![0, 1, 2] bcast_S1x64x64_S16x64x64_0_1_2 (broadcastInDim S1x64x64 ![1, 2] bcast_S64x64_S1x64x64_1_2 (cmpi .slt (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))))) (Host.reduceAdd (mulf (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32)))) (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))))) (constant S_ .f32 0x00000000#32) reducesTo_S16x64x64x32_S16x64x64_d3 h_S_) (broadcastInDim S16x64x64 ![] bcast_S_S16x64x64 (id (constant S_ .f32 0x3F800000#32)))) (broadcastInDim S16x64x64 ![] bcast_S_S16x64x64 (constant S_ .f32 0x00000000#32))))) (uitofp (F := F) .f32 (andi (andi (broadcastInDim S16x64x64 ![0, 1, 2] bcast_S16x64x1_S16x64x64_0_1_2 (broadcastInDim S16x64x1 ![0, 1] bcast_S16x64_S16x64x1_0_1 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (broadcastInDim S16x64x64 ![0, 1, 2] bcast_S16x1x64_S16x64x64_0_1_2 (broadcastInDim S16x1x64 ![0, 2] bcast_S16x64_S16x1x64_0_2 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64)))) (broadcastInDim S16x64x64 ![0, 1, 2] bcast_S1x64x64_S16x64x64_0_1_2 (broadcastInDim S1x64x64 ![1, 2] bcast_S64x64_S1x64x64_1_2 (cmpi .slt (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0)))))))))) (broadcastInDim S16x64x64 ![] bcast_S_S16x64x64 (constant S_ .f32 0x00000000#32))) (maximumf (subf (broadcastInDim S16x64x64 ![] bcast_S_S16x64x64 (constant S_ .f32 0x40400000#32)) (mulf (mulf (Host.sqrt (select (cmpf (F := F) .ogt (select (andi (andi (broadcastInDim S16x64x64 ![0, 1, 2] bcast_S16x64x1_S16x64x64_0_1_2 (broadcastInDim S16x64x1 ![0, 1] bcast_S16x64_S16x64x1_0_1 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (broadcastInDim S16x64x64 ![0, 1, 2] bcast_S16x1x64_S16x64x64_0_1_2 (broadcastInDim S16x1x64 ![0, 2] bcast_S16x64_S16x1x64_0_2 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64)))) (broadcastInDim S16x64x64 ![0, 1, 2] bcast_S1x64x64_S16x64x64_0_1_2 (broadcastInDim S1x64x64 ![1, 2] bcast_S64x64_S1x64x64_1_2 (cmpi .slt (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))))) (Host.reduceAdd (mulf (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32)))) (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))))) (constant S_ .f32 0x00000000#32) reducesTo_S16x64x64x32_S16x64x64_d3 h_S_) (broadcastInDim S16x64x64 ![] bcast_S_S16x64x64 (id (constant S_ .f32 0x3F800000#32)))) (broadcastInDim S16x64x64 ![] bcast_S_S16x64x64 (constant S_ .f32 0x00000000#32))) (select (andi (andi (broadcastInDim S16x64x64 ![0, 1, 2] bcast_S16x64x1_S16x64x64_0_1_2 (broadcastInDim S16x64x1 ![0, 1] bcast_S16x64_S16x64x1_0_1 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (broadcastInDim S16x64x64 ![0, 1, 2] bcast_S16x1x64_S16x64x64_0_1_2 (broadcastInDim S16x1x64 ![0, 2] bcast_S16x64_S16x1x64_0_2 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64)))) (broadcastInDim S16x64x64 ![0, 1, 2] bcast_S1x64x64_S16x64x64_0_1_2 (broadcastInDim S1x64x64 ![1, 2] bcast_S64x64_S1x64x64_1_2 (cmpi .slt (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))))) (Host.reduceAdd (mulf (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32)))) (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))))) (constant S_ .f32 0x00000000#32) reducesTo_S16x64x64x32_S16x64x64_d3 h_S_) (broadcastInDim S16x64x64 ![] bcast_S_S16x64x64 (id (constant S_ .f32 0x3F800000#32)))) (broadcastInDim S16x64x64 ![] bcast_S_S16x64x64 (id (constant S_ .f32 0x3F800000#32))))) (uitofp (F := F) .f32 (cmpf (F := F) .ogt (select (andi (andi (broadcastInDim S16x64x64 ![0, 1, 2] bcast_S16x64x1_S16x64x64_0_1_2 (broadcastInDim S16x64x1 ![0, 1] bcast_S16x64_S16x64x1_0_1 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (broadcastInDim S16x64x64 ![0, 1, 2] bcast_S16x1x64_S16x64x64_0_1_2 (broadcastInDim S16x1x64 ![0, 2] bcast_S16x64_S16x1x64_0_2 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64)))) (broadcastInDim S16x64x64 ![0, 1, 2] bcast_S1x64x64_S16x64x64_0_1_2 (broadcastInDim S1x64x64 ![1, 2] bcast_S64x64_S1x64x64_1_2 (cmpi .slt (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))))) (Host.reduceAdd (mulf (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32)))) (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))))) (constant S_ .f32 0x00000000#32) reducesTo_S16x64x64x32_S16x64x64_d3 h_S_) (broadcastInDim S16x64x64 ![] bcast_S_S16x64x64 (id (constant S_ .f32 0x3F800000#32)))) (broadcastInDim S16x64x64 ![] bcast_S_S16x64x64 (constant S_ .f32 0x00000000#32))))) (uitofp (F := F) .f32 (andi (andi (broadcastInDim S16x64x64 ![0, 1, 2] bcast_S16x64x1_S16x64x64_0_1_2 (broadcastInDim S16x64x1 ![0, 1] bcast_S16x64_S16x64x1_0_1 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (broadcastInDim S16x64x64 ![0, 1, 2] bcast_S16x1x64_S16x64x64_0_1_2 (broadcastInDim S16x1x64 ![0, 2] bcast_S16x64_S16x1x64_0_2 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64)))) (broadcastInDim S16x64x64 ![0, 1, 2] bcast_S1x64x64_S16x64x64_0_1_2 (broadcastInDim S1x64x64 ![1, 2] bcast_S64x64_S1x64x64_1_2 (cmpi .slt (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0)))))))))) (broadcastInDim S16x64x64 ![] bcast_S_S16x64x64 (constant S_ .f32 0x00000000#32)))) (uitofp (F := F) .f32 (andi (andi (broadcastInDim S16x64x64 ![0, 1, 2] bcast_S16x64x1_S16x64x64_0_1_2 (broadcastInDim S16x64x1 ![0, 1] bcast_S16x64_S16x64x1_0_1 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (broadcastInDim S16x64x64 ![0, 1, 2] bcast_S16x1x64_S16x64x64_0_1_2 (broadcastInDim S16x1x64 ![0, 2] bcast_S16x64_S16x1x64_0_2 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64)))) (broadcastInDim S16x64x64 ![0, 1, 2] bcast_S1x64x64_S16x64x64_0_1_2 (broadcastInDim S1x64x64 ![1, 2] bcast_S64x64_S1x64x64_1_2 (cmpi .slt (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))))))) (constant S_ .f32 0x00000000#32) reducesTo_S16x64x64_S16_d1_2 h_S_) (maximumf (Host.divf (mulf (sitofp (F := F) .f32 (Host.reduce IntOp.addi (extui 32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64) natLt_1_32) (constantI S_ 32 0#32) reducesTo_S16x64_S16_d1 h_S_)) (subf (sitofp (F := F) .f32 (Host.reduce IntOp.addi (extui 32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64) natLt_1_32) (constantI S_ 32 0#32) reducesTo_S16x64_S16_d1 h_S_)) (broadcastInDim S16 ![] bcast_S_S16 (constant S_ .f32 0x3F800000#32)))) (broadcastInDim S16 ![] bcast_S_S16 (constant S_ .f32 0x40000000#32))) (broadcastInDim S16 ![] bcast_S_S16 (constant S_ .f32 0x3F800000#32)))) (uitofp (F := F) .f32 (cmpf (F := F) .oge (sitofp (F := F) .f32 (Host.reduce IntOp.addi (extui 32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64) natLt_1_32) (constantI S_ 32 0#32) reducesTo_S16x64_S16_d1 h_S_)) (broadcastInDim S16 ![] bcast_S_S16 (constant S_ .f32 0x40000000#32))))) (constant S_ .f32 0x00000000#32) reducesTo_S16_S_d0 h_S_) (maximumf (Host.reduceAdd (uitofp (F := F) .f32 (cmpf (F := F) .oge (sitofp (F := F) .f32 (Host.reduce IntOp.addi (extui 32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64) natLt_1_32) (constantI S_ 32 0#32) reducesTo_S16x64_S16_d1 h_S_)) (broadcastInDim S16 ![] bcast_S_S16 (constant S_ .f32 0x40000000#32)))) (constant S_ .f32 0x00000000#32) reducesTo_S16_S_d0 h_S_) (constant S_ .f32 0x3F800000#32))))) (mulf (constant S_ .f32 0x3A83126F#32) (Host.divf (Host.reduceAdd (mulf (Host.divf (Host.reduceAdd (mulf (mulf (Host.sqrt (select (cmpf (F := F) .ogt (Host.reduceAdd (mulf (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32) (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32)) (constant S_ .f32 0x00000000#32) reducesTo_S16x64x32_S16x64_d2 h_S_) (broadcastInDim S16x64 ![] bcast_S_S16x64 (constant S_ .f32 0x00000000#32))) (Host.reduceAdd (mulf (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32) (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32)) (constant S_ .f32 0x00000000#32) reducesTo_S16x64x32_S16x64_d2 h_S_) (broadcastInDim S16x64 ![] bcast_S_S16x64 (id (constant S_ .f32 0x3F800000#32))))) (uitofp (F := F) .f32 (cmpf (F := F) .ogt (Host.reduceAdd (mulf (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32) (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32)) (constant S_ .f32 0x00000000#32) reducesTo_S16x64x32_S16x64_d2 h_S_) (broadcastInDim S16x64 ![] bcast_S_S16x64 (constant S_ .f32 0x00000000#32))))) (uitofp (F := F) .f32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (constant S_ .f32 0x00000000#32) reducesTo_S16x64_S16_d1 h_S_) (maximumf (sitofp (F := F) .f32 (Host.reduce IntOp.addi (extui 32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64) natLt_1_32) (constantI S_ 32 0#32) reducesTo_S16x64_S16_d1 h_S_)) (broadcastInDim S16 ![] bcast_S_S16 (constant S_ .f32 0x3F800000#32)))) (uitofp (F := F) .f32 (cmpf (F := F) .oge (sitofp (F := F) .f32 (Host.reduce IntOp.addi (extui 32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64) natLt_1_32) (constantI S_ 32 0#32) reducesTo_S16x64_S16_d1 h_S_)) (broadcastInDim S16 ![] bcast_S_S16 (constant S_ .f32 0x40000000#32))))) (constant S_ .f32 0x00000000#32) reducesTo_S16_S_d0 h_S_) (maximumf (Host.reduceAdd (uitofp (F := F) .f32 (cmpf (F := F) .oge (sitofp (F := F) .f32 (Host.reduce IntOp.addi (extui 32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64) natLt_1_32) (constantI S_ 32 0#32) reducesTo_S16x64_S16_d1 h_S_)) (broadcastInDim S16 ![] bcast_S_S16 (constant S_ .f32 0x40000000#32)))) (constant S_ .f32 0x00000000#32) reducesTo_S16_S_d0 h_S_) (constant S_ .f32 0x3F800000#32))))))⟩, ⟨S1, (broadcastInDim S1 ![] bcast_S_S1 (Host.divf (Host.reduceAdd (mulf (Host.divf (Host.reduceAdd (mulf (shapeCast _ (Host.divf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (mulf (maximumf (subf (mulf (Host.sqrt (select (cmpf (F := F) .ogt (Host.reduceAdd (mulf (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))))))) (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32)))))))) (constant S_ .f32 0x00000000#32) reducesTo_S1048576x32_S1048576_d1 h_S_) (broadcastInDim S1048576 ![] bcast_S_S1048576 (constant S_ .f32 0x00000000#32))) (Host.reduceAdd (mulf (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))))))) (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32)))))))) (constant S_ .f32 0x00000000#32) reducesTo_S1048576x32_S1048576_d1 h_S_) (broadcastInDim S1048576 ![] bcast_S_S1048576 (id (constant S_ .f32 0x3F800000#32))))) (uitofp (F := F) .f32 (cmpf (F := F) .ogt (Host.reduceAdd (mulf (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))))))) (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32)))))))) (constant S_ .f32 0x00000000#32) reducesTo_S1048576x32_S1048576_d1 h_S_) (broadcastInDim S1048576 ![] bcast_S_S1048576 (constant S_ .f32 0x00000000#32))))) (broadcastInDim S1048576 ![] bcast_S_S1048576 (constant S_ .f32 0x3F000000#32))) (broadcastInDim S1048576 ![] bcast_S_S1048576 (constant S_ .f32 0x00000000#32))) (maximumf (subf (mulf (Host.sqrt (select (cmpf (F := F) .ogt (Host.reduceAdd (mulf (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))))))) (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32)))))))) (constant S_ .f32 0x00000000#32) reducesTo_S1048576x32_S1048576_d1 h_S_) (broadcastInDim S1048576 ![] bcast_S_S1048576 (constant S_ .f32 0x00000000#32))) (Host.reduceAdd (mulf (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))))))) (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32)))))))) (constant S_ .f32 0x00000000#32) reducesTo_S1048576x32_S1048576_d1 h_S_) (broadcastInDim S1048576 ![] bcast_S_S1048576 (id (constant S_ .f32 0x3F800000#32))))) (uitofp (F := F) .f32 (cmpf (F := F) .ogt (Host.reduceAdd (mulf (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))))))) (subf (shapeCast _ (m ((c.tc : Thread nD τ).loc main_arg0)) shapeCasts_S16x65536x32_S1048576x32) (Host.gather gather_S1024x32_S1048576x1_S1048576x32_1_0_n_n_0_1_132 (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) (broadcastInDim S1048576x1 ![0] bcast_S1048576_S1048576x1_0 (select (cmpi .slt (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 0#32))) (addi (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32))) (broadcastInDim S1048576 ![] bcast_S_S1048576 (constantI S_ 32 1024#32))) (minsi (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576) (broadcastInDim S1048576 ![] bcast_S_S1048576 (constantI S_ 32 1023#32)))))))) (constant S_ .f32 0x00000000#32) reducesTo_S1048576x32_S1048576_d1 h_S_) (broadcastInDim S1048576 ![] bcast_S_S1048576 (constant S_ .f32 0x00000000#32))))) (broadcastInDim S1048576 ![] bcast_S_S1048576 (constant S_ .f32 0x3F000000#32))) (broadcastInDim S1048576 ![] bcast_S_S1048576 (constant S_ .f32 0x00000000#32)))) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))) slices_S1025_S1024_0) (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))) shapeCasts_S1024_S16x64) (uitofp (F := F) .f32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (constant S_ .f32 0x00000000#32) reducesTo_S16x64_S16_d1 h_S_) (maximumf (sitofp (F := F) .f32 (Host.reduce IntOp.addi (extui 32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64) natLt_1_32) (constantI S_ 32 0#32) reducesTo_S16x64_S16_d1 h_S_)) (broadcastInDim S16 ![] bcast_S_S16 (constant S_ .f32 0x3F800000#32)))) (uitofp (F := F) .f32 (cmpf (F := F) .oge (sitofp (F := F) .f32 (Host.reduce IntOp.addi (extui 32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64) natLt_1_32) (constantI S_ 32 0#32) reducesTo_S16x64_S16_d1 h_S_)) (broadcastInDim S16 ![] bcast_S_S16 (constant S_ .f32 0x40000000#32))))) (constant S_ .f32 0x00000000#32) reducesTo_S16_S_d0 h_S_) (maximumf (Host.reduceAdd (uitofp (F := F) .f32 (cmpf (F := F) .oge (sitofp (F := F) .f32 (Host.reduce IntOp.addi (extui 32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64) natLt_1_32) (constantI S_ 32 0#32) reducesTo_S16x64_S16_d1 h_S_)) (broadcastInDim S16 ![] bcast_S_S16 (constant S_ .f32 0x40000000#32)))) (constant S_ .f32 0x00000000#32) reducesTo_S16_S_d0 h_S_) (constant S_ .f32 0x3F800000#32))))⟩, ⟨S1, (broadcastInDim S1 ![] bcast_S_S1 (Host.divf (Host.reduceAdd (mulf (Host.divf (Host.reduceAdd (mulf (mulf (maximumf (subf (broadcastInDim S16x64x64 ![] bcast_S_S16x64x64 (constant S_ .f32 0x40400000#32)) (mulf (mulf (Host.sqrt (select (cmpf (F := F) .ogt (select (andi (andi (broadcastInDim S16x64x64 ![0, 1, 2] bcast_S16x64x1_S16x64x64_0_1_2 (broadcastInDim S16x64x1 ![0, 1] bcast_S16x64_S16x64x1_0_1 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (broadcastInDim S16x64x64 ![0, 1, 2] bcast_S16x1x64_S16x64x64_0_1_2 (broadcastInDim S16x1x64 ![0, 2] bcast_S16x64_S16x1x64_0_2 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64)))) (broadcastInDim S16x64x64 ![0, 1, 2] bcast_S1x64x64_S16x64x64_0_1_2 (broadcastInDim S1x64x64 ![1, 2] bcast_S64x64_S1x64x64_1_2 (cmpi .slt (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))))) (Host.reduceAdd (mulf (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32)))) (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))))) (constant S_ .f32 0x00000000#32) reducesTo_S16x64x64x32_S16x64x64_d3 h_S_) (broadcastInDim S16x64x64 ![] bcast_S_S16x64x64 (id (constant S_ .f32 0x3F800000#32)))) (broadcastInDim S16x64x64 ![] bcast_S_S16x64x64 (constant S_ .f32 0x00000000#32))) (select (andi (andi (broadcastInDim S16x64x64 ![0, 1, 2] bcast_S16x64x1_S16x64x64_0_1_2 (broadcastInDim S16x64x1 ![0, 1] bcast_S16x64_S16x64x1_0_1 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (broadcastInDim S16x64x64 ![0, 1, 2] bcast_S16x1x64_S16x64x64_0_1_2 (broadcastInDim S16x1x64 ![0, 2] bcast_S16x64_S16x1x64_0_2 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64)))) (broadcastInDim S16x64x64 ![0, 1, 2] bcast_S1x64x64_S16x64x64_0_1_2 (broadcastInDim S1x64x64 ![1, 2] bcast_S64x64_S1x64x64_1_2 (cmpi .slt (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))))) (Host.reduceAdd (mulf (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32)))) (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))))) (constant S_ .f32 0x00000000#32) reducesTo_S16x64x64x32_S16x64x64_d3 h_S_) (broadcastInDim S16x64x64 ![] bcast_S_S16x64x64 (id (constant S_ .f32 0x3F800000#32)))) (broadcastInDim S16x64x64 ![] bcast_S_S16x64x64 (id (constant S_ .f32 0x3F800000#32))))) (uitofp (F := F) .f32 (cmpf (F := F) .ogt (select (andi (andi (broadcastInDim S16x64x64 ![0, 1, 2] bcast_S16x64x1_S16x64x64_0_1_2 (broadcastInDim S16x64x1 ![0, 1] bcast_S16x64_S16x64x1_0_1 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (broadcastInDim S16x64x64 ![0, 1, 2] bcast_S16x1x64_S16x64x64_0_1_2 (broadcastInDim S16x1x64 ![0, 2] bcast_S16x64_S16x1x64_0_2 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64)))) (broadcastInDim S16x64x64 ![0, 1, 2] bcast_S1x64x64_S16x64x64_0_1_2 (broadcastInDim S1x64x64 ![1, 2] bcast_S64x64_S1x64x64_1_2 (cmpi .slt (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))))) (Host.reduceAdd (mulf (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32)))) (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))))) (constant S_ .f32 0x00000000#32) reducesTo_S16x64x64x32_S16x64x64_d3 h_S_) (broadcastInDim S16x64x64 ![] bcast_S_S16x64x64 (id (constant S_ .f32 0x3F800000#32)))) (broadcastInDim S16x64x64 ![] bcast_S_S16x64x64 (constant S_ .f32 0x00000000#32))))) (uitofp (F := F) .f32 (andi (andi (broadcastInDim S16x64x64 ![0, 1, 2] bcast_S16x64x1_S16x64x64_0_1_2 (broadcastInDim S16x64x1 ![0, 1] bcast_S16x64_S16x64x1_0_1 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (broadcastInDim S16x64x64 ![0, 1, 2] bcast_S16x1x64_S16x64x64_0_1_2 (broadcastInDim S16x1x64 ![0, 2] bcast_S16x64_S16x1x64_0_2 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64)))) (broadcastInDim S16x64x64 ![0, 1, 2] bcast_S1x64x64_S16x64x64_0_1_2 (broadcastInDim S1x64x64 ![1, 2] bcast_S64x64_S1x64x64_1_2 (cmpi .slt (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0)))))))))) (broadcastInDim S16x64x64 ![] bcast_S_S16x64x64 (constant S_ .f32 0x00000000#32))) (maximumf (subf (broadcastInDim S16x64x64 ![] bcast_S_S16x64x64 (constant S_ .f32 0x40400000#32)) (mulf (mulf (Host.sqrt (select (cmpf (F := F) .ogt (select (andi (andi (broadcastInDim S16x64x64 ![0, 1, 2] bcast_S16x64x1_S16x64x64_0_1_2 (broadcastInDim S16x64x1 ![0, 1] bcast_S16x64_S16x64x1_0_1 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (broadcastInDim S16x64x64 ![0, 1, 2] bcast_S16x1x64_S16x64x64_0_1_2 (broadcastInDim S16x1x64 ![0, 2] bcast_S16x64_S16x1x64_0_2 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64)))) (broadcastInDim S16x64x64 ![0, 1, 2] bcast_S1x64x64_S16x64x64_0_1_2 (broadcastInDim S1x64x64 ![1, 2] bcast_S64x64_S1x64x64_1_2 (cmpi .slt (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))))) (Host.reduceAdd (mulf (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32)))) (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))))) (constant S_ .f32 0x00000000#32) reducesTo_S16x64x64x32_S16x64x64_d3 h_S_) (broadcastInDim S16x64x64 ![] bcast_S_S16x64x64 (id (constant S_ .f32 0x3F800000#32)))) (broadcastInDim S16x64x64 ![] bcast_S_S16x64x64 (constant S_ .f32 0x00000000#32))) (select (andi (andi (broadcastInDim S16x64x64 ![0, 1, 2] bcast_S16x64x1_S16x64x64_0_1_2 (broadcastInDim S16x64x1 ![0, 1] bcast_S16x64_S16x64x1_0_1 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (broadcastInDim S16x64x64 ![0, 1, 2] bcast_S16x1x64_S16x64x64_0_1_2 (broadcastInDim S16x1x64 ![0, 2] bcast_S16x64_S16x1x64_0_2 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64)))) (broadcastInDim S16x64x64 ![0, 1, 2] bcast_S1x64x64_S16x64x64_0_1_2 (broadcastInDim S1x64x64 ![1, 2] bcast_S64x64_S1x64x64_1_2 (cmpi .slt (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))))) (Host.reduceAdd (mulf (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32)))) (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))))) (constant S_ .f32 0x00000000#32) reducesTo_S16x64x64x32_S16x64x64_d3 h_S_) (broadcastInDim S16x64x64 ![] bcast_S_S16x64x64 (id (constant S_ .f32 0x3F800000#32)))) (broadcastInDim S16x64x64 ![] bcast_S_S16x64x64 (id (constant S_ .f32 0x3F800000#32))))) (uitofp (F := F) .f32 (cmpf (F := F) .ogt (select (andi (andi (broadcastInDim S16x64x64 ![0, 1, 2] bcast_S16x64x1_S16x64x64_0_1_2 (broadcastInDim S16x64x1 ![0, 1] bcast_S16x64_S16x64x1_0_1 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (broadcastInDim S16x64x64 ![0, 1, 2] bcast_S16x1x64_S16x64x64_0_1_2 (broadcastInDim S16x1x64 ![0, 2] bcast_S16x64_S16x1x64_0_2 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64)))) (broadcastInDim S16x64x64 ![0, 1, 2] bcast_S1x64x64_S16x64x64_0_1_2 (broadcastInDim S1x64x64 ![1, 2] bcast_S64x64_S1x64x64_1_2 (cmpi .slt (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))))) (Host.reduceAdd (mulf (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32)))) (subf (broadcastInDim S16x64x64x32 ![0, 1, 2, 3] bcast_S16x64x1x32_S16x64x64x32_0_1_2_3 (broadcastInDim S16x64x1x32 ![0, 1, 3] bcast_S16x64x32_S16x64x1x32_0_1_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))) (broadcastInDim S16x64x64x32 ![0, 1, 2, 3] bcast_S16x1x64x32_S16x64x64x32_0_1_2_3 (broadcastInDim S16x1x64x32 ![0, 2, 3] bcast_S16x64x32_S16x1x64x32_0_2_3 (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32))))) (constant S_ .f32 0x00000000#32) reducesTo_S16x64x64x32_S16x64x64_d3 h_S_) (broadcastInDim S16x64x64 ![] bcast_S_S16x64x64 (id (constant S_ .f32 0x3F800000#32)))) (broadcastInDim S16x64x64 ![] bcast_S_S16x64x64 (constant S_ .f32 0x00000000#32))))) (uitofp (F := F) .f32 (andi (andi (broadcastInDim S16x64x64 ![0, 1, 2] bcast_S16x64x1_S16x64x64_0_1_2 (broadcastInDim S16x64x1 ![0, 1] bcast_S16x64_S16x64x1_0_1 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (broadcastInDim S16x64x64 ![0, 1, 2] bcast_S16x1x64_S16x64x64_0_1_2 (broadcastInDim S16x1x64 ![0, 2] bcast_S16x64_S16x1x64_0_2 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64)))) (broadcastInDim S16x64x64 ![0, 1, 2] bcast_S1x64x64_S16x64x64_0_1_2 (broadcastInDim S1x64x64 ![1, 2] bcast_S64x64_S1x64x64_1_2 (cmpi .slt (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0)))))))))) (broadcastInDim S16x64x64 ![] bcast_S_S16x64x64 (constant S_ .f32 0x00000000#32)))) (uitofp (F := F) .f32 (andi (andi (broadcastInDim S16x64x64 ![0, 1, 2] bcast_S16x64x1_S16x64x64_0_1_2 (broadcastInDim S16x64x1 ![0, 1] bcast_S16x64_S16x64x1_0_1 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (broadcastInDim S16x64x64 ![0, 1, 2] bcast_S16x1x64_S16x64x64_0_1_2 (broadcastInDim S16x1x64 ![0, 2] bcast_S16x64_S16x1x64_0_2 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64)))) (broadcastInDim S16x64x64 ![0, 1, 2] bcast_S1x64x64_S16x64x64_0_1_2 (broadcastInDim S1x64x64 ![1, 2] bcast_S64x64_S1x64x64_1_2 (cmpi .slt (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))))))) (constant S_ .f32 0x00000000#32) reducesTo_S16x64x64_S16_d1_2 h_S_) (maximumf (Host.divf (mulf (sitofp (F := F) .f32 (Host.reduce IntOp.addi (extui 32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64) natLt_1_32) (constantI S_ 32 0#32) reducesTo_S16x64_S16_d1 h_S_)) (subf (sitofp (F := F) .f32 (Host.reduce IntOp.addi (extui 32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64) natLt_1_32) (constantI S_ 32 0#32) reducesTo_S16x64_S16_d1 h_S_)) (broadcastInDim S16 ![] bcast_S_S16 (constant S_ .f32 0x3F800000#32)))) (broadcastInDim S16 ![] bcast_S_S16 (constant S_ .f32 0x40000000#32))) (broadcastInDim S16 ![] bcast_S_S16 (constant S_ .f32 0x3F800000#32)))) (uitofp (F := F) .f32 (cmpf (F := F) .oge (sitofp (F := F) .f32 (Host.reduce IntOp.addi (extui 32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64) natLt_1_32) (constantI S_ 32 0#32) reducesTo_S16x64_S16_d1 h_S_)) (broadcastInDim S16 ![] bcast_S_S16 (constant S_ .f32 0x40000000#32))))) (constant S_ .f32 0x00000000#32) reducesTo_S16_S_d0 h_S_) (maximumf (Host.reduceAdd (uitofp (F := F) .f32 (cmpf (F := F) .oge (sitofp (F := F) .f32 (Host.reduce IntOp.addi (extui 32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64) natLt_1_32) (constantI S_ 32 0#32) reducesTo_S16x64_S16_d1 h_S_)) (broadcastInDim S16 ![] bcast_S_S16 (constant S_ .f32 0x40000000#32)))) (constant S_ .f32 0x00000000#32) reducesTo_S16_S_d0 h_S_) (constant S_ .f32 0x3F800000#32))))⟩, ⟨S1, (broadcastInDim S1 ![] bcast_S_S1 (Host.divf (Host.reduceAdd (mulf (Host.divf (Host.reduceAdd (mulf (mulf (Host.sqrt (select (cmpf (F := F) .ogt (Host.reduceAdd (mulf (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32) (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32)) (constant S_ .f32 0x00000000#32) reducesTo_S16x64x32_S16x64_d2 h_S_) (broadcastInDim S16x64 ![] bcast_S_S16x64 (constant S_ .f32 0x00000000#32))) (Host.reduceAdd (mulf (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32) (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32)) (constant S_ .f32 0x00000000#32) reducesTo_S16x64x32_S16x64_d2 h_S_) (broadcastInDim S16x64 ![] bcast_S_S16x64 (id (constant S_ .f32 0x3F800000#32))))) (uitofp (F := F) .f32 (cmpf (F := F) .ogt (Host.reduceAdd (mulf (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32) (shapeCast _ (Host.divf (extractStridedSlice S1024x32 ![0, 0] (Host.scatterAdd scatter_S1025x32_S1048576x1_S1048576x32_1_0_0_1 (broadcastInDim S1025x32 ![] bcast_S_S1025x32 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (mulf (shapeCast _ (m ((c.tc : Thread nD τ).loc main_arg0)) shapeCasts_S16x65536x32_S1048576x32) (broadcastInDim S1048576x32 ![0, 1] bcast_S1048576x1_S1048576x32_0_1 (broadcastInDim S1048576x1 ![0] bcast_S1048576_S1048576x1_0 (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576)))))) slices_S1025x32_S1024x32_0_0) (broadcastInDim S1024x32 ![0, 1] bcast_S1024x1_S1024x32_0_1 (broadcastInDim S1024x1 ![0] bcast_S1024_S1024x1_0 (maximumf (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x3F800000#32)))))) shapeCasts_S1024x32_S16x64x32)) (constant S_ .f32 0x00000000#32) reducesTo_S16x64x32_S16x64_d2 h_S_) (broadcastInDim S16x64 ![] bcast_S_S16x64 (constant S_ .f32 0x00000000#32))))) (uitofp (F := F) .f32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64))) (constant S_ .f32 0x00000000#32) reducesTo_S16x64_S16_d1 h_S_) (maximumf (sitofp (F := F) .f32 (Host.reduce IntOp.addi (extui 32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64) natLt_1_32) (constantI S_ 32 0#32) reducesTo_S16x64_S16_d1 h_S_)) (broadcastInDim S16 ![] bcast_S_S16 (constant S_ .f32 0x3F800000#32)))) (uitofp (F := F) .f32 (cmpf (F := F) .oge (sitofp (F := F) .f32 (Host.reduce IntOp.addi (extui 32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64) natLt_1_32) (constantI S_ 32 0#32) reducesTo_S16x64_S16_d1 h_S_)) (broadcastInDim S16 ![] bcast_S_S16 (constant S_ .f32 0x40000000#32))))) (constant S_ .f32 0x00000000#32) reducesTo_S16_S_d0 h_S_) (maximumf (Host.reduceAdd (uitofp (F := F) .f32 (cmpf (F := F) .oge (sitofp (F := F) .f32 (Host.reduce IntOp.addi (extui 32 (shapeCast _ (cmpf (F := F) .ogt (extractStridedSlice S1024 ![0] (Host.scatterAdd scatter_S1025_S1048576x1_S1048576_n_0_0_1 (broadcastInDim S1025 ![] bcast_S_S1025 (constant S_ .f32 0x00000000#32)) (broadcastInDim S1048576x1 ![0] bcast_S1048576_S1048576x1_0 (shapeCast _ (select (andi (m ((c.tc : Thread nD τ).loc main_arg2)) (cmpi .sge (m ((c.tc : Thread nD τ).loc main_arg1)) (broadcastInDim S16x65536 ![] bcast_S_S16x65536 (constantI S_ 32 0#32)))) (addi (broadcastInDim S16x65536 ![0, 1] bcast_S16x1_S16x65536_0_1 (muli (broadcastInDim S16x1 ![0] bcast_S16_S16x1_0 (iotaInDim S16 32 0)) (broadcastInDim S16x1 ![] bcast_S_S16x1 (constantI S_ 32 64#32)))) (m ((c.tc : Thread nD τ).loc main_arg1))) (broadcastInDim S16x65536 ![] bcast_S_S16x65536 (id (constantI S_ 32 1024#32)))) shapeCasts_S16x65536_S1048576)) (uitofp (F := F) .f32 (shapeCast _ (andi (m ((c.tc : Thread nD τ).loc main_arg2)) (cmpi .sge (m ((c.tc : Thread nD τ).loc main_arg1)) (broadcastInDim S16x65536 ![] bcast_S_S16x65536 (constantI S_ 32 0#32)))) shapeCasts_S16x65536_S1048576))) slices_S1025_S1024_0) (broadcastInDim S1024 ![] bcast_S_S1024 (constant S_ .f32 0x00000000#32))) shapeCasts_S1024_S16x64) natLt_1_32) (constantI S_ 32 0#32) reducesTo_S16x64_S16_d1 h_S_)) (broadcastInDim S16 ![] bcast_S_S16 (constant S_ .f32 0x40000000#32)))) (constant S_ .f32 0x00000000#32) reducesTo_S16_S_d0 h_S_) (constant S_ .f32 0x3F800000#32))))⟩] concatenates_S1_S1_S1_S1_S4_d0

/-- `res_main_v157` by its position among the values @main returns, 0 counting from 0: the name for hand proofs to cite, since
    a re-print renumbers `main_v157`. An abbreviation: it unfolds to the `res_main_v157` that `run` states. -/
abbrev res_out0 (m : (ℓ : Loc nD τ sig) → Buf (Elt F) ℓ) (c : Dev nD) : Buf (Elt F) ((c.tc : Thread nD τ).loc main_v157) := res_main_v157 m c

set_option maxRecDepth 8192 in
set_option maxHeartbeats 8000000 in
/-- The last stage, at the launch contents, is the composed term. -/
theorem stg_main_v157_eq (m : (ℓ : Loc nD τ sig) → Buf (Elt F) ℓ) (c : Dev nD) :
    stg_main_v157 (F := F) (launchContents m c (Proc.devRef .tc main_arg0)) (launchContents m c (Proc.devRef .tc main_arg1)) (launchContents m c (Proc.devRef .tc main_arg2)) = res_main_v157 m c := by
  unfold res_main_v157; rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v157) = res_main_v157 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v157).trans (by simp only [after_ops]; exact (val4_main_v157 (launchContents m c)).trans (stg_main_v157_eq m c)),
      (h c main_arg0).trans (by simp only [after_ops]; exact val4_main_arg0 (launchContents m c)),
      (h c main_arg1).trans (by simp only [after_ops]; exact val4_main_arg1 (launchContents m c)),
      (h c main_arg2).trans (by simp only [after_ops]; exact val4_main_arg2 (launchContents m c))⟩)
    (run_seq scopedRefs_eq scopedSems_eq defs main (fun _ => ops) main_eq (fun _ => ops_sub) m ρ (fun _ => ops_fresh))

end Cert.ReferenceIdeal.ValueP

end
-- ==== Proof.RefTail.lean ====
/-
  The reference program after its three reductions, and its seams.

  The reference reduces the points to three per-instance arrays (the sums of the embeddings, the counts, the sums
  of the pull penalties) and from then on computes on small arrays only. Three values carry everything the rest of
  the program reads — the seams: the means as [16,64,32] (each sum over its count floored at one), the presence
  bits as [16,64] (the count is positive), and the normalised penalties as [16,64] (each penalty sum over the same
  floored count). This module writes the rest of the program as ONE function of the three seams, operation by
  operation in program order, proves that the program's result is that function of its seams, and reads each seam
  at an index over the extended reals: an entry of instance `k` of batch element `b` is the entry of the flat
  row `b · 64 + k` of the reduced arrays.
-/
import proofs.«400001_j6614249636120_4_alg».proof.Proof.RefRead
import proofs.«400001_j6614249636120_4_alg».proof.Proof.Spec
import Idealize.ShloMosaic.Lib.ValueIdx
import Idealize.ShloMosaic.PureOps.Ideal
import Idealize.ShloMosaic.PureOps.Ideal.Laws

noncomputable section

namespace Cert.ReferenceIdeal.RefTail

open Cert.ReferenceIdeal Cert.ReferenceIdeal.Gen Cert.ReferenceIdeal.ReadP Idealize.ShloMosaic Idealize.ShloMosaic.TcCoe Idealize.ShloMosaic.ValueIdx Idealize.SL.Sem Idealize.ShloMosaic.StableHlo

variable {F : FTy → Type} [FloatOps F]

/-! ## The tail -/

/-- The reference program after its three seams — the means `means3` (as [16,64,32]), the presence bits `present` (the
    counts positive, as [16,64]) and the normalised per-instance penalties `pn` (as [16,64]) —, operation by operation in
    program order, each buffer under its number in the program: the number of instances per batch element and which
    batch elements count as samples (%33 … %38); the pull term per batch element (%71 … %76); the push term over the
    ordered pairs of present instances (%78 … %122); the regularisation term (%123 … %136); the three averages over the
    counted batch elements, their weighted total, and the four results side by side (%137 … %157). -/
def tail3R (means3 : FVec F S16x64x32 .f32) (present : IVec S16x64 1) (pn : FVec F S16x64 .f32) : FVec F S4 .f32 :=
  have v33 : IVec S16x64 32 := extui 32 present natLt_1_32                                                  -- %33 = stablehlo.convert %32 : i1 -> i32
  have c_5 : IVec S_ 32 := constantI S_ 32 0#32                                                              -- %c_5 = 0
  have v34 : IVec S16 32 := Host.reduce IntOp.addi v33 c_5 reducesTo_S16x64_S16_d1 h_S_                      -- %34 = reduce add %33 over [1]
  have v35 : FVec F S16 .f32 := sitofp (F := F) .f32 v34                                                     -- %35 = convert %34 : i32 -> f32
  have cst_6 : FVec F S_ .f32 := constant (F := F) S_ .f32 0x40000000#32                                     -- %cst_6 = 2.0
  have v36 : FVec F S16 .f32 := broadcastInDim S16 ![] bcast_S_S16 cst_6                                     -- %36
  have v37 : IVec S16 1 := cmpf (F := F) .oge v35 v36                                                        -- %37 = compare GE %35, %36
  have v38 : FVec F S16 .f32 := uitofp (F := F) .f32 v37                                                     -- %38 = convert %37 : i1 -> f32
  have v71 : FVec F S16x64 .f32 := uitofp (F := F) .f32 present                                              -- %71 = convert %32 : i1 -> f32
  have v72 : FVec F S16x64 .f32 := mulf pn v71                                                               -- %72 = multiply %70, %71
  have cst_17 : FVec F S_ .f32 := constant (F := F) S_ .f32 0x00000000#32                                    -- %cst_17 = 0.0
  have v73 : FVec F S16 .f32 := Host.reduceAdd (F := F) v72 cst_17 reducesTo_S16x64_S16_d1 h_S_              -- %73 = reduce add %72 over [1]
  have cst_18 : FVec F S_ .f32 := constant (F := F) S_ .f32 0x3F800000#32                                    -- %cst_18 = 1.0
  have v74 : FVec F S16 .f32 := broadcastInDim S16 ![] bcast_S_S16 cst_18                                    -- %74
  have v75 : FVec F S16 .f32 := maximumf v35 v74                                                             -- %75 = maximum %35, %74
  have v76 : FVec F S16 .f32 := Host.divf (F := F) v73 v75                                                   -- %76 = divide %73, %75
  have v78 : FVec F S16x64x1x32 .f32 := broadcastInDim S16x64x1x32 ![0, 1, 3] bcast_S16x64x32_S16x64x1x32_0_1_3 means3 -- %78
  have v79 : FVec F S16x1x64x32 .f32 := broadcastInDim S16x1x64x32 ![0, 2, 3] bcast_S16x64x32_S16x1x64x32_0_2_3 means3 -- %79
  have v80 : FVec F S16x64x64x32 .f32 := broadcastInDim S16x64x64x32 ![0, 1, 2, 3] bcast_S16x64x1x32_S16x64x64x32_0_1_2_3 v78 -- %80
  have v81 : FVec F S16x64x64x32 .f32 := broadcastInDim S16x64x64x32 ![0, 1, 2, 3] bcast_S16x1x64x32_S16x64x64x32_0_1_2_3 v79 -- %81
  have v82 : FVec F S16x64x64x32 .f32 := subf v80 v81                                                        -- %82 = subtract %80, %81
  have v83 : FVec F S16x64x64x32 .f32 := mulf v82 v82                                                        -- %83 = multiply %82, %82
  have cst_19 : FVec F S_ .f32 := constant (F := F) S_ .f32 0x00000000#32                                    -- %cst_19 = 0.0
  have v84 : FVec F S16x64x64 .f32 := Host.reduceAdd (F := F) v83 cst_19 reducesTo_S16x64x64x32_S16x64x64_d3 h_S_ -- %84 = reduce add %83 over [3]
  have v85 : IVec S64 32 := iotaInDim S64 32 0                                                               -- %85 = iota
  have v86 : IVec S16x64x1 1 := broadcastInDim S16x64x1 ![0, 1] bcast_S16x64_S16x64x1_0_1 present            -- %86
  have v87 : IVec S16x1x64 1 := broadcastInDim S16x1x64 ![0, 2] bcast_S16x64_S16x1x64_0_2 present            -- %87
  have v88 : IVec S16x64x64 1 := broadcastInDim S16x64x64 ![0, 1, 2] bcast_S16x64x1_S16x64x64_0_1_2 v86      -- %88
  have v89 : IVec S16x64x64 1 := broadcastInDim S16x64x64 ![0, 1, 2] bcast_S16x1x64_S16x64x64_0_1_2 v87      -- %89
  have v90 : IVec S16x64x64 1 := andi v88 v89                                                                -- %90 = and %88, %89
  have v91 : IVec S64x1 32 := broadcastInDim S64x1 ![0] bcast_S64_S64x1_0 v85                                -- %91
  have v92 : IVec S1x64 32 := broadcastInDim S1x64 ![1] bcast_S64_S1x64_1 v85                                -- %92
  have v93 : IVec S64x64 32 := broadcastInDim S64x64 ![0, 1] bcast_S64x1_S64x64_0_1 v91                      -- %93
  have v94 : IVec S64x64 32 := broadcastInDim S64x64 ![0, 1] bcast_S1x64_S64x64_0_1 v92                      -- %94
  have v95 : IVec S64x64 1 := cmpi .slt v93 v94                                                              -- %95 = compare LT %93, %94 (signed)
  have v96 : IVec S1x64x64 1 := broadcastInDim S1x64x64 ![1, 2] bcast_S64x64_S1x64x64_1_2 v95                -- %96
  have v97 : IVec S16x64x64 1 := broadcastInDim S16x64x64 ![0, 1, 2] bcast_S1x64x64_S16x64x64_0_1_2 v96      -- %97
  have v98 : IVec S16x64x64 1 := andi v90 v97                                                                -- %98 = and %90, %97
  have v99 : FVec F S16x64x64 .f32 := uitofp (F := F) .f32 v98                                               -- %99 = convert %98 : i1 -> f32
  have cst_20 : FVec F S_ .f32 := constant (F := F) S_ .f32 0x3F800000#32                                    -- %cst_20 = 1.0
  have call2_v0 : FVec F S_ .f32 := id cst_20                                                                -- the first select's function: %0 = convert %arg2
  have call2_v1 : FVec F S16x64x64 .f32 := broadcastInDim S16x64x64 ![] bcast_S_S16x64x64 call2_v0           --   %1 = broadcast %0
  have v100 : FVec F S16x64x64 .f32 := select v98 v84 call2_v1                                               -- %100: %2 = select %98, %84, %1
  have cst_21 : FVec F S_ .f32 := constant (F := F) S_ .f32 0x00000000#32                                    -- %cst_21 = 0.0
  have v101 : FVec F S16x64x64 .f32 := broadcastInDim S16x64x64 ![] bcast_S_S16x64x64 cst_21                 -- %101
  have v102 : IVec S16x64x64 1 := cmpf (F := F) .ogt v100 v101                                               -- %102 = compare GT %100, %101
  have cst_22 : FVec F S_ .f32 := constant (F := F) S_ .f32 0x3F800000#32                                    -- %cst_22 = 1.0
  have call3_v0 : FVec F S_ .f32 := id cst_22                                                                -- the second select's function: %0 = convert %arg2
  have call3_v1 : FVec F S16x64x64 .f32 := broadcastInDim S16x64x64 ![] bcast_S_S16x64x64 call3_v0           --   %1 = broadcast %0
  have v103 : FVec F S16x64x64 .f32 := select v102 v100 call3_v1                                             -- %103: %2 = select %102, %100, %1
  have v104 : FVec F S16x64x64 .f32 := Host.sqrt (F := F) v103                                               -- %104 = sqrt %103
  have v105 : FVec F S16x64x64 .f32 := uitofp (F := F) .f32 v102                                             -- %105 = convert %102 : i1 -> f32
  have v106 : FVec F S16x64x64 .f32 := mulf v104 v105                                                        -- %106 = multiply %104, %105
  have v107 : FVec F S16x64x64 .f32 := mulf v106 v99                                                         -- %107 = multiply %106, %99
  have cst_23 : FVec F S_ .f32 := constant (F := F) S_ .f32 0x40400000#32                                    -- %cst_23 = 3.0
  have v108 : FVec F S16x64x64 .f32 := broadcastInDim S16x64x64 ![] bcast_S_S16x64x64 cst_23                 -- %108
  have v109 : FVec F S16x64x64 .f32 := subf v108 v107                                                        -- %109 = subtract %108, %107
  have cst_24 : FVec F S_ .f32 := constant (F := F) S_ .f32 0x00000000#32                                    -- %cst_24 = 0.0
  have v110 : FVec F S16x64x64 .f32 := broadcastInDim S16x64x64 ![] bcast_S_S16x64x64 cst_24                 -- %110
  have v111 : FVec F S16x64x64 .f32 := maximumf v109 v110                                                    -- %111 = maximum %109, %110
  have v112 : FVec F S16x64x64 .f32 := mulf v111 v111                                                        -- %112 = multiply %111, %111
  have v113 : FVec F S16x64x64 .f32 := mulf v112 v99                                                         -- %113 = multiply %112, %99
  have cst_25 : FVec F S_ .f32 := constant (F := F) S_ .f32 0x3F800000#32                                    -- %cst_25 = 1.0
  have v114 : FVec F S16 .f32 := broadcastInDim S16 ![] bcast_S_S16 cst_25                                   -- %114
  have v115 : FVec F S16 .f32 := subf v35 v114                                                               -- %115 = subtract %35, %114
  have v116 : FVec F S16 .f32 := mulf v35 v115                                                               -- %116 = multiply %35, %115
  have cst_26 : FVec F S_ .f32 := constant (F := F) S_ .f32 0x40000000#32                                    -- %cst_26 = 2.0
  have v117 : FVec F S16 .f32 := broadcastInDim S16 ![] bcast_S_S16 cst_26                                   -- %117
  have v118 : FVec F S16 .f32 := Host.divf (F := F) v116 v117                                                -- %118 = divide %116, %117
  have cst_27 : FVec F S_ .f32 := constant (F := F) S_ .f32 0x00000000#32                                    -- %cst_27 = 0.0
  have v119 : FVec F S16 .f32 := Host.reduceAdd (F := F) v113 cst_27 reducesTo_S16x64x64_S16_d1_2 h_S_       -- %119 = reduce add %113 over [1, 2]
  have cst_28 : FVec F S_ .f32 := constant (F := F) S_ .f32 0x3F800000#32                                    -- %cst_28 = 1.0
  have v120 : FVec F S16 .f32 := broadcastInDim S16 ![] bcast_S_S16 cst_28                                   -- %120
  have v121 : FVec F S16 .f32 := maximumf v118 v120                                                          -- %121 = maximum %118, %120
  have v122 : FVec F S16 .f32 := Host.divf (F := F) v119 v121                                                -- %122 = divide %119, %121
  have v123 : FVec F S16x64x32 .f32 := mulf means3 means3                                                    -- %123 = multiply %77, %77
  have cst_29 : FVec F S_ .f32 := constant (F := F) S_ .f32 0x00000000#32                                    -- %cst_29 = 0.0
  have v124 : FVec F S16x64 .f32 := Host.reduceAdd (F := F) v123 cst_29 reducesTo_S16x64x32_S16x64_d2 h_S_   -- %124 = reduce add %123 over [2]
  have cst_30 : FVec F S_ .f32 := constant (F := F) S_ .f32 0x00000000#32                                    -- %cst_30 = 0.0
  have v125 : FVec F S16x64 .f32 := broadcastInDim S16x64 ![] bcast_S_S16x64 cst_30                          -- %125
  have v126 : IVec S16x64 1 := cmpf (F := F) .ogt v124 v125                                                  -- %126 = compare GT %124, %125
  have cst_31 : FVec F S_ .f32 := constant (F := F) S_ .f32 0x3F800000#32                                    -- %cst_31 = 1.0
  have call4_v0 : FVec F S_ .f32 := id cst_31                                                                -- the third select's function: %0 = convert %arg2
  have call4_v1 : FVec F S16x64 .f32 := broadcastInDim S16x64 ![] bcast_S_S16x64 call4_v0                    --   %1 = broadcast %0
  have v127 : FVec F S16x64 .f32 := select v126 v124 call4_v1                                                -- %127: %2 = select %126, %124, %1
  have v128 : FVec F S16x64 .f32 := Host.sqrt (F := F) v127                                                  -- %128 = sqrt %127
  have v129 : FVec F S16x64 .f32 := uitofp (F := F) .f32 v126                                                -- %129 = convert %126 : i1 -> f32
  have v130 : FVec F S16x64 .f32 := mulf v128 v129                                                           -- %130 = multiply %128, %129
  have v131 : FVec F S16x64 .f32 := uitofp (F := F) .f32 present                                             -- %131 = convert %32 : i1 -> f32
  have v132 : FVec F S16x64 .f32 := mulf v130 v131                                                           -- %132 = multiply %130, %131
  have cst_32 : FVec F S_ .f32 := constant (F := F) S_ .f32 0x00000000#32                                    -- %cst_32 = 0.0
  have v133 : FVec F S16 .f32 := Host.reduceAdd (F := F) v132 cst_32 reducesTo_S16x64_S16_d1 h_S_            -- %133 = reduce add %132 over [1]
  have cst_33 : FVec F S_ .f32 := constant (F := F) S_ .f32 0x3F800000#32                                    -- %cst_33 = 1.0
  have v134 : FVec F S16 .f32 := broadcastInDim S16 ![] bcast_S_S16 cst_33                                   -- %134
  have v135 : FVec F S16 .f32 := maximumf v35 v134                                                           -- %135 = maximum %35, %134
  have v136 : FVec F S16 .f32 := Host.divf (F := F) v133 v135                                                -- %136 = divide %133, %135
  have cst_34 : FVec F S_ .f32 := constant (F := F) S_ .f32 0x00000000#32                                    -- %cst_34 = 0.0
  have v137 : FVec F S_ .f32 := Host.reduceAdd (F := F) v38 cst_34 reducesTo_S16_S_d0 h_S_                   -- %137 = reduce add %38 over [0]
  have cst_35 : FVec F S_ .f32 := constant (F := F) S_ .f32 0x3F800000#32                                    -- %cst_35 = 1.0
  have v138 : FVec F S_ .f32 := maximumf v137 cst_35                                                         -- %138 = maximum %137, %cst_35
  have v139 : FVec F S16 .f32 := mulf v76 v38                                                                -- %139 = multiply %76, %38
  have cst_36 : FVec F S_ .f32 := constant (F := F) S_ .f32 0x00000000#32                                    -- %cst_36 = 0.0
  have v140 : FVec F S_ .f32 := Host.reduceAdd (F := F) v139 cst_36 reducesTo_S16_S_d0 h_S_                  -- %140 = reduce add %139 over [0]
  have v141 : FVec F S_ .f32 := Host.divf (F := F) v140 v138                                                 -- %141 = divide %140, %138
  have v142 : FVec F S16 .f32 := mulf v122 v38                                                               -- %142 = multiply %122, %38
  have cst_37 : FVec F S_ .f32 := constant (F := F) S_ .f32 0x00000000#32                                    -- %cst_37 = 0.0
  have v143 : FVec F S_ .f32 := Host.reduceAdd (F := F) v142 cst_37 reducesTo_S16_S_d0 h_S_                  -- %143 = reduce add %142 over [0]
  have v144 : FVec F S_ .f32 := Host.divf (F := F) v143 v138                                                 -- %144 = divide %143, %138
  have v145 : FVec F S16 .f32 := mulf v136 v38                                                               -- %145 = multiply %136, %38
  have cst_38 : FVec F S_ .f32 := constant (F := F) S_ .f32 0x00000000#32                                    -- %cst_38 = 0.0
  have v146 : FVec F S_ .f32 := Host.reduceAdd (F := F) v145 cst_38 reducesTo_S16_S_d0 h_S_                  -- %146 = reduce add %145 over [0]
  have v147 : FVec F S_ .f32 := Host.divf (F := F) v146 v138                                                 -- %147 = divide %146, %138
  have cst_39 : FVec F S_ .f32 := constant (F := F) S_ .f32 0x3F800000#32                                    -- %cst_39 = 1.0
  have v148 : FVec F S_ .f32 := mulf cst_39 v141                                                             -- %148 = multiply %cst_39, %141
  have cst_40 : FVec F S_ .f32 := constant (F := F) S_ .f32 0x3F800000#32                                    -- %cst_40 = 1.0
  have v149 : FVec F S_ .f32 := mulf cst_40 v144                                                             -- %149 = multiply %cst_40, %144
  have v150 : FVec F S_ .f32 := addf v148 v149                                                               -- %150 = add %148, %149
  have cst_41 : FVec F S_ .f32 := constant (F := F) S_ .f32 0x3A83126F#32                                    -- %cst_41 = 0.001
  have v151 : FVec F S_ .f32 := mulf cst_41 v147                                                             -- %151 = multiply %cst_41, %147
  have v152 : FVec F S_ .f32 := addf v150 v151                                                               -- %152 = add %150, %151
  have v153 : FVec F S1 .f32 := broadcastInDim S1 ![] bcast_S_S1 v152                                        -- %153
  have v154 : FVec F S1 .f32 := broadcastInDim S1 ![] bcast_S_S1 v141                                        -- %154
  have v155 : FVec F S1 .f32 := broadcastInDim S1 ![] bcast_S_S1 v144                                        -- %155
  have v156 : FVec F S1 .f32 := broadcastInDim S1 ![] bcast_S_S1 v147                                        -- %156
  concatenate S4 0 [⟨S1, v153⟩, ⟨S1, v154⟩, ⟨S1, v155⟩, ⟨S1, v156⟩] concatenates_S1_S1_S1_S1_S4_d0           -- %157 = concatenate %153, %154, %155, %156

section Result
attribute [local irreducible] val_main_v77 val_main_v32 val_main_v70

/-- The reference's result is the tail of its three seams: between them and the result the program is exactly the
    operations of `tail3R`, in the same order. -/
theorem result_eq (a0 : FVec F S16x65536x32 .f32) (a1 : IVec S16x65536 32) (a2 : IVec S16x65536 1) :
    val_main_v157 (F := F) a0 a1 a2
      = tail3R (val_main_v77 (F := F) a0 a1 a2) (val_main_v32 (F := F) a1 a2) (val_main_v70 (F := F) a0 a1 a2) := rfl

end Result

/-! ## The seams at an index, over the extended reals -/

/-- The flat row of instance `k` of batch element `b`: the reductions are indexed by `b · 64 + k`. -/
abbrev flatRow (b : Fin 16) (k : Fin 64) : Fin 1024 := ⟨b.val * 64 + k.val, by have := b.isLt; have := k.isLt; omega⟩

section Seams
attribute [local irreducible] val_main_v20 val_main_v24 val_main_v66

/-- The means, flat: the per-instance sum of a coordinate over the instance's count floored at one. -/
theorem v29_apply (a0 : FVec Ideal S16x65536x32 .f32) (a1 : IVec S16x65536 32) (a2 : IVec S16x65536 1) (b : Fin 16) (k : Fin 64) (d : Fin 32) :
    val_main_v29 (F := Ideal) a0 a1 a2 (ix2 (flatRow b k) d)
      = Cert.Spec.perCount (val_main_v20 (F := Ideal) a0 a1 a2 (ix2 (flatRow b k) d)) (val_main_v24 (F := Ideal) a1 a2 (ix1 (flatRow b k))) := by
  rw [val_main_v29_apply, val_main_v28_apply, val_main_v27_apply, val_main_v26_apply, val_main_v25_apply, val_main_cst_3_apply]
  have hi : idx_main_v27 (idx_main_v28 (ix2 (flatRow b k) d)) = ix1 (flatRow b k) := funext fun a => match a with | ⟨0, _⟩ => rfl
  rw [hi]
  rfl

/-- The means as [16,64,32]: entry `(b, k, d)` is entry `(b · 64 + k, d)` of the flat means. -/
theorem v77_apply (a0 : FVec Ideal S16x65536x32 .f32) (a1 : IVec S16x65536 32) (a2 : IVec S16x65536 1) (b : Fin 16) (k : Fin 64) (d : Fin 32) :
    val_main_v77 (F := Ideal) a0 a1 a2 (ix3 b k d)
      = Cert.Spec.perCount (val_main_v20 (F := Ideal) a0 a1 a2 (ix2 (flatRow b k) d)) (val_main_v24 (F := Ideal) a1 a2 (ix1 (flatRow b k))) := by
  rw [val_main_v77_apply]
  have hi : idx_main_v77 (ix3 b k d) = ix2 (flatRow b k) d := funext fun a => match a with
    | ⟨0, _⟩ => Fin.ext (by show ((b.val * 64 + k.val) * 32 + d.val) / 32 = b.val * 64 + k.val; have := d.isLt; omega)
    | ⟨1, _⟩ => Fin.ext (by show ((b.val * 64 + k.val) * 32 + d.val) % 32 = d.val; have := d.isLt; omega)
  rw [hi]
  exact v29_apply a0 a1 a2 b k d

/-- The presence bit of instance `(b, k)`: its count is positive. -/
theorem v32_apply (a1 : IVec S16x65536 32) (a2 : IVec S16x65536 1) (b : Fin 16) (k : Fin 64) :
    val_main_v32 (F := Ideal) a1 a2 (ix2 b k)
      = Ideal.cmp .ogt (val_main_v24 (F := Ideal) a1 a2 (ix1 (flatRow b k))) (Ideal.ofBits .f32 0x00000000#32) := by
  rw [val_main_v32_apply, val_main_v31_apply, val_main_v30_apply, val_main_cst_4_apply]
  have hi : idx_main_v32 (ix2 b k) = ix1 (flatRow b k) := funext fun a => match a with | ⟨0, _⟩ => rfl
  rw [hi]
  rfl

/-- The normalised penalty of instance `(b, k)`: its penalty sum over its count floored at one. -/
theorem v70_apply (a0 : FVec Ideal S16x65536x32 .f32) (a1 : IVec S16x65536 32) (a2 : IVec S16x65536 1) (b : Fin 16) (k : Fin 64) :
    val_main_v70 (F := Ideal) a0 a1 a2 (ix2 b k)
      = Cert.Spec.perCount (val_main_v66 (F := Ideal) a0 a1 a2 (ix1 (flatRow b k))) (val_main_v24 (F := Ideal) a1 a2 (ix1 (flatRow b k))) := by
  rw [val_main_v70_apply, val_main_v69_apply, val_main_v68_apply, val_main_v67_apply, val_main_cst_16_apply]
  have hi : idx_main_v70 (ix2 b k) = ix1 (flatRow b k) := funext fun a => match a with | ⟨0, _⟩ => rfl
  rw [hi]
  rfl

end Seams

end Cert.ReferenceIdeal.RefTail

end
-- ==== Proof.LibScatterSum.lean ====
/-
  THE ACCUMULATING ROW SCATTER READ AT AN INDEX, AND THE EXTENDED-REAL ALGEBRA AROUND IT.

  What `x.at[idx].add(upd)` (a segment sum) of a rank-2 operand `x : [N, C]` at a vector of row indices lowers to: a
  `stablehlo.scatter` with an `add` body, update_window_dims `[1]`, inserted_window_dims `[0]`,
  scatter_dims_to_operand_dims `[0]`, index_vector_dim `1`, over the indices kept as an `[n, 1]` column and updates
  `[n, C]`. Update row `e` lands on operand row `idx[e, 0]`, the start index read as a SIGNED integer and NOT clamped:
  a row index that is negative or at least `N` names no row, and that update row contributes nothing. At the exact
  (extended-real) instance the result at `(j, q)` is therefore `x[j, q]` plus the sum of `upd[e, q]` over the update
  rows `e` whose index is `j`.

  • `rowScatterDims N C n wf` is the record of those dimension numbers, a literal structure so that every list lookup in
    the result index computes; `rowScatter_start0` / `_start1` / `_window0` / `_window1` read the start and the window
    coordinate of update index `(e, q')` on the operand's two axes (`idx[e, 0]` signed and `0`; `0` and `q'`);
    `rowScatter_resultIdx?_eq_some_iff` says update index `(e, q')` lands on `(j, q)` exactly when `idx[e, 0] = j` as
    integers and `q' = q`; `rowScatterAdd_apply` is the read, and `rowHostScatterAdd_apply` the same read of the host's
    `Host.scatterAdd` at the exact instance (which is that sum by definition).
  • `vecScatterDims N n wf`, `vecScatter_resultIdx?_eq_some_iff`, `vecScatterAdd_apply`, `vecHostScatterAdd_apply`: the same for a rank-1 operand
    `[N]` with updates `[n]` (update_window_dims `[]`): the result at `j` is `x[j]` plus the sum of `upd[e]` over the
    `e` with `idx[e, 0] = j`.
  • `sum_mul_coe_of_nonneg`: multiplication by a nonnegative REAL distributes over every finite sum of extended reals,
    infinities of both signs included (for `r = 0` both sides are `0`; for `r > 0` multiplication by `r` keeps `⊤` and
    `⊥` and so commutes with the convention `⊤ + ⊥ = ⊥`); `add_mul_coe_of_nonneg` is the two-term form, and
    `coe_mul_sum_of_nonneg` / `coe_mul_add_of_nonneg'` the same with the real on the left.
  • `zero_add_sum_one`: `0` plus a sum of ones over a finite set is the set's cardinality, a natural number, so neither
    infinity; `rsqrt_natCast_pos`: the reciprocal square root of a positive natural number is a nonnegative real;
    `rsqrt_natCast_or_zero`: so is "the reciprocal square root where the number is positive, else `0`".

  The lemmas are general in `N`, `C`, `n` and the index width `w`; the conditions `wf` on the dimension numbers are
  decided on a program's literal shapes.
-/
import Idealize.ShloMosaic.PureOps.Ideal
import Idealize.ShloMosaic.Lib.ValueIdx
import Mathlib.Data.EReal.Operations
noncomputable section
namespace Idealize.ShloMosaic.ScatterSum
open Idealize.ShloMosaic Idealize.ShloMosaic.ValueIdx
open scoped BigOperators

/-! ## The rank-2 row scatter -/

/-- The dimension numbers of an accumulating row scatter into an [N, C] operand at an [n, 1] column of row indices,
    with updates [n, C]. -/
abbrev rowScatterDims (N C n : Nat)
    (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

section Row
variable {N C n w : Nat} (wf : ScatterDims.WF ⟨2, ![N, C]⟩ ⟨2, ![n, 1]⟩ ⟨2, ![n, C]⟩ [1] [0] [0] 1)

/-- On the operand's row axis the window of update index (e, q') starts at the signed row index idx[e, 0]. -/
theorem rowScatter_start0 (idx : IVec ⟨2, ![n, 1]⟩ w) (e : Fin n) (q' : Fin C) :
    (rowScatterDims N C n wf).start (ix2 e q') idx 0 = (idx (ix2 e (0 : Fin 1))).toInt := by
  unfold ScatterDims.start
  rw [dif_pos (show (0 : Fin 2) ∈ (rowScatterDims N C n wf).scatterDimsToOperandDims from List.mem_singleton.mpr rfl)]
  -- the start index's one component is read at (e, 0): the update's scatter coordinate e on the scatter indices'
  -- axis 0, the component's number 0 on the index vector's axis 1
  have hsi : (rowScatterDims N C n wf).siIdx (ix2 e q')
      ⟨List.idxOf (0 : Fin 2) (rowScatterDims N C n wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's column axis, which the scatter indices do not address, the window starts at 0. -/
theorem rowScatter_start1 (idx : IVec ⟨2, ![n, 1]⟩ w) (e : Fin n) (q' : Fin C) :
    (rowScatterDims N C n wf).start (ix2 e q') idx 1 = 0 := by
  rfl

/-- The row axis is an inserted window axis: the window coordinate on it is 0. -/
theorem rowScatter_window0 (e : Fin n) (q' : Fin C) :
    (rowScatterDims N C n wf).window (ix2 e q') 0 = 0 := by
  rfl

/-- The column axis is the one window axis: the window coordinate on it is the update's column q'. -/
theorem rowScatter_window1 (e : Fin n) (q' : Fin C) :
    (rowScatterDims N C n wf).window (ix2 e q') 1 = q'.val := by
  rfl

/-- Update index (e, q') lands on operand index (j, q) exactly when the signed row index idx[e, 0] is j and the
    columns agree. -/
theorem rowScatter_resultIdx?_eq_some_iff (idx : IVec ⟨2, ![n, 1]⟩ w) (e : Fin n) (q' : Fin C) (j : Fin N) (q : Fin C) :
    (rowScatterDims N C n wf).resultIdx? (ix2 e q') idx = some (ix2 j q)
      ↔ (idx (ix2 e (0 : Fin 1))).toInt = (j.val : ℤ) ∧ q' = q := by
  unfold ScatterDims.resultIdx?
  split
  · rename_i h
    -- the update is inside the operand: compare the landing index with (j, q) coordinate by coordinate
    rw [Option.some.injEq]
    have h0 := (h 0).1
    rw [rowScatter_start0, rowScatter_window0] at h0
    constructor
    · intro hf
      have e0 := congrArg (fun f => (f 0).val) hf
      have e1 := congrArg (fun f => (f 1).val) hf
      simp only [rowScatter_start0, rowScatter_start1, rowScatter_window0, rowScatter_window1] at e0 e1
      have e0' : ((idx (ix2 e (0 : Fin 1))).toInt + ((0 : ℕ) : ℤ)).toNat = j.val := e0
      have e1' : ((0 : ℤ) + (q'.val : ℤ)).toNat = q.val := e1
      exact ⟨by omega, Fin.ext (by omega)⟩
    · rintro ⟨hj, rfl⟩
      funext a; refine Fin.ext ?_
      match a with
      | ⟨0, _⟩ =>
        show ((rowScatterDims N C n wf).start (ix2 e q') idx 0 + ((rowScatterDims N C n wf).window (ix2 e q') 0 : ℕ)).toNat = j.val
        rw [rowScatter_start0, rowScatter_window0]; omega
      | ⟨1, _⟩ =>
        show ((rowScatterDims N C n wf).start (ix2 e q') idx 1 + ((rowScatterDims N C n wf).window (ix2 e q') 1 : ℕ)).toNat = q'.val
        rw [rowScatter_start1, rowScatter_window1]; omega
  · rename_i h
    -- the update is dropped: then its row index is not j, for j is a row of the operand and q' a column
    constructor
    · intro hf; exact absurd hf (by simp)
    · rintro ⟨hj, rfl⟩
      refine absurd (fun a => ?_) h
      match a with
      | ⟨0, _⟩ =>
        show 0 ≤ (rowScatterDims N C n wf).start (ix2 e q') idx 0 + ((rowScatterDims N C n wf).window (ix2 e q') 0 : ℕ)
          ∧ (rowScatterDims N C n wf).start (ix2 e q') idx 0 + ((rowScatterDims N C n wf).window (ix2 e q') 0 : ℕ) < (N : ℤ)
        rw [rowScatter_start0, rowScatter_window0]
        have := j.isLt; omega
      | ⟨1, _⟩ =>
        show 0 ≤ (rowScatterDims N C n wf).start (ix2 e q') idx 1 + ((rowScatterDims N C n wf).window (ix2 e q') 1 : ℕ)
          ∧ (rowScatterDims N C n wf).start (ix2 e q') idx 1 + ((rowScatterDims N C n wf).window (ix2 e q') 1 : ℕ) < (C : ℤ)
        rw [rowScatter_start1, rowScatter_window1]
        have := q'.isLt; omega

/-- The accumulating row scatter read at (j, q): the operand there plus the sum of the updates' column q over the
    update rows whose signed row index is j. -/
theorem rowScatterAdd_apply (x : (⟨2, ![N, C]⟩ : Shape).Idx → EReal) (idx : IVec ⟨2, ![n, 1]⟩ w)
    (upd : (⟨2, ![n, C]⟩ : Shape).Idx → EReal) (j : Fin N) (q : Fin C) :
    Ideal.hostScatterAdd (rowScatterDims N C n wf) x idx upd (ix2 j q)
      = x (ix2 j q) + ∑ e ∈ Finset.univ.filter (fun e : Fin n => (idx (ix2 e (0 : Fin 1))).toInt = (j.val : ℤ)),
          upd (ix2 e q) := by
  unfold Ideal.hostScatterAdd
  congr 1
  -- the update indices landing on (j, q) are the (e, q) with idx[e, 0] = j: re-index the sum by the update row e
  have key : ∀ u : (⟨2, ![n, C]⟩ : Shape).Idx,
      u ∈ Finset.univ.filter (fun u => (rowScatterDims N C n wf).resultIdx? u idx = some (ix2 j q)) →
      ∃ a : Fin n, u = ix2 a q ∧ (idx (ix2 a (0 : Fin 1))).toInt = (j.val : ℤ) := by
    intro u hu
    obtain ⟨a, b, rfl⟩ : ∃ (a : Fin n) (b : Fin C), u = ix2 a b := ⟨u 0, u 1, eq_ix2 u⟩
    have hu' := (rowScatter_resultIdx?_eq_some_iff wf idx a b j q).mp (Finset.mem_filter.mp hu).2
    exact ⟨a, by rw [hu'.2], hu'.1⟩
  refine Finset.sum_nbij' (fun u => (u 0 : Fin n)) (fun e => ix2 e q) ?_ ?_ ?_ ?_ ?_
  · intro u hu
    obtain ⟨a, rfl, ha⟩ := key u hu
    exact Finset.mem_filter.mpr ⟨Finset.mem_univ _, ha⟩
  · intro e he
    exact Finset.mem_filter.mpr ⟨Finset.mem_univ _,
      (rowScatter_resultIdx?_eq_some_iff wf idx e q j q).mpr ⟨(Finset.mem_filter.mp he).2, rfl⟩⟩
  · intro u hu
    obtain ⟨a, rfl, _⟩ := key u hu
    rfl
  · intro e _; rfl
  · intro u hu
    obtain ⟨a, rfl, _⟩ := key u hu
    rfl

/-- The host's accumulating row scatter at the exact instance, at any float format, read at (j, q): by definition it
    is the exact sum above. -/
theorem rowHostScatterAdd_apply {φ : FTy} (x : FVec Ideal ⟨2, ![N, C]⟩ φ) (idx : IVec ⟨2, ![n, 1]⟩ w)
    (upd : FVec Ideal ⟨2, ![n, C]⟩ φ) (j : Fin N) (q : Fin C) :
    Host.scatterAdd (rowScatterDims N C n wf) x idx upd (ix2 j q)
      = x (ix2 j q) + ∑ e ∈ Finset.univ.filter (fun e : Fin n => (idx (ix2 e (0 : Fin 1))).toInt = (j.val : ℤ)),
          upd (ix2 e q) :=
  rowScatterAdd_apply wf x idx upd j q
end Row

/-! ## The rank-1 scatter -/

/-- The dimension numbers of an accumulating scatter into an [N] operand at an [n, 1] column of indices, with
    updates [n]. -/
abbrev vecScatterDims (N n : Nat)
    (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

section Vec
variable {N n w : Nat} (wf : ScatterDims.WF ⟨1, ![N]⟩ ⟨2, ![n, 1]⟩ ⟨1, ![n]⟩ [] [0] [0] 1)

/-- The window of update index e starts at the signed index idx[e, 0]. -/
theorem vecScatter_start0 (idx : IVec ⟨2, ![n, 1]⟩ w) (e : Fin n) :
    (vecScatterDims N n wf).start (ix1 e) idx 0 = (idx (ix2 e (0 : Fin 1))).toInt := by
  unfold ScatterDims.start
  rw [dif_pos (show (0 : Fin 1) ∈ (vecScatterDims N n wf).scatterDimsToOperandDims from List.mem_singleton.mpr rfl)]
  -- the start index's one component is read at (e, 0)
  have hsi : (vecScatterDims N n wf).siIdx (ix1 e)
      ⟨List.idxOf (0 : Fin 1) (vecScatterDims N n wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted window axis: the window coordinate on it is 0. -/
theorem vecScatter_window0 (e : Fin n) : (vecScatterDims N n wf).window (ix1 e) 0 = 0 := by
  rfl

/-- Update index e lands on operand index j exactly when the signed index idx[e, 0] is j. -/
theorem vecScatter_resultIdx?_eq_some_iff (idx : IVec ⟨2, ![n, 1]⟩ w) (e : Fin n) (j : Fin N) :
    (vecScatterDims N n wf).resultIdx? (ix1 e) idx = some (ix1 j)
      ↔ (idx (ix2 e (0 : Fin 1))).toInt = (j.val : ℤ) := by
  unfold ScatterDims.resultIdx?
  split
  · rename_i h
    -- the update is inside the operand: compare the landing index with j
    rw [Option.some.injEq]
    have h0 := (h 0).1
    rw [vecScatter_start0, vecScatter_window0] at h0
    constructor
    · intro hf
      have e0 := congrArg (fun f => (f 0).val) hf
      simp only [vecScatter_start0, vecScatter_window0] at e0
      have e0' : ((idx (ix2 e (0 : Fin 1))).toInt + ((0 : ℕ) : ℤ)).toNat = j.val := e0
      omega
    · intro hj
      funext a; refine Fin.ext ?_
      match a with
      | ⟨0, _⟩ =>
        show ((vecScatterDims N n wf).start (ix1 e) idx 0 + ((vecScatterDims N n wf).window (ix1 e) 0 : ℕ)).toNat = j.val
        rw [vecScatter_start0, vecScatter_window0]; omega
  · rename_i h
    -- the update is dropped: then its index is not j, for j is inside the operand
    constructor
    · intro hf; exact absurd hf (by simp)
    · intro hj
      refine absurd (fun a => ?_) h
      match a with
      | ⟨0, _⟩ =>
        show 0 ≤ (vecScatterDims N n wf).start (ix1 e) idx 0 + ((vecScatterDims N n wf).window (ix1 e) 0 : ℕ)
          ∧ (vecScatterDims N n wf).start (ix1 e) idx 0 + ((vecScatterDims N n wf).window (ix1 e) 0 : ℕ) < (N : ℤ)
        rw [vecScatter_start0, vecScatter_window0]
        have := j.isLt; omega

/-- The accumulating scatter read at j: the operand there plus the sum of the updates whose signed index is j. -/
theorem vecScatterAdd_apply (x : (⟨1, ![N]⟩ : Shape).Idx → EReal) (idx : IVec ⟨2, ![n, 1]⟩ w)
    (upd : (⟨1, ![n]⟩ : Shape).Idx → EReal) (j : Fin N) :
    Ideal.hostScatterAdd (vecScatterDims N n wf) x idx upd (ix1 j)
      = x (ix1 j) + ∑ e ∈ Finset.univ.filter (fun e : Fin n => (idx (ix2 e (0 : Fin 1))).toInt = (j.val : ℤ)),
          upd (ix1 e) := by
  unfold Ideal.hostScatterAdd
  congr 1
  -- the update indices landing on j are the e with idx[e, 0] = j
  have key : ∀ u : (⟨1, ![n]⟩ : Shape).Idx,
      u ∈ Finset.univ.filter (fun u => (vecScatterDims N n wf).resultIdx? u idx = some (ix1 j)) →
      ∃ a : Fin n, u = ix1 a ∧ (idx (ix2 a (0 : Fin 1))).toInt = (j.val : ℤ) := by
    intro u hu
    obtain ⟨a, rfl⟩ : ∃ a : Fin n, u = ix1 a := ⟨u 0, eq_ix1 u⟩
    exact ⟨a, rfl, (vecScatter_resultIdx?_eq_some_iff wf idx a j).mp (Finset.mem_filter.mp hu).2⟩
  refine Finset.sum_nbij' (fun u => (u 0 : Fin n)) (fun e => ix1 e) ?_ ?_ ?_ ?_ ?_
  · intro u hu
    obtain ⟨a, rfl, ha⟩ := key u hu
    exact Finset.mem_filter.mpr ⟨Finset.mem_univ _, ha⟩
  · intro e he
    exact Finset.mem_filter.mpr ⟨Finset.mem_univ _,
      (vecScatter_resultIdx?_eq_some_iff wf idx e j).mpr (Finset.mem_filter.mp he).2⟩
  · intro u hu
    obtain ⟨a, rfl, _⟩ := key u hu
    rfl
  · intro e _; rfl
  · intro u hu
    obtain ⟨a, rfl, _⟩ := key u hu
    rfl

/-- The host's accumulating rank-1 scatter at the exact instance, at any float format, read at j. -/
theorem vecHostScatterAdd_apply {φ : FTy} (x : FVec Ideal ⟨1, ![N]⟩ φ) (idx : IVec ⟨2, ![n, 1]⟩ w)
    (upd : FVec Ideal ⟨1, ![n]⟩ φ) (j : Fin N) :
    Host.scatterAdd (vecScatterDims N n wf) x idx upd (ix1 j)
      = x (ix1 j) + ∑ e ∈ Finset.univ.filter (fun e : Fin n => (idx (ix2 e (0 : Fin 1))).toInt = (j.val : ℤ)),
          upd (ix1 e) :=
  vecScatterAdd_apply wf x idx upd j
end Vec

/-! ## Multiplication by a nonnegative real distributes over extended-real sums -/

/-- (a + b) · r = a · r + b · r for a real r ≥ 0 and any extended reals a, b. -/
theorem add_mul_coe_of_nonneg {r : ℝ} (hr : 0 ≤ r) (a b : EReal) :
    (a + b) * (r : EReal) = a * (r : EReal) + b * (r : EReal) := by
  exact EReal.right_distrib_of_nonneg_of_ne_top (EReal.coe_nonneg.mpr hr) (EReal.coe_ne_top r) a b

/-- r · (a + b) = r · a + r · b for a real r ≥ 0 and any extended reals a, b. -/
theorem coe_mul_add_of_nonneg' {r : ℝ} (hr : 0 ≤ r) (a b : EReal) :
    (r : EReal) * (a + b) = (r : EReal) * a + (r : EReal) * b := by
  exact EReal.left_distrib_of_nonneg_of_ne_top (EReal.coe_nonneg.mpr hr) (EReal.coe_ne_top r) a b

/-- (∑ f i) · r = ∑ (f i · r) for a real r ≥ 0 and any finite family of extended reals. -/
theorem sum_mul_coe_of_nonneg {ι : Type*} {r : ℝ} (hr : 0 ≤ r) (s : Finset ι) (f : ι → EReal) :
    (∑ i ∈ s, f i) * (r : EReal) = ∑ i ∈ s, f i * (r : EReal) := by
  classical
  induction s using Finset.induction_on with
  | empty => simp
  | insert a s ha ih => rw [Finset.sum_insert ha, Finset.sum_insert ha, add_mul_coe_of_nonneg hr, ih]

/-- r · (∑ f i) = ∑ (r · f i) for a real r ≥ 0 and any finite family of extended reals. -/
theorem coe_mul_sum_of_nonneg {ι : Type*} {r : ℝ} (hr : 0 ≤ r) (s : Finset ι) (f : ι → EReal) :
    (r : EReal) * (∑ i ∈ s, f i) = ∑ i ∈ s, (r : EReal) * f i := by
  classical
  induction s using Finset.induction_on with
  | empty => simp
  | insert a s ha ih => rw [Finset.sum_insert ha, Finset.sum_insert ha, coe_mul_add_of_nonneg' hr, ih]

/-! ## Counting sums and their reciprocal square roots -/

/-- 0 plus a sum of ones over a finite set is the set's cardinality. -/
theorem zero_add_sum_one {ι : Type*} (s : Finset ι) :
    (0 : EReal) + ∑ _e ∈ s, (1 : EReal) = ((s.card : ℝ) : EReal) := by
  rw [zero_add, Finset.sum_const, nsmul_one]
  rfl

/-- The reciprocal square root of a positive natural number is a nonnegative real. -/
theorem rsqrt_natCast_pos {k : ℕ} (hk : 0 < k) :
    ∃ r : ℝ, 0 ≤ r ∧ Ideal.rsqrt ((k : ℝ) : EReal) = (r : EReal) := by
  have hk' : (0 : ℝ) < (k : ℝ) := by exact_mod_cast hk
  refine ⟨(Real.sqrt (k : ℝ))⁻¹, inv_nonneg.mpr (Real.sqrt_nonneg _), ?_⟩
  rw [Ideal.rsqrt_coe, if_neg (not_lt.mpr hk'.le), if_neg hk'.ne']

/-- "The reciprocal square root where the natural number is positive, else 0" is a nonnegative real. -/
theorem rsqrt_natCast_or_zero (k : ℕ) :
    ∃ r : ℝ, 0 ≤ r ∧ (if (0 : EReal) < ((k : ℝ) : EReal) then Ideal.rsqrt ((k : ℝ) : EReal) else 0) = (r : EReal) := by
  rcases Nat.eq_zero_or_pos k with rfl | hk
  · exact ⟨0, le_rfl, by simp⟩
  · obtain ⟨r, hr, h⟩ := rsqrt_natCast_pos hk
    have hk' : (0 : ℝ) < (k : ℝ) := by exact_mod_cast hk
    exact ⟨r, hr, by rw [if_pos (by exact_mod_cast hk'), h]⟩

end Idealize.ShloMosaic.ScatterSum
end
-- ==== Proof.LibRowGather.lean ====
/-
  THE ROW GATHER READ AT AN INDEX. What `table[idx]` of a rank-2 table `table : [N, C]` at a vector of row indices
  lowers to: a `stablehlo.gather` with offset_dims `[1]`, collapsed_slice_dims `[0]`, start_index_map `[0]`,
  index_vector_dim `1` and slice_sizes `[1, C]`, over the indices kept as an `[n, 1]` column. Its result is `[n, C]`,
  and the element at `(p, q)` is the table's at `(row, q)`, where `row` is the start index `idx[p, 0]` read as a SIGNED
  integer and CLAMPED into `[0, N − 1]` (StableHLO clamps every start index so that the slice fits; here the slice is
  one row, so the clamp is to the last row): a negative index reads row `0`, one past the end reads row `N − 1`.

  `rowDims` is the record of those dimension numbers, written as a literal structure so that every list lookup in the
  gather's operand index computes; `rowGather_apply` is the read. The lemma is general in `N`, `C`, `n`, the index
  width `w` and the element type; the conditions `wf` on the dimension numbers are decided on a program's literal
  shapes. This is the rank-2 companion of `ValueIdx.gather_take_apply` (a rank-1 table).
-/
import Idealize.ShloMosaic.PureOps.Ideal
import Idealize.ShloMosaic.Lib.ValueIdx
noncomputable section
namespace Idealize.ShloMosaic.RowGather
open Idealize.ShloMosaic Idealize.ShloMosaic.ValueIdx

/-- The dimension numbers of a row gather out of an [N, C] table at an [n, 1] column of row indices. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row gather read at (p, q): the table at the clamped signed start index of row p, column q. -/
theorem rowGather_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 (⟨min (idx (ix2 p (0 : Fin 1))).toInt.toNat (N - 1), by omega⟩ : Fin N) q) := by
  -- the gather reads the operand at its operand index: compare the two indices axis by axis, as naturals
  unfold Host.gather
  congr 1
  funext a
  refine Fin.ext ?_
  match a with
  | ⟨0, _⟩ =>
    -- AXIS 0, collapsed and start-indexed: no batching coordinate (no batching axes), no offset coordinate (a collapsed
    -- axis is not a kept one), so the operand coordinate is the clamped start alone
    show (rowDims N C n wf).start (ix2 p q) idx 0 + (rowDims N C n wf).batchCoord (ix2 p q) 0
        + (rowDims N C n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    -- the start index's one component is read at (p, 0): the result's batch coordinate p on the start indices' axis 0,
    -- the component's number 0 on the index vector's axis 1
    have hsi : (rowDims N C n wf).siIdx (ix2 p q) ⟨List.idxOf (0 : Fin 2) (rowDims N C n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    -- the clamp's upper end: the axis's extent N less the slice size 1
    rfl
  | ⟨1, _⟩ =>
    -- AXIS 1, an offset axis: the start index map does not name it, so the start is 0; there is no batching
    -- coordinate; it is the operand's one kept axis, read by the result's one offset axis, whose coordinate is q
    show (rowDims N C n wf).start (ix2 p q) idx 1 + (rowDims N C n wf).batchCoord (ix2 p q) 1
        + (rowDims N C n wf).offCoord (ix2 p q) 1 = q.val
    have hk : (1 : Fin 2) ∈ (rowDims N C n wf).sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start GatherDims.offCoord
    rw [dif_neg (show (1 : Fin 2) ∉ (rowDims N C n wf).startIndexMap by
      show (1 : Fin 2) ∉ [(0 : Fin 2)]; decide), dif_pos hk]
    simp only [Nat.zero_add]
    rfl
end Idealize.ShloMosaic.RowGather
end
-- ==== Proof.RefValue.lean ====
/-
  THE REFERENCE'S THREE SEGMENT SUMS, READ AT A SEGMENT.

  The reference flattens the points of all batch elements into one axis: point n of batch element b is the flat
  point b · 65536 + n. Each flat point carries a segment word: b · 64 + id where the point is valid (its mask bit
  is set and its id is non-negative), and 1024 where it is not. Three accumulating scatters over the 1025 segments
  then sum, per segment, the weighted embeddings, the weights, and the weighted pull penalties, and each result is
  cut down to the first 1024 segments.

  With every id below 64, a valid point's segment b · 64 + id is below 1024 and determines both b and id, and 1024
  is no such number; so the flat points whose segment is b' · 64 + k are exactly the points of batch element b'
  whose mask bit is set and whose id is the word k. A sum over the flat points splits into the double sum over
  batch elements and their points, the terms of the other batch elements vanish, and a point that belongs to an
  instance has weight one. This gives the three scatters at segment b · 64 + k as the sums, over the points of b
  that belong to k, of the embedding's coordinate, of one, and of the point's pull penalty.

  For the penalty of a point that belongs to (b, k): the mean row gathered for it is row min(segment, 1023) =
  b · 64 + k of the means table (the wrap of a negative start index is not taken), the squared distance is the sum
  over the 32 coordinates of the squared differences, and the chain compare / select / square root / convert /
  multiply / subtract / maximum / square is the penalty function of the squared distance.
-/
import proofs.«400001_j6614249636120_4_alg».proof.Proof.RefRead
import proofs.«400001_j6614249636120_4_alg».proof.Proof.Spec
import proofs.«400001_j6614249636120_4_alg».proof.Proof.LibScatterSum
import proofs.«400001_j6614249636120_4_alg».proof.Proof.LibRowGather
import Idealize.ShloMosaic.Lib.ValueIdx
import Idealize.ShloMosaic.PureOps.Ideal
import Idealize.ShloMosaic.PureOps.Ideal.Laws

noncomputable section
namespace Cert.ReferenceIdeal.RefValue
open Cert.ReferenceIdeal Cert.ReferenceIdeal.Gen Cert.ReferenceIdeal.ReadP Idealize.ShloMosaic Idealize.ShloMosaic.ValueIdx
open scoped BigOperators

/-! ## The words of a point: its validity bit, its flat segment, and the gather's start index -/

/-- The validity bit of a point with id word x and mask bit m: the mask bit and "the id is non-negative". -/
def validBit (x : BitVec 32) (m : BitVec 1) : BitVec 1 := IntOp.andi m (IntOp.cmpi .sge x 0#32)

/-- The flat segment word of a point of batch element b: b · 64 + id where the point is valid, else 1024. -/
def segWord (b : Nat) (x : BitVec 32) (m : BitVec 1) : BitVec 32 :=
  Scalar.select (IntOp.andi m (IntOp.cmpi .sge x 0#32)) (IntOp.addi (IntOp.muli (BitVec.ofNat 32 b) 64#32) x) 1024#32

/-- With every id below 64, a point's segment is b' · 64 + k exactly when the point is of batch element b',
    its mask bit is set and its id is the word k: a valid point's id is in [0, 64), so its segment b · 64 + id
    is below 1024 and determines b and id; an invalid point's segment is 1024, which is no b' · 64 + k. -/
theorem segWord_toInt_iff (b b' : Nat) (hb : b < 16) (hb' : b' < 16) (k : Nat) (hk : k < 64) (x : BitVec 32) (m : BitVec 1)
    (hlt : x.toInt < 64) :
    (segWord b x m).toInt = ((b' * 64 + k : ℕ) : ℤ) ↔ (b = b' ∧ m = 1#1 ∧ x = BitVec.ofNat 32 k) := by
  unfold segWord Scalar.select IntOp.andi IntOp.cmpi IntOp.addi IntOp.muli
  have hx := BitVec.toInt_eq_toNat_cond x
  have hxn := x.isLt
  rcases BitVec.eq_zero_or_eq_one m with rfl | rfl
  · simp
    omega
  · have hsle : (0#32).sle x = decide ((0:ℤ) ≤ x.toInt) := by simp [BitVec.sle]
    have hk32 : x = BitVec.ofNat 32 k ↔ x.toNat = k := by
      constructor
      · intro h; rw [h]; simp; omega
      · intro h; apply BitVec.eq_of_toNat_eq; simp; omega
    by_cases hs : (0:ℤ) ≤ x.toInt
    · have h1 : (1#1 &&& BitVec.ofBool ((0#32).sle x)) = 1#1 := by rw [hsle]; simp [hs]
      have hx64 : x.toNat < 64 := by
        rw [hx] at hs hlt
        split_ifs at hs hlt <;> omega
      have hval : (BitVec.ofNat 32 b * 64#32 + x).toNat = b * 64 + x.toNat := by
        simp only [BitVec.toNat_add, BitVec.toNat_mul, BitVec.toNat_ofNat]; omega
      rw [h1, if_pos (by decide : (1#1 : BitVec 1) = 1), hk32, BitVec.toInt_eq_toNat_cond, hval, if_pos (by omega)]
      constructor
      · intro h; exact ⟨by omega, rfl, by omega⟩
      · rintro ⟨rfl, -, rfl⟩; rfl
    · have h0 : (1#1 &&& BitVec.ofBool ((0#32).sle x)) = 0#1 := by rw [hsle]; simp [hs]
      have hx64 : 2 ^ 31 ≤ x.toNat := by
        rw [hx] at hs
        split_ifs at hs <;> omega
      rw [h0, if_neg (by decide : ¬ (0#1 : BitVec 1) = 1), hk32]
      have : (1024#32 : BitVec 32).toInt = 1024 := by decide
      rw [this]
      omega

/-- A point whose mask bit is set and whose id is a word k < 64 is valid. -/
theorem valid_of_hit (k : Nat) (hk : k < 64) : validBit (BitVec.ofNat 32 k) 1#1 = 1#1 := by
  show 1#1 &&& BitVec.ofBool ((0#32).sle (BitVec.ofNat 32 k)) = 1#1
  have : (0#32).sle (BitVec.ofNat 32 k) = true := by
    simp only [BitVec.sle, decide_eq_true_eq]
    rw [BitVec.toInt_eq_toNat_cond, BitVec.toInt_eq_toNat_cond]
    simp only [BitVec.toNat_ofNat]
    rw [if_pos (by omega), if_pos (by omega)]
    omega
  rw [this]; decide

/-- The gather's start index of a point: its segment word floored at the last kept row 1023, and 1024 added
    if that is negative. -/
def clampWord (s : BitVec 32) : BitVec 32 :=
  Scalar.select (IntOp.cmpi .slt (IntOp.minsi s 1023#32) 0#32) (IntOp.addi (IntOp.minsi s 1023#32) 1024#32) (IntOp.minsi s 1023#32)

/-- On a segment in [0, 1023] it is the segment. -/
theorem clampWord_toInt (s : BitVec 32) (h0 : 0 ≤ s.toInt) (h1 : s.toInt ≤ 1023) : (clampWord s).toInt = s.toInt := by
  have h1023 : (1023#32 : BitVec 32).toInt = 1023 := by decide
  have hm : (IntOp.minsi s 1023#32).toInt = s.toInt := by
    unfold IntOp.minsi
    by_cases h : s.slt 1023#32
    · rw [if_pos h]
    · rw [if_neg h]
      simp only [BitVec.slt, decide_eq_true_eq, h1023] at h
      omega
  show (if BitVec.ofBool ((IntOp.minsi s 1023#32).slt 0#32) = 1 then IntOp.addi (IntOp.minsi s 1023#32) 1024#32 else IntOp.minsi s 1023#32).toInt = s.toInt
  have hs : (IntOp.minsi s 1023#32).slt 0#32 = false := by
    simp only [BitVec.slt, decide_eq_false_iff_not, hm]
    have : (0#32 : BitVec 32).toInt = 0 := by decide
    omega
  rw [hs, if_neg (by decide), hm]

/-! ## Points, rows and the flattening of the point axes -/

/-- The flat number of point n of batch element b. -/
abbrev flat (b : Fin 16) (n : Fin 65536) : Fin 1048576 := ⟨b.val * 65536 + n.val, by have := b.isLt; have := n.isLt; omega⟩
/-- The flat segment of instance k of batch element b, as a row of the 1024 kept segments … -/
abbrev row (b : Fin 16) (k : Fin 64) : Fin 1024 := ⟨b.val * 64 + k.val, by have := b.isLt; have := k.isLt; omega⟩
/-- … and as a row of the 1025 segments the scatters write (the last one collects the invalid points). -/
abbrev rowS (b : Fin 16) (k : Fin 64) : Fin 1025 := ⟨b.val * 64 + k.val, by have := b.isLt; have := k.isLt; omega⟩

/-- The flat points are the pairs (batch element, point). -/
def flatEquiv : Fin 16 × Fin 65536 ≃ Fin 1048576 where
  toFun x := flat x.1 x.2
  invFun p := (⟨p.val / 65536, by have := p.isLt; omega⟩, ⟨p.val % 65536, Nat.mod_lt _ (by decide)⟩)
  left_inv := by
    rintro ⟨b, n⟩
    refine Prod.ext (Fin.ext ?_) (Fin.ext ?_)
    · show (b.val * 65536 + n.val) / 65536 = b.val
      have := n.isLt; omega
    · show (b.val * 65536 + n.val) % 65536 = n.val
      have := n.isLt; omega
  right_inv := by
    intro p
    refine Fin.ext ?_
    show p.val / 65536 * 65536 + p.val % 65536 = p.val
    omega

/-- A sum over the flat points is the double sum over batch elements and their points. -/
theorem sum_flat {M : Type*} [AddCommMonoid M] (g : Fin 1048576 → M) :
    ∑ e, g e = ∑ b : Fin 16, ∑ n : Fin 65536, g (flat b n) := by
  rw [← Equiv.sum_comp flatEquiv g, Fintype.sum_prod_type]
  exact Finset.sum_congr rfl fun b _ => Finset.sum_congr rfl fun n _ => rfl

/-! ## The arrays of the reference read at a flat point -/

variable (a0 : FVec Ideal Cert.Spec.SE .f32) (a1 : IVec Cert.Spec.SI 32) (a2 : IVec Cert.Spec.SI 1)

theorem idx10_flat (b : Fin 16) (n : Fin 65536) : idx_main_v10 (ix1 (flat b n)) = ix2 b n := by
  funext a
  match a with
  | ⟨0, _⟩ => exact Fin.ext (by show (b.val * 65536 + n.val) / 65536 = b.val; have := n.isLt; omega)
  | ⟨1, _⟩ => exact Fin.ext (by show (b.val * 65536 + n.val) % 65536 = n.val; have := n.isLt; omega)

theorem idx11_flat (b : Fin 16) (n : Fin 65536) : idx_main_v11 (ix1 (flat b n)) = ix2 b n := by
  funext a
  match a with
  | ⟨0, _⟩ => exact Fin.ext (by show (b.val * 65536 + n.val) / 65536 = b.val; have := n.isLt; omega)
  | ⟨1, _⟩ => exact Fin.ext (by show (b.val * 65536 + n.val) % 65536 = n.val; have := n.isLt; omega)

theorem idx13_flat (b : Fin 16) (n : Fin 65536) (d : Fin 32) : idx_main_v13 (ix2 (flat b n) d) = ix3 b n d := by
  funext a
  match a with
  | ⟨0, _⟩ => exact Fin.ext (by show ((b.val * 65536 + n.val) * 32 + d.val) / 2097152 = b.val; have := n.isLt; have := d.isLt; omega)
  | ⟨1, _⟩ => exact Fin.ext (by show ((b.val * 65536 + n.val) * 32 + d.val) / 32 % 65536 = n.val; have := n.isLt; have := d.isLt; omega)
  | ⟨2, _⟩ => exact Fin.ext (by show ((b.val * 65536 + n.val) * 32 + d.val) % 32 = d.val; have := n.isLt; have := d.isLt; omega)

/-- The segment word of a flat point. -/
theorem seg_flat (b : Fin 16) (n : Fin 65536) :
    val_main_v10 (F := Ideal) a1 a2 (ix1 (flat b n)) = segWord b.val (a1 (ix2 b n)) (a2 (ix2 b n)) := by
  rw [val_main_v10_apply, idx10_flat, val_main_v9_apply, val_main_v2_apply, val_main_v1_apply, val_main_v0_apply,
    val_main_c_apply, val_main_v8_apply, val_main_v7_apply, val_main_v6_apply, val_main_v4_apply, val_main_v3_apply,
    val_main_v5_apply, val_main_c_0_apply, val_main_call0_v1_apply, val_main_call0_v0_apply, val_main_c_1_apply]
  rfl

/-- The weight of a flat point: its validity bit as a number. -/
theorem w_flat (b : Fin 16) (n : Fin 65536) :
    val_main_v12 (F := Ideal) a1 a2 (ix1 (flat b n))
      = (((validBit (a1 (ix2 b n)) (a2 (ix2 b n))).toNat : ℝ) : EReal) := by
  rw [val_main_v12_apply, val_main_v11_apply, idx11_flat, val_main_v2_apply, val_main_v1_apply, val_main_v0_apply,
    val_main_c_apply]
  rfl

/-- A point that belongs to an instance has weight one. -/
theorem w_hit {b : Fin 16} {n : Fin 65536} {k : Fin 64} (h : Cert.Spec.Hit a1 a2 b n k) :
    val_main_v12 (F := Ideal) a1 a2 (ix1 (flat b n)) = 1 := by
  rw [w_flat, h.1, h.2, valid_of_hit k.val k.isLt]
  simp

/-- The embeddings' flat rows. -/
theorem emb_flat (b : Fin 16) (n : Fin 65536) (d : Fin 32) :
    val_main_v13 (F := Ideal) a0 (ix2 (flat b n) d) = a0 (ix3 b n d) := by
  rw [val_main_v13_apply, idx13_flat]

/-- The weighted embeddings' flat rows. -/
theorem v16_flat (b : Fin 16) (n : Fin 65536) (d : Fin 32) :
    val_main_v16 (F := Ideal) a0 a1 a2 (ix2 (flat b n) d)
      = a0 (ix3 b n d) * val_main_v12 (F := Ideal) a1 a2 (ix1 (flat b n)) := by
  rw [val_main_v16_apply, emb_flat, val_main_v15_apply, val_main_v14_apply]
  have hi : idx_main_v14 (idx_main_v15 (ix2 (flat b n) d)) = ix1 (flat b n) := by
    funext a; match a with | ⟨0, _⟩ => rfl
  rw [hi]
  rfl

/-! ## A scatter's sum over the flat points whose segment is (b', k) is the sum over the points of b' that belong to k -/

/-- For a column of segment words that at every flat point is that point's segment word, the updates whose
    segment is row (b', k) are those of the points of b' that belong to k. -/
theorem segFilter_sum (hlt : ∀ b n, (a1 (ix2 b n)).toInt < 64) (idx : IVec ⟨2, ![1048576, 1]⟩ 32)
    (hidx : ∀ b n, idx (ix2 (flat b n) (0 : Fin 1)) = segWord b.val (a1 (ix2 b n)) (a2 (ix2 b n)))
    (upd : Fin 1048576 → EReal) (b' : Fin 16) (k : Fin 64) (j : ℕ) (hj : j = b'.val * 64 + k.val) :
    ∑ e ∈ Finset.univ.filter (fun e : Fin 1048576 => (idx (ix2 e (0 : Fin 1))).toInt = (j : ℤ)), upd e
      = Cert.Spec.segSum a1 a2 (fun b n => upd (flat b n)) b' k := by
  subst hj
  rw [Finset.sum_filter, sum_flat]
  unfold Cert.Spec.segSum
  rw [Finset.sum_eq_single b']
  · refine Finset.sum_congr rfl fun n _ => ?_
    refine if_congr ?_ rfl rfl
    rw [hidx, segWord_toInt_iff b'.val b'.val b'.isLt b'.isLt k.val k.isLt _ _ (hlt b' n)]
    unfold Cert.Spec.Hit
    exact ⟨fun h => h.2, fun h => ⟨rfl, h⟩⟩
  · intro b _ hb
    refine Finset.sum_eq_zero fun n _ => ?_
    rw [if_neg]
    rw [hidx, segWord_toInt_iff b.val b'.val b.isLt b'.isLt k.val k.isLt _ _ (hlt b n)]
    exact fun h => hb (Fin.ext h.1)
  · intro h; exact absurd (Finset.mem_univ _) h

/-! ## The per-instance sums and counts -/

theorem idx18_col (e : Fin 1048576) : idx_main_v18 (ix2 e (0 : Fin 1)) = ix1 e := by
  funext a; match a with | ⟨0, _⟩ => rfl
theorem idx22_col (e : Fin 1048576) : idx_main_v22 (ix2 e (0 : Fin 1)) = ix1 e := by
  funext a; match a with | ⟨0, _⟩ => rfl
theorem idx64_col (e : Fin 1048576) : idx_main_v64 (ix2 e (0 : Fin 1)) = ix1 e := by
  funext a; match a with | ⟨0, _⟩ => rfl
theorem idx46_col (e : Fin 1048576) : idx_main_v46 (ix2 e (0 : Fin 1)) = ix1 e := by
  funext a; match a with | ⟨0, _⟩ => rfl

/-- The reference's per-instance sums of the embeddings. -/
theorem sums_eq (hlt : ∀ b n, (a1 (ix2 b n)).toInt < 64) (b : Fin 16) (k : Fin 64) (d : Fin 32) :
    val_main_v20 (F := Ideal) a0 a1 a2 (ix2 (row b k) d) = Cert.Spec.sums a0 a1 a2 b k d := by
  rw [val_main_v20_apply]
  have hi : idx_main_v20 (ix2 (row b k) d) = ix2 (rowS b k) d := by
    funext a; match a with | ⟨0, _⟩ => rfl | ⟨1, _⟩ => rfl
  rw [hi]
  unfold val_main_v19
  generalize hx : val_main_v17 (F := Ideal) = x
  generalize hidx : val_main_v18 (F := Ideal) a1 a2 = idx
  generalize hu : val_main_v16 (F := Ideal) a0 a1 a2 = upd
  refine (ScatterSum.rowHostScatterAdd_apply (N := 1025) (C := 32) (n := 1048576) _ x idx upd (rowS b k) d).trans ?_
  subst hx hidx hu
  rw [val_main_v17_apply, val_main_cst_apply]
  rw [show FloatOps.ofBits (F := Ideal) .f32 0x00000000#32 = 0 from Ideal.ofBits_zero_f32, zero_add]
  refine (segFilter_sum a1 a2 hlt (val_main_v18 (F := Ideal) a1 a2)
    (fun b n => by rw [val_main_v18_apply, idx18_col, seg_flat])
    (fun e => val_main_v16 (F := Ideal) a0 a1 a2 (ix2 e d)) b k _ rfl).trans ?_
  unfold Cert.Spec.sums Cert.Spec.segSum
  refine Finset.sum_congr rfl fun n _ => ?_
  beta_reduce
  by_cases h : Cert.Spec.Hit a1 a2 b n k
  · rw [if_pos h, if_pos h, v16_flat, w_hit a1 a2 h, mul_one]
  · rw [if_neg h, if_neg h]

/-- The reference's per-instance counts. -/
theorem counts_eq (hlt : ∀ b n, (a1 (ix2 b n)).toInt < 64) (b : Fin 16) (k : Fin 64) :
    val_main_v24 (F := Ideal) a1 a2 (ix1 (row b k)) = Cert.Spec.counts a1 a2 b k := by
  rw [val_main_v24_apply]
  have hi : idx_main_v24 (ix1 (row b k)) = ix1 (rowS b k) := by
    funext a; match a with | ⟨0, _⟩ => rfl
  rw [hi]
  unfold val_main_v23
  generalize hx : val_main_v21 (F := Ideal) = x
  generalize hidx : val_main_v22 (F := Ideal) a1 a2 = idx
  generalize hu : val_main_v12 (F := Ideal) a1 a2 = upd
  refine (ScatterSum.vecHostScatterAdd_apply (N := 1025) (n := 1048576) _ x idx upd (rowS b k)).trans ?_
  subst hx hidx hu
  rw [val_main_v21_apply, val_main_cst_2_apply]
  rw [show FloatOps.ofBits (F := Ideal) .f32 0x00000000#32 = 0 from Ideal.ofBits_zero_f32, zero_add]
  refine (segFilter_sum a1 a2 hlt (val_main_v22 (F := Ideal) a1 a2)
    (fun b n => by rw [val_main_v22_apply, idx22_col, seg_flat])
    (fun e => val_main_v12 (F := Ideal) a1 a2 (ix1 e)) b k _ rfl).trans ?_
  unfold Cert.Spec.counts Cert.Spec.segSum
  refine Finset.sum_congr rfl fun n _ => ?_
  beta_reduce
  by_cases h : Cert.Spec.Hit a1 a2 b n k
  · rw [if_pos h, if_pos h, w_hit a1 a2 h]
  · rw [if_neg h, if_neg h]

/-! ## The pull penalty of a flat point -/

/-- A condition bit read as an unsigned number is one when set, zero when clear. -/
theorem uitofp_bit01 (c : BitVec 1) : ((c.toNat : ℝ) : EReal) = Cert.Spec.bit01 c := by
  unfold Cert.Spec.bit01
  rcases BitVec.eq_zero_or_eq_one c with rfl | rfl
  · simp
  · simp

/-- The weighted penalty of a flat point is the penalty of its squared distance, times its weight. -/
theorem v62_eq (e : Fin 1048576) :
    val_main_v62 (F := Ideal) a0 a1 a2 (ix1 e)
      = Cert.Spec.penOfSq (val_main_v50 (F := Ideal) a0 a1 a2 (ix1 e)) * val_main_v12 (F := Ideal) a1 a2 (ix1 e) := by
  rw [val_main_v62_apply, val_main_v61_apply, val_main_v60_apply, val_main_v59_apply, val_main_cst_14_apply,
    val_main_v58_apply, val_main_v57_apply, val_main_cst_13_apply, val_main_v56_apply, val_main_v55_apply,
    val_main_v54_apply, val_main_v53_apply, val_main_v52_apply, val_main_v51_apply, val_main_cst_11_apply,
    val_main_call1_v1_apply, val_main_call1_v0_apply, val_main_cst_12_apply]
  generalize val_main_v50 (F := Ideal) a0 a1 a2 (ix1 e) = sq
  generalize val_main_v12 (F := Ideal) a1 a2 (ix1 e) = w
  unfold Cert.Spec.penOfSq
  rw [← uitofp_bit01]
  rfl

theorem idx50_row (e : Fin 1048576) (d : Fin 32) : idx_main_v50 (ix1 e) d = ix2 e d := by
  funext a; match a with | ⟨0, _⟩ => rfl | ⟨1, _⟩ => rfl

/-- The mean row gathered for a point that belongs to instance k of batch element b is row b · 64 + k of the
    means table: the point's segment is that row, which is in [0, 1023], so neither the floor at the last row nor
    the wrap of a negative index changes it. -/
theorem v47_hit (hlt : ∀ b n, (a1 (ix2 b n)).toInt < 64) {b : Fin 16} {n : Fin 65536} {k : Fin 64}
    (h : Cert.Spec.Hit a1 a2 b n k) (d : Fin 32) :
    val_main_v47 (F := Ideal) a0 a1 a2 (ix2 (flat b n) d) = val_main_v29 (F := Ideal) a0 a1 a2 (ix2 (row b k) d) := by
  unfold val_main_v47
  generalize hx : val_main_v29 (F := Ideal) a0 a1 a2 = x
  generalize hidx : val_main_v46 (F := Ideal) a1 a2 = idx
  refine (RowGather.rowGather_apply (N := 1024) (C := 32) (n := 1048576) (by decide) _ x idx (flat b n) d).trans ?_
  subst hidx
  refine congrArg (fun r : Fin 1024 => x (ix2 r d)) (Fin.ext ?_)
  show min ((val_main_v46 (F := Ideal) a1 a2 (ix2 (flat b n) (0 : Fin 1))).toInt.toNat) (1024 - 1) = b.val * 64 + k.val
  rw [val_main_v46_apply, idx46_col, val_main_v45_apply, val_main_v42_apply, val_main_v44_apply, val_main_v40_apply,
    val_main_v39_apply, val_main_c_7_apply, val_main_v41_apply, val_main_c_8_apply, val_main_v43_apply,
    val_main_c_9_apply, seg_flat]
  have hs : (segWord b.val (a1 (ix2 b n)) (a2 (ix2 b n))).toInt = ((b.val * 64 + k.val : ℕ) : ℤ) :=
    (segWord_toInt_iff b.val b.val b.isLt b.isLt k.val k.isLt _ _ (hlt b n)).mpr ⟨rfl, h.1, h.2⟩
  have hc := clampWord_toInt (segWord b.val (a1 (ix2 b n)) (a2 (ix2 b n))) (by rw [hs]; omega)
    (by rw [hs]; have := b.isLt; have := k.isLt; omega)
  show min (clampWord (segWord b.val (a1 (ix2 b n)) (a2 (ix2 b n)))).toInt.toNat (1024 - 1) = b.val * 64 + k.val
  rw [hc, hs]
  have := b.isLt; have := k.isLt; omega

/-- The squared distance of a point that belongs to (b, k) to row b · 64 + k of the means table. -/
theorem v50_hit (hlt : ∀ b n, (a1 (ix2 b n)).toInt < 64) {b : Fin 16} {n : Fin 65536} {k : Fin 64}
    (h : Cert.Spec.Hit a1 a2 b n k) :
    val_main_v50 (F := Ideal) a0 a1 a2 (ix1 (flat b n))
      = Cert.Spec.sqDist (fun d => a0 (ix3 b n d)) (fun d => val_main_v29 (F := Ideal) a0 a1 a2 (ix2 (row b k) d)) := by
  rw [val_main_v50_apply, val_main_cst_10_apply]
  rw [show FloatOps.ofBits (F := Ideal) .f32 0x00000000#32 = 0 from Ideal.ofBits_zero_f32, zero_add]
  unfold Cert.Spec.sqDist
  refine Finset.sum_congr rfl fun d _ => ?_
  rw [idx50_row, val_main_v49_apply, val_main_v48_apply, emb_flat, v47_hit a0 a1 a2 hlt h]
  rfl

/-- The reference's per-instance sums of the pull penalties, the instance fixed: each point's penalty is taken
    against row b · 64 + k of the means table. -/
theorem pen_eq_row (hlt : ∀ b n, (a1 (ix2 b n)).toInt < 64) (b : Fin 16) (k : Fin 64) :
    val_main_v66 (F := Ideal) a0 a1 a2 (ix1 (row b k))
      = Cert.Spec.segSum a1 a2 (fun b' n => Cert.Spec.penPt (fun d => a0 (ix3 b' n d))
          (fun d => val_main_v29 (F := Ideal) a0 a1 a2 (ix2 (row b' k) d))) b k := by
  rw [val_main_v66_apply]
  have hi : idx_main_v66 (ix1 (row b k)) = ix1 (rowS b k) := by
    funext a; match a with | ⟨0, _⟩ => rfl
  rw [hi]
  unfold val_main_v65
  generalize hx : val_main_v63 (F := Ideal) = x
  generalize hidx : val_main_v64 (F := Ideal) a1 a2 = idx
  generalize hu : val_main_v62 (F := Ideal) a0 a1 a2 = upd
  refine (ScatterSum.vecHostScatterAdd_apply (N := 1025) (n := 1048576) _ x idx upd (rowS b k)).trans ?_
  subst hx hidx hu
  rw [val_main_v63_apply, val_main_cst_15_apply]
  rw [show FloatOps.ofBits (F := Ideal) .f32 0x00000000#32 = 0 from Ideal.ofBits_zero_f32, zero_add]
  refine (segFilter_sum a1 a2 hlt (val_main_v64 (F := Ideal) a1 a2)
    (fun b n => by rw [val_main_v64_apply, idx64_col, seg_flat])
    (fun e => val_main_v62 (F := Ideal) a0 a1 a2 (ix1 e)) b k _ rfl).trans ?_
  unfold Cert.Spec.segSum
  refine Finset.sum_congr rfl fun n _ => ?_
  beta_reduce
  by_cases h : Cert.Spec.Hit a1 a2 b n k
  · rw [if_pos h, if_pos h, v62_eq, w_hit a1 a2 h, mul_one, v50_hit a0 a1 a2 hlt h]
    rfl
  · rw [if_neg h, if_neg h]

/-- A point belongs to at most one instance. -/
theorem hit_unique {b : Fin 16} {n : Fin 65536} {k k' : Fin 64} (h : Cert.Spec.Hit a1 a2 b n k)
    (h' : Cert.Spec.Hit a1 a2 b n k') : k' = k := by
  have e : BitVec.ofNat 32 k'.val = BitVec.ofNat 32 k.val := h'.2.symm.trans h.2
  have e' := congrArg BitVec.toNat e
  simp only [BitVec.toNat_ofNat] at e'
  have := k.isLt; have := k'.isLt
  exact Fin.ext (by omega)

/-- The reference's per-instance sums of the pull penalties: the per-point quantity is the penalty of the
    point's embedding row against the mean row of the instance the point belongs to. -/
theorem pen_eq (hlt : ∀ b n, (a1 (ix2 b n)).toInt < 64) (b : Fin 16) (k : Fin 64) :
    val_main_v66 (F := Ideal) a0 a1 a2 (ix1 (row b k))
      = Cert.Spec.segSum a1 a2 (fun b' n => ∑ k' : Fin 64, if Cert.Spec.Hit a1 a2 b' n k' then
          Cert.Spec.penPt (fun d => a0 (ix3 b' n d)) (fun d => val_main_v29 (F := Ideal) a0 a1 a2 (ix2 (row b' k') d))
          else 0) b k := by
  rw [pen_eq_row a0 a1 a2 hlt]
  unfold Cert.Spec.segSum
  refine Finset.sum_congr rfl fun n _ => ?_
  beta_reduce
  by_cases h : Cert.Spec.Hit a1 a2 b n k
  · rw [if_pos h, if_pos h, Finset.sum_eq_single k]
    · rw [if_pos h]
    · intro k' _ hk'
      rw [if_neg]
      intro h'
      exact hk' (hit_unique a1 a2 h h')
    · intro hh; exact absurd (Finset.mem_univ _) hh
  · rw [if_neg h, if_neg h]

end Cert.ReferenceIdeal.RefValue
end
-- ==== Proof.RBridge.lean ====
/-
  The reference's three seams in the specification's terms.

  Under the precondition's range fact — every instance id is below 64 — the three reduced arrays are the
  specification's segment sums at each flat row: the sums of the embeddings' coordinates, the counts, and the sums of
  the points' penalties against the means table. Read through that, each seam at instance `k` of batch element `b`
  is a closed expression of the specification: the mean is the sum over the count floored at one, the presence bit
  says the count is positive, and the normalised penalty is the penalty sum — each point's penalty taken against its
  instance's mean — over the same floored count.
-/
import proofs.«400001_j6614249636120_4_alg».proof.Proof.RefTail
import proofs.«400001_j6614249636120_4_alg».proof.Proof.RefValue

noncomputable section

namespace Cert.ReferenceIdeal.RefTail

open Cert.ReferenceIdeal Cert.ReferenceIdeal.Gen Cert.ReferenceIdeal.ReadP Cert.ReferenceIdeal.RefValue Idealize.ShloMosaic Idealize.ShloMosaic.ValueIdx

variable (a0 : FVec Ideal Cert.Spec.SE .f32) (a1 : IVec Cert.Spec.SI 32) (a2 : IVec Cert.Spec.SI 1)

/-- The means of instance `(b, k)`, coordinate `d`: the sum of the coordinate over the points that belong to the
    instance, over their number floored at one. -/
theorem v77_spec (hlt : ∀ b n, (a1 (ix2 b n)).toInt < 64) (b : Fin 16) (k : Fin 64) (d : Fin 32) :
    val_main_v77 (F := Ideal) a0 a1 a2 (ix3 b k d)
      = Cert.Spec.perCount (Cert.Spec.sums a0 a1 a2 b k d) (Cert.Spec.counts a1 a2 b k) :=
  (v77_apply a0 a1 a2 b k d).trans
    (congrArg₂ Cert.Spec.perCount (sums_eq a0 a1 a2 hlt b k d) (counts_eq a1 a2 hlt b k))

/-- The presence bit of instance `(b, k)`: some point belongs to it — its count is positive. -/
theorem v32_spec (hlt : ∀ b n, (a1 (ix2 b n)).toInt < 64) (b : Fin 16) (k : Fin 64) :
    val_main_v32 (F := Ideal) a1 a2 (ix2 b k)
      = Ideal.cmp .ogt (Cert.Spec.counts a1 a2 b k) (Ideal.ofBits .f32 0x00000000#32) :=
  (v32_apply a1 a2 b k).trans
    (congrArg (fun c => Ideal.cmp .ogt c (Ideal.ofBits .f32 0x00000000#32)) (counts_eq a1 a2 hlt b k))

/-- A row of the means table, in the specification's terms. -/
theorem v29_spec (hlt : ∀ b n, (a1 (ix2 b n)).toInt < 64) (b : Fin 16) (k : Fin 64) (d : Fin 32) :
    val_main_v29 (F := Ideal) a0 a1 a2 (ix2 (row b k) d)
      = Cert.Spec.perCount (Cert.Spec.sums a0 a1 a2 b k d) (Cert.Spec.counts a1 a2 b k) :=
  (v29_apply a0 a1 a2 b k d).trans
    (congrArg₂ Cert.Spec.perCount (sums_eq a0 a1 a2 hlt b k d) (counts_eq a1 a2 hlt b k))

/-- The normalised penalty of instance `(b, k)`: the sum, over the points that belong to it, of the point's penalty
    against the instance's mean, over their number floored at one. -/
theorem v70_spec (hlt : ∀ b n, (a1 (ix2 b n)).toInt < 64) (b : Fin 16) (k : Fin 64) :
    val_main_v70 (F := Ideal) a0 a1 a2 (ix2 b k)
      = Cert.Spec.perCount
          (Cert.Spec.segSum a1 a2 (fun b' n => Cert.Spec.penPt (fun d => a0 (ix3 b' n d))
            (fun d => Cert.Spec.perCount (Cert.Spec.sums a0 a1 a2 b' k d) (Cert.Spec.counts a1 a2 b' k))) b k)
          (Cert.Spec.counts a1 a2 b k) := by
  have hpen : val_main_v66 (F := Ideal) a0 a1 a2 (ix1 (row b k))
      = Cert.Spec.segSum a1 a2 (fun b' n => Cert.Spec.penPt (fun d => a0 (ix3 b' n d))
          (fun d => Cert.Spec.perCount (Cert.Spec.sums a0 a1 a2 b' k d) (Cert.Spec.counts a1 a2 b' k))) b k :=
    (pen_eq_row a0 a1 a2 hlt b k).trans
      (congrArg (fun pt => Cert.Spec.segSum a1 a2 pt b k)
        (funext fun b' => funext fun n =>
          congrArg (fun g => Cert.Spec.penPt (fun d => a0 (ix3 b' n d)) g)
            (funext fun d => v29_spec a0 a1 a2 hlt b' k d)))
  exact (v70_apply a0 a1 a2 b k).trans (congrArg₂ Cert.Spec.perCount hpen (counts_eq a1 a2 hlt b k))

end Cert.ReferenceIdeal.RefTail

end
-- ==== Proof.PreDecode.lean ====
/-
  The precondition, read back at one instance id.

  The printed precondition is the conjunction of two "for all" statements, each a reduction by `and` of an
  array of bits down to one bit: every embedding has absolute value below +∞, and every instance id, read
  as a signed word, is below 64. Stated as "the result bit is 1", the conjunction gives both reductions
  equal to 1; a reduction by `and` over all axes that is 1 met a 1 at every index; and the bit at index
  `(b, n)` of the second array is the signed comparison of the id there with the constant word 64, whose
  signed value is 64. So every id is, as a signed integer, below 64. Nothing here depends on the float
  family: the embeddings enter only the conjunct that is dropped.
-/
import proofs.«400001_j6614249636120_4_alg».proof.Pre_finite_inputs
import Idealize.ShloMosaic.Lib.ReduceAll
import Idealize.ShloMosaic.Lib.ValueIdx

namespace Cert.PreDecode

open Idealize.ShloMosaic Idealize.ShloMosaic.ValueIdx
open Cert.Pre_finite_inputs

variable [Cert.Pre_finite_inputs.Facts]

/-- The result shape has rank 0, so it has exactly one index. -/
instance subsingleton_idx : Subsingleton S_.Idx := ⟨fun _ _ => funext fun d => d.elim0⟩

/-- Under the precondition every instance id, read signed, is below 64. -/
theorem ids_lt {F : FTy → Type} [FloatOps F] (a0 : FVec F S16x65536x32 .f32) (a1 : IVec S16x65536 32)
    (a2 : IVec S16x65536 1) (h : Cert.Pre_finite_inputs.fn (F := F) a0 a1 a2 = fun _ => 1#1)
    (b : Fin 16) (n : Fin 65536) : (a1 (ix2 b n)).toInt < 64 := by
  -- the one result bit is 1
  have h0 := congrFun h ix0
  dsimp only [Cert.Pre_finite_inputs.fn] at h0
  -- it is the `and` of the two reductions: keep the second
  obtain ⟨-, h2⟩ := IntOp.andi_eq_one.1 h0
  -- a reduction by `and` over every axis that is 1 has a 1 at every index
  have h3 := Host.reduce_andi_all _ _ _ _ _ h2 (ix2 b n)
  -- the bit at (b, n) is the signed comparison of the id with the broadcast constant 64
  have h4 : (a1 (ix2 b n)).toInt < (64#32 : BitVec 32).toInt := IntOp.cmpi_slt.1 h3
  exact h4

end Cert.PreDecode
-- ==== Proof.Bridge.lean ====
/-
  The idealized kernel and the idealized reference end with equal results.

  Both programs are a host tail applied to three "seams": the per-instance means `sums / max(counts, 1)`, the bits
  "the instance is present" (`counts > 0`), and the per-instance pull penalties divided by `max(counts, 1)`. The two
  tails are the same operations in the same order, so they are one function. The seams agree entry by entry: under
  the precondition (every instance id below 64) the kernel's three accumulated arrays and the reference's three
  scatter-additions are the specification's segment sums — a point of batch element `b` lands in flat segment
  `b * 64 + k` exactly when it belongs to instance `k` — and the penalties' means are the same quotients.
-/
import proofs.«400001_j6614249636120_4_alg».proof.Defs
import proofs.«400001_j6614249636120_4_alg».proof.Proof.KRun
import proofs.«400001_j6614249636120_4_alg».proof.Proof.KTail
import proofs.«400001_j6614249636120_4_alg».proof.Proof.KBridge
import proofs.«400001_j6614249636120_4_alg».proof.Proof.RefTail
import proofs.«400001_j6614249636120_4_alg».proof.Proof.RBridge
import proofs.«400001_j6614249636120_4_alg».proof.Proof.PreDecode
import proofs.«400001_j6614249636120_4_alg».proof.Proof.Gen.Pre_finite_inputs

noncomputable section

namespace Cert.Bridge

open Idealize.ShloMosaic Idealize.ShloMosaic.TcCoe Idealize.ShloMosaic.ValueIdx Idealize.SL.Sem

/-- The two host tails are one function of the three seams: the same operations in the same order. -/
theorem tails_eq {F : FTy → Type} [FloatOps F] (means3 : FVec F Cert.KernelIdeal.S16x64x32 .f32)
    (present : IVec Cert.KernelIdeal.S16x64 1) (pn : FVec F Cert.KernelIdeal.S16x64 .f32) :
    Cert.ReferenceIdeal.RefTail.tail3R (F := F) means3 present pn = Cert.KernelIdeal.KTail.tail3 (F := F) means3 present pn := rfl

section
open Cert.KernelIdeal Cert.KernelIdeal.Gen Cert.KernelIdeal.Hand

variable (m : (ℓ : Loc Cert.KernelIdeal.nD Cert.KernelIdeal.τ Cert.KernelIdeal.sig) → Buf (Elt Ideal) ℓ) (c : Dev Cert.KernelIdeal.nD)

/-- The reference's result on the kernel's argument arrays is the kernel's result buffer after its run. -/
theorem result_eq
    (hpre : Cert.Pre_finite_inputs.fn (F := Ideal) (m ((c.tc : Thread nD τ).loc main_arg0)) (m ((c.tc : Thread nD τ).loc main_arg1)) (m ((c.tc : Thread nD τ).loc main_arg2)) = fun _ => 1#1) :
    Cert.ReferenceIdeal.ReadP.val_main_v157 (F := Ideal) (m ((c.tc : Thread nD τ).loc main_arg0)) (m ((c.tc : Thread nD τ).loc main_arg1)) (m ((c.tc : Thread nD τ).loc main_arg2))
      = V11 m (outsK m) c main_v104 := by
  have hlt : ∀ (b : Fin 16) (n : Fin 65536), ((m ((c.tc : Thread nD τ).loc main_arg1) : Cert.Spec.SI.Idx → BitVec 32) (ix2 b n)).toInt < 64 :=
    fun b n => Cert.PreDecode.ids_lt (F := Ideal) _ _ _ hpre b n
  rw [Cert.ReferenceIdeal.RefTail.result_eq, tails_eq]
  refine Eq.trans ?_ (Cert.KernelIdeal.KTail.result_eq m (outsK m) c).symm
  have h1 : Cert.ReferenceIdeal.ReadP.val_main_v77 (F := Ideal) (m ((c.tc : Thread nD τ).loc main_arg0)) (m ((c.tc : Thread nD τ).loc main_arg1)) (m ((c.tc : Thread nD τ).loc main_arg2))
      = Cert.KernelIdeal.KTail.seamMeans (F := Ideal) (outsK m 2 main_v1_0 c) (outsK m 2 main_v1_1 c) := by
    funext j
    obtain ⟨b, k, d, rfl⟩ : ∃ (b : Fin 16) (k : Fin 64) (d : Fin 32), j = ix3 b k d := ⟨j 0, j 1, j 2, eq_ix3 j⟩
    rw [Cert.ReferenceIdeal.RefTail.v77_spec _ _ _ hlt, Cert.KernelIdeal.KTail.seamMeans_apply,
      Cert.KernelIdeal.KValue.sumsK, Cert.KernelIdeal.KValue.countsK]
  have h2 : Cert.ReferenceIdeal.ReadP.val_main_v32 (F := Ideal) (m ((c.tc : Thread nD τ).loc main_arg1)) (m ((c.tc : Thread nD τ).loc main_arg2))
      = Cert.KernelIdeal.KTail.seamPresent (F := Ideal) (outsK m 2 main_v1_1 c) := by
    funext j
    obtain ⟨b, k, rfl⟩ : ∃ (b : Fin 16) (k : Fin 64), j = ix2 b k := ⟨j 0, j 1, eq_ix2 j⟩
    rw [Cert.ReferenceIdeal.RefTail.v32_spec _ _ hlt, Cert.KernelIdeal.KTail.seamPresent_apply, Cert.KernelIdeal.KValue.countsK]
  have h3 : Cert.ReferenceIdeal.ReadP.val_main_v70 (F := Ideal) (m ((c.tc : Thread nD τ).loc main_arg0)) (m ((c.tc : Thread nD τ).loc main_arg1)) (m ((c.tc : Thread nD τ).loc main_arg2))
      = Cert.KernelIdeal.KTail.seamPn (F := Ideal) (outsK m 4 main_v15 c) (outsK m 2 main_v1_1 c) := by
    funext j
    obtain ⟨b, k, rfl⟩ : ∃ (b : Fin 16) (k : Fin 64), j = ix2 b k := ⟨j 0, j 1, eq_ix2 j⟩
    rw [Cert.ReferenceIdeal.RefTail.v70_spec _ _ _ hlt, Cert.KernelIdeal.KTail.seamPn_apply,
      Cert.KernelIdeal.KValue.penK, Cert.KernelIdeal.KValue.countsK]
  rw [h1, h2, h3]

end

/-- At the ideal instance the kernel's run ends with its result buffer at the host tail of what the regions left,
    and the reference's run, from a memory agreeing on the arguments, with the same array. -/
theorem algebraic : Cert.algebraic_KernelIdeal_ReferenceIdeal := by
  intro m ρ m' ρ' hpre hagree
  refine ⟨fun c => Cert.KernelIdeal.Gen.V11 m (Cert.KernelIdeal.Hand.outsK m) c Cert.KernelIdeal.main_v104,
    Cert.KernelIdeal.Hand.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v157_eq, (hagree c).1, (hagree c).2.1, (hagree c).2.2]
  exact result_eq m c (hpre c)

end Cert.Bridge

end
-- ==== Proof.lean ====
/-
  The certificate's claim: the three programs' frames, the idealization's one ledger entry, and the equivalence of the
  idealized kernel and the idealized reference over the extended reals.

  The kernel reduces the embeddings per instance in two pipelined regions (sums and counts; then the pull penalties
  against the instance means) by one-hot products accumulated over tiles of points, and finishes on the host; the
  reference does the same reductions as scatter-additions over flat segment ids. Under the precondition (finite
  embeddings, instance ids below 64) a point lands in segment `b * 64 + k` exactly when the kernel's one-hot row of
  batch element `b` has its bit at `k`, so the three reduced arrays agree, and the two host tails are one function
  of them. The frames of the two kernel programs come from the several-region run (at the word-level instance and at
  the ideal one); the reference's from its run.
-/
import proofs.«400001_j6614249636120_4_alg».proof.Defs
import proofs.«400001_j6614249636120_4_alg».proof.Proof.Gen.Kernel
import proofs.«400001_j6614249636120_4_alg».proof.Proof.Gen.KernelIdeal
import proofs.«400001_j6614249636120_4_alg».proof.Proof.Gen.ReferenceIdeal
import proofs.«400001_j6614249636120_4_alg».proof.Proof.Gen.Pre_finite_inputs
import proofs.«400001_j6614249636120_4_alg».proof.Proof.KernelRun
import proofs.«400001_j6614249636120_4_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.ValueP.run (F := Ideal) m ρ),
  IdealRules.truncf_extf.statement _ .f32 .bf16,
  Cert.Bridge.algebraic⟩

end Cert.Proof

end
